-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v158)) (v1 : (c : Dev Cert.KernelIdeal.nD) → Buf (Elt Ideal) ((c.tc : Thread Cert.KernelIdeal.nD Cert.KernelIdeal.τ).loc Cert.KernelIdeal.main_v163)) (v2 : (c : Dev Cert.KernelIdeal.nD) → Buf (Elt Ideal) ((c.tc : Thread Cert.KernelIdeal.nD Cert.KernelIdeal.τ).loc Cert.KernelIdeal.main_v173)) (v3 : (c : Dev Cert.KernelIdeal.nD) → Buf (Elt Ideal) ((c.tc : Thread Cert.KernelIdeal.nD Cert.KernelIdeal.τ).loc Cert.KernelIdeal.main_v180)) (v4 : (c : Dev Cert.KernelIdeal.nD) → Buf (Elt Ideal) ((c.tc : Thread Cert.KernelIdeal.nD Cert.KernelIdeal.τ).loc Cert.KernelIdeal.main_v166_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_v163) = v1 c
          ∧ r.2.mem ((c.tc : Thread Cert.KernelIdeal.nD Cert.KernelIdeal.τ).loc Cert.KernelIdeal.main_v173) = v2 c
          ∧ r.2.mem ((c.tc : Thread Cert.KernelIdeal.nD Cert.KernelIdeal.τ).loc Cert.KernelIdeal.main_v180) = v3 c
          ∧ r.2.mem ((c.tc : Thread Cert.KernelIdeal.nD Cert.KernelIdeal.τ).loc Cert.KernelIdeal.main_v166_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_v296) = v2 c
          ∧ r.2.mem ((c.tc : Thread Cert.ReferenceIdeal.nD Cert.ReferenceIdeal.τ).loc Cert.ReferenceIdeal.main_v305) = v3 c
          ∧ r.2.mem ((c.tc : Thread Cert.ReferenceIdeal.nD Cert.ReferenceIdeal.τ).loc Cert.ReferenceIdeal.main_v315) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part7 {F : FTy → Type} [FloatOps F] (main_v118 : IVec S_ 1) (main_v119 : FVec F S40 .f32) : IVec S_ 1 :=
  let main_cst_46 : FVec F S_ .f32 := constant S_ .f32 0x7F800000#32
  let main_v120 : FVec F S40 .f32 := broadcastInDim S40 ![] bcast_S_S40 main_cst_46
  let main_v121 : IVec S40 1 := cmpf .olt main_v119 main_v120
  let main_c_47 : IVec S_ 1 := constantI S_ 1 1#1
  let main_v122 : IVec S_ 1 := (fun x v => Host.reduce IntOp.andi x v reducesTo_S40_S_d0 h_S_) main_v121 main_c_47
  let main_v123 : IVec S_ 1 := andi main_v118 main_v122
  main_v123

def fn_part6 {F : FTy → Type} [FloatOps F] (main_arg23 : FVec F S128x64 .f32) (main_arg24 : FVec F S64 .f32) (main_arg25 : FVec F S64x40 .f32) (main_arg26 : FVec F S40 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x64 .f32 := Host.absf main_arg23
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg24
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x40 .f32 := Host.absf main_arg25
  let main_cst_44 : FVec F S_ .f32 := constant S_ .f32 0x7F800000#32
  let main_v115 : FVec F S64x40 .f32 := broadcastInDim S64x40 ![] bcast_S_S64x40 main_cst_44
  let main_v116 : IVec S64x40 1 := cmpf .olt main_v114 main_v115
  let main_c_45 : IVec S_ 1 := constantI S_ 1 1#1
  let main_v117 : IVec S_ 1 := (fun x v => Host.reduce IntOp.andi x v reducesTo_S64x40_S_d0_1 h_S_) main_v116 main_c_45
  let main_v118 : IVec S_ 1 := andi main_v113 main_v117
  let main_v119 : FVec F S40 .f32 := Host.absf main_arg26
  fn_part7 (F := F) main_v118 main_v119

def fn_part5 {F : FTy → Type} [FloatOps F] (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg21
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_arg26 main_v98 main_v101 main_c_39

def fn_part4 {F : FTy → Type} [FloatOps F] (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg20 main_arg21 main_arg22 main_arg23 main_arg24 main_arg25 main_arg26 main_v83 main_v84 main_cst_32

def fn_part3 {F : FTy → Type} [FloatOps F] (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_arg26 main_v63 main_v67

def fn_part2 {F : FTy → Type} [FloatOps F] (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg11
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg6 : FVec F S128 .f32) (main_arg7 : FVec F S128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x256 .f32) (main_arg1 : IVec S2x1000000 32) (main_arg2 : IVec S2x1000000 32) (main_arg3 : FVec F S256x128 .f32) (main_arg4 : FVec F S128 .f32) (main_arg5 : FVec F S128x128 .f32) (main_arg6 : FVec F S128 .f32) (main_arg7 : FVec F S128 .f32) (main_arg8 : FVec F S128 .f32) (main_arg9 : FVec F S128 .f32) (main_arg10 : FVec F S128 .f32) (main_arg11 : FVec F S256x128 .f32) (main_arg12 : FVec F S128 .f32) (main_arg13 : FVec F S128x128 .f32) (main_arg14 : FVec F S128 .f32) (main_arg15 : FVec F S128 .f32) (main_arg16 : FVec F S128 .f32) (main_arg17 : FVec F S128 .f32) (main_arg18 : FVec F S128 .f32) (main_arg19 : FVec F S128x128 .f32) (main_arg20 : FVec F S128 .f32) (main_arg21 : FVec F S128x128 .f32) (main_arg22 : FVec F S128 .f32) (main_arg23 : FVec F S128x64 .f32) (main_arg24 : FVec F S64 .f32) (main_arg25 : FVec F S64x40 .f32) (main_arg26 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x128 : Shape := ⟨2, ![100000, 128]⟩
abbrev S5000x256 : Shape := ⟨2, ![5000, 256]⟩
abbrev S5000x128 : Shape := ⟨2, ![5000, 128]⟩
abbrev S1000000x128 : Shape := ⟨2, ![1000000, 128]⟩
abbrev S1x128 : Shape := ⟨2, ![1, 128]⟩
abbrev S1x64 : Shape := ⟨2, ![1, 64]⟩
abbrev S1x40 : Shape := ⟨2, ![1, 40]⟩
abbrev S100000x40 : Shape := ⟨2, ![100000, 40]⟩
abbrev S5000x40 : Shape := ⟨2, ![5000, 40]⟩
abbrev S5000x64 : Shape := ⟨2, ![5000, 64]⟩

abbrev nBuf : Space → Nat
  | .hbm => 266
  | .vmem => 102
  | .smem => 0
  | _ => 0

abbrev hbmTy0_0 (i : Nat) : BufTy := match i % 128 with
  | 0 => ⟨S100000x256, .f32⟩
  | 1 => ⟨S2x1000000, .i32⟩
  | 2 => ⟨S2x1000000, .i32⟩
  | 3 => ⟨S256x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x64, .f32⟩
  | 24 => ⟨S64, .f32⟩
  | 25 => ⟨S64x40, .f32⟩
  | 26 => ⟨S40, .f32⟩
  | 27 => ⟨S1x1000000, .i32⟩
  | 28 => ⟨S1000000, .i32⟩
  | 29 => ⟨S1x1000000, .i32⟩
  | 30 => ⟨S1000000, .i32⟩
  | 31 => ⟨S1x1000000, .i32⟩
  | 32 => ⟨S1000000, .i32⟩
  | 33 => ⟨S1x1000000, .i32⟩
  | 34 => ⟨S1000000, .i32⟩
  | 35 => ⟨S_, .f32⟩
  | 36 => ⟨S1000000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000, .f32⟩
  | 67 => ⟨S1000000, .f32⟩
  | 68 => ⟨S_, .f32⟩
  | 69 => ⟨S1000000, .f32⟩
  | 70 => ⟨S_, .f32⟩
  | 71 => ⟨S100000, .f32⟩
  | 72 => ⟨S1000000x1, .i32⟩
  | 73 => ⟨S100000, .f32⟩
  | 74 => ⟨S_, .f32⟩
  | 75 => ⟨S100000, .f32⟩
  | 76 => ⟨S100000, .i1⟩
  | 77 => ⟨S100000, .f32⟩
  | 78 => ⟨S_, .f32⟩
  | 79 => ⟨S_, .f32⟩
  | 80 => ⟨S100000, .f32⟩
  | 81 => ⟨S100000, .f32⟩
  | 82 => ⟨S_, .i32⟩
  | 83 => ⟨S1000000, .i32⟩
  | 84 => ⟨S1000000, .i1⟩
  | 85 => ⟨S_, .i32⟩
  | 86 => ⟨S1000000, .i32⟩
  | 87 => ⟨S1000000, .i32⟩
  | 88 => ⟨S1000000, .i32⟩
  | 89 => ⟨S1000000x1, .i32⟩
  | 90 => ⟨S1000000, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000, .f32⟩
  | 100 => ⟨S1000000, .f32⟩
  | 101 => ⟨S100000x128, .f32⟩
  | 102 => ⟨S_, .i32⟩
  | 103 => ⟨S1000000, .i32⟩
  | 104 => ⟨S1000000, .i1⟩
  | 105 => ⟨S_, .i32⟩
  | 106 => ⟨S1000000, .i32⟩
  | 107 => ⟨S1000000, .i32⟩
  | 108 => ⟨S1000000, .i32⟩
  | 109 => ⟨S1000000x1, .i32⟩
  | 110 => ⟨S1000000x128, .f32⟩
  | 111 => ⟨S1000000x1, .f32⟩
  | 112 => ⟨S1000000x128, .f32⟩
  | 113 => ⟨S1000000x128, .f32⟩
  | 114 => ⟨S_, .f32⟩
  | 115 => ⟨S100000x128, .f32⟩
  | 116 => ⟨S1000000x1, .i32⟩
  | 117 => ⟨S100000x128, .f32⟩
  | 118 => ⟨S1x128, .f32⟩
  | 119 => ⟨S100000x128, .f32⟩
  | 120 => ⟨S1x128, .f32⟩
  | 121 => ⟨S1x128, .f32⟩
  | 122 => ⟨S_, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S100000x256, .f32⟩

abbrev hbmTy0_1 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S1x128, .f32⟩
  | 6 => ⟨S1x128, .f32⟩
  | 7 => ⟨S100000x128, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x128, .f32⟩
  | 17 => ⟨S1000000x1, .f32⟩
  | 18 => ⟨S1000000x128, .f32⟩
  | 19 => ⟨S1000000x128, .f32⟩
  | 20 => ⟨S_, .f32⟩
  | 21 => ⟨S100000x128, .f32⟩
  | 22 => ⟨S1000000x1, .i32⟩
  | 23 => ⟨S100000x128, .f32⟩
  | 24 => ⟨S1x128, .f32⟩
  | 25 => ⟨S100000x128, .f32⟩
  | 26 => ⟨S1x128, .f32⟩
  | 27 => ⟨S1x128, .f32⟩
  | 28 => ⟨S_, .f32⟩
  | 29 => ⟨S1x128, .f32⟩
  | 30 => ⟨S1x128, .f32⟩
  | 31 => ⟨S_, .f32⟩
  | 32 => ⟨S1x128, .f32⟩
  | 33 => ⟨S1x128, .f32⟩
  | 34 => ⟨S1x128, .f32⟩
  | 35 => ⟨S1x128, .f32⟩
  | 36 => ⟨S_, .f32⟩
  | 37 => ⟨S1x128, .f32⟩
  | 38 => ⟨S1x128, .f32⟩
  | 39 => ⟨S100000x128, .f32⟩
  | 40 => ⟨S_, .i32⟩
  | 41 => ⟨S1000000, .i32⟩
  | 42 => ⟨S1000000, .i1⟩
  | 43 => ⟨S_, .i32⟩
  | 44 => ⟨S1000000, .i32⟩
  | 45 => ⟨S1000000, .i32⟩
  | 46 => ⟨S1000000, .i32⟩
  | 47 => ⟨S1000000x1, .i32⟩
  | 48 => ⟨S1000000x128, .f32⟩
  | 49 => ⟨S1000000x1, .f32⟩
  | 50 => ⟨S1000000x128, .f32⟩
  | 51 => ⟨S1000000x128, .f32⟩
  | 52 => ⟨S_, .f32⟩
  | 53 => ⟨S100000x128, .f32⟩
  | 54 => ⟨S1000000x1, .i32⟩
  | 55 => ⟨S100000x128, .f32⟩
  | 56 => ⟨S1x128, .f32⟩
  | 57 => ⟨S100000x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S_, .f32⟩
  | 64 => ⟨S1x128, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S1x128, .f32⟩
  | 73 => ⟨S100000x128, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x128, .f32⟩
  | 83 => ⟨S1000000x1, .f32⟩
  | 84 => ⟨S1000000x128, .f32⟩
  | 85 => ⟨S1000000x128, .f32⟩
  | 86 => ⟨S_, .f32⟩
  | 87 => ⟨S100000x128, .f32⟩
  | 88 => ⟨S1000000x1, .i32⟩
  | 89 => ⟨S100000x128, .f32⟩
  | 90 => ⟨S1x128, .f32⟩
  | 91 => ⟨S100000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S100000x128, .f32⟩
  | 110 => ⟨S1x128, .f32⟩
  | 111 => ⟨S1x128, .f32⟩
  | 112 => ⟨S1x128, .f32⟩
  | 113 => ⟨S1x128, .f32⟩
  | 114 => ⟨S100000x128, .f32⟩
  | 115 => ⟨S1x64, .f32⟩
  | 116 => ⟨S1x40, .f32⟩
  | 117 => ⟨S100000x40, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S100000x256, .f32⟩

abbrev hbmTy0_2 (i : Nat) : BufTy := match i % 128 with
  | 0 => ⟨S1x128, .f32⟩
  | 1 => ⟨S1x128, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S1x128, .f32⟩
  | 9 => ⟨S1x128, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x256, .f32⟩
  | .local _ .vmem, ⟨33, _⟩ => ⟨S5000x256, .f32⟩
  | .local _ .vmem, ⟨34, _⟩ => ⟨S256x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S128x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S1x128, .f32⟩
  | .local _ .vmem, ⟨61, _⟩ => ⟨S1x128, .f32⟩
  | .local _ .vmem, ⟨62, _⟩ => ⟨S1x128, .f32⟩
  | .local _ .vmem, ⟨63, _⟩ => ⟨S1x128, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S128x128, .f32⟩
  | .local _ .vmem, ⟨71, _⟩ => ⟨S1x128, .f32⟩
  | .local _ .vmem, ⟨72, _⟩ => ⟨S128x128, .f32⟩
  | .local _ .vmem, ⟨73, _⟩ => ⟨S1x128, .f32⟩
  | .local _ .vmem, ⟨74, _⟩ => ⟨S5000x128, .f32⟩
  | .local _ .vmem, ⟨75, _⟩ => ⟨S5000x128, .f32⟩
  | .local _ .vmem, ⟨76, _⟩ => ⟨S5000x128, .f32⟩
  | .local _ .vmem, ⟨77, _⟩ => ⟨S5000x128, .f32⟩
  | .local _ .vmem, ⟨78, _⟩ => ⟨S1x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S128x128, .f32⟩
  | .local _ .vmem, ⟨83, _⟩ => ⟨S1x128, .f32⟩
  | .local _ .vmem, ⟨84, _⟩ => ⟨S128x128, .f32⟩
  | .local _ .vmem, ⟨85, _⟩ => ⟨S1x128, .f32⟩
  | .local _ .vmem, ⟨86, _⟩ => ⟨S5000x128, .f32⟩
  | .local _ .vmem, ⟨87, _⟩ => ⟨S5000x128, .f32⟩
  | .local _ .vmem, ⟨88, _⟩ => ⟨S5000x128, .f32⟩
  | .local _ .vmem, ⟨89, _⟩ => ⟨S5000x128, .f32⟩
  | .local _ .vmem, ⟨90, _⟩ => ⟨S5000x128, .f32⟩
  | .local _ .vmem, ⟨91, _⟩ => ⟨S5000x128, .f32⟩
  | .local _ .vmem, ⟨92, _⟩ => ⟨S128x64, .f32⟩
  | .local _ .vmem, ⟨93, _⟩ => ⟨S1x64, .f32⟩
  | .local _ .vmem, ⟨94, _⟩ => ⟨S64x40, .f32⟩
  | .local _ .vmem, ⟨95, _⟩ => ⟨S1x40, .f32⟩
  | .local _ .vmem, ⟨96, _⟩ => ⟨S5000x40, .f32⟩
  | .local _ .vmem, ⟨97, _⟩ => ⟨S5000x40, .f32⟩
  | .local _ .vmem, ⟨98, _⟩ => ⟨S1x128, .f32⟩
  | .local _ .vmem, ⟨99, _⟩ => ⟨S1x128, .f32⟩
  | .local _ .vmem, ⟨100, _⟩ => ⟨S1x128, .f32⟩
  | .local _ .vmem, ⟨101, _⟩ => ⟨S1x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst : Ref sig .tc := ⟨.hbm, 35, rfl⟩
abbrev main_v8 : Ref sig .tc := ⟨.hbm, 36, rfl⟩
abbrev main_cst_0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst_1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_v15 : Ref sig .tc := ⟨.hbm, 48, rfl⟩
abbrev main_c : Ref sig .tc := ⟨.hbm, 49, rfl⟩
abbrev main_v16 : Ref sig .tc := ⟨.hbm, 50, rfl⟩
abbrev main_v17 : Ref sig .tc := ⟨.hbm, 51, rfl⟩
abbrev main_c_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_4 : Ref sig .tc := ⟨.hbm, 58, rfl⟩
abbrev main_v23 : Ref sig .tc := ⟨.hbm, 59, rfl⟩
abbrev main_v24 : Ref sig .tc := ⟨.hbm, 60, rfl⟩
abbrev main_c_5 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst_6 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_9 : Ref sig .tc := ⟨.hbm, 78, rfl⟩
abbrev main_call1_v0 : Ref sig .tc := ⟨.hbm, 79, rfl⟩
abbrev main_call1_v1 : Ref sig .tc := ⟨.hbm, 80, rfl⟩
abbrev main_v38 : Ref sig .tc := ⟨.hbm, 81, rfl⟩
abbrev main_c_10 : Ref sig .tc := ⟨.hbm, 82, rfl⟩
abbrev main_v39 : Ref sig .tc := ⟨.hbm, 83, rfl⟩
abbrev main_v40 : Ref sig .tc := ⟨.hbm, 84, rfl⟩
abbrev main_c_11 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_c_12 : Ref sig .tc := ⟨.hbm, 91, rfl⟩
abbrev main_v46 : Ref sig .tc := ⟨.hbm, 92, rfl⟩
abbrev main_v47 : Ref sig .tc := ⟨.hbm, 93, rfl⟩
abbrev main_c_13 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_c_14 : Ref sig .tc := ⟨.hbm, 102, rfl⟩
abbrev main_v55 : Ref sig .tc := ⟨.hbm, 103, rfl⟩
abbrev main_v56 : Ref sig .tc := ⟨.hbm, 104, rfl⟩
abbrev main_c_15 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_cst_16 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69_0 : Ref sig .tc := ⟨.hbm, 119, rfl⟩
abbrev main_v69_1 : Ref sig .tc := ⟨.hbm, 120, rfl⟩
abbrev main_v69_2 : Ref sig .tc := ⟨.hbm, 121, rfl⟩
abbrev main_cst_17 : Ref sig .tc := ⟨.hbm, 122, rfl⟩
abbrev main_v70 : Ref sig .tc := ⟨.hbm, 123, rfl⟩
abbrev main_v71 : Ref sig .tc := ⟨.hbm, 124, rfl⟩
abbrev main_cst_18 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_cst_19 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_c_20 : Ref sig .tc := ⟨.hbm, 136, rfl⟩
abbrev main_v81 : Ref sig .tc := ⟨.hbm, 137, rfl⟩
abbrev main_v82 : Ref sig .tc := ⟨.hbm, 138, rfl⟩
abbrev main_c_21 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_22 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95_0 : Ref sig .tc := ⟨.hbm, 153, rfl⟩
abbrev main_v95_1 : Ref sig .tc := ⟨.hbm, 154, rfl⟩
abbrev main_v95_2 : Ref sig .tc := ⟨.hbm, 155, rfl⟩
abbrev main_cst_23 : Ref sig .tc := ⟨.hbm, 156, rfl⟩
abbrev main_v96 : Ref sig .tc := ⟨.hbm, 157, rfl⟩
abbrev main_v97 : Ref sig .tc := ⟨.hbm, 158, rfl⟩
abbrev main_cst_24 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_25 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_c_26 : Ref sig .tc := ⟨.hbm, 168, rfl⟩
abbrev main_v105 : Ref sig .tc := ⟨.hbm, 169, rfl⟩
abbrev main_v106 : Ref sig .tc := ⟨.hbm, 170, rfl⟩
abbrev main_c_27 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_cst_28 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119_0 : Ref sig .tc := ⟨.hbm, 185, rfl⟩
abbrev main_v119_1 : Ref sig .tc := ⟨.hbm, 186, rfl⟩
abbrev main_v119_2 : Ref sig .tc := ⟨.hbm, 187, rfl⟩
abbrev main_cst_29 : Ref sig .tc := ⟨.hbm, 188, rfl⟩
abbrev main_v120 : Ref sig .tc := ⟨.hbm, 189, rfl⟩
abbrev main_v121 : Ref sig .tc := ⟨.hbm, 190, rfl⟩
abbrev main_cst_30 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_31 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_c_32 : Ref sig .tc := ⟨.hbm, 202, rfl⟩
abbrev main_v131 : Ref sig .tc := ⟨.hbm, 203, rfl⟩
abbrev main_v132 : Ref sig .tc := ⟨.hbm, 204, rfl⟩
abbrev main_c_33 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_34 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145_0 : Ref sig .tc := ⟨.hbm, 219, rfl⟩
abbrev main_v145_1 : Ref sig .tc := ⟨.hbm, 220, rfl⟩
abbrev main_v145_2 : Ref sig .tc := ⟨.hbm, 221, rfl⟩
abbrev main_cst_35 : Ref sig .tc := ⟨.hbm, 222, rfl⟩
abbrev main_v146 : Ref sig .tc := ⟨.hbm, 223, rfl⟩
abbrev main_v147 : Ref sig .tc := ⟨.hbm, 224, rfl⟩
abbrev main_cst_36 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_cst_37 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166_0 : Ref sig .tc := ⟨.hbm, 245, rfl⟩
abbrev main_v166_1 : Ref sig .tc := ⟨.hbm, 246, rfl⟩
abbrev main_v166_2 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_call2_cst : Ref sig .tc := ⟨.hbm, 251, rfl⟩
abbrev main_call2_v0 : Ref sig .tc := ⟨.hbm, 252, rfl⟩
abbrev main_v170 : Ref sig .tc := ⟨.hbm, 253, rfl⟩
abbrev main_v171 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_call3_cst : Ref sig .tc := ⟨.hbm, 260, rfl⟩
abbrev main_call3_v0 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg6_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_scratch0 : Ref sig .tc := ⟨.vmem, 30, rfl⟩
abbrev cc3_scratch1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_scratch0 : Ref sig .tc := ⟨.vmem, 44, rfl⟩
abbrev cc5_scratch1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg3_0 : Ref sig .tc := ⟨.vmem, 50, rfl⟩
abbrev cc6_stg4_0 : Ref sig .tc := ⟨.vmem, 51, rfl⟩
abbrev cc6_stg5_0 : Ref sig .tc := ⟨.vmem, 52, rfl⟩
abbrev cc6_stg6_0 : Ref sig .tc := ⟨.vmem, 53, rfl⟩
abbrev cc6_stg6_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg2_0 : Ref sig .tc := ⟨.vmem, 58, rfl⟩
abbrev cc7_stg2_1 : Ref sig .tc := ⟨.vmem, 59, rfl⟩
abbrev cc7_stg3_0 : Ref sig .tc := ⟨.vmem, 60, rfl⟩
abbrev cc7_stg4_0 : Ref sig .tc := ⟨.vmem, 61, rfl⟩
abbrev cc7_scratch0 : Ref sig .tc := ⟨.vmem, 62, rfl⟩
abbrev cc7_scratch1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg6_0 : Ref sig .tc := ⟨.vmem, 71, rfl⟩
abbrev cc8_stg7_0 : Ref sig .tc := ⟨.vmem, 72, rfl⟩
abbrev cc8_stg8_0 : Ref sig .tc := ⟨.vmem, 73, rfl⟩
abbrev cc8_stg9_0 : Ref sig .tc := ⟨.vmem, 74, rfl⟩
abbrev cc8_stg9_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg4_0 : Ref sig .tc := ⟨.vmem, 81, rfl⟩
abbrev cc9_stg5_0 : Ref sig .tc := ⟨.vmem, 82, rfl⟩
abbrev cc9_stg6_0 : Ref sig .tc := ⟨.vmem, 83, rfl⟩
abbrev cc9_stg7_0 : Ref sig .tc := ⟨.vmem, 84, rfl⟩
abbrev cc9_stg8_0 : Ref sig .tc := ⟨.vmem, 85, rfl⟩
abbrev cc9_stg9_0 : Ref sig .tc := ⟨.vmem, 86, rfl⟩
abbrev cc9_stg9_1 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg1_1 : Ref sig .tc := ⟨.vmem, 91, rfl⟩
abbrev cc10_stg2_0 : Ref sig .tc := ⟨.vmem, 92, rfl⟩
abbrev cc10_stg3_0 : Ref sig .tc := ⟨.vmem, 93, rfl⟩
abbrev cc10_stg4_0 : Ref sig .tc := ⟨.vmem, 94, rfl⟩
abbrev cc10_stg5_0 : Ref sig .tc := ⟨.vmem, 95, rfl⟩
abbrev cc10_stg6_0 : Ref sig .tc := ⟨.vmem, 96, rfl⟩
abbrev cc10_stg6_1 : Ref sig .tc := ⟨.vmem, 97, rfl⟩
abbrev cc10_stg7_0 : Ref sig .tc := ⟨.vmem, 98, rfl⟩
abbrev cc10_stg8_0 : Ref sig .tc := ⟨.vmem, 99, rfl⟩
abbrev cc10_scratch0 : Ref sig .tc := ⟨.vmem, 100, rfl⟩
abbrev cc10_scratch1 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc3_sem3_0 : DmaSem sig := 26
abbrev cc3_sem4_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem6_0 : DmaSem sig := 47
abbrev cc6_sem6_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem2_1 : DmaSem sig := 53
abbrev cc7_sem3_0 : DmaSem sig := 54
abbrev cc7_sem4_0 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem5_0 : DmaSem sig := 62
abbrev cc8_sem6_0 : DmaSem sig := 63
abbrev cc8_sem7_0 : DmaSem sig := 64
abbrev cc8_sem8_0 : DmaSem sig := 65
abbrev cc8_sem9_0 : DmaSem sig := 66
abbrev cc8_sem9_1 : DmaSem sig := 67
abbrev cc9_sem0_0 : DmaSem sig := 68
abbrev cc9_sem0_1 : DmaSem sig := 69
abbrev cc9_sem1_0 : DmaSem sig := 70
abbrev cc9_sem2_0 : DmaSem sig := 71
abbrev cc9_sem3_0 : DmaSem sig := 72
abbrev cc9_sem4_0 : DmaSem sig := 73
abbrev cc9_sem5_0 : DmaSem sig := 74
abbrev cc9_sem6_0 : DmaSem sig := 75
abbrev cc9_sem7_0 : DmaSem sig := 76
abbrev cc9_sem8_0 : DmaSem sig := 77
abbrev cc9_sem9_0 : DmaSem sig := 78
abbrev cc9_sem9_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem3_0 : DmaSem sig := 85
abbrev cc10_sem4_0 : DmaSem sig := 86
abbrev cc10_sem5_0 : DmaSem sig := 87
abbrev cc10_sem6_0 : DmaSem sig := 88
abbrev cc10_sem6_1 : DmaSem sig := 89
abbrev cc10_sem7_0 : DmaSem sig := 90
abbrev cc10_sem8_0 : DmaSem sig := 91

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_15 : BitVec 32 := 0#32
  let v27 : BitVec 1 := Scalar.cmpi .ne v26 c0_i32_15
  v27

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v27 : BitVec 1 := Scalar.cmpi .eq arg0 c19_i32
  let v28 : BitVec 32 := Scalar.extui v27
  let c0_i32_16 : BitVec 32 := 0#32
  let v29 : BitVec 1 := Scalar.cmpi .ne v28 c0_i32_16
  v29

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v25 : BitVec 1 := Scalar.cmpi .eq arg0 c19_i32
  let v26 : BitVec 32 := Scalar.extui v25
  let c0_i32_15 : BitVec 32 := 0#32
  let v27 : BitVec 1 := Scalar.cmpi .ne v26 c0_i32_15
  v27

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S128x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S5000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S5000x128 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![20], ![false]⟩

def k10_cond2 (i : grid10.Coords) : BitVec 1 :=
  let arg0 : BitVec 32 := BitVec.ofNat 32 (i 0).val
  let c19_i32 : BitVec 32 := 19#32
  let v41 : BitVec 1 := Scalar.cmpi .eq arg0 c19_i32
  let v42 : BitVec 32 := Scalar.extui v41
  let c0_i32_26 : BitVec 32 := 0#32
  let v43 : BitVec 1 := Scalar.cmpi .ne v42 c0_i32_26
  v43

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_7 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_8 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x128 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S128x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x40 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x40 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 2 → Memref sig .tc .vmem S5000x40 .f32 := fun | 0 => Memref.whole cc10_stg6_0 | 1 => Memref.whole cc10_stg6_1 | ⟨_ + 2, h⟩ => absurd h (Nat.not_lt.2 (Nat.le_add_left _ _))
abbrev sem10_6 : Fin 2 → DmaSem sig := fun | 0 => cc10_sem6_0 | 1 => cc10_sem6_1 | ⟨_ + 2, h⟩ => absurd h (Nat.not_lt.2 (Nat.le_add_left _ _))
abbrev reads10_6 : Fin grid10.rank → Bool := ![true]

abbrev stage10_7 : Fin 1 → Memref sig .tc .vmem S1x128 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![false]

abbrev stage10_8 : Fin 1 → Memref sig .tc .vmem S1x128 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))
abbrev reads10_8 : Fin grid10.rank → Bool := ![false]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  shapeCasts_S64_S1x64 : S64.ShapeCasts S1x64
  shapeCasts_S40_S1x40 : S40.ShapeCasts S1x40
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S128_S1x128_1 : S128.BroadcastsInDim S1x128 (![1] : Fin 1 → Fin S1x128.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S5000x256_S256x128_S5000x128_1_0_0_1_n_n_wf : DotDims.WF S5000x256 S256x128 S5000x128 [1] [0] [0] [1] [] []
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x40_S5000x40_1_0_0_1_n_n_wf : DotDims.WF S5000x64 S64x40 S5000x40 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S100000x128.size a
  hwx6_6 : ∀ i : grid6.Coords, EltTy.bits .f32 = 32 ∨ (Rect.block (s := S100000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x128.size a ≤ S128x128.size a
  hwx8_5 : ∀ i : grid8.Coords, EltTy.bits .f32 = 32 ∨ (Rect.block (s := S128x128) S128x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S128x128.size a ≤ S128x128.size a
  hwx8_7 : ∀ i : grid8.Coords, EltTy.bits .f32 = 32 ∨ (Rect.block (s := S128x128) S128x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S5000x128.size a ≤ S100000x128.size a
  hwx8_9 : ∀ i : grid8.Coords, EltTy.bits .f32 = 32 ∨ (Rect.block (s := S100000x128) S5000x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S128x128.size a ≤ S128x128.size a
  hwx9_5 : ∀ i : grid9.Coords, EltTy.bits .f32 = 32 ∨ (Rect.block (s := S128x128) S128x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S128x128.size a ≤ S128x128.size a
  hwx9_7 : ∀ i : grid9.Coords, EltTy.bits .f32 = 32 ∨ (Rect.block (s := S128x128) S128x128.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S5000x128.size a ≤ S100000x128.size a
  hwx9_9 : ∀ i : grid9.Coords, EltTy.bits .f32 = 32 ∨ (Rect.block (s := S100000x128) S5000x128.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x128.size a ≤ S100000x128.size a
  hwx10_1 : ∀ i : grid10.Coords, EltTy.bits .f32 = 32 ∨ (Rect.block (s := S100000x128) S5000x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S128x64.size a ≤ S128x64.size a
  hwx10_2 : ∀ i : grid10.Coords, EltTy.bits .f32 = 32 ∨ (Rect.block (s := S128x64) S128x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x40.size a ≤ S64x40.size a
  hwx10_4 : ∀ i : grid10.Coords, EltTy.bits .f32 = 32 ∨ (Rect.block (s := S64x40) S64x40.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x40.size a ≤ S1x40.size a
  hwx10_5 : ∀ i : grid10.Coords, EltTy.bits .f32 = 32 ∨ (Rect.block (s := S1x40) S1x40.size (cc10_transform_5 i) (hinb10_5 i)).WholeWords (EltTy.packing .f32)
  hstage10_6 : ∀ j, (stage10_6 j).IsWhole
  nbuf10_6 : grid10.bufCount reads10_6 false = 2
  hreads10_6 : ∀ i i' : grid10.Coords, (∀ a, reads10_6 a = true → i a = i' a) → cc10_transform_6 i = cc10_transform_6 i'
  hinb10_6 : ∀ (i : grid10.Coords) a, (cc10_transform_6 i a + 1) * S5000x40.size a ≤ S100000x40.size a
  hwx10_6 : ∀ i : grid10.Coords, EltTy.bits .f32 = 32 ∨ (Rect.block (s := S100000x40) S5000x40.size (cc10_transform_6 i) (hinb10_6 i)).WholeWords (EltTy.packing .f32)
  hstage10_7 : ∀ j, (stage10_7 j).IsWhole
  nbuf10_7 : grid10.bufCount reads10_7 true = 1
  hreads10_7 : ∀ i i' : grid10.Coords, (∀ a, reads10_7 a = true → i a = i' a) → cc10_transform_7 i = cc10_transform_7 i'
  hinb10_7 : ∀ (i : grid10.Coords) a, (cc10_transform_7 i a + 1) * S1x128.size a ≤ S1x128.size a
  hwx10_7 : ∀ i : grid10.Coords, EltTy.bits .f32 = 32 ∨ (Rect.block (s := S1x128) S1x128.size (cc10_transform_7 i) (hinb10_7 i)).WholeWords (EltTy.packing .f32)
  hstage10_8 : ∀ j, (stage10_8 j).IsWhole
  nbuf10_8 : grid10.bufCount reads10_8 true = 1
  hreads10_8 : ∀ i i' : grid10.Coords, (∀ a, reads10_8 a = true → i a = i' a) → cc10_transform_8 i = cc10_transform_8 i'
  hinb10_8 : ∀ (i : grid10.Coords) a, (cc10_transform_8 i a + 1) * S1x128.size a ≤ S1x128.size a
  hwx10_8 : ∀ i : grid10.Coords, EltTy.bits .f32 = 32 ∨ (Rect.block (s := S1x128) S1x128.size (cc10_transform_8 i) (hinb10_8 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v54) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v67) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v69_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v69_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v69_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v80) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v93) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v94) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v95_0) S5000x128.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v95_1) S1x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95_2) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_arg0) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v117) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v119_0) S5000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v119_1) S1x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v119_2) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun i => !(k5_cond2 i == 1#1) | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v119_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v127) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v129) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg13) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v130) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v143) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v144) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v145_0) S5000x128.size cc7_transform_2 reads7_2 true false 2 stage7_2 sem7_2
    hrank7 hreads7_2 hinb7_2 nbuf7_2 (Memref.isWhole_whole _) hwx7_2 hstage7_2

abbrev win7_3 : Pipeline.Window sig grid7 :=
  Pipeline.Window.ofSpec (Memref.whole main_v145_1) S1x128.size cc7_transform_3 reads7_3 true true 1 stage7_3 sem7_3
    hrank7 hreads7_3 hinb7_3 nbuf7_3 (Memref.isWhole_whole _) hwx7_3 hstage7_3

abbrev win7_4 : Pipeline.Window sig grid7 :=
  Pipeline.Window.ofSpec (Memref.whole main_v145_2) S1x128.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun i => !(k7_cond2 i == 1#1) | 4 => fun i => !(k7_cond2 i == 1#1) | ⟨_ + 5, h⟩ => absurd h (Nat.not_lt.2 (Nat.le_add_left _ _))

abbrev win8_0 : Pipeline.Window sig grid8 :=
  Pipeline.Window.ofSpec (Memref.whole main_v95_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v97) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v154) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v155) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg19) S128x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v156) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_arg21) S128x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v157) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v158) S5000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v145_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v147) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v153) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v159) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v160) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg19) S128x128.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v161) S1x128.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg21) S128x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v162) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v163) S5000x128.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v158) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v163) S5000x128.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg23) S128x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v164) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_arg25) S64x40.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v165) S1x40.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v166_0) S5000x40.size cc10_transform_6 reads10_6 true false 2 stage10_6 sem10_6
    hrank10 hreads10_6 hinb10_6 nbuf10_6 (Memref.isWhole_whole _) hwx10_6 hstage10_6

abbrev win10_7 : Pipeline.Window sig grid10 :=
  Pipeline.Window.ofSpec (Memref.whole main_v166_1) S1x128.size cc10_transform_7 reads10_7 true true 1 stage10_7 sem10_7
    hrank10 hreads10_7 hinb10_7 nbuf10_7 (Memref.isWhole_whole _) hwx10_7 hstage10_7

abbrev win10_8 : Pipeline.Window sig grid10 :=
  Pipeline.Window.ofSpec (Memref.whole main_v166_2) S1x128.size cc10_transform_8 reads10_8 true true 1 stage10_8 sem10_8
    hrank10 hreads10_8 hinb10_8 nbuf10_8 (Memref.isWhole_whole _) hwx10_8 hstage10_8

abbrev win10 : Fin 9 → Pipeline.Window sig grid10 := fun | 0 => win10_0 | 1 => win10_1 | 2 => win10_2 | 3 => win10_3 | 4 => win10_4 | 5 => win10_5 | 6 => win10_6 | 7 => win10_7 | 8 => win10_8 | ⟨_ + 9, h⟩ => absurd h (Nat.not_lt.2 (Nat.le_add_left _ _))
abbrev spec10 : Fin 9 → Pipeline.WinSpec sig grid10.rank := fun w => (win10 w).toWinSpec

abbrev idle10 : Fin 9 → grid10.Coords → Bool := fun | 0 => fun _ => false | 1 => fun _ => false | 2 => fun _ => false | 3 => fun _ => false | 4 => fun _ => false | 5 => fun _ => false | 6 => fun _ => false | 7 => fun i => !(k10_cond2 i == 1#1) | 8 => fun i => !(k10_cond2 i == 1#1) | ⟨_ + 9, h⟩ => absurd h (Nat.not_lt.2 (Nat.le_add_left _ _))

class Facts : Prop extends Facts₀ where

variable [Facts]
-- ==== ReferenceIdeal.lean ====
abbrev S100000x256 : Shape := ⟨2, ![100000, 256]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1000000 : Shape := ⟨2, ![1, 1000000]⟩
abbrev S1000000 : Shape := ⟨1, ![1000000]⟩
abbrev S100000x128 : Shape := ⟨2, ![100000, 128]⟩
abbrev S_ : Shape := ⟨0, ![]⟩
abbrev S100000 : Shape := ⟨1, ![100000]⟩
abbrev S1000000x1 : Shape := ⟨2, ![1000000, 1]⟩
abbrev S1000000x128 : Shape := ⟨2, ![1000000, 128]⟩
abbrev S1x128 : Shape := ⟨2, ![1, 128]⟩
abbrev S100000x64 : Shape := ⟨2, ![100000, 64]⟩
abbrev S1x64 : Shape := ⟨2, ![1, 64]⟩
abbrev S100000x40 : Shape := ⟨2, ![100000, 40]⟩
abbrev S1x40 : Shape := ⟨2, ![1, 40]⟩

abbrev nBuf : Space → Nat
  | .hbm => 431
  | .vmem => 0
  | .smem => 0
  | _ => 0

abbrev hbmTy0_0 (i : Nat) : BufTy := match i % 128 with
  | 0 => ⟨S100000x256, .f32⟩
  | 1 => ⟨S2x1000000, .i32⟩
  | 2 => ⟨S2x1000000, .i32⟩
  | 3 => ⟨S256x128, .f32⟩
  | 4 => ⟨S128, .f32⟩
  | 5 => ⟨S128x128, .f32⟩
  | 6 => ⟨S128, .f32⟩
  | 7 => ⟨S128, .f32⟩
  | 8 => ⟨S128, .f32⟩
  | 9 => ⟨S128, .f32⟩
  | 10 => ⟨S128, .f32⟩
  | 11 => ⟨S256x128, .f32⟩
  | 12 => ⟨S128, .f32⟩
  | 13 => ⟨S128x128, .f32⟩
  | 14 => ⟨S128, .f32⟩
  | 15 => ⟨S128, .f32⟩
  | 16 => ⟨S128, .f32⟩
  | 17 => ⟨S128, .f32⟩
  | 18 => ⟨S128, .f32⟩
  | 19 => ⟨S128x128, .f32⟩
  | 20 => ⟨S128, .f32⟩
  | 21 => ⟨S128x128, .f32⟩
  | 22 => ⟨S128, .f32⟩
  | 23 => ⟨S128x64, .f32⟩
  | 24 => ⟨S64, .f32⟩
  | 25 => ⟨S64x40, .f32⟩
  | 26 => ⟨S40, .f32⟩
  | 27 => ⟨S1x1000000, .i32⟩
  | 28 => ⟨S1000000, .i32⟩
  | 29 => ⟨S1x1000000, .i32⟩
  | 30 => ⟨S1000000, .i32⟩
  | 31 => ⟨S100000x128, .f32⟩
  | 32 => ⟨S_, .f32⟩
  | 33 => ⟨S1000000, .f32⟩
  | 34 => ⟨S_, .f32⟩
  | 35 => ⟨S100000, .f32⟩
  | 36 => ⟨S1000000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000, .f32⟩
  | 64 => ⟨S1000000, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x128, .f32⟩
  | 74 => ⟨S1000000x1, .f32⟩
  | 75 => ⟨S1000000x128, .f32⟩
  | 76 => ⟨S1000000x128, .f32⟩
  | 77 => ⟨S_, .f32⟩
  | 78 => ⟨S100000x128, .f32⟩
  | 79 => ⟨S1000000x1, .i32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S_, .f32⟩
  | 119 => ⟨S1000000, .f32⟩
  | 120 => ⟨S_, .f32⟩
  | 121 => ⟨S100000, .f32⟩
  | 122 => ⟨S1000000x1, .i32⟩
  | 123 => ⟨S100000, .f32⟩
  | 124 => ⟨S_, .f32⟩
  | 125 => ⟨S100000, .f32⟩
  | 126 => ⟨S100000, .i1⟩
  | 127 => ⟨S100000, .f32⟩
  | _ => ⟨S100000x256, .f32⟩

abbrev hbmTy0_1 (i : Nat) : BufTy := match i % 128 with
  | 0 => ⟨S_, .f32⟩
  | 1 => ⟨S_, .f32⟩
  | 2 => ⟨S100000, .f32⟩
  | 3 => ⟨S100000, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000, .f32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000, .f32⟩
  | 22 => ⟨S1000000, .f32⟩
  | 23 => ⟨S_, .i32⟩
  | 24 => ⟨S1000000, .i32⟩
  | 25 => ⟨S1000000, .i1⟩
  | 26 => ⟨S_, .i32⟩
  | 27 => ⟨S1000000, .i32⟩
  | 28 => ⟨S1000000, .i32⟩
  | 29 => ⟨S1000000, .i32⟩
  | 30 => ⟨S1000000x1, .i32⟩
  | 31 => ⟨S1000000x128, .f32⟩
  | 32 => ⟨S1000000x1, .f32⟩
  | 33 => ⟨S1000000x128, .f32⟩
  | 34 => ⟨S1000000x128, .f32⟩
  | 35 => ⟨S_, .f32⟩
  | 36 => ⟨S100000x128, .f32⟩
  | 37 => ⟨S1000000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S128, .f32⟩
  | 64 => ⟨S128, .f32⟩
  | 65 => ⟨S128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S1x1000000, .i32⟩
  | 73 => ⟨S1000000, .i32⟩
  | 74 => ⟨S1x1000000, .i32⟩
  | 75 => ⟨S1000000, .i32⟩
  | 76 => ⟨S100000x128, .f32⟩
  | 77 => ⟨S_, .f32⟩
  | 78 => ⟨S1000000, .f32⟩
  | 79 => ⟨S_, .f32⟩
  | 80 => ⟨S100000, .f32⟩
  | 81 => ⟨S1000000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000, .f32⟩
  | 100 => ⟨S_, .i32⟩
  | 101 => ⟨S1000000, .i32⟩
  | 102 => ⟨S1000000, .i1⟩
  | 103 => ⟨S_, .i32⟩
  | 104 => ⟨S1000000, .i32⟩
  | 105 => ⟨S1000000, .i32⟩
  | 106 => ⟨S1000000, .i32⟩
  | 107 => ⟨S1000000x1, .i32⟩
  | 108 => ⟨S1000000, .f32⟩
  | 109 => ⟨S1000000, .f32⟩
  | 110 => ⟨S_, .i32⟩
  | 111 => ⟨S1000000, .i32⟩
  | 112 => ⟨S1000000, .i1⟩
  | 113 => ⟨S_, .i32⟩
  | 114 => ⟨S1000000, .i32⟩
  | 115 => ⟨S1000000, .i32⟩
  | 116 => ⟨S1000000, .i32⟩
  | 117 => ⟨S1000000x1, .i32⟩
  | 118 => ⟨S1000000x128, .f32⟩
  | 119 => ⟨S1000000x1, .f32⟩
  | 120 => ⟨S1000000x128, .f32⟩
  | 121 => ⟨S1000000x128, .f32⟩
  | 122 => ⟨S_, .f32⟩
  | 123 => ⟨S100000x128, .f32⟩
  | 124 => ⟨S1000000x1, .i32⟩
  | 125 => ⟨S100000x128, .f32⟩
  | 126 => ⟨S1x128, .f32⟩
  | 127 => ⟨S100000x128, .f32⟩
  | _ => ⟨S100000x256, .f32⟩

abbrev hbmTy0_2 (i : Nat) : BufTy := match i % 128 with
  | 0 => ⟨S100000x128, .f32⟩
  | 1 => ⟨S_, .f32⟩
  | 2 => ⟨S100000x128, .f32⟩
  | 3 => ⟨S100000x128, .f32⟩
  | 4 => ⟨S_, .f32⟩
  | 5 => ⟨S128, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S1x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | 34 => ⟨S100000x128, .f32⟩
  | 35 => ⟨S_, .f32⟩
  | 36 => ⟨S1000000, .f32⟩
  | 37 => ⟨S_, .f32⟩
  | 38 => ⟨S100000, .f32⟩
  | 39 => ⟨S1000000x1, .i32⟩
  | 40 => ⟨S100000, .f32⟩
  | 41 => ⟨S_, .f32⟩
  | 42 => ⟨S100000, .f32⟩
  | 43 => ⟨S100000, .i1⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000, .f32⟩
  | 58 => ⟨S_, .i32⟩
  | 59 => ⟨S1000000, .i32⟩
  | 60 => ⟨S1000000, .i1⟩
  | 61 => ⟨S_, .i32⟩
  | 62 => ⟨S1000000, .i32⟩
  | 63 => ⟨S1000000, .i32⟩
  | 64 => ⟨S1000000, .i32⟩
  | 65 => ⟨S1000000x1, .i32⟩
  | 66 => ⟨S1000000, .f32⟩
  | 67 => ⟨S1000000, .f32⟩
  | 68 => ⟨S_, .i32⟩
  | 69 => ⟨S1000000, .i32⟩
  | 70 => ⟨S1000000, .i1⟩
  | 71 => ⟨S_, .i32⟩
  | 72 => ⟨S1000000, .i32⟩
  | 73 => ⟨S1000000, .i32⟩
  | 74 => ⟨S1000000, .i32⟩
  | 75 => ⟨S1000000x1, .i32⟩
  | 76 => ⟨S1000000x128, .f32⟩
  | 77 => ⟨S1000000x1, .f32⟩
  | 78 => ⟨S1000000x128, .f32⟩
  | 79 => ⟨S1000000x128, .f32⟩
  | 80 => ⟨S_, .f32⟩
  | 81 => ⟨S100000x128, .f32⟩
  | 82 => ⟨S1000000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S100000x128, .f32⟩
  | 96 => ⟨S_, .f32⟩
  | 97 => ⟨S128, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x256, .f32⟩

abbrev hbmTy0_3 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S_, .f32⟩
  | 12 => ⟨S128, .f32⟩
  | 13 => ⟨S1x128, .f32⟩
  | 14 => ⟨S1x128, .f32⟩
  | 15 => ⟨S1x128, .f32⟩
  | 16 => ⟨S1x128, .f32⟩
  | 17 => ⟨S_, .f32⟩
  | 18 => ⟨S1x128, .f32⟩
  | 19 => ⟨S1x128, .f32⟩
  | 20 => ⟨S1x128, .f32⟩
  | 21 => ⟨S1x128, .f32⟩
  | 22 => ⟨S1x128, .f32⟩
  | 23 => ⟨S_, .f32⟩
  | 24 => ⟨S128, .f32⟩
  | 25 => ⟨S1x128, .f32⟩
  | 26 => ⟨S1x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S1x128, .f32⟩
  | 34 => ⟨S1x128, .f32⟩
  | 35 => ⟨S100000x128, .f32⟩
  | 36 => ⟨S100000x64, .f32⟩
  | 37 => ⟨S1x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S100000x40, .f32⟩
  | 44 => ⟨S1x40, .f32⟩
  | 45 => ⟨S100000x40, .f32⟩
  | 46 => ⟨S100000x40, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_cst_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v12 : Ref sig .tc := ⟨.hbm, 45, rfl⟩
abbrev main_c : Ref sig .tc := ⟨.hbm, 46, rfl⟩
abbrev main_v13 : Ref sig .tc := ⟨.hbm, 47, rfl⟩
abbrev main_v14 : Ref sig .tc := ⟨.hbm, 48, rfl⟩
abbrev main_c_3 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_c_7 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_8 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_call1_cst : Ref sig .tc := ⟨.hbm, 84, rfl⟩
abbrev main_call1_v0 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_cst_10 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_cst_12 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_cst_13 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_14 : Ref sig .tc := ⟨.hbm, 118, rfl⟩
abbrev main_v71 : Ref sig .tc := ⟨.hbm, 119, rfl⟩
abbrev main_cst_15 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_16 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_17 : Ref sig .tc := ⟨.hbm, 128, rfl⟩
abbrev main_call2_v0 : Ref sig .tc := ⟨.hbm, 129, rfl⟩
abbrev main_call2_v1 : Ref sig .tc := ⟨.hbm, 130, rfl⟩
abbrev main_v78 : Ref sig .tc := ⟨.hbm, 131, rfl⟩
abbrev main_c_18 : Ref sig .tc := ⟨.hbm, 132, rfl⟩
abbrev main_v79 : Ref sig .tc := ⟨.hbm, 133, rfl⟩
abbrev main_v80 : Ref sig .tc := ⟨.hbm, 134, rfl⟩
abbrev main_c_19 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_c_20 : Ref sig .tc := ⟨.hbm, 141, rfl⟩
abbrev main_v86 : Ref sig .tc := ⟨.hbm, 142, rfl⟩
abbrev main_v87 : Ref sig .tc := ⟨.hbm, 143, rfl⟩
abbrev main_c_21 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_c_22 : Ref sig .tc := ⟨.hbm, 151, rfl⟩
abbrev main_v94 : Ref sig .tc := ⟨.hbm, 152, rfl⟩
abbrev main_v95 : Ref sig .tc := ⟨.hbm, 153, rfl⟩
abbrev main_c_23 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_cst_24 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_25 : Ref sig .tc := ⟨.hbm, 170, rfl⟩
abbrev main_v110 : Ref sig .tc := ⟨.hbm, 171, rfl⟩
abbrev main_cst_26 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_27 : Ref sig .tc := ⟨.hbm, 179, rfl⟩
abbrev main_v117 : Ref sig .tc := ⟨.hbm, 180, rfl⟩
abbrev main_cst_28 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_cst_29 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_cst_30 : Ref sig .tc := ⟨.hbm, 205, rfl⟩
abbrev main_v140 : Ref sig .tc := ⟨.hbm, 206, rfl⟩
abbrev main_cst_31 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_cst_32 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_33 : Ref sig .tc := ⟨.hbm, 215, rfl⟩
abbrev main_call3_v0 : Ref sig .tc := ⟨.hbm, 216, rfl⟩
abbrev main_call3_v1 : Ref sig .tc := ⟨.hbm, 217, rfl⟩
abbrev main_v147 : Ref sig .tc := ⟨.hbm, 218, rfl⟩
abbrev main_c_34 : Ref sig .tc := ⟨.hbm, 219, rfl⟩
abbrev main_v148 : Ref sig .tc := ⟨.hbm, 220, rfl⟩
abbrev main_v149 : Ref sig .tc := ⟨.hbm, 221, rfl⟩
abbrev main_c_35 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_c_36 : Ref sig .tc := ⟨.hbm, 228, rfl⟩
abbrev main_v155 : Ref sig .tc := ⟨.hbm, 229, rfl⟩
abbrev main_v156 : Ref sig .tc := ⟨.hbm, 230, rfl⟩
abbrev main_c_37 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_c_38 : Ref sig .tc := ⟨.hbm, 238, rfl⟩
abbrev main_v163 : Ref sig .tc := ⟨.hbm, 239, rfl⟩
abbrev main_v164 : Ref sig .tc := ⟨.hbm, 240, rfl⟩
abbrev main_c_39 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_cst_40 : Ref sig .tc := ⟨.hbm, 250, rfl⟩
abbrev main_v173 : Ref sig .tc := ⟨.hbm, 251, rfl⟩
abbrev main_v174 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_call4_cst : Ref sig .tc := ⟨.hbm, 257, rfl⟩
abbrev main_call4_v0 : Ref sig .tc := ⟨.hbm, 258, rfl⟩
abbrev main_v179 : Ref sig .tc := ⟨.hbm, 259, rfl⟩
abbrev main_cst_41 : Ref sig .tc := ⟨.hbm, 260, rfl⟩
abbrev main_v180 : Ref sig .tc := ⟨.hbm, 261, rfl⟩
abbrev main_cst_42 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_43 : Ref sig .tc := ⟨.hbm, 269, rfl⟩
abbrev main_v187 : Ref sig .tc := ⟨.hbm, 270, rfl⟩
abbrev main_cst_44 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_cst_45 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_cst_46 : Ref sig .tc := ⟨.hbm, 291, rfl⟩
abbrev main_v206 : Ref sig .tc := ⟨.hbm, 292, rfl⟩
abbrev main_cst_47 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_cst_48 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_cst_49 : Ref sig .tc := ⟨.hbm, 301, rfl⟩
abbrev main_call5_v0 : Ref sig .tc := ⟨.hbm, 302, rfl⟩
abbrev main_call5_v1 : Ref sig .tc := ⟨.hbm, 303, rfl⟩
abbrev main_v213 : Ref sig .tc := ⟨.hbm, 304, rfl⟩
abbrev main_c_50 : Ref sig .tc := ⟨.hbm, 305, rfl⟩
abbrev main_v214 : Ref sig .tc := ⟨.hbm, 306, rfl⟩
abbrev main_v215 : Ref sig .tc := ⟨.hbm, 307, rfl⟩
abbrev main_c_51 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_c_52 : Ref sig .tc := ⟨.hbm, 314, rfl⟩
abbrev main_v221 : Ref sig .tc := ⟨.hbm, 315, rfl⟩
abbrev main_v222 : Ref sig .tc := ⟨.hbm, 316, rfl⟩
abbrev main_c_53 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_c_54 : Ref sig .tc := ⟨.hbm, 324, rfl⟩
abbrev main_v229 : Ref sig .tc := ⟨.hbm, 325, rfl⟩
abbrev main_v230 : Ref sig .tc := ⟨.hbm, 326, rfl⟩
abbrev main_c_55 : Ref sig .tc := ⟨.hbm, 327, rfl⟩
abbrev main_v231 : Ref sig .tc := ⟨.hbm, 328, rfl⟩
abbrev main_v232 : Ref sig .tc := ⟨.hbm, 329, rfl⟩
abbrev main_v233 : Ref sig .tc := ⟨.hbm, 330, rfl⟩
abbrev main_v234 : Ref sig .tc := ⟨.hbm, 331, rfl⟩
abbrev main_v235 : Ref sig .tc := ⟨.hbm, 332, rfl⟩
abbrev main_v236 : Ref sig .tc := ⟨.hbm, 333, rfl⟩
abbrev main_v237 : Ref sig .tc := ⟨.hbm, 334, rfl⟩
abbrev main_v238 : Ref sig .tc := ⟨.hbm, 335, rfl⟩
abbrev main_cst_56 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_cst_57 : Ref sig .tc := ⟨.hbm, 343, rfl⟩
abbrev main_v245 : Ref sig .tc := ⟨.hbm, 344, rfl⟩
abbrev main_cst_58 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_cst_59 : Ref sig .tc := ⟨.hbm, 352, rfl⟩
abbrev main_v252 : Ref sig .tc := ⟨.hbm, 353, rfl⟩
abbrev main_cst_60 : Ref sig .tc := ⟨.hbm, 354, rfl⟩
abbrev main_v253 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_v257 : Ref sig .tc := ⟨.hbm, 359, rfl⟩
abbrev main_v258 : Ref sig .tc := ⟨.hbm, 360, rfl⟩
abbrev main_v259 : Ref sig .tc := ⟨.hbm, 361, rfl⟩
abbrev main_v260 : Ref sig .tc := ⟨.hbm, 362, rfl⟩
abbrev main_cst_61 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_v273 : Ref sig .tc := ⟨.hbm, 376, rfl⟩
abbrev main_call6_cst : Ref sig .tc := ⟨.hbm, 377, rfl⟩
abbrev main_call6_v0 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_v277 : Ref sig .tc := ⟨.hbm, 382, rfl⟩
abbrev main_v278 : Ref sig .tc := ⟨.hbm, 383, rfl⟩
abbrev main_v279 : Ref sig .tc := ⟨.hbm, 384, rfl⟩
abbrev main_v280 : Ref sig .tc := ⟨.hbm, 385, rfl⟩
abbrev main_v281 : Ref sig .tc := ⟨.hbm, 386, rfl⟩
abbrev main_v282 : Ref sig .tc := ⟨.hbm, 387, rfl⟩
abbrev main_call7_cst : Ref sig .tc := ⟨.hbm, 388, rfl⟩
abbrev main_call7_v0 : Ref sig .tc := ⟨.hbm, 389, rfl⟩
abbrev main_v283 : Ref sig .tc := ⟨.hbm, 390, rfl⟩
abbrev main_v284 : Ref sig .tc := ⟨.hbm, 391, rfl⟩
abbrev main_v285 : Ref sig .tc := ⟨.hbm, 392, rfl⟩
abbrev main_v286 : Ref sig .tc := ⟨.hbm, 393, rfl⟩
abbrev main_v287 : Ref sig .tc := ⟨.hbm, 394, rfl⟩
abbrev main_cst_62 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_call8_cst : Ref sig .tc := ⟨.hbm, 401, rfl⟩
abbrev main_call8_v0 : Ref sig .tc := ⟨.hbm, 402, rfl⟩
abbrev main_v293 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_cst_63 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_call9_cst : Ref sig .tc := ⟨.hbm, 413, rfl⟩
abbrev main_call9_v0 : Ref sig .tc := ⟨.hbm, 414, rfl⟩
abbrev main_v302 : Ref sig .tc := ⟨.hbm, 415, rfl⟩
abbrev main_v303 : Ref sig .tc := ⟨.hbm, 416, rfl⟩
abbrev main_v304 : Ref sig .tc := ⟨.hbm, 417, rfl⟩
abbrev main_v305 : Ref sig .tc := ⟨.hbm, 418, rfl⟩
abbrev main_v306 : Ref sig .tc := ⟨.hbm, 419, rfl⟩
abbrev main_v307 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_call10_cst : Ref sig .tc := ⟨.hbm, 424, rfl⟩
abbrev main_call10_v0 : Ref sig .tc := ⟨.hbm, 425, rfl⟩
abbrev main_v311 : Ref sig .tc := ⟨.hbm, 426, rfl⟩
abbrev main_v312 : Ref sig .tc := ⟨.hbm, 427, rfl⟩
abbrev main_v313 : Ref sig .tc := ⟨.hbm, 428, rfl⟩
abbrev main_v314 : Ref sig .tc := ⟨.hbm, 429, rfl⟩
abbrev main_v315 : Ref sig .tc := ⟨.hbm, 430, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S100000x128_S128x64_S100000x64_1_0_0_1_n_n_wf : DotDims.WF S100000x128 S128x64 S100000x64 [1] [0] [0] [1] [] []
  dot_S100000x64_S64x40_S100000x40_1_0_0_1_n_n_wf : DotDims.WF S100000x64 S64x40 S100000x40 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Region0.lean ====
import proofs.«174816_j57878979281252_2_alg».proof.Proof.Gen.KernelIdeal.Launch
import proofs.«174816_j57878979281252_2_alg».proof.Proof.Gen.KernelIdeal.Skeleton
import proofs.«174816_j57878979281252_2_alg».proof.Proof.Gen.KernelIdeal.Points
import Idealize.ShloMosaic.Lib.Pipeline.FrameBody
import Idealize.ShloMosaic.Lib.Pipeline.Value
import Idealize.ShloMosaic.Lib.Tactic

/-!
# Pipeline 0: the projection y = x @ w, one row block per grid point

The grid has 20 points; point t stages row block t (5000 rows of 256) of the left operand, the whole
256 × 128 right operand (brought in once, at the first point, and resident afterwards), and writes row block t
(5000 rows of 128) of the product back. The body reads the two staged operands whole and stores their product
over the whole output buffer, so what it leaves there is the product of the two input blocks of the point, and
nothing else of the core's state is touched.

Everything is stated for an arbitrary float instance F.
-/

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers of each core as the region finds them
variable (V : (c : Dev nD) → (b : Ref sig .tc) → Buf (Elt F) ((c : Thread nD τ).loc b))

/-! ## The windows' blocks -/

/-- Window w's block at point t: the part of the window's array, as the region finds it, under the block's
    rectangle. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds row block t when the body runs at t, for any proof data that reads
    its array off V and whose body leaves the block in place: the block is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole operand at every point although it is fetched at the first
    point only: its block index never moves, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_2 : Rect S5000x128 := Rect.unit (s := S5000x128) ![0, 0] S5000x128.size inb_S5000x128_S5000x128_0_0

/-- The offsets of the body's rectangles are zero on both axes. -/
theorem hz0 : (![0, 0] : Fin 2 → Nat) = fun _ => 0 := funext fun a => by fin_cases a <;> rfl

/-- The one store covers the output buffer. -/
theorem cover0_2 (p0 : Vec F S5000x128 .f32) (y : S5000x128.Idx) :
    ∃ pc ∈ ([⟨r0_2, p0⟩] : List (View.Piece (Elt F) S5000x128 .f32)), y ∈ pc.1.set :=
  ⟨_, List.mem_singleton_self _, View.mem_set_unit_zero hz0 inb_S5000x128_S5000x128_0_0 y⟩

/-! ## The body's triple -/

set_option maxHeartbeats 1000000 in
/-- The body on whole staging memrefs (the two operands' at contents x0, x1, the result's at anything) runs
    to the continuation holding the operands' as they were and the result's at the product payload of x0 and x1. -/
theorem sound_kernel0 (c : Dev nD) (E : Set ℕ) (i : grid0.Coords)
    (arg1 : Memref sig .tc .vmem S5000x256 .f32) (harg1 : arg1.IsWhole)
    (arg2 : Memref sig .tc .vmem S256x128 .f32) (harg2 : arg2.IsWhole)
    (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (cover0_2 _), View.canon_unit_zero hz0]
  simp only [View.readAt_eq_ld, View.ld_unit_zero (S := S5000x256) hz0, View.ld_unit_zero (S := S256x128) hz0]

/-! ## The pipeline's proof data -/

/-- The proof data of pipeline 0 on core c: the arrays as the region finds them; after the body at point t each
    operand's buffer still at its block and the result's buffer at the product payload of the two blocks; the
    invariant is the core's scoped buffers that are no staging buffer of this pipeline, untouched; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.scopedRest (Ix := Unit) (Name := ℕ) (U := UR sig nD τ) (Lvl := ℕ) (Val := Elt F) spec0 c
  q _ := fullShare
  owed _ := 0

theorem dat0_A (c : Dev nD) (w : Fin cfg0.W) : (dat0 V c).A w = V c (Pipeline.arrRef spec0 w) := by
  dsimp only [dat0]
theorem dat0_q (c : Dev nD) (w : Fin cfg0.W) : (dat0 V c).q w = fullShare := by
  dsimp only [dat0]
theorem dat0_owed (c : Dev nD) (t : Fin (cfg0.N + 1)) : (dat0 V c).owed t = 0 := by
  dsimp only [dat0]

theorem dat0_after_0 (c : Dev nD) (t : Fin cfg0.N) : (dat0 V c).after 0 t = iblk0 V c 0 t := by dsimp only [dat0]
theorem dat0_after_1 (c : Dev nD) (t : Fin cfg0.N) : (dat0 V c).after 1 t = iblk0 V c 1 t := by dsimp only [dat0]
theorem dat0_after_2 (c : Dev nD) (t : Fin cfg0.N) :
    (dat0 V c).after 2 t = k0_pay1 (iblk0 V c 0 t) (iblk0 V c 1 t) := by dsimp only [dat0]

/-- Each operand's current staging buffer holds its block at every point. -/
theorem before0_0 (c : Dev nD) (t : Fin cfg0.N) (d) : (dat0 V c).before 0 t d = iblk0 V c 0 t :=
  before0_0_of V (dat0 V c) (dat0_A V c 0) (dat0_after_0 V c) t d
theorem before0_1 (c : Dev nD) (t : Fin cfg0.N) (d) : (dat0 V c).before 1 t d = iblk0 V c 1 t :=
  before0_1_of V (dat0 V c) (dat0_A V c 1) (dat0_after_1 V c) t d

/-- The invariant is entered from the scoped rest and gives it back. -/
theorem Φ0_first (c : Dev nD) : (Pipeline.scopedRest spec0 c : sProp 𝕄) ⊢ (dat0 V c).Φ 0 := .rfl
theorem Φ0_last (c : Dev nD) : (dat0 V c).Φ (Fin.last cfg0.N) ⊢ (Pipeline.scopedRest spec0 c : sProp 𝕄) := .rfl

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.Region1.lean ====
import proofs.«174816_j57878979281252_2_alg».proof.Proof.Gen.KernelIdeal.Launch
import proofs.«174816_j57878979281252_2_alg».proof.Proof.Gen.KernelIdeal.Skeleton
import proofs.«174816_j57878979281252_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition at grid coordinates `i` (the scalar chain of the printed `scf.if`): the
    point is the grid's first, where the two accumulators are reset. -/
abbrev reset1 (i : grid1.Coords) : Prop :=
  (Scalar.cmpi .ne (Scalar.extui (Scalar.cmpi .eq (BitVec.ofNat 32 (i 0).val) 0#32)) 0#32) = 1#1
/-- The body's second branch condition: the point is the grid's last, where the accumulators are stored to the two
    small outputs. -/
abbrev last1 (i : grid1.Coords) : Prop := k1_cond2 i = 1#1

/-- The offsets of every load and store of the body are zero. -/
theorem hz1 : (![0, 0] : Fin 2 → Nat) = fun _ => 0 := funext fun a => by fin_cases a <;> rfl

/-- A store through the whole-shape rectangle at zero offsets, made last, is what the view then reads, whatever was
    stored before and whatever the buffer held. -/
theorem read_store1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_of_cover_last v f v f ⟨Rect.unit off S.size inb, w⟩ L [] (View.mem_set_unit_zero h inb),
    View.read_writes_eq_canon _ _ _ (fun y => ⟨_, List.mem_singleton_self _, View.mem_set_unit_zero h inb y⟩),
    View.canon_unit_zero h]

/-! ## The body's triple, one per control case

The body on whole memrefs: the raw block `x0`, the bias row `x1`, the block out, the two small outputs and the two
accumulators. Each case runs to the continuation holding the inputs as they were, the block out at the payload of
the inputs, and the accumulators advanced by this block's column sums. -/

set_option maxHeartbeats 1000000 in
/-- FIRST POINT: the accumulators, at anything, are zeroed and then take this block's column sums; the small outputs
    are not touched. -/
theorem run1_A (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (h0 : reset1 i) (h1 : ¬last1 i)
    (x0 : Vec F S5000x128 .f32) (x1 : Vec F S1x128 .f32) (xi3 xi4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare xi3 ∗ owns (c : Thread nD τ) arg5 fullShare xi4
            ∗ owns (c : Thread nD τ) arg6 fullShare (k1_pay4 x0 x1 (k1_pay1 (F := F))) ∗ owns (c : Thread nD τ) arg7 fullShare (k1_pay5 x0 x1 (k1_pay2 (F := F)))) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, ⟨%f4, %hf4, H4⟩, ⟨%d5, %f5, -, H5⟩, ⟨%d6, %f6, -, H6⟩, Hk⟩
  subst hf0 hf1 hf3 hf4
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]
  · iexists _; isplitr; swap; · iexact H2
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  isplitl [H3]; · iexists _; isplitr; · ipureintro; rfl
                  iexact H3
  isplitl [H4]; · iexists _; isplitr; · ipureintro; rfl
                  iexact H4
  isplitl [H5]
  · iexists _; isplitr; swap; · iexact H5
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  · iexists _; isplitr; swap; · iexact H6
    ipureintro
    sl_unfold_words
    rw [read_store1 _ _ hz1]
    simp only [View.readCov_unit_zero (S := S1x128) _ hz1, View.readAt_eq_ld, View.ld_unit_zero (S := S5000x128) hz1, View.ld_unit_zero (S := S1x128) hz1]

set_option maxHeartbeats 1000000 in
/-- A MIDDLE POINT: the accumulators, at `a0` and `a1`, take this block's column sums; the small outputs are not
    touched. -/
theorem run1_B (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (h0 : ¬reset1 i) (h1 : ¬last1 i)
    (x0 : Vec F S5000x128 .f32) (x1 : Vec F S1x128 .f32) (xi3 xi4 a0 a1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare xi3 ∗ owns (c : Thread nD τ) arg5 fullShare xi4
            ∗ owns (c : Thread nD τ) arg6 fullShare (k1_pay4 x0 x1 a0) ∗ owns (c : Thread nD τ) arg7 fullShare (k1_pay5 x0 x1 a1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, ⟨%f6, %hf6, H6⟩, Hk⟩
  subst hf0 hf1 hf3 hf4 hf5 hf6
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]
  · iexists _; isplitr; swap; · iexact H2
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  isplitl [H3]; · iexists _; isplitr; · ipureintro; rfl
                  iexact H3
  isplitl [H4]; · iexists _; isplitr; · ipureintro; rfl
                  iexact H4
  isplitl [H5]
  · iexists _; isplitr; swap; · iexact H5
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  · iexists _; isplitr; swap; · iexact H6
    ipureintro
    sl_unfold_words
    rw [read_store1 _ _ hz1]
    simp only [View.readCov_unit_zero (S := S1x128) _ hz1, View.readAt_eq_ld, View.ld_unit_zero (S := S5000x128) hz1, View.ld_unit_zero (S := S1x128) hz1]

set_option maxHeartbeats 1000000 in
/-- LAST POINT: the accumulators take this block's column sums and are then copied to the two small outputs, which
    held anything. -/
theorem run1_C (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (h0 : ¬reset1 i) (h1 : last1 i)
    (x0 : Vec F S5000x128 .f32) (x1 : Vec F S1x128 .f32) (a0 a1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare a0 ∗ owns (c : Thread nD τ) arg7 fullShare a1
        ∗ (iprop(owns (c : Thread nD τ) arg1 fullShare x0 ∗ owns (c : Thread nD τ) arg2 fullShare x1
            ∗ owns (c : Thread nD τ) arg3 fullShare (k1_pay3 x0 x1)
            ∗ owns (c : Thread nD τ) arg4 fullShare (k1_pay4 x0 x1 a0) ∗ owns (c : Thread nD τ) arg5 fullShare (k1_pay5 x0 x1 a1)
            ∗ owns (c : Thread nD τ) arg6 fullShare (k1_pay4 x0 x1 a0) ∗ owns (c : Thread nD τ) arg7 fullShare (k1_pay5 x0 x1 a1)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f5, %hf5, H5⟩, ⟨%f6, %hf6, H6⟩, Hk⟩
  subst hf0 hf1 hf5 hf6
  sl_exec (disch := first | exact h0 | exact h1)
  sl_step
  iapply Hk
  isplitl [H0]; · iexists _; isplitr; · ipureintro; rfl
                  iexact H0
  isplitl [H1]; · iexists _; isplitr; · ipureintro; rfl
                  iexact H1
  isplitl [H2]
  · iexists _; isplitr; swap; · iexact H2
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  isplitl [H3]
  · iexists _; isplitr; swap; · iexact H3
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  isplitl [H4]
  · iexists _; isplitr; swap; · iexact H4
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  isplitl [H5]
  · iexists _; isplitr; swap; · iexact H5
    ipureintro
    sl_unfold_words
    rw [read_store1 _ _ hz1]
    simp only [View.readCov_unit_zero (S := S1x128) _ hz1, View.readAt_eq_ld, View.ld_unit_zero (S := S5000x128) hz1, View.ld_unit_zero (S := S1x128) hz1]
  · iexists _; isplitr; swap; · iexact H6
    ipureintro
    sl_unfold_words
    rw [read_store1 _ _ hz1]
    simp only [View.readCov_unit_zero (S := S1x128) _ hz1, View.readAt_eq_ld, View.ld_unit_zero (S := S5000x128) hz1, View.ld_unit_zero (S := S1x128) hz1]

/-! ## The region at the entry contents `V` -/

section Region
-- the TensorCore's buffers as the region finds them
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of 5000 rows of the raw array at point `t`, -/
abbrev raw1 (c : Dev nD) (t : Fin cfg1.N) : Vec F S5000x128 .f32 := iblk1 V c 0 t
/-- and the bias row (the same block at every point). -/
abbrev bias1 (c : Dev nD) (t : Fin cfg1.N) : Vec F S1x128 .f32 := iblk1 V c 1 t

/-! ## The accumulators -/

/-- The column-sum accumulator after the body at point `n`: zero, then one block's column sums added per point. -/
def accS1 (c : Dev nD) : (n : ℕ) → n < cfg1.N → Vec F S1x128 .f32
  | 0, h => k1_pay4 (raw1 V c ⟨0, h⟩) (bias1 V c ⟨0, h⟩) (k1_pay1 (F := F))
  | n + 1, h => k1_pay4 (raw1 V c ⟨n + 1, h⟩) (bias1 V c ⟨n + 1, h⟩) (accS1 c n (Nat.lt_of_succ_lt h))

/-- The accumulator of the column sums of squares after the body at point `n`. -/
def accQ1 (c : Dev nD) : (n : ℕ) → n < cfg1.N → Vec F S1x128 .f32
  | 0, h => k1_pay5 (raw1 V c ⟨0, h⟩) (bias1 V c ⟨0, h⟩) (k1_pay2 (F := F))
  | n + 1, h => k1_pay5 (raw1 V c ⟨n + 1, h⟩) (bias1 V c ⟨n + 1, h⟩) (accQ1 c n (Nat.lt_of_succ_lt h))

theorem accS1_first (c : Dev nD) (t : Fin cfg1.N) (ht : t.val = 0) :
    accS1 V c t.val t.isLt = k1_pay4 (raw1 V c t) (bias1 V c t) (k1_pay1 (F := F)) := by
  obtain ⟨n, hn⟩ := t
  cases n with
  | zero => rfl
  | succ n => exact absurd ht (Nat.succ_ne_zero n)

theorem accQ1_first (c : Dev nD) (t : Fin cfg1.N) (ht : t.val = 0) :
    accQ1 V c t.val t.isLt = k1_pay5 (raw1 V c t) (bias1 V c t) (k1_pay2 (F := F)) := by
  obtain ⟨n, hn⟩ := t
  cases n with
  | zero => rfl
  | succ n => exact absurd ht (Nat.succ_ne_zero n)

theorem accS1_next (c : Dev nD) (t : Fin cfg1.N) (n : ℕ) (h : n < cfg1.N) (ht : t.val = n + 1) :
    accS1 V c t.val t.isLt = k1_pay4 (raw1 V c t) (bias1 V c t) (accS1 V c n h) := by
  obtain ⟨m, hm⟩ := t
  dsimp only at ht
  subst ht
  rfl

theorem accQ1_next (c : Dev nD) (t : Fin cfg1.N) (n : ℕ) (h : n < cfg1.N) (ht : t.val = n + 1) :
    accQ1 V c t.val t.isLt = k1_pay5 (raw1 V c t) (bias1 V c t) (accQ1 V c n h) := by
  obtain ⟨m, hm⟩ := t
  dsimp only at ht
  subst ht
  rfl

/-! ## The invariant between points -/

/-- What the accumulators hold before point `t`: anything before the first point (the body resets them there), and
    after point `n` the sums through point `n`. -/
def AccAt1 (c : Dev nD) (t : Fin (cfg1.N + 1)) (a0 a1 : Vec F S1x128 .f32) : Prop :=
  ∀ (n : ℕ) (h : n < cfg1.N), t.val = n + 1 → a0 = accS1 V c n h ∧ a1 = accQ1 V c n h

/-- The invariant before point `t`: the two accumulators whole at such contents, and every other scoped buffer that
    is no staging buffer of this call at some contents. -/
def Φ1 (c : Dev nD) (t : Fin (cfg1.N + 1)) : sProp 𝕄 :=
  iprop((∃ a0 a1 : Vec F S1x128 .f32, ⌜AccAt1 V c t a0 a1⌝
          ∗ owns (c : Thread nD τ) (Memref.whole cc1_scratch0 : Memref sig .tc .vmem S1x128 .f32) fullShare a0
          ∗ owns (c : Thread nD τ) (Memref.whole cc1_scratch1 : Memref sig .tc .vmem S1x128 .f32) fullShare a1)
        ∗ Pipeline.scopedRestBut (Ix := Unit) (Name := ℕ) (U := UR sig nD τ) (Lvl := ℕ) (Val := Elt F) spec1 c [cc1_scratch0, cc1_scratch1])

/-- Before the first point nothing is asked of the accumulators. -/
theorem accAt1_zero (c : Dev nD) (a0 a1 : Vec F S1x128 .f32) : AccAt1 V c 0 a0 a1 :=
  fun n _ e => absurd e (Nat.succ_ne_zero n).symm

/-- The first point leaves the accumulators at their first values, -/
theorem accAt1_first (c : Dev nD) (t : Fin cfg1.N) (ht : t.val = 0) :
    AccAt1 V c t.succ (k1_pay4 (raw1 V c t) (bias1 V c t) (k1_pay1 (F := F)))
      (k1_pay5 (raw1 V c t) (bias1 V c t) (k1_pay2 (F := F))) := by
  intro n h e
  have hn : n = t.val := by rw [Fin.val_succ] at e; omega
  subst hn
  exact ⟨(accS1_first V c t ht).symm, (accQ1_first V c t ht).symm⟩

/-- and a later point advances them by one block. -/
theorem accAt1_next (c : Dev nD) (t : Fin cfg1.N) (ht : t.val ≠ 0) (a0 a1 : Vec F S1x128 .f32)
    (hacc : AccAt1 V c t.castSucc a0 a1) :
    AccAt1 V c t.succ (k1_pay4 (raw1 V c t) (bias1 V c t) a0) (k1_pay5 (raw1 V c t) (bias1 V c t) a1) := by
  intro n h e
  have hn : n = t.val := by rw [Fin.val_succ] at e; omega
  subst hn
  have hp : t.val - 1 < cfg1.N := lt_of_le_of_lt (Nat.sub_le _ _) t.isLt
  have hs : t.val = (t.val - 1) + 1 := by omega
  obtain ⟨e0, e1⟩ := hacc (t.val - 1) hp (by rw [Fin.val_castSucc]; exact hs)
  subst e0 e1
  exact ⟨(accS1_next V c t (t.val - 1) hp hs).symm, (accQ1_next V c t (t.val - 1) hp hs).symm⟩

/-! ## The proof data -/

/-- The pipeline's proof data on core `c`: the arrays as the region finds them; after the body at point `t` the two
    inputs' buffers at their blocks, the block out at the payload of the inputs' blocks, the two small outputs at the
    accumulators' values after point `t` (asked for at the last point only: elsewhere they are idle); the invariant
    `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (raw1 V c t) (bias1 V c t)
    | ⟨3, _⟩ => accS1 V c t.val t.isLt
    | ⟨4, _⟩ => accQ1 V c t.val t.isLt
  Φ t := Φ1 V c t
  q _ := fullShare
  owed _ := 0

theorem dat1_A (c : Dev nD) (w : Fin cfg1.W) : (dat1 V c).A w = V c (Pipeline.arrRef spec1 w) := by
  dsimp only [dat1]
theorem dat1_q (c : Dev nD) (w : Fin cfg1.W) : (dat1 V c).q w = fullShare := by
  dsimp only [dat1]
theorem dat1_owed (c : Dev nD) (t : Fin (cfg1.N + 1)) : (dat1 V c).owed t = 0 := by
  dsimp only [dat1]
theorem dat1_Φ (c : Dev nD) (t : Fin (cfg1.N + 1)) : (dat1 V c).Φ t = Φ1 V c t := by
  dsimp only [dat1]

theorem dat1_after_0 (c : Dev nD) (t : Fin cfg1.N) : (dat1 V c).after 0 t = iblk1 V c 0 t := by dsimp only [dat1]
theorem dat1_after_1 (c : Dev nD) (t : Fin cfg1.N) : (dat1 V c).after 1 t = iblk1 V c 1 t := by dsimp only [dat1]
theorem dat1_after_2 (c : Dev nD) (t : Fin cfg1.N) :
    (dat1 V c).after 2 t = k1_pay3 (raw1 V c t) (bias1 V c t) := by dsimp only [dat1]
theorem dat1_after_3 (c : Dev nD) (t : Fin cfg1.N) : (dat1 V c).after 3 t = accS1 V c t.val t.isLt := by dsimp only [dat1]
theorem dat1_after_4 (c : Dev nD) (t : Fin cfg1.N) : (dat1 V c).after 4 t = accQ1 V c t.val t.isLt := by dsimp only [dat1]

/-! ## What the body finds in the inputs' buffers -/

/-- The raw window is fetched at every point and its body leaves the block in place: its current buffer holds the
    point's block. -/
theorem before1_0 (c : Dev nD) (t : Fin cfg1.N) (d) : (dat1 V c).before 0 t d = iblk1 V c 0 t := by
  rw [Dat.before_in_eq_fetched (dat1 V c) 0 rfl (fun _ => rfl) (fun _ _ _ => rfl)
    (fun t => by rw [dat1_after_0]; unfold Dat.blockOf iblk1; rw [dat1_A]; try rfl) t d]
  unfold Dat.fetched Dat.blockOf iblk1; rw [dat1_A]; try rfl

/-- The bias window is fetched at the first point only; its block index never moves and the body leaves it in place,
    so its buffer holds the (one) block at every point. -/
theorem before1_1 (c : Dev nD) (t : Fin cfg1.N) (d) : (dat1 V c).before 1 t d = iblk1 V c 1 t := by
  rw [Dat.before_in_eq_fetched (dat1 V c) 1 rfl (fun _ => rfl) (fun _ _ _ => rfl)
    (fun t => by rw [dat1_after_1]; unfold Dat.blockOf iblk1; rw [dat1_A]; try rfl) t d]
  unfold Dat.fetched Dat.blockOf iblk1; rw [dat1_A]; try rfl

/-! ## The control cases over the grid -/

/-- The reset is taken at the first point only, -/
theorem hreset1 : ∀ t : Fin cfg1.N, reset1 (grid1.coords t) ↔ t.val = 0 :=
  (by decide +kernel : ∀ t : Fin grid1.N, reset1 (grid1.coords t) ↔ t.val = 0)
/-- the final store at the last point only. -/
theorem hlast1 : ∀ t : Fin cfg1.N, last1 (grid1.coords t) ↔ t.val = 19 :=
  (by decide +kernel : ∀ t : Fin grid1.N, last1 (grid1.coords t) ↔ t.val = 19)

/-- Where the final store is not taken the two small outputs are idle and are not written back; -/
theorem idle1_3 : ∀ t : Fin cfg1.N, ¬last1 (grid1.coords t) → cfg1.idle 3 (grid1.coords t) = true := by decide +kernel
theorem idle1_4 : ∀ t : Fin cfg1.N, ¬last1 (grid1.coords t) → cfg1.idle 4 (grid1.coords t) = true := by decide +kernel
theorem noFlush1_3 : ∀ t : Fin cfg1.N, ¬last1 (grid1.coords t) → (cfg1.win 3).flush t = false := by decide +kernel
theorem noFlush1_4 : ∀ t : Fin cfg1.N, ¬last1 (grid1.coords t) → (cfg1.win 4).flush t = false := by decide +kernel
/-- where it is taken they are live. -/
theorem live1_3 : ∀ t : Fin cfg1.N, last1 (grid1.coords t) → cfg1.idle 3 (grid1.coords t) = false := by decide +kernel
theorem live1_4 : ∀ t : Fin cfg1.N, last1 (grid1.coords t) → cfg1.idle 4 (grid1.coords t) = false := by decide +kernel

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4000000 in
/-- The body at any point. The inputs' buffers hold their blocks; the point is the first, a middle one or the last,
    and that case's triple applies: the invariant hands over the accumulators (at anything before the first point,
    at the sums so far later) and takes them back advanced; the small outputs pass through untouched except at
    the last point, where they receive the accumulators. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    dat1_after_0, dat1_after_1, dat1_after_2, dat1_Φ, dat1_Φ]
  unfold Φ1
  have hN : t.val < 20 := lt_of_lt_of_eq t.isLt (show cfg1.N = 20 from N_1)
  by_cases hz : t.val = 0
  · -- the first point
    have hr : reset1 (grid1.coords t) := (hreset1 t).mpr hz
    have hl : ¬last1 (grid1.coords t) := fun h => by have := (hlast1 t).mp h; omega
    rw [Dat.leavesExact_idle (dat1 V c) 3 t (idle1_3 t hl) (noFlush1_3 t hl),
      Dat.leavesExact_idle (dat1 V c) 4 t (idle1_4 t hl) (noFlush1_4 t hl)]
    iintro ⟨⟨⟨%a0, %a1, -, HS0, HS1⟩, Hr⟩, Ho, ⟨%d0, H0⟩, ⟨%d1, H1⟩, ⟨%d2, H2⟩, ⟨%d3, H3⟩, ⟨%d4, H4⟩⟩
    iapply (run1_A c Set.univ (grid1.coords t) _ _ _ _ _ _ _ _ _ _ _ _ _ _ hr hl (raw1 V c t) (bias1 V c t)
      ((dat1 V c).before 3 t d3) ((dat1 V c).before 4 t d4) _)
    isplitl [H0]; · iexact H0
    isplitl [H1]; · iexact H1
    isplitl [H2]; · iexists _; iexact H2
    isplitl [H3]; · iexact H3
    isplitl [H4]; · iexact H4
    isplitl [HS0]; · iexists _; iexact HS0
    isplitl [HS1]; · iexists _; iexact HS1
    iintro ⟨H0, H1, H2, H3, H4, HS0, HS1⟩
    isplitl [HS0 HS1 Hr]
    · isplitr [Hr]; swap; · iexact Hr
      iexists _, _; isplitr; · ipureintro; exact accAt1_first V c t hz
      isplitl [HS0]; · iexact HS0
      iexact HS1
    isplitl [Ho]; · iexact Ho
    isplitl [H0]; · iexact H0
    isplitl [H1]; · iexact H1
    isplitl [H2]; · iexact H2
    isplitl [H3]; · iexists _; iexact H3
    iexists _; iexact H4
  · by_cases hl19 : t.val = 19
    · -- the last point
      have hr : ¬reset1 (grid1.coords t) := fun h => hz ((hreset1 t).mp h)
      have hl : last1 (grid1.coords t) := (hlast1 t).mpr hl19
      rw [show (dat1 V c).leavesExact 3 t = owns (c : Thread nD τ) (st1_3 t) fullShare ((dat1 V c).after 3 t) from by
          unfold Dat.leavesExact; rw [live1_3 t hl],
        show (dat1 V c).leavesExact 4 t = owns (c : Thread nD τ) (st1_4 t) fullShare ((dat1 V c).after 4 t) from by
          unfold Dat.leavesExact; rw [live1_4 t hl],
        dat1_after_3, dat1_after_4]
      iintro ⟨⟨⟨%a0, %a1, %hacc, HS0, HS1⟩, Hr⟩, Ho, ⟨%d0, H0⟩, ⟨%d1, H1⟩, ⟨%d2, H2⟩, ⟨%d3, H3⟩, ⟨%d4, H4⟩⟩
      obtain ⟨e0, e1⟩ := accAt1_next V c t hz a0 a1 hacc t.val t.isLt (Fin.val_succ t)
      rw [← e0, ← e1]
      iapply (run1_C c Set.univ (grid1.coords t) _ _ _ _ _ _ _ _ _ _ _ _ _ _ hr hl (raw1 V c t) (bias1 V c t) a0 a1 _)
      isplitl [H0]; · iexact H0
      isplitl [H1]; · iexact H1
      isplitl [H2]; · iexists _; iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 Hr]
      · isplitr [Hr]; swap; · iexact Hr
        iexists _, _; isplitr; · ipureintro; exact accAt1_next V c t hz a0 a1 hacc
        isplitl [HS0]; · iexact HS0
        iexact HS1
      isplitl [Ho]; · iexact Ho
      isplitl [H0]; · iexact H0
      isplitl [H1]; · iexact H1
      isplitl [H2]; · iexact H2
      isplitl [H3]; · iexact H3
      iexact H4
    · -- a middle point
      have hr : ¬reset1 (grid1.coords t) := fun h => hz ((hreset1 t).mp h)
      have hl : ¬last1 (grid1.coords t) := fun h => hl19 ((hlast1 t).mp h)
      rw [Dat.leavesExact_idle (dat1 V c) 3 t (idle1_3 t hl) (noFlush1_3 t hl),
        Dat.leavesExact_idle (dat1 V c) 4 t (idle1_4 t hl) (noFlush1_4 t hl)]
      iintro ⟨⟨⟨%a0, %a1, %hacc, HS0, HS1⟩, Hr⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ _ _ hr hl (raw1 V c t) (bias1 V c t)
        ((dat1 V c).before 3 t d3) ((dat1 V c).before 4 t d4) a0 a1 _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hr]
      · isplitr [Hr]; swap; · iexact Hr
        iexists _, _; isplitr; · ipureintro; exact accAt1_next V c t hz a0 a1 hacc
        isplitl [HS0]; · iexact HS0
        iexact HS1
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the invariant -/

/-- The scoped buffers that are no staging buffer of this call yield the invariant before the first point: the two
    accumulators are among them, at some contents. -/
theorem Φ1_first (c : Dev nD) : (Pipeline.scopedRest (Ix := Unit) (Name := ℕ) (U := UR sig nD τ) (Lvl := ℕ) (Val := Elt F) spec1 c : sProp 𝕄) ⊢ (dat1 V c).Φ 0 := by
  rw [scopedRest1_split, dat1_Φ]; unfold Φ1
  simp only [owns_whole]
  iintro ⟨⟨⟨%f0, HS0⟩, ⟨%f1, HS1⟩⟩, Hr⟩
  isplitr [Hr]; swap; · iexact Hr
  iexists f0, f1; isplitr; · ipureintro; exact accAt1_zero V c f0 f1
  isplitl [HS0]; · iexact HS0
  iexact HS1

/-- After the last point the invariant gives them back, the accumulators' contents forgotten. -/
theorem Φ1_last (c : Dev nD) : (dat1 V c).Φ (Fin.last cfg1.N) ⊢ (Pipeline.scopedRest (Ix := Unit) (Name := ℕ) (U := UR sig nD τ) (Lvl := ℕ) (Val := Elt F) spec1 c : sProp 𝕄) := by
  rw [scopedRest1_split, dat1_Φ]; unfold Φ1
  simp only [owns_whole]
  iintro ⟨⟨%a0, %a1, -, HS0, HS1⟩, Hr⟩
  isplitr [Hr]; swap; · iexact Hr
  isplitl [HS0]; · iexists a0; iexact HS0
  iexists a1; iexact HS1

end Region

end Cert.KernelIdeal.Reg

end
-- ==== Proof.Region2.lean ====
import proofs.«174816_j57878979281252_2_alg».proof.Proof.Gen.KernelIdeal.Launch
import proofs.«174816_j57878979281252_2_alg».proof.Proof.Gen.KernelIdeal.Skeleton
import proofs.«174816_j57878979281252_2_alg».proof.Proof.Gen.KernelIdeal.Points
import Idealize.ShloMosaic.Lib.Pipeline.FrameBody
import Idealize.ShloMosaic.Lib.Pipeline.Value
import Idealize.ShloMosaic.Lib.Tactic

/-!
# The kernel that normalises, scales, shifts and projects

At grid point `t` the body reads a block of 5000 rows of `y` (window 0), the four resident row vectors
`mu`, `var`, `g`, `bt` (windows 1 to 4) and the resident weight matrix `w` (window 5), and stores
`((g * (y - mu)) * rsqrt (var + eps) + bt) @ w` through the whole of the output block (window 6).
The five small windows are fetched at the first point only and stay in place; window 0 moves at every point.

This module gives the pipeline's proof data at any entry contents `V` of the core's buffers and at any
float instance: every input buffer holds its array's block at every point, the output buffer the payload
of those blocks; the invariant carried between points is the scoped buffers no window stages, untouched.
-/

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current buffer holds its block at every point, fetched there or not: where it is not
    fetched its block index has not moved since the point before, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current buffer holds its block at every point, fetched there or not: where it is not
    fetched its block index has not moved since the point before, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current buffer holds its block at every point, fetched there or not: where it is not
    fetched its block index has not moved since the point before, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current buffer holds its block at every point, fetched there or not: where it is not
    fetched its block index has not moved since the point before, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current buffer holds its block at every point, fetched there or not: where it is not
    fetched its block index has not moved since the point before, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current buffer holds its block at every point, fetched there or not: where it is not
    fetched its block index has not moved since the point before, and the body left the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

/-- The offsets of every access of the body are zero: each goes through the whole of its buffer. -/
theorem hz2 : (![0, 0] : Fin 2 → Nat) = fun _ => 0 := funext fun a => by fin_cases a <;> rfl

set_option maxHeartbeats 1000000 in
/-- The body on whole staging memrefs, the inputs' at contents `x0 … x5` and the output's at anything, runs to the
    continuation with the inputs' as they were and the output's at the payload of the inputs: six loads through
    whole buffers, a load of the output buffer whose value is dropped, one store through the whole output buffer. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S5000x128 .f32) (harg7 : arg7.IsWhole)
    (x0 : Vec F S5000x128 .f32) (x1 x2 x3 x4 : Vec F S1x128 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k2_pay1 x2 x3 x0 x1 x4 x5)) -∗ K ⟨⟩))
      ⊢ wp frame (wpE (defs₀ (F := F)) Variants.none c none) E
          (cc2_kernel i arg1 harg1 arg2 harg2 arg3 harg3 arg4 harg4 arg5 harg5 arg6 harg6 arg7 harg7) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (fun y => ⟨_, List.mem_singleton_self _, View.mem_set_unit_zero hz2 inb_S5000x128_S5000x128_0_0 y⟩),
    View.canon_unit_zero hz2]
  simp only [View.readAt_eq_ld, View.ld_unit_zero (S := S1x128) hz2, View.ld_unit_zero (S := S5000x128) hz2,
    View.ld_unit_zero (S := S128x128) hz2]

/-! ## The pipeline's proof data -/

/-- The proof data on core `c`: the arrays as the region finds them; after the body at point `t` each input's
    buffer at its block and the output's at the payload of the input blocks; between points the scoped buffers
    no window stages, at whatever they hold; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay1 (iblk2 V c 2 t) (iblk2 V c 3 t) (iblk2 V c 0 t) (iblk2 V c 1 t) (iblk2 V c 4 t) (iblk2 V c 5 t)
  Φ _ := Pipeline.scopedRest (Ix := Unit) (Name := ℕ) (U := UR sig nD τ) (Lvl := ℕ) (Val := Elt F) spec2 c
  q _ := fullShare
  owed _ := 0

theorem dat2_A (c : Dev nD) (w : Fin cfg2.W) : (dat2 V c).A w = V c (Pipeline.arrRef spec2 w) := by
  dsimp only [dat2]
theorem dat2_q (c : Dev nD) (w : Fin cfg2.W) : (dat2 V c).q w = fullShare := by
  dsimp only [dat2]
theorem dat2_owed (c : Dev nD) (t : Fin (cfg2.N + 1)) : (dat2 V c).owed t = 0 := by
  dsimp only [dat2]
theorem dat2_Φ (c : Dev nD) (t : Fin (cfg2.N + 1)) :
    (dat2 V c).Φ t = Pipeline.scopedRest (Ix := Unit) (Name := ℕ) (U := UR sig nD τ) (Lvl := ℕ) (Val := Elt F) spec2 c := by
  dsimp only [dat2]

/-- What the body leaves, window by window. -/
theorem dat2_after_0 (c : Dev nD) (t : Fin cfg2.N) : (dat2 V c).after 0 t = iblk2 V c 0 t := by dsimp only [dat2]
theorem dat2_after_1 (c : Dev nD) (t : Fin cfg2.N) : (dat2 V c).after 1 t = iblk2 V c 1 t := by dsimp only [dat2]
theorem dat2_after_2 (c : Dev nD) (t : Fin cfg2.N) : (dat2 V c).after 2 t = iblk2 V c 2 t := by dsimp only [dat2]
theorem dat2_after_3 (c : Dev nD) (t : Fin cfg2.N) : (dat2 V c).after 3 t = iblk2 V c 3 t := by dsimp only [dat2]
theorem dat2_after_4 (c : Dev nD) (t : Fin cfg2.N) : (dat2 V c).after 4 t = iblk2 V c 4 t := by dsimp only [dat2]
theorem dat2_after_5 (c : Dev nD) (t : Fin cfg2.N) : (dat2 V c).after 5 t = iblk2 V c 5 t := by dsimp only [dat2]
theorem dat2_after_6 (c : Dev nD) (t : Fin cfg2.N) :
    (dat2 V c).after 6 t = k2_pay1 (iblk2 V c 2 t) (iblk2 V c 3 t) (iblk2 V c 0 t) (iblk2 V c 1 t) (iblk2 V c 4 t) (iblk2 V c 5 t) := by
  dsimp only [dat2]

/-- Each input's current buffer holds its block at every point. -/
theorem before2_0 (c : Dev nD) (t : Fin cfg2.N) (d) : (dat2 V c).before 0 t d = iblk2 V c 0 t :=
  before2_0_of V (dat2 V c) (dat2_A V c 0) (dat2_after_0 V c) t d
theorem before2_1 (c : Dev nD) (t : Fin cfg2.N) (d) : (dat2 V c).before 1 t d = iblk2 V c 1 t :=
  before2_1_of V (dat2 V c) (dat2_A V c 1) (dat2_after_1 V c) t d
theorem before2_2 (c : Dev nD) (t : Fin cfg2.N) (d) : (dat2 V c).before 2 t d = iblk2 V c 2 t :=
  before2_2_of V (dat2 V c) (dat2_A V c 2) (dat2_after_2 V c) t d
theorem before2_3 (c : Dev nD) (t : Fin cfg2.N) (d) : (dat2 V c).before 3 t d = iblk2 V c 3 t :=
  before2_3_of V (dat2 V c) (dat2_A V c 3) (dat2_after_3 V c) t d
theorem before2_4 (c : Dev nD) (t : Fin cfg2.N) (d) : (dat2 V c).before 4 t d = iblk2 V c 4 t :=
  before2_4_of V (dat2 V c) (dat2_A V c 4) (dat2_after_4 V c) t d
theorem before2_5 (c : Dev nD) (t : Fin cfg2.N) (d) : (dat2 V c).before 5 t d = iblk2 V c 5 t :=
  before2_5_of V (dat2 V c) (dat2_A V c 5) (dat2_after_5 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1000000 in
/-- The body at any point: the inputs' memrefs hold their blocks, so the body's triple applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [dat2_Φ, dat2_Φ,
    show (dat2 V c).owesAt () t.succ = (dat2 V c).owesAt () t.castSucc from rfl,
    dat2_after_0, dat2_after_1, dat2_after_2, dat2_after_3, dat2_after_4, dat2_after_5, dat2_after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant at the ends -/

/-- The invariant at the first point is what the launch hands the kernel of the scoped buffers, -/
theorem Φ2_first (c : Dev nD) :
    (Pipeline.scopedRest (Ix := Unit) (Name := ℕ) (U := UR sig nD τ) (Lvl := ℕ) (Val := Elt F) spec2 c : sProp 𝕄) ⊢ (dat2 V c).Φ 0 := by
  rw [dat2_Φ]

/-- and at the last point what it takes back. -/
theorem Φ2_last (c : Dev nD) :
    (dat2 V c).Φ (Fin.last cfg2.N) ⊢ (Pipeline.scopedRest (Ix := Unit) (Name := ℕ) (U := UR sig nD τ) (Lvl := ℕ) (Val := Elt F) spec2 c : sProp 𝕄) := by
  rw [dat2_Φ]

end Cert.KernelIdeal.Reg

end
-- ==== Proof.Region8.lean ====
import proofs.«174816_j57878979281252_2_alg».proof.Proof.Gen.KernelIdeal.Launch
import proofs.«174816_j57878979281252_2_alg».proof.Proof.Gen.KernelIdeal.Skeleton
import proofs.«174816_j57878979281252_2_alg».proof.Proof.Gen.KernelIdeal.Points
import Idealize.ShloMosaic.Lib.Pipeline.FrameBody
import Idealize.ShloMosaic.Lib.Pipeline.Value
import Idealize.ShloMosaic.Lib.Tactic

/-!
# Pallas call 8: the second MLP head, z = relu(bn(y) · w1 + b1) · w2 + b2, row block by row block

Ten windows over a grid of twenty points. Window 0 is the block of 5000 rows of the activations
(fetched at every point); windows 1 to 8 are the batch-norm statistics, the scale and shift, the two
weight matrices and the two biases, each one block fetched at the first point and resident after it;
window 9 is the result's block of 5000 rows, written back at every point. The body reads the nine
inputs whole, computes one payload and stores it whole into the result's buffer: nothing is kept from
point to point, so the invariant is only the scoped buffers that no window stages, untouched.
-/

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! ## What the body leaves in the result's buffer -/

/-- The two offsets of a whole-buffer access are zero. -/
theorem hz8 : (![0, 0] : Fin 2 → Nat) = fun _ => 0 := funext fun a => by fin_cases a <;> rfl

/-- The result's block from the nine input blocks, in window order: the second matmul's product
    (of the relu of the first matmul's product of the normalised rows, plus the first bias) plus the
    second bias broadcast over the rows. -/
def out8_9 (x0 : Vec F S5000x128 .f32) (x1 x2 x3 x4 : Vec F S1x128 .f32) (x5 : Vec F S128x128 .f32)
    (x6 : Vec F S1x128 .f32) (x7 : Vec F S128x128 .f32) (x8 : Vec F S1x128 .f32) : Vec F S5000x128 .f32 :=
  k8_pay1 (k8_pay2 x2 x3 x0 x1 x4 x5 x6 x7) (k8_pay3 x8)

/-- The body's one store covers the result's buffer. -/
theorem cover8_9 (p0 : Vec F S5000x128 .f32) (y : S5000x128.Idx) :
    ∃ pc ∈ ([⟨Rect.unit (s := S5000x128) ![0, 0] S5000x128.size inb_S5000x128_S5000x128_0_0, p0⟩] : List (View.Piece (Elt F) S5000x128 .f32)), y ∈ pc.1.set :=
  ⟨_, List.mem_singleton_self _, View.mem_set_unit_zero hz8 inb_S5000x128_S5000x128_0_0 y⟩

/-! ## The body's triple -/

set_option maxHeartbeats 1000000 in
/-- The kernel body on whole staging memrefs, the nine inputs' at read contents `x0 … x8` and the result's at
    anything, runs to the continuation holding the inputs' as they were and the result's at `out8_9` of them. -/
theorem sound_kernel8 (c : Dev nD) (E : Set ℕ) (i : grid8.Coords)
    (arg0 : Memref sig .tc .vmem S5000x128 .f32) (harg0 : arg0.IsWhole)
    (arg1 : Memref sig .tc .vmem S1x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S1x128 .f32) (harg6 : arg6.IsWhole)
    (arg7 : Memref sig .tc .vmem S128x128 .f32) (harg7 : arg7.IsWhole)
    (arg8 : Memref sig .tc .vmem S1x128 .f32) (harg8 : arg8.IsWhole)
    (arg9 : Memref sig .tc .vmem S5000x128 .f32) (harg9 : arg9.IsWhole)
    (x0 : Vec F S5000x128 .f32) (x1 x2 x3 x4 : Vec F S1x128 .f32) (x5 : Vec F S128x128 .f32)
    (x6 : Vec F S1x128 .f32) (x7 : Vec F S128x128 .f32) (x8 : Vec F S1x128 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare x6 ∗ owns (c : Thread nD τ) arg7 fullShare x7
        ∗ owns (c : Thread nD τ) arg8 fullShare x8 ∗ (∃ d, owns (c : Thread nD τ) arg9 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare x8
            ∗ owns (c : Thread nD τ) arg9 fullShare (out8_9 x0 x1 x2 x3 x4 x5 x6 x7 x8)) -∗ K ⟨⟩))
      ⊢ wp frame (wpE (defs₀ (F := F)) Variants.none c none) E
          (cc8_kernel i arg0 harg0 arg1 harg1 arg2 harg2 arg3 harg3 arg4 harg4 arg5 harg5 arg6 harg6 arg7 harg7 arg8 harg8 arg9 harg9) K := by
  simp only [cc8_kernel_eq_skeleton]; unfold cc8_kernel_skel
  simp only [k8_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_run_names
  rw [View.read_writes_eq_canon _ _ _ (cover8_9 _), View.canon_unit_zero hz8]
  unfold out8_9
  simp only [View.readAt_eq_ld, View.ld_unit_zero (S := S5000x128) hz8, View.ld_unit_zero (S := S1x128) hz8,
    View.ld_unit_zero (S := S128x128) hz8]

/-! ## The pipeline's proof data -/

/-- The proof data of the pipeline on core `c`: the arrays as the region finds them; after the body at point
    `t` each input's buffer still at its block and the result's at `out8_9` of the nine input blocks, written
    out over the skeleton's payloads; the invariant the scoped buffers no window stages, which the body does not
    touch; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => k8_pay1 (k8_pay2 (iblk8 V c 2 t) (iblk8 V c 3 t) (iblk8 V c 0 t) (iblk8 V c 1 t) (iblk8 V c 4 t)
        (iblk8 V c 5 t) (iblk8 V c 6 t) (iblk8 V c 7 t)) (k8_pay3 (iblk8 V c 8 t))
  Φ _ := Pipeline.scopedRest (Ix := Unit) (Name := ℕ) (U := UR sig nD τ) (Lvl := ℕ) spec8 c
  q _ := fullShare
  owed _ := 0

/-- The proof data's arrays are the region-entry contents. -/
theorem dat8_A (c : Dev nD) (w : Fin cfg8.W) : (dat8 V c).A w = V c (Pipeline.arrRef spec8 w) := by
  dsimp only [dat8]
theorem dat8_q (c : Dev nD) (w : Fin cfg8.W) : (dat8 V c).q w = fullShare := by dsimp only [dat8]
theorem dat8_owed (c : Dev nD) (t : Fin (cfg8.N + 1)) : (dat8 V c).owed t = 0 := by dsimp only [dat8]
theorem dat8_Φ (c : Dev nD) (t : Fin (cfg8.N + 1)) :
    (dat8 V c).Φ t = Pipeline.scopedRest (Ix := Unit) (Name := ℕ) (U := UR sig nD τ) (Lvl := ℕ) spec8 c := by
  dsimp only [dat8]

/-- What the body leaves, window by window. -/
theorem dat8_after_0 (c : Dev nD) (t : Fin cfg8.N) : (dat8 V c).after 0 t = iblk8 V c 0 t := by dsimp only [dat8]
theorem dat8_after_1 (c : Dev nD) (t : Fin cfg8.N) : (dat8 V c).after 1 t = iblk8 V c 1 t := by dsimp only [dat8]
theorem dat8_after_2 (c : Dev nD) (t : Fin cfg8.N) : (dat8 V c).after 2 t = iblk8 V c 2 t := by dsimp only [dat8]
theorem dat8_after_3 (c : Dev nD) (t : Fin cfg8.N) : (dat8 V c).after 3 t = iblk8 V c 3 t := by dsimp only [dat8]
theorem dat8_after_4 (c : Dev nD) (t : Fin cfg8.N) : (dat8 V c).after 4 t = iblk8 V c 4 t := by dsimp only [dat8]
theorem dat8_after_5 (c : Dev nD) (t : Fin cfg8.N) : (dat8 V c).after 5 t = iblk8 V c 5 t := by dsimp only [dat8]
theorem dat8_after_6 (c : Dev nD) (t : Fin cfg8.N) : (dat8 V c).after 6 t = iblk8 V c 6 t := by dsimp only [dat8]
theorem dat8_after_7 (c : Dev nD) (t : Fin cfg8.N) : (dat8 V c).after 7 t = iblk8 V c 7 t := by dsimp only [dat8]
theorem dat8_after_8 (c : Dev nD) (t : Fin cfg8.N) : (dat8 V c).after 8 t = iblk8 V c 8 t := by dsimp only [dat8]
theorem dat8_after_9 (c : Dev nD) (t : Fin cfg8.N) : (dat8 V c).after 9 t =
    k8_pay1 (k8_pay2 (iblk8 V c 2 t) (iblk8 V c 3 t) (iblk8 V c 0 t) (iblk8 V c 1 t) (iblk8 V c 4 t)
      (iblk8 V c 5 t) (iblk8 V c 6 t) (iblk8 V c 7 t)) (k8_pay3 (iblk8 V c 8 t)) := by dsimp only [dat8]

/-! ## Each input's staging buffer holds its block at every point

Window 0 is fetched at every point; windows 1 to 8 only at the first, and since their block index never
moves the buffer still holds the one block at every later point. -/

theorem before8_0 (c : Dev nD) (t : Fin cfg8.N) (d) : (dat8 V c).before 0 t d = iblk8 V c 0 t :=
  ((dat8 V c).before_in_eq_fetched 0 rfl (fun _ => rfl) (fun _ _ _ => rfl)
    (fun t => by rw [dat8_after_0]; unfold Dat.blockOf iblk8; rw [dat8_A]; try rfl) t d).trans
    (by unfold Dat.fetched Dat.blockOf iblk8; rw [dat8_A]; try rfl)
theorem before8_1 (c : Dev nD) (t : Fin cfg8.N) (d) : (dat8 V c).before 1 t d = iblk8 V c 1 t :=
  ((dat8 V c).before_in_eq_fetched 1 rfl (fun _ => rfl) (fun _ _ _ => rfl)
    (fun t => by rw [dat8_after_1]; unfold Dat.blockOf iblk8; rw [dat8_A]; try rfl) t d).trans
    (by unfold Dat.fetched Dat.blockOf iblk8; rw [dat8_A]; try rfl)
theorem before8_2 (c : Dev nD) (t : Fin cfg8.N) (d) : (dat8 V c).before 2 t d = iblk8 V c 2 t :=
  ((dat8 V c).before_in_eq_fetched 2 rfl (fun _ => rfl) (fun _ _ _ => rfl)
    (fun t => by rw [dat8_after_2]; unfold Dat.blockOf iblk8; rw [dat8_A]; try rfl) t d).trans
    (by unfold Dat.fetched Dat.blockOf iblk8; rw [dat8_A]; try rfl)
theorem before8_3 (c : Dev nD) (t : Fin cfg8.N) (d) : (dat8 V c).before 3 t d = iblk8 V c 3 t :=
  ((dat8 V c).before_in_eq_fetched 3 rfl (fun _ => rfl) (fun _ _ _ => rfl)
    (fun t => by rw [dat8_after_3]; unfold Dat.blockOf iblk8; rw [dat8_A]; try rfl) t d).trans
    (by unfold Dat.fetched Dat.blockOf iblk8; rw [dat8_A]; try rfl)
theorem before8_4 (c : Dev nD) (t : Fin cfg8.N) (d) : (dat8 V c).before 4 t d = iblk8 V c 4 t :=
  ((dat8 V c).before_in_eq_fetched 4 rfl (fun _ => rfl) (fun _ _ _ => rfl)
    (fun t => by rw [dat8_after_4]; unfold Dat.blockOf iblk8; rw [dat8_A]; try rfl) t d).trans
    (by unfold Dat.fetched Dat.blockOf iblk8; rw [dat8_A]; try rfl)
theorem before8_5 (c : Dev nD) (t : Fin cfg8.N) (d) : (dat8 V c).before 5 t d = iblk8 V c 5 t :=
  ((dat8 V c).before_in_eq_fetched 5 rfl (fun _ => rfl) (fun _ _ _ => rfl)
    (fun t => by rw [dat8_after_5]; unfold Dat.blockOf iblk8; rw [dat8_A]; try rfl) t d).trans
    (by unfold Dat.fetched Dat.blockOf iblk8; rw [dat8_A]; try rfl)
theorem before8_6 (c : Dev nD) (t : Fin cfg8.N) (d) : (dat8 V c).before 6 t d = iblk8 V c 6 t :=
  ((dat8 V c).before_in_eq_fetched 6 rfl (fun _ => rfl) (fun _ _ _ => rfl)
    (fun t => by rw [dat8_after_6]; unfold Dat.blockOf iblk8; rw [dat8_A]; try rfl) t d).trans
    (by unfold Dat.fetched Dat.blockOf iblk8; rw [dat8_A]; try rfl)
theorem before8_7 (c : Dev nD) (t : Fin cfg8.N) (d) : (dat8 V c).before 7 t d = iblk8 V c 7 t :=
  ((dat8 V c).before_in_eq_fetched 7 rfl (fun _ => rfl) (fun _ _ _ => rfl)
    (fun t => by rw [dat8_after_7]; unfold Dat.blockOf iblk8; rw [dat8_A]; try rfl) t d).trans
    (by unfold Dat.fetched Dat.blockOf iblk8; rw [dat8_A]; try rfl)
theorem before8_8 (c : Dev nD) (t : Fin cfg8.N) (d) : (dat8 V c).before 8 t d = iblk8 V c 8 t :=
  ((dat8 V c).before_in_eq_fetched 8 rfl (fun _ => rfl) (fun _ _ _ => rfl)
    (fun t => by rw [dat8_after_8]; unfold Dat.blockOf iblk8; rw [dat8_A]; try rfl) t d).trans
    (by unfold Dat.fetched Dat.blockOf iblk8; rw [dat8_A]; try rfl)

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks (`before8_w`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    dat8_after_0, dat8_after_1, dat8_after_2, dat8_after_3, dat8_after_4, dat8_after_5, dat8_after_6, dat8_after_7,
    dat8_after_8, dat8_after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _
    (iblk8 V c 0 t) (iblk8 V c 1 t) (iblk8 V c 2 t) (iblk8 V c 3 t) (iblk8 V c 4 t) (iblk8 V c 5 t)
    (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## The invariant at the ends: the scoped buffers no window stages, in and out -/

theorem Φ8_first (c : Dev nD) :
    (Pipeline.scopedRest (Ix := Unit) (Name := ℕ) (U := UR sig nD τ) (Lvl := ℕ) spec8 c : sProp 𝕄) ⊢ (dat8 V c).Φ 0 := by
  rw [dat8_Φ]

theorem Φ8_last (c : Dev nD) :
    (dat8 V c).Φ (Fin.last cfg8.N) ⊢ (Pipeline.scopedRest (Ix := Unit) (Name := ℕ) (U := UR sig nD τ) (Lvl := ℕ) spec8 c : sProp 𝕄) := by
  rw [dat8_Φ]

end Cert.KernelIdeal.Reg

end
-- ==== Proof.Region10.lean ====
/-
  The last kernel region (the prediction head): at each of the 20 row blocks the body adds the two
  embeddings' blocks, applies the two-layer perceptron relu((zl + zg) · W₁ + b₁) · W₂ + b₂ and stores the block of
  predictions; beside that it keeps, in two one-row scratch buffers, the running column sums of the two embeddings'
  blocks: zeroed at the first block, added to at every block, and copied to the two small result windows at the last.

  This module states what every window's staging buffer holds after the body at each point, the invariant that
  carries the two running sums from point to point, and proves the body's triple at every point.
-/
import proofs.«174816_j57878979281252_2_alg».proof.Proof.Gen.KernelIdeal.Launch
import proofs.«174816_j57878979281252_2_alg».proof.Proof.Gen.KernelIdeal.Skeleton
import proofs.«174816_j57878979281252_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-! ## The body's two branches, over the grid -/

/-- The condition of the body's first branch (zero the two running sums): the point is the first. -/
abbrev cond10_1 (i : grid10.Coords) : Prop :=
  (Scalar.cmpi .ne (Scalar.extui (Scalar.cmpi .eq (BitVec.ofNat 32 (i 0).val) 0#32)) 0#32) = 1#1

theorem hcond10_1 : ∀ t : Fin cfg10.N, cond10_1 (grid10.coords t) ↔ t.val % 20 = 0 :=
  (by decide +kernel : ∀ t : Fin grid10.N, cond10_1 (grid10.coords t) ↔ t.val % 20 = 0)

/-- The condition of the second branch (copy the running sums to the two small results): the point is the last. -/
theorem hcond10_2 : ∀ t : Fin cfg10.N, k10_cond2 (grid10.coords t) = 1#1 ↔ t.val % 20 = 19 :=
  (by decide +kernel : ∀ t : Fin grid10.N, k10_cond2 (grid10.coords t) = 1#1 ↔ t.val % 20 = 19)

/-- The two small result windows are idle at every point but the last. -/
theorem hidle10_7 : ∀ t : Fin cfg10.N, cfg10.idle 7 (cfg10.grid.coords t) = true ↔ ¬ t.val % 20 = 19 :=
  (by decide +kernel : ∀ t : Fin grid10.N, idle10 7 (grid10.coords t) = true ↔ ¬ t.val % 20 = 19)
theorem hidle10_8 : ∀ t : Fin cfg10.N, cfg10.idle 8 (cfg10.grid.coords t) = true ↔ ¬ t.val % 20 = 19 :=
  (by decide +kernel : ∀ t : Fin grid10.N, idle10 8 (grid10.coords t) = true ↔ ¬ t.val % 20 = 19)

/-! ## The running column sums -/

/-- The first embedding's running column sum before point `n`: zero before the first point, and after a point
    the sum before it plus the column sum of that point's block. -/
def acc10_0 (c : Dev nD) : ℕ → Vec F S1x128 .f32
  | 0 => k10_pay3
  | n + 1 => if h : n < cfg10.N then k10_pay1 (k10_pay8 (iblk10 V c 0 ⟨n, h⟩) (acc10_0 c n)) else acc10_0 c n

/-- The second embedding's, likewise. -/
def acc10_1 (c : Dev nD) : ℕ → Vec F S1x128 .f32
  | 0 => k10_pay4
  | n + 1 => if h : n < cfg10.N then k10_pay2 (k10_pay6 (iblk10 V c 1 ⟨n, h⟩)) (acc10_1 c n) else acc10_1 c n

theorem acc10_0_zero (c : Dev nD) : acc10_0 V c 0 = k10_pay3 := rfl
theorem acc10_1_zero (c : Dev nD) : acc10_1 V c 0 = k10_pay4 := rfl

/-- One point's step of the first running sum. -/
theorem acc10_0_step (c : Dev nD) (t : Fin cfg10.N) :
    acc10_0 V c (t.val + 1) = k10_pay1 (k10_pay8 (iblk10 V c 0 t) (acc10_0 V c t.val)) := by
  rw [acc10_0, dif_pos t.isLt]

/-- One point's step of the second. -/
theorem acc10_1_step (c : Dev nD) (t : Fin cfg10.N) :
    acc10_1 V c (t.val + 1) = k10_pay2 (k10_pay6 (iblk10 V c 1 t)) (acc10_1 V c t.val) := by
  rw [acc10_1, dif_pos t.isLt]

/-! ## The invariant: the two scratch rows between points -/

/-- Before the first point the two scratch rows hold anything (they are part of the scoped buffers no window
    stages); before any later point `n` they hold the two running sums through point `n - 1`. -/
def Φ10 (c : Dev nD) : ℕ → sProp 𝕄
  | 0 => Pipeline.scopedRest spec10 c
  | n + 1 => iprop(owns (c : Thread nD τ) (Memref.whole cc10_scratch0) fullShare (acc10_0 V c (n + 1))
      ∗ owns (c : Thread nD τ) (Memref.whole cc10_scratch1) fullShare (acc10_1 V c (n + 1))
      ∗ Pipeline.scopedRestBut spec10 c [cc10_scratch0, cc10_scratch1])

theorem Φ10_zero (c : Dev nD) : Φ10 V c 0 = (Pipeline.scopedRest spec10 c : sProp 𝕄) := rfl

theorem Φ10_pos (c : Dev nD) (n : ℕ) (hn : n ≠ 0) :
    Φ10 V c n = iprop(owns (c : Thread nD τ) (Memref.whole cc10_scratch0) fullShare (acc10_0 V c n)
      ∗ owns (c : Thread nD τ) (Memref.whole cc10_scratch1) fullShare (acc10_1 V c n)
      ∗ (Pipeline.scopedRestBut spec10 c [cc10_scratch0, cc10_scratch1] : sProp 𝕄)) := by
  cases n with
  | zero => exact absurd rfl hn
  | succ n => rfl

/-! ## The proof data -/

/-- The proof data of the region on core `c`: the arrays as the region finds them; after the body at point `t`
    each input window's buffer at its block, the predictions' at the perceptron of the point's blocks, the two small
    results' at the running sums through `t` (they are only written back at the last point); full shares; nothing
    owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => k10_pay7 (iblk10 V c 0 t) (iblk10 V c 1 t) (iblk10 V c 2 t) (iblk10 V c 3 t) (iblk10 V c 4 t) (iblk10 V c 5 t)
    | ⟨7, _⟩ => acc10_0 V c (t.val + 1)
    | ⟨8, _⟩ => acc10_1 V c (t.val + 1)
  Φ t := Φ10 V c t.val
  q _ := fullShare
  owed _ := 0

theorem dat10_A (c : Dev nD) (w : Fin cfg10.W) : (dat10 V c).A w = V c (Pipeline.arrRef spec10 w) := by
  dsimp only [dat10]
theorem dat10_q (c : Dev nD) (w : Fin cfg10.W) : (dat10 V c).q w = fullShare := by
  dsimp only [dat10]
theorem dat10_owed (c : Dev nD) (t : Fin (cfg10.N + 1)) : (dat10 V c).owed t = 0 := by
  dsimp only [dat10]
theorem dat10_Φ (c : Dev nD) (t : Fin (cfg10.N + 1)) : (dat10 V c).Φ t = Φ10 V c t.val := by
  dsimp only [dat10]

theorem dat10_after_0 (c : Dev nD) (t : Fin cfg10.N) : (dat10 V c).after 0 t = iblk10 V c 0 t := by dsimp only [dat10]
theorem dat10_after_1 (c : Dev nD) (t : Fin cfg10.N) : (dat10 V c).after 1 t = iblk10 V c 1 t := by dsimp only [dat10]
theorem dat10_after_2 (c : Dev nD) (t : Fin cfg10.N) : (dat10 V c).after 2 t = iblk10 V c 2 t := by dsimp only [dat10]
theorem dat10_after_3 (c : Dev nD) (t : Fin cfg10.N) : (dat10 V c).after 3 t = iblk10 V c 3 t := by dsimp only [dat10]
theorem dat10_after_4 (c : Dev nD) (t : Fin cfg10.N) : (dat10 V c).after 4 t = iblk10 V c 4 t := by dsimp only [dat10]
theorem dat10_after_5 (c : Dev nD) (t : Fin cfg10.N) : (dat10 V c).after 5 t = iblk10 V c 5 t := by dsimp only [dat10]
theorem dat10_after_6 (c : Dev nD) (t : Fin cfg10.N) : (dat10 V c).after 6 t
    = k10_pay7 (iblk10 V c 0 t) (iblk10 V c 1 t) (iblk10 V c 2 t) (iblk10 V c 3 t) (iblk10 V c 4 t) (iblk10 V c 5 t) := by dsimp only [dat10]
theorem dat10_after_7 (c : Dev nD) (t : Fin cfg10.N) : (dat10 V c).after 7 t = acc10_0 V c (t.val + 1) := by dsimp only [dat10]
theorem dat10_after_8 (c : Dev nD) (t : Fin cfg10.N) : (dat10 V c).after 8 t = acc10_1 V c (t.val + 1) := by dsimp only [dat10]

/-! ## What the body finds in the input windows' buffers -/

/-- An input window's current staging buffer holds its block at every point, whether the point fetched it or not:
    where it was not fetched the block index has not moved, and the body left the block in place. -/
theorem before10_0 (c : Dev nD) (t : Fin cfg10.N) (d) : (dat10 V c).before 0 t d = iblk10 V c 0 t :=
  ((dat10 V c).before_in_eq_fetched 0 rfl (fun _ => rfl) (fun _ _ _ => rfl) (fun t => by rw [dat10_after_0]; unfold Dat.blockOf iblk10; rw [dat10_A]; try rfl) t d).trans
    (by unfold Dat.fetched Dat.blockOf iblk10; rw [dat10_A]; try rfl)
theorem before10_1 (c : Dev nD) (t : Fin cfg10.N) (d) : (dat10 V c).before 1 t d = iblk10 V c 1 t :=
  ((dat10 V c).before_in_eq_fetched 1 rfl (fun _ => rfl) (fun _ _ _ => rfl) (fun t => by rw [dat10_after_1]; unfold Dat.blockOf iblk10; rw [dat10_A]; try rfl) t d).trans
    (by unfold Dat.fetched Dat.blockOf iblk10; rw [dat10_A]; try rfl)
theorem before10_2 (c : Dev nD) (t : Fin cfg10.N) (d) : (dat10 V c).before 2 t d = iblk10 V c 2 t :=
  ((dat10 V c).before_in_eq_fetched 2 rfl (fun _ => rfl) (fun _ _ _ => rfl) (fun t => by rw [dat10_after_2]; unfold Dat.blockOf iblk10; rw [dat10_A]; try rfl) t d).trans
    (by unfold Dat.fetched Dat.blockOf iblk10; rw [dat10_A]; try rfl)
theorem before10_3 (c : Dev nD) (t : Fin cfg10.N) (d) : (dat10 V c).before 3 t d = iblk10 V c 3 t :=
  ((dat10 V c).before_in_eq_fetched 3 rfl (fun _ => rfl) (fun _ _ _ => rfl) (fun t => by rw [dat10_after_3]; unfold Dat.blockOf iblk10; rw [dat10_A]; try rfl) t d).trans
    (by unfold Dat.fetched Dat.blockOf iblk10; rw [dat10_A]; try rfl)
theorem before10_4 (c : Dev nD) (t : Fin cfg10.N) (d) : (dat10 V c).before 4 t d = iblk10 V c 4 t :=
  ((dat10 V c).before_in_eq_fetched 4 rfl (fun _ => rfl) (fun _ _ _ => rfl) (fun t => by rw [dat10_after_4]; unfold Dat.blockOf iblk10; rw [dat10_A]; try rfl) t d).trans
    (by unfold Dat.fetched Dat.blockOf iblk10; rw [dat10_A]; try rfl)
theorem before10_5 (c : Dev nD) (t : Fin cfg10.N) (d) : (dat10 V c).before 5 t d = iblk10 V c 5 t :=
  ((dat10 V c).before_in_eq_fetched 5 rfl (fun _ => rfl) (fun _ _ _ => rfl) (fun t => by rw [dat10_after_5]; unfold Dat.blockOf iblk10; rw [dat10_A]; try rfl) t d).trans
    (by unfold Dat.fetched Dat.blockOf iblk10; rw [dat10_A]; try rfl)

/-! ## Reading a buffer through the rectangle of its whole shape -/

section Whole

variable {sg : RefSig} {κ : Kind} {sp : Space} {S : Shape} {e : EltTy} {Val : EltTy → Type}

/-- The zero offsets of a matrix-shaped buffer, as the body spells them. -/
theorem hz10 : (![0, 0] : Fin 2 → ℕ) = fun _ => 0 := funext fun a => by fin_cases a <;> rfl

/-- A load through the rectangle of the whole shape at zero offsets reads what the view reads. -/
theorem readAt_unit_zero10 (v : View sg κ sp S e) (f : v.ty.Contents Val) {off : Fin S.rank → ℕ} (h : off = fun _ => 0)
    (inb : ∀ a, off a + S.size a ≤ S.size a) :
    v.readAt Val (Rect.unit off S.size inb).toLoadRect f = v.read Val f := by
  show View.ld (v.read Val f) (Rect.unit off S.size inb) = _
  exact View.ld_unit_zero h inb _

/-- A store through it, the last of a list of stores, leaves its payload whatever the buffer held and whatever
    the earlier stores wrote. -/
theorem read_writes_unit_zero10 [∀ e, Nonempty (Val e)] (v : View sg κ sp S e) (f : v.ty.Contents Val) {off : Fin S.rank → ℕ}
    (h : off = fun _ => 0) (inb : ∀ a, off a + S.size a ≤ S.size a) (w : S.Idx → Val e) (L : List (View.Piece Val S e)) :
    v.read Val (v.writes Val f (⟨Rect.unit off S.size inb, w⟩ :: L)) = w := by
  rw [View.read_writes_eq_canon _ _ _ (fun y => ⟨_, List.mem_cons.mpr (Or.inl rfl), View.mem_set_unit_zero h inb y⟩),
    View.canon_cons_unit_zero h]

end Whole

set_option maxHeartbeats 1000000 in
/-- The body at the first point (the first branch taken: both scratch rows are zeroed before anything reads them, so
    what they held does not matter): it leaves each scratch row at its block's column sum over zero. -/
theorem run10_A (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x40 .f32) (harg5 : arg5.IsWhole) (arg6 : Memref sig .tc .vmem S1x40 .f32) (harg6 : arg6.IsWhole)
    (arg7 : Memref sig .tc .vmem S5000x40 .f32) (harg7 : arg7.IsWhole) (arg8 : Memref sig .tc .vmem S1x128 .f32) (harg8 : arg8.IsWhole)
    (arg9 : Memref sig .tc .vmem S1x128 .f32) (harg9 : arg9.IsWhole)
    (arg10 : Memref sig .tc .vmem S1x128 .f32) (harg10 : arg10.IsWhole) (arg11 : Memref sig .tc .vmem S1x128 .f32) (harg11 : arg11.IsWhole)
    (hc1 : cond10_1 i) (hc2 : ¬ k10_cond2 i = 1#1)
    (x0 : Vec F S5000x128 .f32) (x1 : Vec F S5000x128 .f32) (x2 : Vec F S128x64 .f32) (x3 : Vec F S1x64 .f32)
    (x4 : Vec F S64x40 .f32) (x5 : Vec F S1x40 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare (k10_pay7 x0 x1 x2 x3 x4 x5)
            ∗ owns (c : Thread nD τ) arg10 fullShare (k10_pay1 (k10_pay8 x0 k10_pay3))
            ∗ owns (c : Thread nD τ) arg11 fullShare (k10_pay2 (k10_pay6 x1) k10_pay4)) -∗ K ⟨⟩))
      ⊢ wp frame (wpE (defs₀ (F := F)) Variants.none c none) E
          (cc10_kernel i arg1 harg1 arg2 harg2 arg3 harg3 arg4 harg4 arg5 harg5 arg6 harg6 arg7 harg7 arg8 harg8 arg9 harg9
            arg10 harg10 arg11 harg11) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%e0, %g0, -, Hs0⟩, ⟨%e1, %g1, -, Hs1⟩, Hk⟩
  subst hf0 hf1 hf2 hf3 hf4 hf5
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  isplitl [Hs0]
  · iexists _; isplitr
    swap; · iexact Hs0
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  · iexists _; isplitr
    swap; · iexact Hs1
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]

set_option maxHeartbeats 1000000 in
/-- The body at a middle point (neither branch taken), on whole staging memrefs: the input windows' at their
    blocks, the predictions' at anything, the two scratch rows at `a0`, `a1`. It leaves the inputs as they were, the
    predictions' buffer at the perceptron of the blocks, and each scratch row at its sum plus its block's column sum.
    The two small result windows are not touched. -/
theorem run10_B (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x40 .f32) (harg5 : arg5.IsWhole) (arg6 : Memref sig .tc .vmem S1x40 .f32) (harg6 : arg6.IsWhole)
    (arg7 : Memref sig .tc .vmem S5000x40 .f32) (harg7 : arg7.IsWhole) (arg8 : Memref sig .tc .vmem S1x128 .f32) (harg8 : arg8.IsWhole)
    (arg9 : Memref sig .tc .vmem S1x128 .f32) (harg9 : arg9.IsWhole)
    (arg10 : Memref sig .tc .vmem S1x128 .f32) (harg10 : arg10.IsWhole) (arg11 : Memref sig .tc .vmem S1x128 .f32) (harg11 : arg11.IsWhole)
    (hc1 : ¬ cond10_1 i) (hc2 : ¬ k10_cond2 i = 1#1)
    (x0 : Vec F S5000x128 .f32) (x1 : Vec F S5000x128 .f32) (x2 : Vec F S128x64 .f32) (x3 : Vec F S1x64 .f32)
    (x4 : Vec F S64x40 .f32) (x5 : Vec F S1x40 .f32) (a0 a1 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg10 fullShare a0 ∗ owns (c : Thread nD τ) arg11 fullShare a1
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare (k10_pay7 x0 x1 x2 x3 x4 x5)
            ∗ owns (c : Thread nD τ) arg10 fullShare (k10_pay1 (k10_pay8 x0 a0))
            ∗ owns (c : Thread nD τ) arg11 fullShare (k10_pay2 (k10_pay6 x1) a1)) -∗ K ⟨⟩))
      ⊢ wp frame (wpE (defs₀ (F := F)) Variants.none c none) E
          (cc10_kernel i arg1 harg1 arg2 harg2 arg3 harg3 arg4 harg4 arg5 harg5 arg6 harg6 arg7 harg7 arg8 harg8 arg9 harg9
            arg10 harg10 arg11 harg11) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %hg0, Hs0⟩, ⟨%g1, %hg1, Hs1⟩, Hk⟩
  subst hf0 hf1 hf2 hf3 hf4 hf5 hg0 hg1
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  isplitl [Hs0]
  · iexists _; isplitr
    swap; · iexact Hs0
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  · iexists _; isplitr
    swap; · iexact Hs1
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]

set_option maxHeartbeats 1000000 in
/-- The body at the last point (the second branch taken): as at a middle point, and the two small result windows'
    buffers, whatever they held, are left at the two scratch rows' final contents. -/
theorem run10_C (c : Dev nD) (E : Set ℕ) (i : grid10.Coords)
    (arg1 : Memref sig .tc .vmem S5000x128 .f32) (harg1 : arg1.IsWhole) (arg2 : Memref sig .tc .vmem S5000x128 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S64x40 .f32) (harg5 : arg5.IsWhole) (arg6 : Memref sig .tc .vmem S1x40 .f32) (harg6 : arg6.IsWhole)
    (arg7 : Memref sig .tc .vmem S5000x40 .f32) (harg7 : arg7.IsWhole) (arg8 : Memref sig .tc .vmem S1x128 .f32) (harg8 : arg8.IsWhole)
    (arg9 : Memref sig .tc .vmem S1x128 .f32) (harg9 : arg9.IsWhole)
    (arg10 : Memref sig .tc .vmem S1x128 .f32) (harg10 : arg10.IsWhole) (arg11 : Memref sig .tc .vmem S1x128 .f32) (harg11 : arg11.IsWhole)
    (hc1 : ¬ cond10_1 i) (hc2 : k10_cond2 i = 1#1)
    (x0 : Vec F S5000x128 .f32) (x1 : Vec F S5000x128 .f32) (x2 : Vec F S128x64 .f32) (x3 : Vec F S1x64 .f32)
    (x4 : Vec F S64x40 .f32) (x5 : Vec F S1x40 .f32) (a0 a1 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (∃ d, owns (c : Thread nD τ) arg8 fullShare d) ∗ (∃ d, owns (c : Thread nD τ) arg9 fullShare d)
        ∗ owns (c : Thread nD τ) arg10 fullShare a0 ∗ owns (c : Thread nD τ) arg11 fullShare a1
        ∗ (iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
            ∗ owns (c : Thread nD τ) arg7 fullShare (k10_pay7 x0 x1 x2 x3 x4 x5)
            ∗ owns (c : Thread nD τ) arg8 fullShare (k10_pay1 (k10_pay8 x0 a0))
            ∗ owns (c : Thread nD τ) arg9 fullShare (k10_pay2 (k10_pay6 x1) a1)
            ∗ owns (c : Thread nD τ) arg10 fullShare (k10_pay1 (k10_pay8 x0 a0))
            ∗ owns (c : Thread nD τ) arg11 fullShare (k10_pay2 (k10_pay6 x1) a1)) -∗ K ⟨⟩))
      ⊢ wp frame (wpE (defs₀ (F := F)) Variants.none c none) E
          (cc10_kernel i arg1 harg1 arg2 harg2 arg3 harg3 arg4 harg4 arg5 harg5 arg6 harg6 arg7 harg7 arg8 harg8 arg9 harg9
            arg10 harg10 arg11 harg11) K := by
  simp only [cc10_kernel_eq_skeleton]; unfold cc10_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, Hs0⟩, ⟨%g1, %hg1, Hs1⟩, Hk⟩
  subst hf0 hf1 hf2 hf3 hf4 hf5 hg0 hg1
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr
    swap; · iexact H6
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  isplitl [H7]
  · iexists _; isplitr
    swap; · iexact H7
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  isplitl [H8]
  · iexists _; isplitr
    swap; · iexact H8
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  isplitl [Hs0]
  · iexists _; isplitr
    swap; · iexact Hs0
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]
  · iexists _; isplitr
    swap; · iexact Hs1
    ipureintro
    sl_unfold_run_names
    simp only [read_writes_unit_zero10 (S := S5000x40) _ _ hz10, read_writes_unit_zero10 (S := S1x128) _ _ hz10,
      readAt_unit_zero10 (S := S5000x128) _ _ hz10, readAt_unit_zero10 (S := S128x64) _ _ hz10, readAt_unit_zero10 (S := S1x64) _ _ hz10,
      readAt_unit_zero10 (S := S64x40) _ _ hz10, readAt_unit_zero10 (S := S1x40) _ _ hz10, readAt_unit_zero10 (S := S1x128) _ _ hz10,
      View.readCov_unit_zero (S := S1x128) _ hz10]

/-! ## The body obligation, at a generic point -/

theorem dat10_Φ_castSucc (c : Dev nD) (t : Fin cfg10.N) : (dat10 V c).Φ t.castSucc = Φ10 V c t.val := rfl
theorem dat10_Φ_succ (c : Dev nD) (t : Fin cfg10.N) : (dat10 V c).Φ t.succ = Φ10 V c (t.val + 1) := rfl

/-- At a point live for a window the body leaves the window's current buffer at what the proof data names. -/
theorem leavesExact_live10 {c : Dev nD} (dat : Dat τ (Elt F) Unit ℕ (UR sig nD τ) ℕ cfg10 c) (w : Fin cfg10.W) (t : Fin cfg10.N)
    (hi : cfg10.idle w (cfg10.grid.coords t) = false) :
    dat.leavesExact w t = owns (c : Thread nD τ) ((cfg10.win w).stage (cfg10.slots t w)) fullShare (dat.after w t) := by
  unfold Dat.leavesExact; rw [hi]

/-- What the body is called with at point `t`: the invariant, what the core owes, and each window's current staging
    buffer at what it then holds, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d)))

/-- and what it returns: the next invariant, and each buffer at what the proof data says the body leaves (the two
    small results' buffers, at a point idle for them, as they were found). -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ (dat10 V c).leavesExact 7 t ∗ (dat10 V c).leavesExact 8 t)

set_option maxHeartbeats 1000000 in
/-- The body at any point. The inputs' buffers hold their blocks; the point is the first, a middle one or the last
    (the two conditions decided over the grid), and the matching run applies: at the first point the scratch rows are
    taken out of the scoped buffers at whatever they hold, later they hold the running sums; the core owes nothing
    throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5]
  rw [show (dat10 V c).owesAt () t.succ = (dat10 V c).owesAt () t.castSucc from rfl,
    dat10_Φ_castSucc, dat10_Φ_succ, dat10_after_0, dat10_after_1, dat10_after_2, dat10_after_3, dat10_after_4, dat10_after_5,
    dat10_after_6, Φ10_pos V c (t.val + 1) (Nat.succ_ne_zero _), acc10_0_step, acc10_1_step]
  have hN : t.val < 20 := lt_of_lt_of_eq t.isLt (show cfg10.N = 20 from N_10)
  have hf7 : t.val ≠ 19 → (cfg10.win 7).flush t = false := fun h19 =>
    Bool.eq_false_iff.mpr fun h => by have := (flush10_7 t).mp h; omega
  have hf8 : t.val ≠ 19 → (cfg10.win 8).flush t = false := fun h19 =>
    Bool.eq_false_iff.mpr fun h => by have := (flush10_8 t).mp h; omega
  by_cases h0 : t.val = 0
  · -- the first point: the scratch rows at anything, zeroed by the body
    rw [Dat.leavesExact_idle _ 7 t ((hidle10_7 t).mpr (by omega)) (hf7 (by omega)),
      Dat.leavesExact_idle _ 8 t ((hidle10_8 t).mpr (by omega)) (hf8 (by omega)),
      show Φ10 V c t.val = Φ10 V c 0 from by rw [h0], Φ10_zero, scopedRest10_split,
      show acc10_0 V c t.val = k10_pay3 from by rw [h0]; rfl, show acc10_1 V c t.val = k10_pay4 from by rw [h0]; rfl]
    iintro ⟨⟨⟨⟨%g0, Hs0⟩, ⟨%g1, Hs1⟩⟩, HR⟩, Ho, ⟨%d0, H0⟩, ⟨%d1, H1⟩, ⟨%d2, H2⟩, ⟨%d3, H3⟩, ⟨%d4, H4⟩, ⟨%d5, H5⟩, ⟨%d6, H6⟩, H7, H8⟩
    iapply (run10_A c Set.univ (grid10.coords t) _ _ _ _ _ _ _ _ _ _ _ _ _ _ _ _ _ _ _ _ _ _ ((hcond10_1 t).mpr (by omega))
      (fun h => by have := (hcond10_2 t).mp h; omega) (iblk10 V c 0 t) (iblk10 V c 1 t) (iblk10 V c 2 t) (iblk10 V c 3 t) (iblk10 V c 4 t) (iblk10 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hs0]; · iexists g0; rw [owns_whole]; iexact Hs0
    isplitl [Hs1]; · iexists g1; rw [owns_whole]; iexact Hs1
    iintro ⟨H0, H1, H2, H3, H4, H5, H6, Hs0, Hs1⟩
    isplitl [Hs0 Hs1 HR]
    · isplitl [Hs0]; · iexact Hs0
      isplitl [Hs1]; · iexact Hs1
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Φ10_pos V c t.val h0]
    by_cases h19 : t.val = 19
    · -- the last point: the running sums also go to the two small results' buffers
      have hi7 : cfg10.idle 7 (cfg10.grid.coords t) = false :=
        Bool.eq_false_iff.mpr fun h => (hidle10_7 t).mp h (by omega)
      have hi8 : cfg10.idle 8 (cfg10.grid.coords t) = false :=
        Bool.eq_false_iff.mpr fun h => (hidle10_8 t).mp h (by omega)
      rw [leavesExact_live10 _ 7 t hi7, leavesExact_live10 _ 8 t hi8, dat10_after_7, dat10_after_8, acc10_0_step, acc10_1_step]
      iintro ⟨⟨Hs0, Hs1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run10_C c Set.univ (grid10.coords t) _ _ _ _ _ _ _ _ _ _ _ _ _ _ _ _ _ _ _ _ _ _ (fun h => by have := (hcond10_1 t).mp h; omega)
        ((hcond10_2 t).mpr (by omega)) (iblk10 V c 0 t) (iblk10 V c 1 t) (iblk10 V c 2 t) (iblk10 V c 3 t) (iblk10 V c 4 t) (iblk10 V c 5 t) (acc10_0 V c t.val) (acc10_1 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [Hs0]; · iexact Hs0
      isplitl [Hs1]; · iexact Hs1
      iintro ⟨H0, H1, H2, H3, H4, H5, H6, H7, H8, Hs0, Hs1⟩
      isplitl [Hs0 Hs1 HR]
      · isplitl [Hs0]; · iexact Hs0
        isplitl [Hs1]; · iexact Hs1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · -- a middle point: the two small results' buffers pass through as found
      rw [Dat.leavesExact_idle _ 7 t ((hidle10_7 t).mpr (by omega)) (hf7 h19),
        Dat.leavesExact_idle _ 8 t ((hidle10_8 t).mpr (by omega)) (hf8 h19)]
      iintro ⟨⟨Hs0, Hs1, HR⟩, Ho, ⟨%d0, H0⟩, ⟨%d1, H1⟩, ⟨%d2, H2⟩, ⟨%d3, H3⟩, ⟨%d4, H4⟩, ⟨%d5, H5⟩, ⟨%d6, H6⟩, H7, H8⟩
      iapply (run10_B c Set.univ (grid10.coords t) _ _ _ _ _ _ _ _ _ _ _ _ _ _ _ _ _ _ _ _ _ _ (fun h => by have := (hcond10_1 t).mp h; omega)
        (fun h => by have := (hcond10_2 t).mp h; omega) (iblk10 V c 0 t) (iblk10 V c 1 t) (iblk10 V c 2 t) (iblk10 V c 3 t) (iblk10 V c 4 t) (iblk10 V c 5 t) (acc10_0 V c t.val) (acc10_1 V c t.val) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [Hs0]; · iexact Hs0
      isplitl [Hs1]; · iexact Hs1
      iintro ⟨H0, H1, H2, H3, H4, H5, H6, Hs0, Hs1⟩
      isplitl [Hs0 Hs1 HR]
      · isplitl [Hs0]; · iexact Hs0
        isplitl [Hs1]; · iexact Hs1
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body obligation of the region on core `c`, at every point. -/
theorem body_obligation10 (c : Dev nD) : BodyObligation (dat10 (F := F) V c) (defs₀ (F := F)) Variants.none () Set.univ := fun t => by
  rw [bigSep_W10, bigSep_W10]
  exact sound_body10 V c t

/-! ## The invariant's ends -/

/-- Before the first point the invariant is the scoped buffers no window stages, as the region hands them over. -/
theorem Φ10_first (c : Dev nD) : (Pipeline.scopedRest spec10 c : sProp 𝕄) ⊢ (dat10 V c).Φ 0 := by
  rw [dat10_Φ, Fin.val_zero, Φ10_zero]

/-- After the last point the two scratch rows, at the final sums, go back among those buffers. -/
theorem Φ10_last (c : Dev nD) : (dat10 V c).Φ (Fin.last cfg10.N) ⊢ (Pipeline.scopedRest spec10 c : sProp 𝕄) := by
  rw [dat10_Φ, Fin.val_last, Φ10_pos V c cfg10.N (by rw [show cfg10.N = 20 from N_10]; decide), scopedRest10_split,
    owns_whole, owns_whole]
  iintro ⟨Hs0, Hs1, HR⟩
  isplitl [Hs0 Hs1]
  · isplitl [Hs0]
    · iexists _; iexact Hs0
    · iexists _; iexact Hs1
  iexact HR

end Cert.KernelIdeal.Reg

end
-- ==== Proof.Family.lean ====
import proofs.«174816_j57878979281252_2_alg».proof.Proof.Region0
import proofs.«174816_j57878979281252_2_alg».proof.Proof.Region1
import proofs.«174816_j57878979281252_2_alg».proof.Proof.Region2
import proofs.«174816_j57878979281252_2_alg».proof.Proof.Region3
import proofs.«174816_j57878979281252_2_alg».proof.Proof.Region4
import proofs.«174816_j57878979281252_2_alg».proof.Proof.Region5
import proofs.«174816_j57878979281252_2_alg».proof.Proof.Region6
import proofs.«174816_j57878979281252_2_alg».proof.Proof.Region7
import proofs.«174816_j57878979281252_2_alg».proof.Proof.Region8
import proofs.«174816_j57878979281252_2_alg».proof.Proof.Region9
import proofs.«174816_j57878979281252_2_alg».proof.Proof.Region10
import proofs.«174816_j57878979281252_2_alg».proof.Proof.Gen.KernelIdeal.Regions
import Idealize.ShloMosaic.Lib.Pipeline.RegionsLoop
import Idealize.ShloMosaic.Lib.Pipeline.FrameSuffix

/-!
# The buffers' true contents between the items of the program, and the regions' proof data

Between two items of the program a core's unscoped buffers hold a definite valuation: the launch contents, then
what each stretch of host operations computes from the valuation before it, then, after a kernel region, the
valuation before it with each output array of the region replaced by what the region's write-backs leave there
(the fold of the written blocks over the array as the region found it). The chain T0, …, T31 below names these
32 valuations; it mentions no unknown. The regions' proof data are then each region's data at the valuation the
region is entered from.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## The parameters of the run: no variant, no level, nothing owed across cores -/

noncomputable abbrev 𝒱₀ : Variants := Variants.none
noncomputable abbrev L : GSem nD τ sig → Finset Unit := fun _ => ∅
noncomputable abbrev lv : GSem nD τ sig → Unit → ℕ := fun _ _ => 0

/-! ## What rides beside the buffers through every item -/

/-- The core's generator register at some state, and its debts: none. -/
noncomputable abbrev R (c : Dev nD) : sProp 𝕄 := iprop((∃ r, prngReg c r) ∗ ∃ W, owes (c : Thread nD τ) (0 : CellTallies nD τ sig Unit) W)

/-! ## The chain of valuations -/

/-- Core c's unscoped buffers at launch. -/
noncomputable def T0 (c : Dev nD) : Valuation τ sig (Elt F) := Gen.V0 m c
/-- After the host stretch hostOps0. -/
noncomputable def T1 (c : Dev nD) : Valuation τ sig (Elt F) := StableHlo.after hostOps0 (T0 m c)
/-- After the host stretch hostOps0_1. -/
noncomputable def T2 (c : Dev nD) : Valuation τ sig (Elt F) := StableHlo.after hostOps0_1 (T1 m c)
/-- After the host stretch hostOps0_2. -/
noncomputable def T3 (c : Dev nD) : Valuation τ sig (Elt F) := StableHlo.after hostOps0_2 (T2 m c)
/-- After the host stretch hostOps0_3. -/
noncomputable def T4 (c : Dev nD) : Valuation τ sig (Elt F) := StableHlo.after hostOps0_3 (T3 m c)
/-- After the host stretch hostOps0_4. -/
noncomputable def T5 (c : Dev nD) : Valuation τ sig (Elt F) := StableHlo.after hostOps0_4 (T4 m c)
/-- After region 0: main_v54 at what the region's write-backs leave, every other buffer as the region found it. -/
noncomputable def T6 (c : Dev nD) : Valuation τ sig (Elt F) :=
  Function.update (T5 m c) main_v54 ((dat0 (fun c b => T5 m c b) c).arrAt 2 cfg0.N)
/-- After the host stretch hostOps1. -/
noncomputable def T7 (c : Dev nD) : Valuation τ sig (Elt F) := StableHlo.after hostOps1 (T6 m c)
/-- After region 1: main_v69_0, main_v69_1, main_v69_2 at what the region's write-backs leave, every other buffer as the region found it. -/
noncomputable def T8 (c : Dev nD) : Valuation τ sig (Elt F) :=
  Function.update (Function.update (Function.update (T7 m c) main_v69_0 ((dat1 (fun c b => T7 m c b) c).arrAt 2 cfg1.N)) main_v69_1 ((dat1 (fun c b => T7 m c b) c).arrAt 3 cfg1.N)) main_v69_2 ((dat1 (fun c b => T7 m c b) c).arrAt 4 cfg1.N)
/-- After the host stretch hostOps2. -/
noncomputable def T9 (c : Dev nD) : Valuation τ sig (Elt F) := StableHlo.after hostOps2 (T8 m c)
/-- After region 2: main_v80 at what the region's write-backs leave, every other buffer as the region found it. -/
noncomputable def T10 (c : Dev nD) : Valuation τ sig (Elt F) :=
  Function.update (T9 m c) main_v80 ((dat2 (fun c b => T9 m c b) c).arrAt 6 cfg2.N)
/-- After the host stretch hostOps3. -/
noncomputable def T11 (c : Dev nD) : Valuation τ sig (Elt F) := StableHlo.after hostOps3 (T10 m c)
/-- After region 3: main_v95_0, main_v95_1, main_v95_2 at what the region's write-backs leave, every other buffer as the region found it. -/
noncomputable def T12 (c : Dev nD) : Valuation τ sig (Elt F) :=
  Function.update (Function.update (Function.update (T11 m c) main_v95_0 ((dat3 (fun c b => T11 m c b) c).arrAt 2 cfg3.N)) main_v95_1 ((dat3 (fun c b => T11 m c b) c).arrAt 3 cfg3.N)) main_v95_2 ((dat3 (fun c b => T11 m c b) c).arrAt 4 cfg3.N)
/-- After the host stretch hostOps4. -/
noncomputable def T13 (c : Dev nD) : Valuation τ sig (Elt F) := StableHlo.after hostOps4 (T12 m c)
/-- After region 4: main_v104 at what the region's write-backs leave, every other buffer as the region found it. -/
noncomputable def T14 (c : Dev nD) : Valuation τ sig (Elt F) :=
  Function.update (T13 m c) main_v104 ((dat4 (fun c b => T13 m c b) c).arrAt 2 cfg4.N)
/-- After the host stretch hostOps5. -/
noncomputable def T15 (c : Dev nD) : Valuation τ sig (Elt F) := StableHlo.after hostOps5 (T14 m c)
/-- After region 5: main_v119_0, main_v119_1, main_v119_2 at what the region's write-backs leave, every other buffer as the region found it. -/
noncomputable def T16 (c : Dev nD) : Valuation τ sig (Elt F) :=
  Function.update (Function.update (Function.update (T15 m c) main_v119_0 ((dat5 (fun c b => T15 m c b) c).arrAt 2 cfg5.N)) main_v119_1 ((dat5 (fun c b => T15 m c b) c).arrAt 3 cfg5.N)) main_v119_2 ((dat5 (fun c b => T15 m c b) c).arrAt 4 cfg5.N)
/-- After the host stretch hostOps6. -/
noncomputable def T17 (c : Dev nD) : Valuation τ sig (Elt F) := StableHlo.after hostOps6 (T16 m c)
/-- After region 6: main_v130 at what the region's write-backs leave, every other buffer as the region found it. -/
noncomputable def T18 (c : Dev nD) : Valuation τ sig (Elt F) :=
  Function.update (T17 m c) main_v130 ((dat6 (fun c b => T17 m c b) c).arrAt 6 cfg6.N)
/-- After the host stretch hostOps7. -/
noncomputable def T19 (c : Dev nD) : Valuation τ sig (Elt F) := StableHlo.after hostOps7 (T18 m c)
/-- After region 7: main_v145_0, main_v145_1, main_v145_2 at what the region's write-backs leave, every other buffer as the region found it. -/
noncomputable def T20 (c : Dev nD) : Valuation τ sig (Elt F) :=
  Function.update (Function.update (Function.update (T19 m c) main_v145_0 ((dat7 (fun c b => T19 m c b) c).arrAt 2 cfg7.N)) main_v145_1 ((dat7 (fun c b => T19 m c b) c).arrAt 3 cfg7.N)) main_v145_2 ((dat7 (fun c b => T19 m c b) c).arrAt 4 cfg7.N)
/-- After the host stretch hostOps8. -/
noncomputable def T21 (c : Dev nD) : Valuation τ sig (Elt F) := StableHlo.after hostOps8 (T20 m c)
/-- After region 8: main_v158 at what the region's write-backs leave, every other buffer as the region found it. -/
noncomputable def T22 (c : Dev nD) : Valuation τ sig (Elt F) :=
  Function.update (T21 m c) main_v158 ((dat8 (fun c b => T21 m c b) c).arrAt 9 cfg8.N)
/-- After the host stretch hostOps9. -/
noncomputable def T23 (c : Dev nD) : Valuation τ sig (Elt F) := StableHlo.after hostOps9 (T22 m c)
/-- After region 9: main_v163 at what the region's write-backs leave, every other buffer as the region found it. -/
noncomputable def T24 (c : Dev nD) : Valuation τ sig (Elt F) :=
  Function.update (T23 m c) main_v163 ((dat9 (fun c b => T23 m c b) c).arrAt 9 cfg9.N)
/-- After the host stretch hostOps10. -/
noncomputable def T25 (c : Dev nD) : Valuation τ sig (Elt F) := StableHlo.after hostOps10 (T24 m c)
/-- After region 10: main_v166_0, main_v166_1, main_v166_2 at what the region's write-backs leave, every other buffer as the region found it. -/
noncomputable def T26 (c : Dev nD) : Valuation τ sig (Elt F) :=
  Function.update (Function.update (Function.update (T25 m c) main_v166_0 ((dat10 (fun c b => T25 m c b) c).arrAt 6 cfg10.N)) main_v166_1 ((dat10 (fun c b => T25 m c b) c).arrAt 7 cfg10.N)) main_v166_2 ((dat10 (fun c b => T25 m c b) c).arrAt 8 cfg10.N)
/-- After the host stretch hostOps11. -/
noncomputable def T27 (c : Dev nD) : Valuation τ sig (Elt F) := StableHlo.after hostOps11 (T26 m c)
/-- After the host stretch hostOps11_1. -/
noncomputable def T28 (c : Dev nD) : Valuation τ sig (Elt F) := StableHlo.after hostOps11_1 (T27 m c)
/-- After the host stretch hostOps11_2. -/
noncomputable def T29 (c : Dev nD) : Valuation τ sig (Elt F) := StableHlo.after hostOps11_2 (T28 m c)
/-- After the host stretch hostOps11_3. -/
noncomputable def T30 (c : Dev nD) : Valuation τ sig (Elt F) := StableHlo.after hostOps11_3 (T29 m c)
/-- After the host stretch hostOps11_4. -/
noncomputable def T31 (c : Dev nD) : Valuation τ sig (Elt F) := StableHlo.after hostOps11_4 (T30 m c)

/-! ## Reading the chain at a region's exit

At each output array the exit valuation holds the fold of the region's write-backs; at every other reference it is
the entry valuation. -/

theorem T6_out2 (c : Dev nD) : T6 m c main_v54 = (dat0 (fun c b => T5 m c b) c).arrAt 2 cfg0.N := by
  unfold T6; rw [Function.update_self]
theorem T6_of (c : Dev nD) (r : Ref sig .tc) (h : r ∉ ([main_v54] : List (Ref sig .tc))) : T6 m c r = T5 m c r := by
  unfold T6; rw [Function.update_of_ne (StableHlo.devRef_ne_of_ne (List.ne_of_not_mem_cons h))]
theorem T8_out2 (c : Dev nD) : T8 m c main_v69_0 = (dat1 (fun c b => T7 m c b) c).arrAt 2 cfg1.N := by
  unfold T8; rw [Function.update_of_ne (StableHlo.devRef_ne_of_ne (by decide : (main_v69_0 : Ref sig .tc) ≠ main_v69_2)), Function.update_of_ne (StableHlo.devRef_ne_of_ne (by decide : (main_v69_0 : Ref sig .tc) ≠ main_v69_1)), Function.update_self]
theorem T8_out3 (c : Dev nD) : T8 m c main_v69_1 = (dat1 (fun c b => T7 m c b) c).arrAt 3 cfg1.N := by
  unfold T8; rw [Function.update_of_ne (StableHlo.devRef_ne_of_ne (by decide : (main_v69_1 : Ref sig .tc) ≠ main_v69_2)), Function.update_self]
theorem T8_out4 (c : Dev nD) : T8 m c main_v69_2 = (dat1 (fun c b => T7 m c b) c).arrAt 4 cfg1.N := by
  unfold T8; rw [Function.update_self]
theorem T8_of (c : Dev nD) (r : Ref sig .tc) (h : r ∉ ([main_v69_0, main_v69_1, main_v69_2] : List (Ref sig .tc))) : T8 m c r = T7 m c r := by
  unfold T8; rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
theorem T10_out6 (c : Dev nD) : T10 m c main_v80 = (dat2 (fun c b => T9 m c b) c).arrAt 6 cfg2.N := by
  unfold T10; rw [Function.update_self]
theorem T10_of (c : Dev nD) (r : Ref sig .tc) (h : r ∉ ([main_v80] : List (Ref sig .tc))) : T10 m c r = T9 m c r := by
  unfold T10; rw [Function.update_of_ne (StableHlo.devRef_ne_of_ne (List.ne_of_not_mem_cons h))]
theorem T12_out2 (c : Dev nD) : T12 m c main_v95_0 = (dat3 (fun c b => T11 m c b) c).arrAt 2 cfg3.N := by
  unfold T12; rw [Function.update_of_ne (StableHlo.devRef_ne_of_ne (by decide : (main_v95_0 : Ref sig .tc) ≠ main_v95_2)), Function.update_of_ne (StableHlo.devRef_ne_of_ne (by decide : (main_v95_0 : Ref sig .tc) ≠ main_v95_1)), Function.update_self]
theorem T12_out3 (c : Dev nD) : T12 m c main_v95_1 = (dat3 (fun c b => T11 m c b) c).arrAt 3 cfg3.N := by
  unfold T12; rw [Function.update_of_ne (StableHlo.devRef_ne_of_ne (by decide : (main_v95_1 : Ref sig .tc) ≠ main_v95_2)), Function.update_self]
theorem T12_out4 (c : Dev nD) : T12 m c main_v95_2 = (dat3 (fun c b => T11 m c b) c).arrAt 4 cfg3.N := by
  unfold T12; rw [Function.update_self]
theorem T12_of (c : Dev nD) (r : Ref sig .tc) (h : r ∉ ([main_v95_0, main_v95_1, main_v95_2] : List (Ref sig .tc))) : T12 m c r = T11 m c r := by
  unfold T12; rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
theorem T14_out2 (c : Dev nD) : T14 m c main_v104 = (dat4 (fun c b => T13 m c b) c).arrAt 2 cfg4.N := by
  unfold T14; rw [Function.update_self]
theorem T14_of (c : Dev nD) (r : Ref sig .tc) (h : r ∉ ([main_v104] : List (Ref sig .tc))) : T14 m c r = T13 m c r := by
  unfold T14; rw [Function.update_of_ne (StableHlo.devRef_ne_of_ne (List.ne_of_not_mem_cons h))]
theorem T16_out2 (c : Dev nD) : T16 m c main_v119_0 = (dat5 (fun c b => T15 m c b) c).arrAt 2 cfg5.N := by
  unfold T16; rw [Function.update_of_ne (StableHlo.devRef_ne_of_ne (by decide : (main_v119_0 : Ref sig .tc) ≠ main_v119_2)), Function.update_of_ne (StableHlo.devRef_ne_of_ne (by decide : (main_v119_0 : Ref sig .tc) ≠ main_v119_1)), Function.update_self]
theorem T16_out3 (c : Dev nD) : T16 m c main_v119_1 = (dat5 (fun c b => T15 m c b) c).arrAt 3 cfg5.N := by
  unfold T16; rw [Function.update_of_ne (StableHlo.devRef_ne_of_ne (by decide : (main_v119_1 : Ref sig .tc) ≠ main_v119_2)), Function.update_self]
theorem T16_out4 (c : Dev nD) : T16 m c main_v119_2 = (dat5 (fun c b => T15 m c b) c).arrAt 4 cfg5.N := by
  unfold T16; rw [Function.update_self]
theorem T16_of (c : Dev nD) (r : Ref sig .tc) (h : r ∉ ([main_v119_0, main_v119_1, main_v119_2] : List (Ref sig .tc))) : T16 m c r = T15 m c r := by
  unfold T16; rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
theorem T18_out6 (c : Dev nD) : T18 m c main_v130 = (dat6 (fun c b => T17 m c b) c).arrAt 6 cfg6.N := by
  unfold T18; rw [Function.update_self]
theorem T18_of (c : Dev nD) (r : Ref sig .tc) (h : r ∉ ([main_v130] : List (Ref sig .tc))) : T18 m c r = T17 m c r := by
  unfold T18; rw [Function.update_of_ne (StableHlo.devRef_ne_of_ne (List.ne_of_not_mem_cons h))]
theorem T20_out2 (c : Dev nD) : T20 m c main_v145_0 = (dat7 (fun c b => T19 m c b) c).arrAt 2 cfg7.N := by
  unfold T20; rw [Function.update_of_ne (StableHlo.devRef_ne_of_ne (by decide : (main_v145_0 : Ref sig .tc) ≠ main_v145_2)), Function.update_of_ne (StableHlo.devRef_ne_of_ne (by decide : (main_v145_0 : Ref sig .tc) ≠ main_v145_1)), Function.update_self]
theorem T20_out3 (c : Dev nD) : T20 m c main_v145_1 = (dat7 (fun c b => T19 m c b) c).arrAt 3 cfg7.N := by
  unfold T20; rw [Function.update_of_ne (StableHlo.devRef_ne_of_ne (by decide : (main_v145_1 : Ref sig .tc) ≠ main_v145_2)), Function.update_self]
theorem T20_out4 (c : Dev nD) : T20 m c main_v145_2 = (dat7 (fun c b => T19 m c b) c).arrAt 4 cfg7.N := by
  unfold T20; rw [Function.update_self]
theorem T20_of (c : Dev nD) (r : Ref sig .tc) (h : r ∉ ([main_v145_0, main_v145_1, main_v145_2] : List (Ref sig .tc))) : T20 m c r = T19 m c r := by
  unfold T20; rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]
theorem T22_out9 (c : Dev nD) : T22 m c main_v158 = (dat8 (fun c b => T21 m c b) c).arrAt 9 cfg8.N := by
  unfold T22; rw [Function.update_self]
theorem T22_of (c : Dev nD) (r : Ref sig .tc) (h : r ∉ ([main_v158] : List (Ref sig .tc))) : T22 m c r = T21 m c r := by
  unfold T22; rw [Function.update_of_ne (StableHlo.devRef_ne_of_ne (List.ne_of_not_mem_cons h))]
theorem T24_out9 (c : Dev nD) : T24 m c main_v163 = (dat9 (fun c b => T23 m c b) c).arrAt 9 cfg9.N := by
  unfold T24; rw [Function.update_self]
theorem T24_of (c : Dev nD) (r : Ref sig .tc) (h : r ∉ ([main_v163] : List (Ref sig .tc))) : T24 m c r = T23 m c r := by
  unfold T24; rw [Function.update_of_ne (StableHlo.devRef_ne_of_ne (List.ne_of_not_mem_cons h))]
theorem T26_out6 (c : Dev nD) : T26 m c main_v166_0 = (dat10 (fun c b => T25 m c b) c).arrAt 6 cfg10.N := by
  unfold T26; rw [Function.update_of_ne (StableHlo.devRef_ne_of_ne (by decide : (main_v166_0 : Ref sig .tc) ≠ main_v166_2)), Function.update_of_ne (StableHlo.devRef_ne_of_ne (by decide : (main_v166_0 : Ref sig .tc) ≠ main_v166_1)), Function.update_self]
theorem T26_out7 (c : Dev nD) : T26 m c main_v166_1 = (dat10 (fun c b => T25 m c b) c).arrAt 7 cfg10.N := by
  unfold T26; rw [Function.update_of_ne (StableHlo.devRef_ne_of_ne (by decide : (main_v166_1 : Ref sig .tc) ≠ main_v166_2)), Function.update_self]
theorem T26_out8 (c : Dev nD) : T26 m c main_v166_2 = (dat10 (fun c b => T25 m c b) c).arrAt 8 cfg10.N := by
  unfold T26; rw [Function.update_self]
theorem T26_of (c : Dev nD) (r : Ref sig .tc) (h : r ∉ ([main_v166_0, main_v166_1, main_v166_2] : List (Ref sig .tc))) : T26 m c r = T25 m c r := by
  unfold T26; rw [Function.update_of_ne (StableHlo.devRef_ne_of_ne (List.ne_of_not_mem_cons (List.not_mem_of_not_mem_cons (List.not_mem_of_not_mem_cons h)))), Function.update_of_ne (StableHlo.devRef_ne_of_ne (List.ne_of_not_mem_cons (List.not_mem_of_not_mem_cons h))), Function.update_of_ne (StableHlo.devRef_ne_of_ne (List.ne_of_not_mem_cons h))]

/-! ## The regions' proof data -/

/-- Every region's proof data, each at the valuation its region is entered from. -/
noncomputable def pdats : (p : Fin 11) → (c : Dev nD) → Dat τ (Elt F) Unit ℕ (UR sig nD τ) ℕ (cfgs p) c
  | ⟨0, _⟩ => fun c => dat0 (fun c b => T5 m c b) c
  | ⟨1, _⟩ => fun c => dat1 (fun c b => T7 m c b) c
  | ⟨2, _⟩ => fun c => dat2 (fun c b => T9 m c b) c
  | ⟨3, _⟩ => fun c => dat3 (fun c b => T11 m c b) c
  | ⟨4, _⟩ => fun c => dat4 (fun c b => T13 m c b) c
  | ⟨5, _⟩ => fun c => dat5 (fun c b => T15 m c b) c
  | ⟨6, _⟩ => fun c => dat6 (fun c b => T17 m c b) c
  | ⟨7, _⟩ => fun c => dat7 (fun c b => T19 m c b) c
  | ⟨8, _⟩ => fun c => dat8 (fun c b => T21 m c b) c
  | ⟨9, _⟩ => fun c => dat9 (fun c b => T23 m c b) c
  | ⟨10, _⟩ => fun c => dat10 (fun c b => T25 m c b) c
  | ⟨_ + 11, h⟩ => absurd h (Nat.not_lt.2 (Nat.le_add_left _ _))

end Cert.KernelIdeal.Run

end
-- ==== Proof.Outs.lean ====
import proofs.«174816_j57878979281252_2_alg».proof.Proof.Family

/-!
# The chain of valuations as the family the conditional frame is stated over

The conditional frame is stated over an unknown family "what item J−1 leaves in the reference r on core c", read
at a region's exit index and output arrays only, and over valuations V5, …, V31 built from the launch contents,
the host stretches and that family. Reading the family off the chain T0, …, T31 makes each of those valuations
the chain's: a host stretch's by the stretch applied to the valuation before it, a region's exit by replacing, in
the valuation before it, each output array by what the chain holds there.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## What the regions leave, as the family the conditional frame is stated over -/

/-- After item J−1 the reference r on core c holds the chain's valuation J at r; the conditional frame reads this
    family at a region's exit index and output arrays only. -/
noncomputable def outs : Gen.Outs (F := F) := fun J r c => match J with
  | 6 => T6 m c r
  | 8 => T8 m c r
  | 10 => T10 m c r
  | 12 => T12 m c r
  | 14 => T14 m c r
  | 16 => T16 m c r
  | 18 => T18 m c r
  | 20 => T20 m c r
  | 22 => T22 m c r
  | 24 => T24 m c r
  | 26 => T26 m c r
  | _ => T0 m c r

/-! ## The conditional frame's valuations are the chain's -/

theorem V5_eq (c : Dev nD) : Gen.V5 m c = T5 m c := rfl
theorem V6_eq (c : Dev nD) : Gen.V6 m (outs m) c = T6 m c := by
  show Function.update (Gen.V5 m c) main_v54 (outs m 6 main_v54 c) = T6 m c
  rw [V5_eq, show outs m 6 main_v54 c = T6 m c main_v54 from rfl, T6_out2]; rfl
theorem V7_eq (c : Dev nD) : Gen.V7 m (outs m) c = T7 m c := by
  show StableHlo.after hostOps1 (Gen.V6 m (outs m) c) = T7 m c
  rw [V6_eq]; rfl
theorem V8_eq (c : Dev nD) : Gen.V8 m (outs m) c = T8 m c := by
  show Function.update (Function.update (Function.update (Gen.V7 m (outs m) c) main_v69_0 (outs m 8 main_v69_0 c)) main_v69_1 (outs m 8 main_v69_1 c)) main_v69_2 (outs m 8 main_v69_2 c) = T8 m c
  rw [V7_eq, show outs m 8 main_v69_0 c = T8 m c main_v69_0 from rfl, T8_out2, show outs m 8 main_v69_1 c = T8 m c main_v69_1 from rfl, T8_out3, show outs m 8 main_v69_2 c = T8 m c main_v69_2 from rfl, T8_out4]; rfl
theorem V9_eq (c : Dev nD) : Gen.V9 m (outs m) c = T9 m c := by
  show StableHlo.after hostOps2 (Gen.V8 m (outs m) c) = T9 m c
  rw [V8_eq]; rfl
theorem V10_eq (c : Dev nD) : Gen.V10 m (outs m) c = T10 m c := by
  show Function.update (Gen.V9 m (outs m) c) main_v80 (outs m 10 main_v80 c) = T10 m c
  rw [V9_eq, show outs m 10 main_v80 c = T10 m c main_v80 from rfl, T10_out6]; rfl
theorem V11_eq (c : Dev nD) : Gen.V11 m (outs m) c = T11 m c := by
  show StableHlo.after hostOps3 (Gen.V10 m (outs m) c) = T11 m c
  rw [V10_eq]; rfl
theorem V12_eq (c : Dev nD) : Gen.V12 m (outs m) c = T12 m c := by
  show Function.update (Function.update (Function.update (Gen.V11 m (outs m) c) main_v95_0 (outs m 12 main_v95_0 c)) main_v95_1 (outs m 12 main_v95_1 c)) main_v95_2 (outs m 12 main_v95_2 c) = T12 m c
  rw [V11_eq, show outs m 12 main_v95_0 c = T12 m c main_v95_0 from rfl, T12_out2, show outs m 12 main_v95_1 c = T12 m c main_v95_1 from rfl, T12_out3, show outs m 12 main_v95_2 c = T12 m c main_v95_2 from rfl, T12_out4]; rfl
theorem V13_eq (c : Dev nD) : Gen.V13 m (outs m) c = T13 m c := by
  show StableHlo.after hostOps4 (Gen.V12 m (outs m) c) = T13 m c
  rw [V12_eq]; rfl
theorem V14_eq (c : Dev nD) : Gen.V14 m (outs m) c = T14 m c := by
  show Function.update (Gen.V13 m (outs m) c) main_v104 (outs m 14 main_v104 c) = T14 m c
  rw [V13_eq, show outs m 14 main_v104 c = T14 m c main_v104 from rfl, T14_out2]; rfl
theorem V15_eq (c : Dev nD) : Gen.V15 m (outs m) c = T15 m c := by
  show StableHlo.after hostOps5 (Gen.V14 m (outs m) c) = T15 m c
  rw [V14_eq]; rfl
theorem V16_eq (c : Dev nD) : Gen.V16 m (outs m) c = T16 m c := by
  show Function.update (Function.update (Function.update (Gen.V15 m (outs m) c) main_v119_0 (outs m 16 main_v119_0 c)) main_v119_1 (outs m 16 main_v119_1 c)) main_v119_2 (outs m 16 main_v119_2 c) = T16 m c
  rw [V15_eq, show outs m 16 main_v119_0 c = T16 m c main_v119_0 from rfl, T16_out2, show outs m 16 main_v119_1 c = T16 m c main_v119_1 from rfl, T16_out3, show outs m 16 main_v119_2 c = T16 m c main_v119_2 from rfl, T16_out4]; rfl
theorem V17_eq (c : Dev nD) : Gen.V17 m (outs m) c = T17 m c := by
  show StableHlo.after hostOps6 (Gen.V16 m (outs m) c) = T17 m c
  rw [V16_eq]; rfl
theorem V18_eq (c : Dev nD) : Gen.V18 m (outs m) c = T18 m c := by
  show Function.update (Gen.V17 m (outs m) c) main_v130 (outs m 18 main_v130 c) = T18 m c
  rw [V17_eq, show outs m 18 main_v130 c = T18 m c main_v130 from rfl, T18_out6]; rfl
theorem V19_eq (c : Dev nD) : Gen.V19 m (outs m) c = T19 m c := by
  show StableHlo.after hostOps7 (Gen.V18 m (outs m) c) = T19 m c
  rw [V18_eq]; rfl
theorem V20_eq (c : Dev nD) : Gen.V20 m (outs m) c = T20 m c := by
  show Function.update (Function.update (Function.update (Gen.V19 m (outs m) c) main_v145_0 (outs m 20 main_v145_0 c)) main_v145_1 (outs m 20 main_v145_1 c)) main_v145_2 (outs m 20 main_v145_2 c) = T20 m c
  rw [V19_eq, show outs m 20 main_v145_0 c = T20 m c main_v145_0 from rfl, T20_out2, show outs m 20 main_v145_1 c = T20 m c main_v145_1 from rfl, T20_out3, show outs m 20 main_v145_2 c = T20 m c main_v145_2 from rfl, T20_out4]; rfl
theorem V21_eq (c : Dev nD) : Gen.V21 m (outs m) c = T21 m c := by
  show StableHlo.after hostOps8 (Gen.V20 m (outs m) c) = T21 m c
  rw [V20_eq]; rfl
theorem V22_eq (c : Dev nD) : Gen.V22 m (outs m) c = T22 m c := by
  show Function.update (Gen.V21 m (outs m) c) main_v158 (outs m 22 main_v158 c) = T22 m c
  rw [V21_eq, show outs m 22 main_v158 c = T22 m c main_v158 from rfl, T22_out9]; rfl
theorem V23_eq (c : Dev nD) : Gen.V23 m (outs m) c = T23 m c := by
  show StableHlo.after hostOps9 (Gen.V22 m (outs m) c) = T23 m c
  rw [V22_eq]; rfl
theorem V24_eq (c : Dev nD) : Gen.V24 m (outs m) c = T24 m c := by
  show Function.update (Gen.V23 m (outs m) c) main_v163 (outs m 24 main_v163 c) = T24 m c
  rw [V23_eq, show outs m 24 main_v163 c = T24 m c main_v163 from rfl, T24_out9]; rfl
theorem V25_eq (c : Dev nD) : Gen.V25 m (outs m) c = T25 m c := by
  show StableHlo.after hostOps10 (Gen.V24 m (outs m) c) = T25 m c
  rw [V24_eq]; rfl
theorem V26_eq (c : Dev nD) : Gen.V26 m (outs m) c = T26 m c := by
  show Function.update (Function.update (Function.update (Gen.V25 m (outs m) c) main_v166_0 (outs m 26 main_v166_0 c)) main_v166_1 (outs m 26 main_v166_1 c)) main_v166_2 (outs m 26 main_v166_2 c) = T26 m c
  rw [V25_eq, show outs m 26 main_v166_0 c = T26 m c main_v166_0 from rfl, T26_out6, show outs m 26 main_v166_1 c = T26 m c main_v166_1 from rfl, T26_out7, show outs m 26 main_v166_2 c = T26 m c main_v166_2 from rfl, T26_out8]; rfl
theorem V27_eq (c : Dev nD) : Gen.V27 m (outs m) c = T27 m c := by
  show StableHlo.after hostOps11 (Gen.V26 m (outs m) c) = T27 m c
  rw [V26_eq]; rfl
theorem V28_eq (c : Dev nD) : Gen.V28 m (outs m) c = T28 m c := by
  show StableHlo.after hostOps11_1 (Gen.V27 m (outs m) c) = T28 m c
  rw [V27_eq]; rfl
theorem V29_eq (c : Dev nD) : Gen.V29 m (outs m) c = T29 m c := by
  show StableHlo.after hostOps11_2 (Gen.V28 m (outs m) c) = T29 m c
  rw [V28_eq]; rfl
theorem V30_eq (c : Dev nD) : Gen.V30 m (outs m) c = T30 m c := by
  show StableHlo.after hostOps11_3 (Gen.V29 m (outs m) c) = T30 m c
  rw [V29_eq]; rfl
theorem V31_eq (c : Dev nD) : Gen.V31 m (outs m) c = T31 m c := by
  show StableHlo.after hostOps11_4 (Gen.V30 m (outs m) c) = T31 m c
  rw [V30_eq]; rfl

end Cert.KernelIdeal.Run

end
-- ==== Proof.Seg0.lean ====
import proofs.«174816_j57878979281252_2_alg».proof.Proof.Family

/-!
# Region 0 as a segment of the run

Region 0 is entered with every unscoped buffer of the core at the valuation T5 and left with them at T6. At
entry its 3 windows' arrays are taken out of the unscoped buffers at their T5 contents; the rest of the unscoped
buffers and the generator register pass the region by. At exit each input's array still holds what it held (no
write-back touches an input's array) and the output's array holds the fold of the write-backs, which is what T6
has there; everything else T6 takes from T5. Nothing is owed before or after.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## The exit valuation at the region's arrays, and off them -/

/-- An input window's array is never written: after all the points it holds what T5 has there, and T6 has the
    same, the array being none of the region's outputs. -/
theorem arrAt_in0 (c : Dev nD) (w : Fin 3) (hi : (cfg0.win w).isOut = false)
    (hn : Pipeline.arrRef spec0 w ∉ ([main_v54] : List (Ref sig .tc))) :
    (dat0 (fun c b => T5 m c b) c).arrAt w cfg0.N = T6 m c (Pipeline.arrRef spec0 w) :=
  ((dat0 (fun c b => T5 m c b) c).arrAt_in w hi cfg0.N).trans
    ((dat0_A (fun c b => T5 m c b) c w).trans (T6_of m c (Pipeline.arrRef spec0 w) hn).symm)

/-- Each window's array after all the write-backs is what T6 holds there. -/
theorem hF0 (c : Dev nD) : ∀ w : Fin 3, (dat0 (fun c b => T5 m c b) c).arrAt w cfg0.N = T6 m c (Pipeline.arrRef spec0 w)
  | 0 => arrAt_in0 m c 0 rfl (by decide)
  | 1 => arrAt_in0 m c 1 rfl (by decide)
  | 2 => (T6_out2 m c).symm
  | ⟨_ + 3, h⟩ => absurd h (Nat.not_lt.2 (Nat.le_add_left _ _))

/-- Off the region's arrays T6 is T5. -/
theorem hrest0 (c : Dev nD) (b : Ref sig .tc) (hb : b ∉ Finset.univ.image (Pipeline.arrRef spec0)) : T6 m c b = T5 m c b :=
  T6_of m c b fun h => hb (by
    rcases List.mem_singleton.mp h with rfl
    exact Finset.mem_image.mpr ⟨2, Finset.mem_univ _, rfl⟩)

/-- The region's proof data are its own data at T5, -/
theorem pdats_0 (c : Dev nD) : pdats m 0 c = dat0 (fun c b => T5 m c b) c := rfl

/-- which bound the core's recorded waits by nothing. -/
theorem rec0 (c : Dev nD) (t : Fin (cfg0.N + 1)) : (dat0 (fun c b => T5 m c b) c).recorded t = Set.univ := rfl

/-! ## The segment -/

set_option backward.isDefEq.respectTransparency.types false in
/-- Region 0 over the thread state "every unscoped buffer at the valuation, the generator register at some state,
    nothing owed". -/
noncomputable def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => T5 m c b) c).loose
  hwaits := Pipeline.hwaits_of_owed_zero _ _ _ _ L lv 0 fun c t => dat0_owed (fun c b => T5 m c b) c t
  pre c := iprop(StableHlo.held (c : Thread nD τ) (Pipeline.ucRefs τ sig) (T5 m c) ∗ R c)
  post c := iprop(StableHlo.held (c : Thread nD τ) (Pipeline.ucRefs τ sig) (T6 m c) ∗ R c)
  X c := iprop(emp)
  Y c := iprop(emp)
  Z c := iprop(Pipeline.unscopedRest (Ix := Unit) (Name := ℕ) (U := UR sig nD τ) (Lvl := ℕ) spec0 c (fun b => T5 m c b) ∗ ∃ r, prngReg c r)
  hentry c := by
    rw [Pipeline.ownSems0_none]
    have hsplit := Pipeline.arrays_of_unscopedBufs (p := 0) (pcfgs (F := F)) Gen.adm (pdats m) launch0.win launch0.arr_whole c
      ((pdats m 0 c).share_full fun w => dat0_q (fun c b => T5 m c b) c w) (fun b => T5 m c b) fun w => dat0_A (fun c b => T5 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · rw [pdats_0]
      unfold Pipeline.Dat.owesAt Pipeline.owesWithin
      rw [dat0_owed (fun c b => T5 m c b) c _]
      icases HO with ⟨%W, HO⟩; iexists W; isplitr
      · ipureintro; exact fun _ _ => Or.inl ((rec0 m c 0).symm ▸ Set.mem_univ _)
      iexact HO
    isplitr; · iempintro
    isplitl [Hrest]; · iexact Hrest
    iexact Hp
  hin c := by
    refine BIBase.Entails.trans ?_ (Φ0_first (fun c b => T5 m c b) c)
    iintro ⟨-, -, Hr⟩
    iexact Hr
  hout c := by
    rw [Pipeline.ownSems0_none]
    refine BIBase.Entails.trans (Φ0_last (fun c b => T5 m c b) c) ?_
    iintro Hr
    isplitr; · iempintro
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => dat0_q (fun c b => T5 m c b) c w)
      (fun b => T5 m c b) (fun b => T6 m c b) ((pdats m 0 c).arrAt · cfg0.N) (hF0 m c) (hrest0 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    rw [pdats_0]
    unfold Pipeline.Dat.owesAt Pipeline.owesWithin
    rw [dat0_owed (fun c b => T5 m c b) c _]
    icases HO with ⟨%W, -, HO⟩; iexists W; iexact HO

end Cert.KernelIdeal.Run

end
-- ==== Proof.Seg1.lean ====
import proofs.«174816_j57878979281252_2_alg».proof.Proof.Family

/-!
# Region 1 as a segment of the program

The region is entered with every unscoped buffer of the core held at the valuation before it, beside the
generator register at some state and the core owing nothing. Its five windows' arrays are split out of those
buffers; the two inputs come back as they were, each of the three output arrays comes back at the fold of the
blocks written to it; put back among the other unscoped buffers they are the valuation after the region. Nothing
enters the pipeline's invariant but the scoped buffers no window stages; the generator register bypasses the region.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## The names that change from one region of this shape to the next -/

/-- The valuation the region is entered from. -/
local notation "Tin1" => T7
/-- The valuation it leaves, -/
local notation "Tout1" => T8
/-- read at the three output arrays (windows 2, 3 and 4), -/
local notation "Tout1_out2" => T8_out2
local notation "Tout1_out3" => T8_out3
local notation "Tout1_out4" => T8_out4
/-- and off them. -/
local notation "Tout1_of" => T8_of
/-- The output arrays' buffers. -/
local notation "out1_2" => main_v69_0
local notation "out1_3" => main_v69_1
local notation "out1_4" => main_v69_2

/-! ## The arrays at the exit are the next valuation -/

/-- An input window's array leaves the region as it entered, and the valuation after the region has it unchanged. -/
theorem hF1_in (c : Dev nD) (w : Fin cfg1.W) (hin : (cfg1.win w).isOut = false)
    (hne : Pipeline.arrRef spec1 w ∉ ([out1_2, out1_3, out1_4] : List (Ref sig .tc))) :
    (dat1 (fun c b => Tin1 m c b) c).arrAt w cfg1.N = Tout1 m c (Pipeline.arrRef spec1 w) :=
  ((dat1 (fun c b => Tin1 m c b) c).arrAt_in w hin _).trans
    ((dat1_A (fun c b => Tin1 m c b) c w).trans (Tout1_of m c _ hne).symm)

/-- Every window's array at the exit holds what the valuation after the region says. -/
theorem hF1 (c : Dev nD) (w : Fin cfg1.W) :
    (dat1 (fun c b => Tin1 m c b) c).arrAt w cfg1.N = Tout1 m c (Pipeline.arrRef spec1 w) :=
  match w with
  | ⟨0, _⟩ => hF1_in m c 0 rfl (by decide)
  | ⟨1, _⟩ => hF1_in m c 1 rfl (by decide)
  | ⟨2, _⟩ => (Tout1_out2 m c).symm
  | ⟨3, _⟩ => (Tout1_out3 m c).symm
  | ⟨4, _⟩ => (Tout1_out4 m c).symm

/-- Off the windows' arrays the valuation after the region is the one before it. -/
theorem hrest1 (c : Dev nD) (b : Ref sig .tc) (hb : b ∉ Finset.univ.image (Pipeline.arrRef spec1)) :
    Tout1 m c b = Tin1 m c b :=
  Tout1_of m c b fun h => hb (by
    rcases List.mem_cons.1 h with rfl | h
    · exact Finset.mem_image.mpr ⟨2, Finset.mem_univ _, rfl⟩
    rcases List.mem_cons.1 h with rfl | h
    · exact Finset.mem_image.mpr ⟨3, Finset.mem_univ _, rfl⟩
    rw [List.mem_singleton] at h
    subst h
    exact Finset.mem_image.mpr ⟨4, Finset.mem_univ _, rfl⟩)

/-! ## The record -/

set_option backward.isDefEq.respectTransparency.types false in
/-- Region 1 over the thread state: entered from every unscoped buffer at the valuation before it, left at the
    valuation after it; the generator register and the core's empty dues ride along. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (fun c b => Tin1 m c b) c).loose
  hwaits := Pipeline.hwaits_of_owed_zero _ _ _ _ L lv 1 fun c t => dat1_owed (fun c b => Tin1 m c b) c t
  pre c := iprop(StableHlo.held (c : Thread nD τ) (Pipeline.ucRefs τ sig) (Tin1 m c) ∗ R c)
  post c := iprop(StableHlo.held (c : Thread nD τ) (Pipeline.ucRefs τ sig) (Tout1 m c) ∗ R c)
  X c := iprop(emp)
  Y c := iprop(emp)
  Z c := iprop(Pipeline.unscopedRest (Ix := Unit) (Name := ℕ) (U := UR sig nD τ) (Lvl := ℕ) spec1 c (fun b => Tin1 m c b)
    ∗ ∃ r, prngReg c r)
  hentry c := by
    rw [Pipeline.ownSems0_none]
    have hsplit := Pipeline.arrays_of_unscopedBufs (p := 1) (pcfgs (F := F)) Gen.adm (pdats m) launch1.win launch1.arr_whole c
      ((pdats m 1 c).share_full fun w => dat1_q (fun c b => Tin1 m c b) c w) (fun b => Tin1 m c b)
      fun w => dat1_A (fun c b => Tin1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Φ1_first (fun c b => Tin1 m c b) c)
    iintro ⟨-, -, Hr⟩
    iexact Hr
  hout c := by
    rw [Pipeline.ownSems0_none]
    refine (Φ1_last (fun c b => Tin1 m c b) c).trans ?_
    iintro Hr
    isplitr; · iempintro
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => dat1_q (fun c b => Tin1 m c b) c w)
      (fun b => Tin1 m c b) (fun b => Tout1 m c b) ((pdats m 1 c).arrAt · cfg1.N) (hF1 m c) (hrest1 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Run

end
-- ==== Proof.Seg2.lean ====
import proofs.«174816_j57878979281252_2_alg».proof.Proof.Family

/-!
# Region 2 as a segment of the program

The region is entered with every unscoped buffer of the core held at the valuation before it, beside the
generator register at some state and the core owing nothing. Its seven windows' arrays are split out of those
buffers; the six inputs come back as they were, the output array comes back at the fold of the written blocks;
put back among the other unscoped buffers they are the valuation after the region. Nothing enters the pipeline's
invariant but the scoped buffers no window stages; the generator register bypasses the region.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## The names that change from one region of this shape to the next -/

/-- The valuation the region is entered from. -/
local notation "Tin2" => T9
/-- The valuation it leaves, -/
local notation "Tout2" => T10
/-- read at the output array (window 6), -/
local notation "Tout2_out6" => T10_out6
/-- and off it. -/
local notation "Tout2_of" => T10_of
/-- The output array's buffer. -/
local notation "out2_6" => main_v80

/-! ## The arrays at the exit are the next valuation -/

/-- An input window's array leaves the region as it entered, and the valuation after the region has it unchanged. -/
theorem hF2_in (c : Dev nD) (w : Fin cfg2.W) (hin : (cfg2.win w).isOut = false)
    (hne : Pipeline.arrRef spec2 w ∉ ([out2_6] : List (Ref sig .tc))) :
    (dat2 (fun c b => Tin2 m c b) c).arrAt w cfg2.N = Tout2 m c (Pipeline.arrRef spec2 w) :=
  ((dat2 (fun c b => Tin2 m c b) c).arrAt_in w hin _).trans
    ((dat2_A (fun c b => Tin2 m c b) c w).trans (Tout2_of m c _ hne).symm)

/-- Every window's array at the exit holds what the valuation after the region says. -/
theorem hF2 (c : Dev nD) (w : Fin cfg2.W) :
    (dat2 (fun c b => Tin2 m c b) c).arrAt w cfg2.N = Tout2 m c (Pipeline.arrRef spec2 w) :=
  match w with
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => hF2_in m c 5 rfl (by decide)
  | ⟨6, _⟩ => (Tout2_out6 m c).symm

/-- Off the windows' arrays the valuation after the region is the one before it. -/
theorem hrest2 (c : Dev nD) (b : Ref sig .tc) (hb : b ∉ Finset.univ.image (Pipeline.arrRef spec2)) :
    Tout2 m c b = Tin2 m c b :=
  Tout2_of m c b fun h => hb (by
    rw [List.mem_singleton] at h
    subst h
    exact Finset.mem_image.mpr ⟨6, Finset.mem_univ _, rfl⟩)

/-! ## The record -/

-- a library lemma stated over the pinned configuration unifies with the printed one only when unification may
-- unfold plain definitions in a metavariable's type
set_option backward.isDefEq.respectTransparency.types false in
/-- Region 2 over the thread state: entered from every unscoped buffer at the valuation before it, left at the
    valuation after it; the generator register and the core's empty dues ride along. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => Tin2 m c b) c).loose
  hwaits := Pipeline.hwaits_of_owed_zero _ _ _ _ L lv 2 fun c t => dat2_owed (fun c b => Tin2 m c b) c t
  pre c := iprop(StableHlo.held (c : Thread nD τ) (Pipeline.ucRefs τ sig) (Tin2 m c) ∗ R c)
  post c := iprop(StableHlo.held (c : Thread nD τ) (Pipeline.ucRefs τ sig) (Tout2 m c) ∗ R c)
  X c := iprop(emp)
  Y c := iprop(emp)
  Z c := iprop(Pipeline.unscopedRest (Ix := Unit) (Name := ℕ) (U := UR sig nD τ) (Lvl := ℕ) spec2 c (fun b => Tin2 m c b)
    ∗ ∃ r, prngReg c r)
  hentry c := by
    rw [Pipeline.ownSems0_none]
    have hsplit := Pipeline.arrays_of_unscopedBufs (p := 2) (pcfgs (F := F)) Gen.adm (pdats m) launch2.win launch2.arr_whole c
      ((pdats m 2 c).share_full fun w => dat2_q (fun c b => Tin2 m c b) c w) (fun b => Tin2 m c b)
      fun w => dat2_A (fun c b => Tin2 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Φ2_first (fun c b => Tin2 m c b) c)
    iintro ⟨-, -, Hr⟩
    iexact Hr
  hout c := by
    rw [Pipeline.ownSems0_none]
    refine (Φ2_last (fun c b => Tin2 m c b) c).trans ?_
    iintro Hr
    isplitr; · iempintro
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => dat2_q (fun c b => Tin2 m c b) c w)
      (fun b => Tin2 m c b) (fun b => Tout2 m c b) ((pdats m 2 c).arrAt · cfg2.N) (hF2 m c) (hrest2 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Run

end
-- ==== Proof.Seg8.lean ====
import proofs.«174816_j57878979281252_2_alg».proof.Proof.Family

/-!
# Region 8 as a segment of the program

The region is entered with every unscoped buffer of the core held at the valuation before it, beside the
generator register at some state and the core owing nothing. Its ten windows' arrays are split out of those
buffers; the nine inputs come back as they were, the output array comes back at the fold of the written blocks;
put back among the other unscoped buffers they are the valuation after the region. Nothing enters the pipeline's
invariant but the scoped buffers no window stages; the generator register bypasses the region.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## The names that change from one region of this shape to the next -/

/-- The valuation the region is entered from. -/
local notation "Tin8" => T21
/-- The valuation it leaves, -/
local notation "Tout8" => T22
/-- read at the output array (window 9), -/
local notation "Tout8_out9" => T22_out9
/-- and off it. -/
local notation "Tout8_of" => T22_of
/-- The output array's buffer. -/
local notation "out8_9" => main_v158

/-! ## The arrays at the exit are the next valuation -/

/-- An input window's array leaves the region as it entered, and the valuation after the region has it unchanged. -/
theorem hF8_in (c : Dev nD) (w : Fin cfg8.W) (hin : (cfg8.win w).isOut = false)
    (hne : Pipeline.arrRef spec8 w ∉ ([out8_9] : List (Ref sig .tc))) :
    (dat8 (fun c b => Tin8 m c b) c).arrAt w cfg8.N = Tout8 m c (Pipeline.arrRef spec8 w) :=
  ((dat8 (fun c b => Tin8 m c b) c).arrAt_in w hin _).trans
    ((dat8_A (fun c b => Tin8 m c b) c w).trans (Tout8_of m c _ hne).symm)

set_option maxHeartbeats 1000000 in
/-- Every window's array at the exit holds what the valuation after the region says. -/
theorem hF8 (c : Dev nD) (w : Fin cfg8.W) :
    (dat8 (fun c b => Tin8 m c b) c).arrAt w cfg8.N = Tout8 m c (Pipeline.arrRef spec8 w) :=
  match w with
  | ⟨0, _⟩ => hF8_in m c 0 rfl (by decide)
  | ⟨1, _⟩ => hF8_in m c 1 rfl (by decide)
  | ⟨2, _⟩ => hF8_in m c 2 rfl (by decide)
  | ⟨3, _⟩ => hF8_in m c 3 rfl (by decide)
  | ⟨4, _⟩ => hF8_in m c 4 rfl (by decide)
  | ⟨5, _⟩ => hF8_in m c 5 rfl (by decide)
  | ⟨6, _⟩ => hF8_in m c 6 rfl (by decide)
  | ⟨7, _⟩ => hF8_in m c 7 rfl (by decide)
  | ⟨8, _⟩ => hF8_in m c 8 rfl (by decide)
  | ⟨9, _⟩ => (Tout8_out9 m c).symm

/-- Off the windows' arrays the valuation after the region is the one before it. -/
theorem hrest8 (c : Dev nD) (b : Ref sig .tc) (hb : b ∉ Finset.univ.image (Pipeline.arrRef spec8)) :
    Tout8 m c b = Tin8 m c b :=
  Tout8_of m c b fun h => hb (by
    rw [List.mem_singleton] at h
    subst h
    exact Finset.mem_image.mpr ⟨9, Finset.mem_univ _, rfl⟩)

/-! ## The record -/

-- a library lemma stated over the pinned configuration unifies with the printed one only when unification may
-- unfold plain definitions in a metavariable's type
set_option backward.isDefEq.respectTransparency.types false in
/-- Region 8 over the thread state: entered from every unscoped buffer at the valuation before it, left at the
    valuation after it; the generator register and the core's empty dues ride along. -/
def reg8 : Pipeline.RegionSeg (pcfgs (F := F)) Gen.adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => Tin8 m c b) c).loose
  hwaits := Pipeline.hwaits_of_owed_zero _ _ _ _ L lv 8 fun c t => dat8_owed (fun c b => Tin8 m c b) c t
  pre c := iprop(StableHlo.held (c : Thread nD τ) (Pipeline.ucRefs τ sig) (Tin8 m c) ∗ R c)
  post c := iprop(StableHlo.held (c : Thread nD τ) (Pipeline.ucRefs τ sig) (Tout8 m c) ∗ R c)
  X c := iprop(emp)
  Y c := iprop(emp)
  Z c := iprop(Pipeline.unscopedRest (Ix := Unit) (Name := ℕ) (U := UR sig nD τ) (Lvl := ℕ) spec8 c (fun b => Tin8 m c b)
    ∗ ∃ r, prngReg c r)
  hentry c := by
    rw [Pipeline.ownSems0_none]
    have hsplit := Pipeline.arrays_of_unscopedBufs (p := 8) (pcfgs (F := F)) Gen.adm (pdats m) launch8.win launch8.arr_whole c
      ((pdats m 8 c).share_full fun w => dat8_q (fun c b => Tin8 m c b) c w) (fun b => Tin8 m c b)
      fun w => dat8_A (fun c b => Tin8 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Φ8_first (fun c b => Tin8 m c b) c)
    iintro ⟨-, -, Hr⟩
    iexact Hr
  hout c := by
    rw [Pipeline.ownSems0_none]
    refine (Φ8_last (fun c b => Tin8 m c b) c).trans ?_
    iintro Hr
    isplitr; · iempintro
    isplitr; · iempintro
    iexact Hr
  hexit c := by
    have hjoin := Pipeline.unscopedBufs_of_arrays (p := 8) (pcfgs (F := F)) Gen.adm (Ix := Unit) (Name := ℕ) (U := UR sig nD τ) (Lvl := ℕ)
      launch8.win launch8.arr_whole c (pdats m) ((pdats m 8 c).share_full fun w => dat8_q (fun c b => Tin8 m c b) c w)
      (fun b => Tin8 m c b) (fun b => Tout8 m c b) ((pdats m 8 c).arrAt · cfg8.N) (hF8 m c) (hrest8 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Run

end
-- ==== Proof.Seg10.lean ====
import proofs.«174816_j57878979281252_2_alg».proof.Proof.Family

/-!
# Region 10 as a segment of the program

The region is entered with every unscoped buffer of the core held at the valuation before it, beside the
generator register at some state and the core owing nothing. Its nine windows' arrays are split out of those
buffers; the six inputs come back as they were, each of the three output arrays comes back at the fold of the
blocks written to it; put back among the other unscoped buffers they are the valuation after the region. Nothing
enters the pipeline's invariant but the scoped buffers no window stages; the generator register bypasses the region.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)

/-! ## The names that change from one region of this shape to the next -/

/-- The valuation the region is entered from. -/
local notation "Tin10" => T25
/-- The valuation it leaves, -/
local notation "Tout10" => T26
/-- read at the three output arrays (windows 6, 7 and 8), -/
local notation "Tout10_out6" => T26_out6
local notation "Tout10_out7" => T26_out7
local notation "Tout10_out8" => T26_out8
/-- and off them. -/
local notation "Tout10_of" => T26_of
/-- The output arrays' buffers. -/
local notation "out10_6" => main_v166_0
local notation "out10_7" => main_v166_1
local notation "out10_8" => main_v166_2

/-! ## The arrays at the exit are the next valuation -/

/-- An input window's array leaves the region as it entered, and the valuation after the region has it unchanged. -/
theorem hF10_in (c : Dev nD) (w : Fin cfg10.W) (hin : (cfg10.win w).isOut = false)
    (hne : Pipeline.arrRef spec10 w ∉ ([out10_6, out10_7, out10_8] : List (Ref sig .tc))) :
    (dat10 (fun c b => Tin10 m c b) c).arrAt w cfg10.N = Tout10 m c (Pipeline.arrRef spec10 w) :=
  ((dat10 (fun c b => Tin10 m c b) c).arrAt_in w hin _).trans
    ((dat10_A (fun c b => Tin10 m c b) c w).trans (Tout10_of m c _ hne).symm)

set_option maxHeartbeats 1000000 in
/-- Every window's array at the exit holds what the valuation after the region says. -/
theorem hF10 (c : Dev nD) (w : Fin cfg10.W) :
    (dat10 (fun c b => Tin10 m c b) c).arrAt w cfg10.N = Tout10 m c (Pipeline.arrRef spec10 w) :=
  match w with
  | ⟨0, _⟩ => hF10_in m c 0 rfl (by decide)
  | ⟨1, _⟩ => hF10_in m c 1 rfl (by decide)
  | ⟨2, _⟩ => hF10_in m c 2 rfl (by decide)
  | ⟨3, _⟩ => hF10_in m c 3 rfl (by decide)
  | ⟨4, _⟩ => hF10_in m c 4 rfl (by decide)
  | ⟨5, _⟩ => hF10_in m c 5 rfl (by decide)
  | ⟨6, _⟩ => (Tout10_out6 m c).symm
  | ⟨7, _⟩ => (Tout10_out7 m c).symm
  | ⟨8, _⟩ => (Tout10_out8 m c).symm

/-- Off the windows' arrays the valuation after the region is the one before it. -/
theorem hrest10 (c : Dev nD) (b : Ref sig .tc) (hb : b ∉ Finset.univ.image (Pipeline.arrRef spec10)) :
    Tout10 m c b = Tin10 m c b :=
  Tout10_of m c b fun h => hb (by
    rcases List.mem_cons.1 h with rfl | h
    · exact Finset.mem_image.mpr ⟨6, Finset.mem_univ _, rfl⟩
    rcases List.mem_cons.1 h with rfl | h
    · exact Finset.mem_image.mpr ⟨7, Finset.mem_univ _, rfl⟩
    rw [List.mem_singleton] at h
    subst h
    exact Finset.mem_image.mpr ⟨8, Finset.mem_univ _, rfl⟩)

/-! ## The record -/

-- a library lemma stated over the pinned configuration unifies with the printed one only when unification may
-- unfold plain definitions in a metavariable's type
set_option backward.isDefEq.respectTransparency.types false in
/-- Region 10 over the thread state: entered from every unscoped buffer at the valuation before it, left at the
    valuation after it; the generator register and the core's empty dues ride along. -/
def reg10 : Pipeline.RegionSeg (pcfgs (F := F)) Gen.adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => Tin10 m c b) c).loose
  hwaits := Pipeline.hwaits_of_owed_zero _ _ _ _ L lv 10 fun c t => dat10_owed (fun c b => Tin10 m c b) c t
  pre c := iprop(StableHlo.held (c : Thread nD τ) (Pipeline.ucRefs τ sig) (Tin10 m c) ∗ R c)
  post c := iprop(StableHlo.held (c : Thread nD τ) (Pipeline.ucRefs τ sig) (Tout10 m c) ∗ R c)
  X c := iprop(emp)
  Y c := iprop(emp)
  Z c := iprop(Pipeline.unscopedRest (Ix := Unit) (Name := ℕ) (U := UR sig nD τ) (Lvl := ℕ) spec10 c (fun b => Tin10 m c b)
    ∗ ∃ r, prngReg c r)
  hentry c := by
    rw [Pipeline.ownSems0_none]
    have hsplit := Pipeline.arrays_of_unscopedBufs (p := 10) (pcfgs (F := F)) Gen.adm (pdats m) launch10.win launch10.arr_whole c
      ((pdats m 10 c).share_full fun w => dat10_q (fun c b => Tin10 m c b) c w) (fun b => Tin10 m c b)
      fun w => dat10_A (fun c b => Tin10 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := by
    refine BIBase.Entails.trans ?_ (Φ10_first (fun c b => Tin10 m c b) c)
    iintro ⟨-, -, Hr⟩
    iexact Hr
  hout c := by
    rw [Pipeline.ownSems0_none]
    refine (Φ10_last (fun c b => Tin10 m c b) c).trans ?_
    iintro Hr
    isplitr; · iempintro
    isplitr; · iempintro
    iexact Hr
  hexit c := by
    have hjoin := Pipeline.unscopedBufs_of_arrays (p := 10) (pcfgs (F := F)) Gen.adm (Ix := Unit) (Name := ℕ) (U := UR sig nD τ) (Lvl := ℕ)
      launch10.win launch10.arr_whole c (pdats m) ((pdats m 10 c).share_full fun w => dat10_q (fun c b => Tin10 m c b) c w)
      (fun b => Tin10 m c b) (fun b => Tout10 m c b) ((pdats m 10 c).arrAt · cfg10.N) (hF10 m c) (hrest10 m c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

end Cert.KernelIdeal.Run

end
-- ==== Proof.FrameRun.lean ====
import proofs.«174816_j57878979281252_2_alg».proof.Proof.Outs
import proofs.«174816_j57878979281252_2_alg».proof.Proof.Seg0
import proofs.«174816_j57878979281252_2_alg».proof.Proof.Seg1
import proofs.«174816_j57878979281252_2_alg».proof.Proof.Seg2
import proofs.«174816_j57878979281252_2_alg».proof.Proof.Seg3
import proofs.«174816_j57878979281252_2_alg».proof.Proof.Seg4
import proofs.«174816_j57878979281252_2_alg».proof.Proof.Seg5
import proofs.«174816_j57878979281252_2_alg».proof.Proof.Seg6
import proofs.«174816_j57878979281252_2_alg».proof.Proof.Seg7
import proofs.«174816_j57878979281252_2_alg».proof.Proof.Seg8
import proofs.«174816_j57878979281252_2_alg».proof.Proof.Seg9
import proofs.«174816_j57878979281252_2_alg».proof.Proof.Seg10

/-!
# The frame of the kernel program

Every weakly fair execution of the program from a memory with zero counters terminates, and every final memory
holds each of the 27 argument arrays as launched. The run is the conditional frame at the chain of valuations:
between two items the core holds every unscoped buffer at the chain's valuation, its generator register at some
state and no debt; each region's segment record is entered from the valuation before it and left at the one after
it, which is the conditional frame's own valuation there once its unknown family is read off the chain.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-! ## The segments chain: each region is entered from the conditional frame's valuation before it and leaves the one after it -/

theorem hpre0 (c : Dev nD) : iprop(StableHlo.held (c : Thread nD τ) (Pipeline.ucRefs τ sig) (Gen.V5 m c) ∗ R c) ⊢ (reg0 m).pre c := by
  rw [V5_eq]; exact .rfl
theorem hpost0 (c : Dev nD) : (reg0 m).post c ⊢ iprop(StableHlo.held (c : Thread nD τ) (Pipeline.ucRefs τ sig) (Gen.V6 m (outs m) c) ∗ R c) := by
  rw [V6_eq]; exact .rfl
theorem hpre1 (c : Dev nD) : iprop(StableHlo.held (c : Thread nD τ) (Pipeline.ucRefs τ sig) (Gen.V7 m (outs m) c) ∗ R c) ⊢ (reg1 m).pre c := by
  rw [V7_eq]; exact .rfl
theorem hpost1 (c : Dev nD) : (reg1 m).post c ⊢ iprop(StableHlo.held (c : Thread nD τ) (Pipeline.ucRefs τ sig) (Gen.V8 m (outs m) c) ∗ R c) := by
  rw [V8_eq]; exact .rfl
theorem hpre2 (c : Dev nD) : iprop(StableHlo.held (c : Thread nD τ) (Pipeline.ucRefs τ sig) (Gen.V9 m (outs m) c) ∗ R c) ⊢ (reg2 m).pre c := by
  rw [V9_eq]; exact .rfl
theorem hpost2 (c : Dev nD) : (reg2 m).post c ⊢ iprop(StableHlo.held (c : Thread nD τ) (Pipeline.ucRefs τ sig) (Gen.V10 m (outs m) c) ∗ R c) := by
  rw [V10_eq]; exact .rfl
theorem hpre3 (c : Dev nD) : iprop(StableHlo.held (c : Thread nD τ) (Pipeline.ucRefs τ sig) (Gen.V11 m (outs m) c) ∗ R c) ⊢ (reg3 m).pre c := by
  rw [V11_eq]; exact .rfl
theorem hpost3 (c : Dev nD) : (reg3 m).post c ⊢ iprop(StableHlo.held (c : Thread nD τ) (Pipeline.ucRefs τ sig) (Gen.V12 m (outs m) c) ∗ R c) := by
  rw [V12_eq]; exact .rfl
theorem hpre4 (c : Dev nD) : iprop(StableHlo.held (c : Thread nD τ) (Pipeline.ucRefs τ sig) (Gen.V13 m (outs m) c) ∗ R c) ⊢ (reg4 m).pre c := by
  rw [V13_eq]; exact .rfl
theorem hpost4 (c : Dev nD) : (reg4 m).post c ⊢ iprop(StableHlo.held (c : Thread nD τ) (Pipeline.ucRefs τ sig) (Gen.V14 m (outs m) c) ∗ R c) := by
  rw [V14_eq]; exact .rfl
theorem hpre5 (c : Dev nD) : iprop(StableHlo.held (c : Thread nD τ) (Pipeline.ucRefs τ sig) (Gen.V15 m (outs m) c) ∗ R c) ⊢ (reg5 m).pre c := by
  rw [V15_eq]; exact .rfl
theorem hpost5 (c : Dev nD) : (reg5 m).post c ⊢ iprop(StableHlo.held (c : Thread nD τ) (Pipeline.ucRefs τ sig) (Gen.V16 m (outs m) c) ∗ R c) := by
  rw [V16_eq]; exact .rfl
theorem hpre6 (c : Dev nD) : iprop(StableHlo.held (c : Thread nD τ) (Pipeline.ucRefs τ sig) (Gen.V17 m (outs m) c) ∗ R c) ⊢ (reg6 m).pre c := by
  rw [V17_eq]; exact .rfl
theorem hpost6 (c : Dev nD) : (reg6 m).post c ⊢ iprop(StableHlo.held (c : Thread nD τ) (Pipeline.ucRefs τ sig) (Gen.V18 m (outs m) c) ∗ R c) := by
  rw [V18_eq]; exact .rfl
theorem hpre7 (c : Dev nD) : iprop(StableHlo.held (c : Thread nD τ) (Pipeline.ucRefs τ sig) (Gen.V19 m (outs m) c) ∗ R c) ⊢ (reg7 m).pre c := by
  rw [V19_eq]; exact .rfl
theorem hpost7 (c : Dev nD) : (reg7 m).post c ⊢ iprop(StableHlo.held (c : Thread nD τ) (Pipeline.ucRefs τ sig) (Gen.V20 m (outs m) c) ∗ R c) := by
  rw [V20_eq]; exact .rfl
theorem hpre8 (c : Dev nD) : iprop(StableHlo.held (c : Thread nD τ) (Pipeline.ucRefs τ sig) (Gen.V21 m (outs m) c) ∗ R c) ⊢ (reg8 m).pre c := by
  rw [V21_eq]; exact .rfl
theorem hpost8 (c : Dev nD) : (reg8 m).post c ⊢ iprop(StableHlo.held (c : Thread nD τ) (Pipeline.ucRefs τ sig) (Gen.V22 m (outs m) c) ∗ R c) := by
  rw [V22_eq]; exact .rfl
theorem hpre9 (c : Dev nD) : iprop(StableHlo.held (c : Thread nD τ) (Pipeline.ucRefs τ sig) (Gen.V23 m (outs m) c) ∗ R c) ⊢ (reg9 m).pre c := by
  rw [V23_eq]; exact .rfl
theorem hpost9 (c : Dev nD) : (reg9 m).post c ⊢ iprop(StableHlo.held (c : Thread nD τ) (Pipeline.ucRefs τ sig) (Gen.V24 m (outs m) c) ∗ R c) := by
  rw [V24_eq]; exact .rfl
theorem hpre10 (c : Dev nD) : iprop(StableHlo.held (c : Thread nD τ) (Pipeline.ucRefs τ sig) (Gen.V25 m (outs m) c) ∗ R c) ⊢ (reg10 m).pre c := by
  rw [V25_eq]; exact .rfl
theorem hpost10 (c : Dev nD) : (reg10 m).post c ⊢ iprop(StableHlo.held (c : Thread nD τ) (Pipeline.ucRefs τ sig) (Gen.V26 m (outs m) c) ∗ R c) := by
  rw [V26_eq]; exact .rfl

/-! ## The launch -/

/-- The launch element is the pipeline library's own, and no core is dealt anything else. -/
theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  rw [BI.bigSep_emp_const]; iempintro

/-- What the launch deals a core beside its buffers makes the state that rides through the run: the generator
    register at its launch state, and owing nothing. -/
theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) :=
  Pipeline.initEach L lv fun c => by
    iintro ⟨⟨-, HO, -, Hp, -⟩, -⟩
    imodintro
    isplitl [Hp]; · iexists _; iexact Hp
    iexists ∅; iexact HO

/-- At the end the core owes nothing. -/
theorem hE11 (c : Dev nD) : R c ⊢ (iprop(∃ W, owes (c : Thread nD τ) (0 : CellTallies nD τ sig Unit) W) : sProp 𝕄) := by
  iintro ⟨-, HO⟩; iexact HO

/-! ## The frame -/

set_option backward.isDefEq.respectTransparency.types false in
/-- From any memory with zero counters every weakly fair execution of the program terminates and every final
    memory holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Gen.frame_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ (fun _ c => R c) (hE0 ρ) hE11
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)

end Cert.KernelIdeal.Run

end
-- ==== Proof.RefRunOps.lean ====
import proofs.«174816_j57878979281252_2_alg».proof.Proof.Gen.ReferenceIdeal
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main: operations 1 … 64 of 404. -/
abbrev ops0 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    binary main_arg0 main_arg3 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst (constant S_ .f32 0x3F800000#32),
    unary main_cst main_v5 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1000000x1 ![0] bcast_S1000000_S1000000x1_0 : (⟨S1000000, .i32⟩ : BufTy).Contents (Elt F) → (⟨S1000000x1, .i32⟩ : BufTy).Contents (Elt F)),
    ternary main_v6 main_v7 main_v5 main_v8 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_1 (constant S_ .f32 0x00000000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (cmpf (F := F) .ogt : (⟨S100000, .f32⟩ : BufTy).Contents (Elt F) → (⟨S100000, .f32⟩ : BufTy).Contents (Elt F) → (⟨S100000, .i1⟩ : BufTy).Contents (Elt F)),
    unary main_v8 main_v11 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v10) (TRef.of (T := ⟨S100000, .f32⟩) main_v11) (TRef.of (T := ⟨S100000, .f32⟩) main_call0_v1) (TRef.of (T := ⟨S100000, .f32⟩) main_v12) select,
    nullary main_c (constantI S_ 32 0#32),
    unary main_c main_v13 (broadcastInDim S1000000 ![] bcast_S_S1000000 : (⟨S_, .i32⟩ : BufTy).Contents (Elt F) → (⟨S1000000, .i32⟩ : BufTy).Contents (Elt F)),
    binary main_v1 main_v13 main_v14 (cmpi .slt : (⟨S1000000, .i32⟩ : BufTy).Contents (Elt F) → (⟨S1000000, .i32⟩ : BufTy).Contents (Elt F) → (⟨S1000000, .i1⟩ : BufTy).Contents (Elt F)),
    nullary main_c_3 (constantI S_ 32 100000#32),
    unary main_c_3 main_v15 (broadcastInDim S1000000 ![] bcast_S_S1000000 : (⟨S_, .i32⟩ : BufTy).Contents (Elt F) → (⟨S1000000, .i32⟩ : BufTy).Contents (Elt F)),
    binary main_v1 main_v15 main_v16 (addi : (⟨S1000000, .i32⟩ : BufTy).Contents (Elt F) → (⟨S1000000, .i32⟩ : BufTy).Contents (Elt F) → (⟨S1000000, .i32⟩ : BufTy).Contents (Elt F)),
    ternary main_v14 main_v16 main_v1 main_v17 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v17 main_v18 (broadcastInDim S1000000x1 ![0] bcast_S1000000_S1000000x1_0 : (⟨S1000000, .i32⟩ : BufTy).Contents (Elt F) → (⟨S1000000x1, .i32⟩ : BufTy).Contents (Elt F)),
    binary main_v12 main_v18 main_v19 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_4 (constantI S_ 32 0#32),
    unary main_c_4 main_v20 (broadcastInDim S1000000 ![] bcast_S_S1000000 : (⟨S_, .i32⟩ : BufTy).Contents (Elt F) → (⟨S1000000, .i32⟩ : BufTy).Contents (Elt F)),
    binary main_v3 main_v20 main_v21 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 100000#32),
    unary main_c_5 main_v22 (broadcastInDim S1000000 ![] bcast_S_S1000000 : (⟨S_, .i32⟩ : BufTy).Contents (Elt F) → (⟨S1000000, .i32⟩ : BufTy).Contents (Elt F)),
    binary main_v3 main_v22 main_v23 (addi : (⟨S1000000, .i32⟩ : BufTy).Contents (Elt F) → (⟨S1000000, .i32⟩ : BufTy).Contents (Elt F) → (⟨S1000000, .i32⟩ : BufTy).Contents (Elt F)),
    ternary main_v21 main_v23 main_v3 main_v24 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v24 main_v25 (broadcastInDim S1000000x1 ![0] bcast_S1000000_S1000000x1_0 : (⟨S1000000, .i32⟩ : BufTy).Contents (Elt F) → (⟨S1000000x1, .i32⟩ : BufTy).Contents (Elt F)),
    binary main_v12 main_v25 main_v26 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v19 main_v26 main_v27 (mulf : (⟨S1000000, .f32⟩ : BufTy).Contents (Elt F) → (⟨S1000000, .f32⟩ : BufTy).Contents (Elt F) → (⟨S1000000, .f32⟩ : BufTy).Contents (Elt F)),
    nullary main_c_6 (constantI S_ 32 0#32),
    unary main_c_6 main_v28 (broadcastInDim S1000000 ![] bcast_S_S1000000 : (⟨S_, .i32⟩ : BufTy).Contents (Elt F) → (⟨S1000000, .i32⟩ : BufTy).Contents (Elt F)),
    binary main_v1 main_v28 main_v29 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 100000#32),
    unary main_c_7 main_v30 (broadcastInDim S1000000 ![] bcast_S_S1000000 : (⟨S_, .i32⟩ : BufTy).Contents (Elt F) → (⟨S1000000, .i32⟩ : BufTy).Contents (Elt F)),
    binary main_v1 main_v30 main_v31 (addi : (⟨S1000000, .i32⟩ : BufTy).Contents (Elt F) → (⟨S1000000, .i32⟩ : BufTy).Contents (Elt F) → (⟨S1000000, .i32⟩ : BufTy).Contents (Elt F)),
    ternary main_v29 main_v31 main_v1 main_v32 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v32 main_v33 (broadcastInDim S1000000x1 ![0] bcast_S1000000_S1000000x1_0 : (⟨S1000000, .i32⟩ : BufTy).Contents (Elt F) → (⟨S1000000x1, .i32⟩ : BufTy).Contents (Elt F)),
    binary main_v4 main_v33 main_v34 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_v27 main_v35 (broadcastInDim S1000000x1 ![0] bcast_S1000000_S1000000x1_0 : (⟨S1000000, .f32⟩ : BufTy).Contents (Elt F) → (⟨S1000000x1, .f32⟩ : BufTy).Contents (Elt F)),
    unary main_v35 main_v36 (broadcastInDim S1000000x128 ![0, 1] bcast_S1000000x1_S1000000x128_0_1 : (⟨S1000000x1, .f32⟩ : BufTy).Contents (Elt F) → (⟨S1000000x128, .f32⟩ : BufTy).Contents (Elt F)),
    binary main_v34 main_v36 main_v37 (mulf : (⟨S1000000x128, .f32⟩ : BufTy).Contents (Elt F) → (⟨S1000000x128, .f32⟩ : BufTy).Contents (Elt F) → (⟨S1000000x128, .f32⟩ : BufTy).Contents (Elt F)),
    nullary main_cst_8 (constant S_ .f32 0x00000000#32),
    unary main_cst_8 main_v38 (broadcastInDim S100000x128 ![] bcast_S_S100000x128 : (⟨S_, .f32⟩ : BufTy).Contents (Elt F) → (⟨S100000x128, .f32⟩ : BufTy).Contents (Elt F)),
    unary main_v3 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg4 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v43) (TRef.of (T := ⟨S100000x128, .f32⟩) main_call1_v0) (TRef.of (T := ⟨S100000x128, .f32⟩) main_v44) maximumf,
    nullary main_cst_9 (constant S_ .f32 0x00000000#32),
    binary main_v44 main_cst_9 main_v45 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_10 (constant S_ .f32 0x47C35000#32),
    unary main_cst_10 main_v46 (broadcastInDim S128 ![] bcast_S_S128 : (⟨S_, .f32⟩ : BufTy).Contents (Elt F) → (⟨S128, .f32⟩ : BufTy).Contents (Elt F)) ]

set_option maxRecDepth 8192 in
set_option maxHeartbeats 4000000 in
theorem main_part0_eq (c : Dev nD) : main_part0 (F := F) c = seq ops0 := rfl
set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub ..⟩
set_option maxRecDepth 8192 in
theorem ops0_fresh : ∀ op ∈ (ops0 : List (HloOp τ sig (Elt F))), op.fresh = ∅ := by
  intro _ h; (repeat (cases h with | head => rfl | tail _ h => ?_)); exact nomatch h
/-- The buffers window 0 writes. -/
abbrev ops0_W : List (Ref sig .tc) := [main_v0, main_v1, main_v2, main_v3, main_v4, main_cst, main_v5, main_cst_0, main_v6, main_v7, main_v8, main_cst_1, main_v9, main_v10, main_v11, main_cst_2, main_call0_v0, main_call0_v1, main_v12, main_c, main_v13, main_v14, main_c_3, main_v15, main_v16, main_v17, main_v18, main_v19, main_c_4, main_v20, main_v21, main_c_5, main_v22, main_v23, main_v24, main_v25, main_v26, main_v27, main_c_6, main_v28, main_v29, main_c_7, main_v30, main_v31, main_v32, main_v33, main_v34, main_v35, main_v36, main_v37, main_cst_8, main_v38, main_v39, main_v40, main_v41, main_v42, main_v43, main_call1_cst, main_call1_v0, main_v44, main_cst_9, main_v45, main_cst_10, main_v46]
set_option maxRecDepth 8192 in
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 0 does not write keeps its contents through it. -/
theorem ops0_keep (W : Valuation τ sig (Elt F)) (r : Ref sig .tc) (h : r ∉ ops0_W) :
    after ops0 W (Proc.devRef .tc r) = W (Proc.devRef .tc r) :=
  after_of_writes_sub ops0 W ops0_writes h

/-- The operations of window 1 of @main: operations 65 … 126 of 404. -/
abbrev ops1 : List (HloOp τ sig (Elt F)) :=
  [ binary main_v45 main_v46 main_v47 (Host.divf : (⟨S128, .f32⟩ : BufTy).Contents (Elt F) → (⟨S128, .f32⟩ : BufTy).Contents (Elt F) → (⟨S128, .f32⟩ : BufTy).Contents (Elt F)),
    unary main_v47 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v44 main_v49 main_v50 (subf : (⟨S100000x128, .f32⟩ : BufTy).Contents (Elt F) → (⟨S100000x128, .f32⟩ : BufTy).Contents (Elt F) → (⟨S100000x128, .f32⟩ : BufTy).Contents (Elt F)),
    binary main_v50 main_v50 main_v51 (mulf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x00000000#32),
    binary main_v51 main_cst_11 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_12 (constant S_ .f32 0x47C35000#32),
    unary main_cst_12 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    unary main_v47 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v44 main_v56 main_v57 (subf : (⟨S100000x128, .f32⟩ : BufTy).Contents (Elt F) → (⟨S100000x128, .f32⟩ : BufTy).Contents (Elt F) → (⟨S100000x128, .f32⟩ : BufTy).Contents (Elt F)),
    unary main_arg7 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v59 main_v57 main_v60 (mulf : (⟨S100000x128, .f32⟩ : BufTy).Contents (Elt F) → (⟨S100000x128, .f32⟩ : BufTy).Contents (Elt F) → (⟨S100000x128, .f32⟩ : BufTy).Contents (Elt F)),
    nullary main_cst_13 (constant S_ .f32 0x3727C5AC#32),
    unary main_cst_13 main_v61 (broadcastInDim S128 ![] bcast_S_S128 : (⟨S_, .f32⟩ : BufTy).Contents (Elt F) → (⟨S128, .f32⟩ : BufTy).Contents (Elt F)),
    binary main_v54 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v60 main_v65 main_v66 (mulf : (⟨S100000x128, .f32⟩ : BufTy).Contents (Elt F) → (⟨S100000x128, .f32⟩ : BufTy).Contents (Elt F) → (⟨S100000x128, .f32⟩ : BufTy).Contents (Elt F)),
    unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S100000x128 ![0, 1] bcast_S1x128_S100000x128_0_1 : (⟨S1x128, .f32⟩ : BufTy).Contents (Elt F) → (⟨S100000x128, .f32⟩ : BufTy).Contents (Elt F)),
    binary main_v66 main_v68 main_v69 (addf : (⟨S100000x128, .f32⟩ : BufTy).Contents (Elt F) → (⟨S100000x128, .f32⟩ : BufTy).Contents (Elt F) → (⟨S100000x128, .f32⟩ : BufTy).Contents (Elt F)),
    binary main_v69 main_arg5 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_14 (constant S_ .f32 0x3F800000#32),
    unary main_cst_14 main_v71 (broadcastInDim S1000000 ![] bcast_S_S1000000 : (⟨S_, .f32⟩ : BufTy).Contents (Elt F) → (⟨S1000000, .f32⟩ : BufTy).Contents (Elt F)),
    nullary main_cst_15 (constant S_ .f32 0x00000000#32),
    unary main_cst_15 main_v72 (broadcastInDim S100000 ![] bcast_S_S100000 : (⟨S_, .f32⟩ : BufTy).Contents (Elt F) → (⟨S100000, .f32⟩ : BufTy).Contents (Elt F)),
    unary main_v3 main_v73 (broadcastInDim S1000000x1 ![0] bcast_S1000000_S1000000x1_0 : (⟨S1000000, .i32⟩ : BufTy).Contents (Elt F) → (⟨S1000000x1, .i32⟩ : BufTy).Contents (Elt F)),
    ternary main_v72 main_v73 main_v71 main_v74 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_16 (constant S_ .f32 0x00000000#32),
    unary main_cst_16 main_v75 (broadcastInDim S100000 ![] bcast_S_S100000 : (⟨S_, .f32⟩ : BufTy).Contents (Elt F) → (⟨S100000, .f32⟩ : BufTy).Contents (Elt F)),
    binary main_v74 main_v75 main_v76 (cmpf (F := F) .ogt : (⟨S100000, .f32⟩ : BufTy).Contents (Elt F) → (⟨S100000, .f32⟩ : BufTy).Contents (Elt F) → (⟨S100000, .i1⟩ : BufTy).Contents (Elt F)),
    unary main_v74 main_v77 (Host.rsqrt : (⟨S100000, .f32⟩ : BufTy).Contents (Elt F) → (⟨S100000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v76) (TRef.of (T := ⟨S100000, .f32⟩) main_v77) (TRef.of (T := ⟨S100000, .f32⟩) main_call2_v1) (TRef.of (T := ⟨S100000, .f32⟩) main_v78) select,
    nullary main_c_18 (constantI S_ 32 0#32),
    unary main_c_18 main_v79 (broadcastInDim S1000000 ![] bcast_S_S1000000 : (⟨S_, .i32⟩ : BufTy).Contents (Elt F) → (⟨S1000000, .i32⟩ : BufTy).Contents (Elt F)),
    binary main_v1 main_v79 main_v80 (cmpi .slt : (⟨S1000000, .i32⟩ : BufTy).Contents (Elt F) → (⟨S1000000, .i32⟩ : BufTy).Contents (Elt F) → (⟨S1000000, .i1⟩ : BufTy).Contents (Elt F)),
    nullary main_c_19 (constantI S_ 32 100000#32),
    unary main_c_19 main_v81 (broadcastInDim S1000000 ![] bcast_S_S1000000 : (⟨S_, .i32⟩ : BufTy).Contents (Elt F) → (⟨S1000000, .i32⟩ : BufTy).Contents (Elt F)),
    binary main_v1 main_v81 main_v82 (addi : (⟨S1000000, .i32⟩ : BufTy).Contents (Elt F) → (⟨S1000000, .i32⟩ : BufTy).Contents (Elt F) → (⟨S1000000, .i32⟩ : BufTy).Contents (Elt F)),
    ternary main_v80 main_v82 main_v1 main_v83 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v83 main_v84 (broadcastInDim S1000000x1 ![0] bcast_S1000000_S1000000x1_0 : (⟨S1000000, .i32⟩ : BufTy).Contents (Elt F) → (⟨S1000000x1, .i32⟩ : BufTy).Contents (Elt F)),
    binary main_v78 main_v84 main_v85 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_20 (constantI S_ 32 0#32),
    unary main_c_20 main_v86 (broadcastInDim S1000000 ![] bcast_S_S1000000 : (⟨S_, .i32⟩ : BufTy).Contents (Elt F) → (⟨S1000000, .i32⟩ : BufTy).Contents (Elt F)),
    binary main_v3 main_v86 main_v87 (cmpi .slt : (⟨S1000000, .i32⟩ : BufTy).Contents (Elt F) → (⟨S1000000, .i32⟩ : BufTy).Contents (Elt F) → (⟨S1000000, .i1⟩ : BufTy).Contents (Elt F)),
    nullary main_c_21 (constantI S_ 32 100000#32),
    unary main_c_21 main_v88 (broadcastInDim S1000000 ![] bcast_S_S1000000 : (⟨S_, .i32⟩ : BufTy).Contents (Elt F) → (⟨S1000000, .i32⟩ : BufTy).Contents (Elt F)),
    binary main_v3 main_v88 main_v89 (addi : (⟨S1000000, .i32⟩ : BufTy).Contents (Elt F) → (⟨S1000000, .i32⟩ : BufTy).Contents (Elt F) → (⟨S1000000, .i32⟩ : BufTy).Contents (Elt F)),
    ternary main_v87 main_v89 main_v3 main_v90 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v90 main_v91 (broadcastInDim S1000000x1 ![0] bcast_S1000000_S1000000x1_0 : (⟨S1000000, .i32⟩ : BufTy).Contents (Elt F) → (⟨S1000000x1, .i32⟩ : BufTy).Contents (Elt F)),
    binary main_v78 main_v91 main_v92 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v85 main_v92 main_v93 (mulf : (⟨S1000000, .f32⟩ : BufTy).Contents (Elt F) → (⟨S1000000, .f32⟩ : BufTy).Contents (Elt F) → (⟨S1000000, .f32⟩ : BufTy).Contents (Elt F)),
    nullary main_c_22 (constantI S_ 32 0#32),
    unary main_c_22 main_v94 (broadcastInDim S1000000 ![] bcast_S_S1000000 : (⟨S_, .i32⟩ : BufTy).Contents (Elt F) → (⟨S1000000, .i32⟩ : BufTy).Contents (Elt F)) ]

set_option maxRecDepth 8192 in
set_option maxHeartbeats 4000000 in
theorem main_part1_eq (c : Dev nD) : main_part1 (F := F) c = seq ops1 := rfl
set_option maxRecDepth 8192 in
theorem ops1_sub : (ops1 : List (HloOp τ sig (Elt F))).Forall fun op => op.bufs ⊆ tcRefs τ sig :=
  ⟨binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub ..⟩
set_option maxRecDepth 8192 in
theorem ops1_fresh : ∀ op ∈ (ops1 : List (HloOp τ sig (Elt F))), op.fresh = ∅ := by
  intro _ h; (repeat (cases h with | head => rfl | tail _ h => ?_)); exact nomatch h
/-- The buffers window 1 writes. -/
abbrev ops1_W : List (Ref sig .tc) := [main_v47, main_v48, main_v49, main_v50, main_v51, main_cst_11, main_v52, main_cst_12, main_v53, main_v54, main_v55, main_v56, main_v57, main_v58, main_v59, main_v60, main_cst_13, main_v61, main_v62, main_v63, main_v64, main_v65, main_v66, main_v67, main_v68, main_v69, main_v70, main_cst_14, main_v71, main_cst_15, main_v72, main_v73, main_v74, main_cst_16, main_v75, main_v76, main_v77, main_cst_17, main_call2_v0, main_call2_v1, main_v78, main_c_18, main_v79, main_v80, main_c_19, main_v81, main_v82, main_v83, main_v84, main_v85, main_c_20, main_v86, main_v87, main_c_21, main_v88, main_v89, main_v90, main_v91, main_v92, main_v93, main_c_22, main_v94]
set_option maxRecDepth 8192 in
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 1 does not write keeps its contents through it. -/
theorem ops1_keep (W : Valuation τ sig (Elt F)) (r : Ref sig .tc) (h : r ∉ ops1_W) :
    after ops1 W (Proc.devRef .tc r) = W (Proc.devRef .tc r) :=
  after_of_writes_sub ops1 W ops1_writes h

/-- The operations of window 2 of @main: operations 127 … 186 of 404. -/
abbrev ops2 : List (HloOp τ sig (Elt F)) :=
  [ binary main_v1 main_v94 main_v95 (cmpi .slt : (⟨S1000000, .i32⟩ : BufTy).Contents (Elt F) → (⟨S1000000, .i32⟩ : BufTy).Contents (Elt F) → (⟨S1000000, .i1⟩ : BufTy).Contents (Elt F)),
    nullary main_c_23 (constantI S_ 32 100000#32),
    unary main_c_23 main_v96 (broadcastInDim S1000000 ![] bcast_S_S1000000 : (⟨S_, .i32⟩ : BufTy).Contents (Elt F) → (⟨S1000000, .i32⟩ : BufTy).Contents (Elt F)),
    binary main_v1 main_v96 main_v97 (addi : (⟨S1000000, .i32⟩ : BufTy).Contents (Elt F) → (⟨S1000000, .i32⟩ : BufTy).Contents (Elt F) → (⟨S1000000, .i32⟩ : BufTy).Contents (Elt F)),
    ternary main_v95 main_v97 main_v1 main_v98 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v98 main_v99 (broadcastInDim S1000000x1 ![0] bcast_S1000000_S1000000x1_0 : (⟨S1000000, .i32⟩ : BufTy).Contents (Elt F) → (⟨S1000000x1, .i32⟩ : BufTy).Contents (Elt F)),
    binary main_v70 main_v99 main_v100 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_v93 main_v101 (broadcastInDim S1000000x1 ![0] bcast_S1000000_S1000000x1_0 : (⟨S1000000, .f32⟩ : BufTy).Contents (Elt F) → (⟨S1000000x1, .f32⟩ : BufTy).Contents (Elt F)),
    unary main_v101 main_v102 (broadcastInDim S1000000x128 ![0, 1] bcast_S1000000x1_S1000000x128_0_1 : (⟨S1000000x1, .f32⟩ : BufTy).Contents (Elt F) → (⟨S1000000x128, .f32⟩ : BufTy).Contents (Elt F)),
    binary main_v100 main_v102 main_v103 (mulf : (⟨S1000000x128, .f32⟩ : BufTy).Contents (Elt F) → (⟨S1000000x128, .f32⟩ : BufTy).Contents (Elt F) → (⟨S1000000x128, .f32⟩ : BufTy).Contents (Elt F)),
    nullary main_cst_24 (constant S_ .f32 0x00000000#32),
    unary main_cst_24 main_v104 (broadcastInDim S100000x128 ![] bcast_S_S100000x128 : (⟨S_, .f32⟩ : BufTy).Contents (Elt F) → (⟨S100000x128, .f32⟩ : BufTy).Contents (Elt F)),
    unary main_v3 main_v105 (broadcastInDim S1000000x1 ![0] bcast_S1000000_S1000000x1_0 : (⟨S1000000, .i32⟩ : BufTy).Contents (Elt F) → (⟨S1000000x1, .i32⟩ : BufTy).Contents (Elt F)),
    ternary main_v104 main_v105 main_v103 main_v106 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg6 main_v107 (broadcastInDim S1x128 ![1] bcast_S128_S1x128_1 : (⟨S128, .f32⟩ : BufTy).Contents (Elt F) → (⟨S1x128, .f32⟩ : BufTy).Contents (Elt F)),
    unary main_v107 main_v108 (broadcastInDim S100000x128 ![0, 1] bcast_S1x128_S100000x128_0_1 : (⟨S1x128, .f32⟩ : BufTy).Contents (Elt F) → (⟨S100000x128, .f32⟩ : BufTy).Contents (Elt F)),
    binary main_v106 main_v108 main_v109 (addf : (⟨S100000x128, .f32⟩ : BufTy).Contents (Elt F) → (⟨S100000x128, .f32⟩ : BufTy).Contents (Elt F) → (⟨S100000x128, .f32⟩ : BufTy).Contents (Elt F)),
    nullary main_cst_25 (constant S_ .f32 0x00000000#32),
    binary main_v109 main_cst_25 main_v110 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_26 (constant S_ .f32 0x47C35000#32),
    unary main_cst_26 main_v111 (broadcastInDim S128 ![] bcast_S_S128 : (⟨S_, .f32⟩ : BufTy).Contents (Elt F) → (⟨S128, .f32⟩ : BufTy).Contents (Elt F)),
    binary main_v110 main_v111 main_v112 (Host.divf : (⟨S128, .f32⟩ : BufTy).Contents (Elt F) → (⟨S128, .f32⟩ : BufTy).Contents (Elt F) → (⟨S128, .f32⟩ : BufTy).Contents (Elt F)),
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v109 main_v114 main_v115 (subf : (⟨S100000x128, .f32⟩ : BufTy).Contents (Elt F) → (⟨S100000x128, .f32⟩ : BufTy).Contents (Elt F) → (⟨S100000x128, .f32⟩ : BufTy).Contents (Elt F)),
    binary main_v115 main_v115 main_v116 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v116 main_cst_27 main_v117 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_28 (constant S_ .f32 0x47C35000#32),
    unary main_cst_28 main_v118 (broadcastInDim S128 ![] bcast_S_S128 : (⟨S_, .f32⟩ : BufTy).Contents (Elt F) → (⟨S128, .f32⟩ : BufTy).Contents (Elt F)),
    binary main_v117 main_v118 main_v119 (Host.divf : (⟨S128, .f32⟩ : BufTy).Contents (Elt F) → (⟨S128, .f32⟩ : BufTy).Contents (Elt F) → (⟨S128, .f32⟩ : BufTy).Contents (Elt F)),
    unary main_v112 main_v120 (broadcastInDim S1x128 ![1] bcast_S128_S1x128_1 : (⟨S128, .f32⟩ : BufTy).Contents (Elt F) → (⟨S1x128, .f32⟩ : BufTy).Contents (Elt F)),
    unary main_v120 main_v121 (broadcastInDim S100000x128 ![0, 1] bcast_S1x128_S100000x128_0_1 : (⟨S1x128, .f32⟩ : BufTy).Contents (Elt F) → (⟨S100000x128, .f32⟩ : BufTy).Contents (Elt F)),
    binary main_v109 main_v121 main_v122 (subf : (⟨S100000x128, .f32⟩ : BufTy).Contents (Elt F) → (⟨S100000x128, .f32⟩ : BufTy).Contents (Elt F) → (⟨S100000x128, .f32⟩ : BufTy).Contents (Elt F)),
    unary main_arg9 main_v123 (broadcastInDim S1x128 ![1] bcast_S128_S1x128_1 : (⟨S128, .f32⟩ : BufTy).Contents (Elt F) → (⟨S1x128, .f32⟩ : BufTy).Contents (Elt F)),
    unary main_v123 main_v124 (broadcastInDim S100000x128 ![0, 1] bcast_S1x128_S100000x128_0_1 : (⟨S1x128, .f32⟩ : BufTy).Contents (Elt F) → (⟨S100000x128, .f32⟩ : BufTy).Contents (Elt F)),
    binary main_v124 main_v122 main_v125 (mulf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v126 (broadcastInDim S128 ![] bcast_S_S128 : (⟨S_, .f32⟩ : BufTy).Contents (Elt F) → (⟨S128, .f32⟩ : BufTy).Contents (Elt F)),
    binary main_v119 main_v126 main_v127 (addf : (⟨S128, .f32⟩ : BufTy).Contents (Elt F) → (⟨S128, .f32⟩ : BufTy).Contents (Elt F) → (⟨S128, .f32⟩ : BufTy).Contents (Elt F)),
    unary main_v127 main_v128 (Host.rsqrt : (⟨S128, .f32⟩ : BufTy).Contents (Elt F) → (⟨S128, .f32⟩ : BufTy).Contents (Elt F)),
    unary main_v128 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v125 main_v130 main_v131 (mulf : (⟨S100000x128, .f32⟩ : BufTy).Contents (Elt F) → (⟨S100000x128, .f32⟩ : BufTy).Contents (Elt F) → (⟨S100000x128, .f32⟩ : BufTy).Contents (Elt F)),
    unary main_arg10 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)),
    unary main_arg2 main_v135 ((extractStridedSlice S1x1000000 ![0, 0] · slices_S2x1000000_S1x1000000_0_0) : (⟨S2x1000000, .i32⟩ : BufTy).Contents (Elt F) → (⟨S1x1000000, .i32⟩ : BufTy).Contents (Elt F)),
    reshape main_v135 main_v136 rfl shapeCasts_S1x1000000_S1000000,
    unary main_arg2 main_v137 ((extractStridedSlice S1x1000000 ![1, 0] · slices_S2x1000000_S1x1000000_1_0) : (⟨S2x1000000, .i32⟩ : BufTy).Contents (Elt F) → (⟨S1x1000000, .i32⟩ : BufTy).Contents (Elt F)),
    reshape main_v137 main_v138 rfl shapeCasts_S1x1000000_S1000000,
    binary main_arg0 main_arg11 main_v139 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst_30 (constant S_ .f32 0x3F800000#32),
    unary main_cst_30 main_v140 (broadcastInDim S1000000 ![] bcast_S_S1000000 : (⟨S_, .f32⟩ : BufTy).Contents (Elt F) → (⟨S1000000, .f32⟩ : BufTy).Contents (Elt F)),
    nullary main_cst_31 (constant S_ .f32 0x00000000#32),
    unary main_cst_31 main_v141 (broadcastInDim S100000 ![] bcast_S_S100000 : (⟨S_, .f32⟩ : BufTy).Contents (Elt F) → (⟨S100000, .f32⟩ : BufTy).Contents (Elt F)),
    unary main_v138 main_v142 (broadcastInDim S1000000x1 ![0] bcast_S1000000_S1000000x1_0 : (⟨S1000000, .i32⟩ : BufTy).Contents (Elt F) → (⟨S1000000x1, .i32⟩ : BufTy).Contents (Elt F)),
    ternary main_v141 main_v142 main_v140 main_v143 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_32 (constant S_ .f32 0x00000000#32),
    unary main_cst_32 main_v144 (broadcastInDim S100000 ![] bcast_S_S100000 : (⟨S_, .f32⟩ : BufTy).Contents (Elt F) → (⟨S100000, .f32⟩ : BufTy).Contents (Elt F)) ]

set_option maxRecDepth 8192 in
set_option maxHeartbeats 4000000 in
theorem main_part2_eq (c : Dev nD) : main_part2 (F := F) c = seq ops2 := rfl
set_option maxRecDepth 8192 in
theorem ops2_sub : (ops2 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub ..⟩
set_option maxRecDepth 8192 in
theorem ops2_fresh : ∀ op ∈ (ops2 : List (HloOp τ sig (Elt F))), op.fresh = ∅ := by
  intro _ h; (repeat (cases h with | head => rfl | tail _ h => ?_)); exact nomatch h
/-- The buffers window 2 writes. -/
abbrev ops2_W : List (Ref sig .tc) := [main_v95, main_c_23, main_v96, main_v97, main_v98, main_v99, main_v100, main_v101, main_v102, main_v103, main_cst_24, main_v104, main_v105, main_v106, main_v107, main_v108, main_v109, main_cst_25, main_v110, main_cst_26, main_v111, main_v112, main_v113, main_v114, main_v115, main_v116, main_cst_27, main_v117, main_cst_28, main_v118, main_v119, main_v120, main_v121, main_v122, main_v123, main_v124, main_v125, main_cst_29, main_v126, main_v127, main_v128, main_v129, main_v130, main_v131, main_v132, main_v133, main_v134, main_v135, main_v136, main_v137, main_v138, main_v139, main_cst_30, main_v140, main_cst_31, main_v141, main_v142, main_v143, main_cst_32, main_v144]
set_option maxRecDepth 8192 in
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 2 does not write keeps its contents through it. -/
theorem ops2_keep (W : Valuation τ sig (Elt F)) (r : Ref sig .tc) (h : r ∉ ops2_W) :
    after ops2 W (Proc.devRef .tc r) = W (Proc.devRef .tc r) :=
  after_of_writes_sub ops2 W ops2_writes h

/-- The operations of window 3 of @main: operations 187 … 250 of 404. -/
abbrev ops3 : List (HloOp τ sig (Elt F)) :=
  [ binary main_v143 main_v144 main_v145 (cmpf (F := F) .ogt : (⟨S100000, .f32⟩ : BufTy).Contents (Elt F) → (⟨S100000, .f32⟩ : BufTy).Contents (Elt F) → (⟨S100000, .i1⟩ : BufTy).Contents (Elt F)),
    unary main_v143 main_v146 (Host.rsqrt : (⟨S100000, .f32⟩ : BufTy).Contents (Elt F) → (⟨S100000, .f32⟩ : BufTy).Contents (Elt F)),
    nullary main_cst_33 (constant S_ .f32 0x00000000#32),
    TRef.unary (TRef.of (T := ⟨S_, .f32⟩) main_cst_33) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v145) (TRef.of (T := ⟨S100000, .f32⟩) main_v146) (TRef.of (T := ⟨S100000, .f32⟩) main_call3_v1) (TRef.of (T := ⟨S100000, .f32⟩) main_v147) select,
    nullary main_c_34 (constantI S_ 32 0#32),
    unary main_c_34 main_v148 (broadcastInDim S1000000 ![] bcast_S_S1000000 : (⟨S_, .i32⟩ : BufTy).Contents (Elt F) → (⟨S1000000, .i32⟩ : BufTy).Contents (Elt F)),
    binary main_v136 main_v148 main_v149 (cmpi .slt : (⟨S1000000, .i32⟩ : BufTy).Contents (Elt F) → (⟨S1000000, .i32⟩ : BufTy).Contents (Elt F) → (⟨S1000000, .i1⟩ : BufTy).Contents (Elt F)),
    nullary main_c_35 (constantI S_ 32 100000#32),
    unary main_c_35 main_v150 (broadcastInDim S1000000 ![] bcast_S_S1000000 : (⟨S_, .i32⟩ : BufTy).Contents (Elt F) → (⟨S1000000, .i32⟩ : BufTy).Contents (Elt F)),
    binary main_v136 main_v150 main_v151 (addi : (⟨S1000000, .i32⟩ : BufTy).Contents (Elt F) → (⟨S1000000, .i32⟩ : BufTy).Contents (Elt F) → (⟨S1000000, .i32⟩ : BufTy).Contents (Elt F)),
    ternary main_v149 main_v151 main_v136 main_v152 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v152 main_v153 (broadcastInDim S1000000x1 ![0] bcast_S1000000_S1000000x1_0 : (⟨S1000000, .i32⟩ : BufTy).Contents (Elt F) → (⟨S1000000x1, .i32⟩ : BufTy).Contents (Elt F)),
    binary main_v147 main_v153 main_v154 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_36 (constantI S_ 32 0#32),
    unary main_c_36 main_v155 (broadcastInDim S1000000 ![] bcast_S_S1000000 : (⟨S_, .i32⟩ : BufTy).Contents (Elt F) → (⟨S1000000, .i32⟩ : BufTy).Contents (Elt F)),
    binary main_v138 main_v155 main_v156 (cmpi .slt : (⟨S1000000, .i32⟩ : BufTy).Contents (Elt F) → (⟨S1000000, .i32⟩ : BufTy).Contents (Elt F) → (⟨S1000000, .i1⟩ : BufTy).Contents (Elt F)),
    nullary main_c_37 (constantI S_ 32 100000#32),
    unary main_c_37 main_v157 (broadcastInDim S1000000 ![] bcast_S_S1000000 : (⟨S_, .i32⟩ : BufTy).Contents (Elt F) → (⟨S1000000, .i32⟩ : BufTy).Contents (Elt F)),
    binary main_v138 main_v157 main_v158 (addi : (⟨S1000000, .i32⟩ : BufTy).Contents (Elt F) → (⟨S1000000, .i32⟩ : BufTy).Contents (Elt F) → (⟨S1000000, .i32⟩ : BufTy).Contents (Elt F)),
    ternary main_v156 main_v158 main_v138 main_v159 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v159 main_v160 (broadcastInDim S1000000x1 ![0] bcast_S1000000_S1000000x1_0 : (⟨S1000000, .i32⟩ : BufTy).Contents (Elt F) → (⟨S1000000x1, .i32⟩ : BufTy).Contents (Elt F)),
    binary main_v147 main_v160 main_v161 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v154 main_v161 main_v162 (mulf : (⟨S1000000, .f32⟩ : BufTy).Contents (Elt F) → (⟨S1000000, .f32⟩ : BufTy).Contents (Elt F) → (⟨S1000000, .f32⟩ : BufTy).Contents (Elt F)),
    nullary main_c_38 (constantI S_ 32 0#32),
    unary main_c_38 main_v163 (broadcastInDim S1000000 ![] bcast_S_S1000000 : (⟨S_, .i32⟩ : BufTy).Contents (Elt F) → (⟨S1000000, .i32⟩ : BufTy).Contents (Elt F)),
    binary main_v136 main_v163 main_v164 (cmpi .slt : (⟨S1000000, .i32⟩ : BufTy).Contents (Elt F) → (⟨S1000000, .i32⟩ : BufTy).Contents (Elt F) → (⟨S1000000, .i1⟩ : BufTy).Contents (Elt F)),
    nullary main_c_39 (constantI S_ 32 100000#32),
    unary main_c_39 main_v165 (broadcastInDim S1000000 ![] bcast_S_S1000000 : (⟨S_, .i32⟩ : BufTy).Contents (Elt F) → (⟨S1000000, .i32⟩ : BufTy).Contents (Elt F)),
    binary main_v136 main_v165 main_v166 (addi : (⟨S1000000, .i32⟩ : BufTy).Contents (Elt F) → (⟨S1000000, .i32⟩ : BufTy).Contents (Elt F) → (⟨S1000000, .i32⟩ : BufTy).Contents (Elt F)),
    ternary main_v164 main_v166 main_v136 main_v167 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v167 main_v168 (broadcastInDim S1000000x1 ![0] bcast_S1000000_S1000000x1_0 : (⟨S1000000, .i32⟩ : BufTy).Contents (Elt F) → (⟨S1000000x1, .i32⟩ : BufTy).Contents (Elt F)),
    binary main_v139 main_v168 main_v169 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_v162 main_v170 (broadcastInDim S1000000x1 ![0] bcast_S1000000_S1000000x1_0 : (⟨S1000000, .f32⟩ : BufTy).Contents (Elt F) → (⟨S1000000x1, .f32⟩ : BufTy).Contents (Elt F)),
    unary main_v170 main_v171 (broadcastInDim S1000000x128 ![0, 1] bcast_S1000000x1_S1000000x128_0_1 : (⟨S1000000x1, .f32⟩ : BufTy).Contents (Elt F) → (⟨S1000000x128, .f32⟩ : BufTy).Contents (Elt F)),
    binary main_v169 main_v171 main_v172 (mulf : (⟨S1000000x128, .f32⟩ : BufTy).Contents (Elt F) → (⟨S1000000x128, .f32⟩ : BufTy).Contents (Elt F) → (⟨S1000000x128, .f32⟩ : BufTy).Contents (Elt F)),
    nullary main_cst_40 (constant S_ .f32 0x00000000#32),
    unary main_cst_40 main_v173 (broadcastInDim S100000x128 ![] bcast_S_S100000x128 : (⟨S_, .f32⟩ : BufTy).Contents (Elt F) → (⟨S100000x128, .f32⟩ : BufTy).Contents (Elt F)),
    unary main_v138 main_v174 (broadcastInDim S1000000x1 ![0] bcast_S1000000_S1000000x1_0 : (⟨S1000000, .i32⟩ : BufTy).Contents (Elt F) → (⟨S1000000x1, .i32⟩ : BufTy).Contents (Elt F)),
    ternary main_v173 main_v174 main_v172 main_v175 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg12 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v175 main_v177 main_v178 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v178) (TRef.of (T := ⟨S100000x128, .f32⟩) main_call4_v0) (TRef.of (T := ⟨S100000x128, .f32⟩) main_v179) maximumf,
    nullary main_cst_41 (constant S_ .f32 0x00000000#32),
    binary main_v179 main_cst_41 main_v180 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_42 (constant S_ .f32 0x47C35000#32),
    unary main_cst_42 main_v181 (broadcastInDim S128 ![] bcast_S_S128 : (⟨S_, .f32⟩ : BufTy).Contents (Elt F) → (⟨S128, .f32⟩ : BufTy).Contents (Elt F)),
    binary main_v180 main_v181 main_v182 (Host.divf : (⟨S128, .f32⟩ : BufTy).Contents (Elt F) → (⟨S128, .f32⟩ : BufTy).Contents (Elt F) → (⟨S128, .f32⟩ : BufTy).Contents (Elt F)),
    unary main_v182 main_v183 (broadcastInDim S1x128 ![1] bcast_S128_S1x128_1 : (⟨S128, .f32⟩ : BufTy).Contents (Elt F) → (⟨S1x128, .f32⟩ : BufTy).Contents (Elt F)),
    unary main_v183 main_v184 (broadcastInDim S100000x128 ![0, 1] bcast_S1x128_S100000x128_0_1 : (⟨S1x128, .f32⟩ : BufTy).Contents (Elt F) → (⟨S100000x128, .f32⟩ : BufTy).Contents (Elt F)),
    binary main_v179 main_v184 main_v185 (subf : (⟨S100000x128, .f32⟩ : BufTy).Contents (Elt F) → (⟨S100000x128, .f32⟩ : BufTy).Contents (Elt F) → (⟨S100000x128, .f32⟩ : BufTy).Contents (Elt F)),
    binary main_v185 main_v185 main_v186 (mulf : (⟨S100000x128, .f32⟩ : BufTy).Contents (Elt F) → (⟨S100000x128, .f32⟩ : BufTy).Contents (Elt F) → (⟨S100000x128, .f32⟩ : BufTy).Contents (Elt F)),
    nullary main_cst_43 (constant S_ .f32 0x00000000#32),
    binary main_v186 main_cst_43 main_v187 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_44 (constant S_ .f32 0x47C35000#32),
    unary main_cst_44 main_v188 (broadcastInDim S128 ![] bcast_S_S128 : (⟨S_, .f32⟩ : BufTy).Contents (Elt F) → (⟨S128, .f32⟩ : BufTy).Contents (Elt F)),
    binary main_v187 main_v188 main_v189 (Host.divf : (⟨S128, .f32⟩ : BufTy).Contents (Elt F) → (⟨S128, .f32⟩ : BufTy).Contents (Elt F) → (⟨S128, .f32⟩ : BufTy).Contents (Elt F)),
    unary main_v182 main_v190 (broadcastInDim S1x128 ![1] bcast_S128_S1x128_1 : (⟨S128, .f32⟩ : BufTy).Contents (Elt F) → (⟨S1x128, .f32⟩ : BufTy).Contents (Elt F)),
    unary main_v190 main_v191 (broadcastInDim S100000x128 ![0, 1] bcast_S1x128_S100000x128_0_1 : (⟨S1x128, .f32⟩ : BufTy).Contents (Elt F) → (⟨S100000x128, .f32⟩ : BufTy).Contents (Elt F)),
    binary main_v179 main_v191 main_v192 (subf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_part3_eq (c : Dev nD) : main_part3 (F := F) c = seq ops3 := rfl
set_option maxRecDepth 8192 in
theorem ops3_sub : (ops3 : List (HloOp τ sig (Elt F))).Forall fun op => op.bufs ⊆ tcRefs τ sig :=
  ⟨binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub ..⟩
set_option maxRecDepth 8192 in
theorem ops3_fresh : ∀ op ∈ (ops3 : List (HloOp τ sig (Elt F))), op.fresh = ∅ := by
  intro _ h; (repeat (cases h with | head => rfl | tail _ h => ?_)); exact nomatch h
/-- The buffers window 3 writes. -/
abbrev ops3_W : List (Ref sig .tc) := [main_v145, main_v146, main_cst_33, main_call3_v0, main_call3_v1, main_v147, main_c_34, main_v148, main_v149, main_c_35, main_v150, main_v151, main_v152, main_v153, main_v154, main_c_36, main_v155, main_v156, main_c_37, main_v157, main_v158, main_v159, main_v160, main_v161, main_v162, main_c_38, main_v163, main_v164, main_c_39, main_v165, main_v166, main_v167, main_v168, main_v169, main_v170, main_v171, main_v172, main_cst_40, main_v173, main_v174, main_v175, main_v176, main_v177, main_v178, main_call4_cst, main_call4_v0, main_v179, main_cst_41, main_v180, main_cst_42, main_v181, main_v182, main_v183, main_v184, main_v185, main_v186, main_cst_43, main_v187, main_cst_44, main_v188, main_v189, main_v190, main_v191, main_v192]
set_option maxRecDepth 8192 in
theorem ops3_writes : (ops3 : List (HloOp τ sig (Elt F))).Forall fun op => op.writes ⊆ (ops3_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 3 does not write keeps its contents through it. -/
theorem ops3_keep (W : Valuation τ sig (Elt F)) (r : Ref sig .tc) (h : r ∉ ops3_W) :
    after ops3 W (Proc.devRef .tc r) = W (Proc.devRef .tc r) :=
  after_of_writes_sub ops3 W ops3_writes h

/-- The operations of window 4 of @main: operations 251 … 312 of 404. -/
abbrev ops4 : List (HloOp τ sig (Elt F)) :=
  [ unary main_arg15 main_v193 (broadcastInDim S1x128 ![1] bcast_S128_S1x128_1 : (⟨S128, .f32⟩ : BufTy).Contents (Elt F) → (⟨S1x128, .f32⟩ : BufTy).Contents (Elt F)),
    unary main_v193 main_v194 (broadcastInDim S100000x128 ![0, 1] bcast_S1x128_S100000x128_0_1 : (⟨S1x128, .f32⟩ : BufTy).Contents (Elt F) → (⟨S100000x128, .f32⟩ : BufTy).Contents (Elt F)),
    binary main_v194 main_v192 main_v195 (mulf : (⟨S100000x128, .f32⟩ : BufTy).Contents (Elt F) → (⟨S100000x128, .f32⟩ : BufTy).Contents (Elt F) → (⟨S100000x128, .f32⟩ : BufTy).Contents (Elt F)),
    nullary main_cst_45 (constant S_ .f32 0x3727C5AC#32),
    unary main_cst_45 main_v196 (broadcastInDim S128 ![] bcast_S_S128 : (⟨S_, .f32⟩ : BufTy).Contents (Elt F) → (⟨S128, .f32⟩ : BufTy).Contents (Elt F)),
    binary main_v189 main_v196 main_v197 (addf : (⟨S128, .f32⟩ : BufTy).Contents (Elt F) → (⟨S128, .f32⟩ : BufTy).Contents (Elt F) → (⟨S128, .f32⟩ : BufTy).Contents (Elt F)),
    unary main_v197 main_v198 (Host.rsqrt : (⟨S128, .f32⟩ : BufTy).Contents (Elt F) → (⟨S128, .f32⟩ : BufTy).Contents (Elt F)),
    unary main_v198 main_v199 (broadcastInDim S1x128 ![1] bcast_S128_S1x128_1 : (⟨S128, .f32⟩ : BufTy).Contents (Elt F) → (⟨S1x128, .f32⟩ : BufTy).Contents (Elt F)),
    unary main_v199 main_v200 (broadcastInDim S100000x128 ![0, 1] bcast_S1x128_S100000x128_0_1 : (⟨S1x128, .f32⟩ : BufTy).Contents (Elt F) → (⟨S100000x128, .f32⟩ : BufTy).Contents (Elt F)),
    binary main_v195 main_v200 main_v201 (mulf : (⟨S100000x128, .f32⟩ : BufTy).Contents (Elt F) → (⟨S100000x128, .f32⟩ : BufTy).Contents (Elt F) → (⟨S100000x128, .f32⟩ : BufTy).Contents (Elt F)),
    unary main_arg16 main_v202 (broadcastInDim S1x128 ![1] bcast_S128_S1x128_1 : (⟨S128, .f32⟩ : BufTy).Contents (Elt F) → (⟨S1x128, .f32⟩ : BufTy).Contents (Elt F)),
    unary main_v202 main_v203 (broadcastInDim S100000x128 ![0, 1] bcast_S1x128_S100000x128_0_1 : (⟨S1x128, .f32⟩ : BufTy).Contents (Elt F) → (⟨S100000x128, .f32⟩ : BufTy).Contents (Elt F)),
    binary main_v201 main_v203 main_v204 (addf : (⟨S100000x128, .f32⟩ : BufTy).Contents (Elt F) → (⟨S100000x128, .f32⟩ : BufTy).Contents (Elt F) → (⟨S100000x128, .f32⟩ : BufTy).Contents (Elt F)),
    binary main_v204 main_arg13 main_v205 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_46 (constant S_ .f32 0x3F800000#32),
    unary main_cst_46 main_v206 (broadcastInDim S1000000 ![] bcast_S_S1000000 : (⟨S_, .f32⟩ : BufTy).Contents (Elt F) → (⟨S1000000, .f32⟩ : BufTy).Contents (Elt F)),
    nullary main_cst_47 (constant S_ .f32 0x00000000#32),
    unary main_cst_47 main_v207 (broadcastInDim S100000 ![] bcast_S_S100000 : (⟨S_, .f32⟩ : BufTy).Contents (Elt F) → (⟨S100000, .f32⟩ : BufTy).Contents (Elt F)),
    unary main_v138 main_v208 (broadcastInDim S1000000x1 ![0] bcast_S1000000_S1000000x1_0 : (⟨S1000000, .i32⟩ : BufTy).Contents (Elt F) → (⟨S1000000x1, .i32⟩ : BufTy).Contents (Elt F)),
    ternary main_v207 main_v208 main_v206 main_v209 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_48 (constant S_ .f32 0x00000000#32),
    unary main_cst_48 main_v210 (broadcastInDim S100000 ![] bcast_S_S100000 : (⟨S_, .f32⟩ : BufTy).Contents (Elt F) → (⟨S100000, .f32⟩ : BufTy).Contents (Elt F)),
    binary main_v209 main_v210 main_v211 (cmpf (F := F) .ogt : (⟨S100000, .f32⟩ : BufTy).Contents (Elt F) → (⟨S100000, .f32⟩ : BufTy).Contents (Elt F) → (⟨S100000, .i1⟩ : BufTy).Contents (Elt F)),
    unary main_v209 main_v212 (Host.rsqrt : (⟨S100000, .f32⟩ : BufTy).Contents (Elt F) → (⟨S100000, .f32⟩ : BufTy).Contents (Elt F)),
    nullary main_cst_49 (constant S_ .f32 0x00000000#32),
    TRef.unary (TRef.of (T := ⟨S_, .f32⟩) main_cst_49) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v211) (TRef.of (T := ⟨S100000, .f32⟩) main_v212) (TRef.of (T := ⟨S100000, .f32⟩) main_call5_v1) (TRef.of (T := ⟨S100000, .f32⟩) main_v213) select,
    nullary main_c_50 (constantI S_ 32 0#32),
    unary main_c_50 main_v214 (broadcastInDim S1000000 ![] bcast_S_S1000000 : (⟨S_, .i32⟩ : BufTy).Contents (Elt F) → (⟨S1000000, .i32⟩ : BufTy).Contents (Elt F)),
    binary main_v136 main_v214 main_v215 (cmpi .slt : (⟨S1000000, .i32⟩ : BufTy).Contents (Elt F) → (⟨S1000000, .i32⟩ : BufTy).Contents (Elt F) → (⟨S1000000, .i1⟩ : BufTy).Contents (Elt F)),
    nullary main_c_51 (constantI S_ 32 100000#32),
    unary main_c_51 main_v216 (broadcastInDim S1000000 ![] bcast_S_S1000000 : (⟨S_, .i32⟩ : BufTy).Contents (Elt F) → (⟨S1000000, .i32⟩ : BufTy).Contents (Elt F)),
    binary main_v136 main_v216 main_v217 (addi : (⟨S1000000, .i32⟩ : BufTy).Contents (Elt F) → (⟨S1000000, .i32⟩ : BufTy).Contents (Elt F) → (⟨S1000000, .i32⟩ : BufTy).Contents (Elt F)),
    ternary main_v215 main_v217 main_v136 main_v218 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v218 main_v219 (broadcastInDim S1000000x1 ![0] bcast_S1000000_S1000000x1_0 : (⟨S1000000, .i32⟩ : BufTy).Contents (Elt F) → (⟨S1000000x1, .i32⟩ : BufTy).Contents (Elt F)),
    binary main_v213 main_v219 main_v220 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    nullary main_c_52 (constantI S_ 32 0#32),
    unary main_c_52 main_v221 (broadcastInDim S1000000 ![] bcast_S_S1000000 : (⟨S_, .i32⟩ : BufTy).Contents (Elt F) → (⟨S1000000, .i32⟩ : BufTy).Contents (Elt F)),
    binary main_v138 main_v221 main_v222 (cmpi .slt : (⟨S1000000, .i32⟩ : BufTy).Contents (Elt F) → (⟨S1000000, .i32⟩ : BufTy).Contents (Elt F) → (⟨S1000000, .i1⟩ : BufTy).Contents (Elt F)),
    nullary main_c_53 (constantI S_ 32 100000#32),
    unary main_c_53 main_v223 (broadcastInDim S1000000 ![] bcast_S_S1000000 : (⟨S_, .i32⟩ : BufTy).Contents (Elt F) → (⟨S1000000, .i32⟩ : BufTy).Contents (Elt F)),
    binary main_v138 main_v223 main_v224 (addi : (⟨S1000000, .i32⟩ : BufTy).Contents (Elt F) → (⟨S1000000, .i32⟩ : BufTy).Contents (Elt F) → (⟨S1000000, .i32⟩ : BufTy).Contents (Elt F)),
    ternary main_v222 main_v224 main_v138 main_v225 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v225 main_v226 (broadcastInDim S1000000x1 ![0] bcast_S1000000_S1000000x1_0 : (⟨S1000000, .i32⟩ : BufTy).Contents (Elt F) → (⟨S1000000x1, .i32⟩ : BufTy).Contents (Elt F)),
    binary main_v213 main_v226 main_v227 ((fun x i => Host.gather gather_S100000_S1000000x1_S1000000_n_0_n_n_0_1_1 x i) : (⟨S100000, .f32⟩ : BufTy).Contents (Elt F) → (⟨S1000000x1, .i32⟩ : BufTy).Contents (Elt F) → (⟨S1000000, .f32⟩ : BufTy).Contents (Elt F)),
    binary main_v220 main_v227 main_v228 (mulf : (⟨S1000000, .f32⟩ : BufTy).Contents (Elt F) → (⟨S1000000, .f32⟩ : BufTy).Contents (Elt F) → (⟨S1000000, .f32⟩ : BufTy).Contents (Elt F)),
    nullary main_c_54 (constantI S_ 32 0#32),
    unary main_c_54 main_v229 (broadcastInDim S1000000 ![] bcast_S_S1000000 : (⟨S_, .i32⟩ : BufTy).Contents (Elt F) → (⟨S1000000, .i32⟩ : BufTy).Contents (Elt F)),
    binary main_v136 main_v229 main_v230 (cmpi .slt : (⟨S1000000, .i32⟩ : BufTy).Contents (Elt F) → (⟨S1000000, .i32⟩ : BufTy).Contents (Elt F) → (⟨S1000000, .i1⟩ : BufTy).Contents (Elt F)),
    nullary main_c_55 (constantI S_ 32 100000#32),
    unary main_c_55 main_v231 (broadcastInDim S1000000 ![] bcast_S_S1000000 : (⟨S_, .i32⟩ : BufTy).Contents (Elt F) → (⟨S1000000, .i32⟩ : BufTy).Contents (Elt F)),
    binary main_v136 main_v231 main_v232 (addi : (⟨S1000000, .i32⟩ : BufTy).Contents (Elt F) → (⟨S1000000, .i32⟩ : BufTy).Contents (Elt F) → (⟨S1000000, .i32⟩ : BufTy).Contents (Elt F)),
    ternary main_v230 main_v232 main_v136 main_v233 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v233 main_v234 (broadcastInDim S1000000x1 ![0] bcast_S1000000_S1000000x1_0 : (⟨S1000000, .i32⟩ : BufTy).Contents (Elt F) → (⟨S1000000x1, .i32⟩ : BufTy).Contents (Elt F)),
    binary main_v205 main_v234 main_v235 ((fun x i => Host.gather gather_S100000x128_S1000000x1_S1000000x128_1_0_n_n_0_1_1128 x i) : (⟨S100000x128, .f32⟩ : BufTy).Contents (Elt F) → (⟨S1000000x1, .i32⟩ : BufTy).Contents (Elt F) → (⟨S1000000x128, .f32⟩ : BufTy).Contents (Elt F)),
    unary main_v228 main_v236 (broadcastInDim S1000000x1 ![0] bcast_S1000000_S1000000x1_0 : (⟨S1000000, .f32⟩ : BufTy).Contents (Elt F) → (⟨S1000000x1, .f32⟩ : BufTy).Contents (Elt F)),
    unary main_v236 main_v237 (broadcastInDim S1000000x128 ![0, 1] bcast_S1000000x1_S1000000x128_0_1 : (⟨S1000000x1, .f32⟩ : BufTy).Contents (Elt F) → (⟨S1000000x128, .f32⟩ : BufTy).Contents (Elt F)),
    binary main_v235 main_v237 main_v238 (mulf : (⟨S1000000x128, .f32⟩ : BufTy).Contents (Elt F) → (⟨S1000000x128, .f32⟩ : BufTy).Contents (Elt F) → (⟨S1000000x128, .f32⟩ : BufTy).Contents (Elt F)),
    nullary main_cst_56 (constant S_ .f32 0x00000000#32),
    unary main_cst_56 main_v239 (broadcastInDim S100000x128 ![] bcast_S_S100000x128 : (⟨S_, .f32⟩ : BufTy).Contents (Elt F) → (⟨S100000x128, .f32⟩ : BufTy).Contents (Elt F)),
    unary main_v138 main_v240 (broadcastInDim S1000000x1 ![0] bcast_S1000000_S1000000x1_0 : (⟨S1000000, .i32⟩ : BufTy).Contents (Elt F) → (⟨S1000000x1, .i32⟩ : BufTy).Contents (Elt F)) ]

set_option maxRecDepth 8192 in
set_option maxHeartbeats 4000000 in
theorem main_part4_eq (c : Dev nD) : main_part4 (F := F) c = seq ops4 := rfl
set_option maxRecDepth 8192 in
theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub ..⟩
set_option maxRecDepth 8192 in
theorem ops4_fresh : ∀ op ∈ (ops4 : List (HloOp τ sig (Elt F))), op.fresh = ∅ := by
  intro _ h; (repeat (cases h with | head => rfl | tail _ h => ?_)); exact nomatch h
/-- The buffers window 4 writes. -/
abbrev ops4_W : List (Ref sig .tc) := [main_v193, main_v194, main_v195, main_cst_45, main_v196, main_v197, main_v198, main_v199, main_v200, main_v201, main_v202, main_v203, main_v204, main_v205, main_cst_46, main_v206, main_cst_47, main_v207, main_v208, main_v209, main_cst_48, main_v210, main_v211, main_v212, main_cst_49, main_call5_v0, main_call5_v1, main_v213, main_c_50, main_v214, main_v215, main_c_51, main_v216, main_v217, main_v218, main_v219, main_v220, main_c_52, main_v221, main_v222, main_c_53, main_v223, main_v224, main_v225, main_v226, main_v227, main_v228, main_c_54, main_v229, main_v230, main_c_55, main_v231, main_v232, main_v233, main_v234, main_v235, main_v236, main_v237, main_v238, main_cst_56, main_v239, main_v240]
set_option maxRecDepth 8192 in
theorem ops4_writes : (ops4 : List (HloOp τ sig (Elt F))).Forall fun op => op.writes ⊆ (ops4_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 4 does not write keeps its contents through it. -/
theorem ops4_keep (W : Valuation τ sig (Elt F)) (r : Ref sig .tc) (h : r ∉ ops4_W) :
    after ops4 W (Proc.devRef .tc r) = W (Proc.devRef .tc r) :=
  after_of_writes_sub ops4 W ops4_writes h

/-- The operations of window 5 of @main: operations 313 … 378 of 404. -/
abbrev ops5 : List (HloOp τ sig (Elt F)) :=
  [ ternary main_v239 main_v240 main_v238 main_v241 ((fun x i u => Host.scatterAdd scatter_S100000x128_S1000000x1_S1000000x128_1_0_0_1 x i u) : (⟨S100000x128, .f32⟩ : BufTy).Contents (Elt F) → (⟨S1000000x1, .i32⟩ : BufTy).Contents (Elt F) → (⟨S1000000x128, .f32⟩ : BufTy).Contents (Elt F) → (⟨S100000x128, .f32⟩ : BufTy).Contents (Elt F)),
    unary main_arg14 main_v242 (broadcastInDim S1x128 ![1] bcast_S128_S1x128_1 : (⟨S128, .f32⟩ : BufTy).Contents (Elt F) → (⟨S1x128, .f32⟩ : BufTy).Contents (Elt F)),
    unary main_v242 main_v243 (broadcastInDim S100000x128 ![0, 1] bcast_S1x128_S100000x128_0_1 : (⟨S1x128, .f32⟩ : BufTy).Contents (Elt F) → (⟨S100000x128, .f32⟩ : BufTy).Contents (Elt F)),
    binary main_v241 main_v243 main_v244 (addf : (⟨S100000x128, .f32⟩ : BufTy).Contents (Elt F) → (⟨S100000x128, .f32⟩ : BufTy).Contents (Elt F) → (⟨S100000x128, .f32⟩ : BufTy).Contents (Elt F)),
    nullary main_cst_57 (constant S_ .f32 0x00000000#32),
    binary main_v244 main_cst_57 main_v245 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_58 (constant S_ .f32 0x47C35000#32),
    unary main_cst_58 main_v246 (broadcastInDim S128 ![] bcast_S_S128 : (⟨S_, .f32⟩ : BufTy).Contents (Elt F) → (⟨S128, .f32⟩ : BufTy).Contents (Elt F)),
    binary main_v245 main_v246 main_v247 (Host.divf : (⟨S128, .f32⟩ : BufTy).Contents (Elt F) → (⟨S128, .f32⟩ : BufTy).Contents (Elt F) → (⟨S128, .f32⟩ : BufTy).Contents (Elt F)),
    unary main_v247 main_v248 (broadcastInDim S1x128 ![1] bcast_S128_S1x128_1 : (⟨S128, .f32⟩ : BufTy).Contents (Elt F) → (⟨S1x128, .f32⟩ : BufTy).Contents (Elt F)),
    unary main_v248 main_v249 (broadcastInDim S100000x128 ![0, 1] bcast_S1x128_S100000x128_0_1 : (⟨S1x128, .f32⟩ : BufTy).Contents (Elt F) → (⟨S100000x128, .f32⟩ : BufTy).Contents (Elt F)),
    binary main_v244 main_v249 main_v250 (subf : (⟨S100000x128, .f32⟩ : BufTy).Contents (Elt F) → (⟨S100000x128, .f32⟩ : BufTy).Contents (Elt F) → (⟨S100000x128, .f32⟩ : BufTy).Contents (Elt F)),
    binary main_v250 main_v250 main_v251 (mulf : (⟨S100000x128, .f32⟩ : BufTy).Contents (Elt F) → (⟨S100000x128, .f32⟩ : BufTy).Contents (Elt F) → (⟨S100000x128, .f32⟩ : BufTy).Contents (Elt F)),
    nullary main_cst_59 (constant S_ .f32 0x00000000#32),
    binary main_v251 main_cst_59 main_v252 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_60 (constant S_ .f32 0x47C35000#32),
    unary main_cst_60 main_v253 (broadcastInDim S128 ![] bcast_S_S128 : (⟨S_, .f32⟩ : BufTy).Contents (Elt F) → (⟨S128, .f32⟩ : BufTy).Contents (Elt F)),
    binary main_v252 main_v253 main_v254 (Host.divf : (⟨S128, .f32⟩ : BufTy).Contents (Elt F) → (⟨S128, .f32⟩ : BufTy).Contents (Elt F) → (⟨S128, .f32⟩ : BufTy).Contents (Elt F)),
    unary main_v247 main_v255 (broadcastInDim S1x128 ![1] bcast_S128_S1x128_1 : (⟨S128, .f32⟩ : BufTy).Contents (Elt F) → (⟨S1x128, .f32⟩ : BufTy).Contents (Elt F)),
    unary main_v255 main_v256 (broadcastInDim S100000x128 ![0, 1] bcast_S1x128_S100000x128_0_1 : (⟨S1x128, .f32⟩ : BufTy).Contents (Elt F) → (⟨S100000x128, .f32⟩ : BufTy).Contents (Elt F)),
    binary main_v244 main_v256 main_v257 (subf : (⟨S100000x128, .f32⟩ : BufTy).Contents (Elt F) → (⟨S100000x128, .f32⟩ : BufTy).Contents (Elt F) → (⟨S100000x128, .f32⟩ : BufTy).Contents (Elt F)),
    unary main_arg17 main_v258 (broadcastInDim S1x128 ![1] bcast_S128_S1x128_1 : (⟨S128, .f32⟩ : BufTy).Contents (Elt F) → (⟨S1x128, .f32⟩ : BufTy).Contents (Elt F)),
    unary main_v258 main_v259 (broadcastInDim S100000x128 ![0, 1] bcast_S1x128_S100000x128_0_1 : (⟨S1x128, .f32⟩ : BufTy).Contents (Elt F) → (⟨S100000x128, .f32⟩ : BufTy).Contents (Elt F)),
    binary main_v259 main_v257 main_v260 (mulf : (⟨S100000x128, .f32⟩ : BufTy).Contents (Elt F) → (⟨S100000x128, .f32⟩ : BufTy).Contents (Elt F) → (⟨S100000x128, .f32⟩ : BufTy).Contents (Elt F)),
    nullary main_cst_61 (constant S_ .f32 0x3727C5AC#32),
    unary main_cst_61 main_v261 (broadcastInDim S128 ![] bcast_S_S128 : (⟨S_, .f32⟩ : BufTy).Contents (Elt F) → (⟨S128, .f32⟩ : BufTy).Contents (Elt F)),
    binary main_v254 main_v261 main_v262 (addf : (⟨S128, .f32⟩ : BufTy).Contents (Elt F) → (⟨S128, .f32⟩ : BufTy).Contents (Elt F) → (⟨S128, .f32⟩ : BufTy).Contents (Elt F)),
    unary main_v262 main_v263 (Host.rsqrt : (⟨S128, .f32⟩ : BufTy).Contents (Elt F) → (⟨S128, .f32⟩ : BufTy).Contents (Elt F)),
    unary main_v263 main_v264 (broadcastInDim S1x128 ![1] bcast_S128_S1x128_1 : (⟨S128, .f32⟩ : BufTy).Contents (Elt F) → (⟨S1x128, .f32⟩ : BufTy).Contents (Elt F)),
    unary main_v264 main_v265 (broadcastInDim S100000x128 ![0, 1] bcast_S1x128_S100000x128_0_1 : (⟨S1x128, .f32⟩ : BufTy).Contents (Elt F) → (⟨S100000x128, .f32⟩ : BufTy).Contents (Elt F)),
    binary main_v260 main_v265 main_v266 (mulf : (⟨S100000x128, .f32⟩ : BufTy).Contents (Elt F) → (⟨S100000x128, .f32⟩ : BufTy).Contents (Elt F) → (⟨S100000x128, .f32⟩ : BufTy).Contents (Elt F)),
    unary main_arg18 main_v267 (broadcastInDim S1x128 ![1] bcast_S128_S1x128_1 : (⟨S128, .f32⟩ : BufTy).Contents (Elt F) → (⟨S1x128, .f32⟩ : BufTy).Contents (Elt F)),
    unary main_v267 main_v268 (broadcastInDim S100000x128 ![0, 1] bcast_S1x128_S100000x128_0_1 : (⟨S1x128, .f32⟩ : BufTy).Contents (Elt F) → (⟨S100000x128, .f32⟩ : BufTy).Contents (Elt F)),
    binary main_v266 main_v268 main_v269 (addf : (⟨S100000x128, .f32⟩ : BufTy).Contents (Elt F) → (⟨S100000x128, .f32⟩ : BufTy).Contents (Elt F) → (⟨S100000x128, .f32⟩ : BufTy).Contents (Elt F)),
    binary main_v134 main_arg19 main_v270 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg20 main_v271 (broadcastInDim S1x128 ![1] bcast_S128_S1x128_1 : (⟨S128, .f32⟩ : BufTy).Contents (Elt F) → (⟨S1x128, .f32⟩ : BufTy).Contents (Elt F)),
    unary main_v271 main_v272 (broadcastInDim S100000x128 ![0, 1] bcast_S1x128_S100000x128_0_1 : (⟨S1x128, .f32⟩ : BufTy).Contents (Elt F) → (⟨S100000x128, .f32⟩ : BufTy).Contents (Elt F)),
    binary main_v270 main_v272 main_v273 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v273) (TRef.of (T := ⟨S100000x128, .f32⟩) main_call6_v0) (TRef.of (T := ⟨S100000x128, .f32⟩) main_v274) maximumf,
    binary main_v274 main_arg21 main_v275 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg22 main_v276 (broadcastInDim S1x128 ![1] bcast_S128_S1x128_1 : (⟨S128, .f32⟩ : BufTy).Contents (Elt F) → (⟨S1x128, .f32⟩ : BufTy).Contents (Elt F)),
    unary main_v276 main_v277 (broadcastInDim S100000x128 ![0, 1] bcast_S1x128_S100000x128_0_1 : (⟨S1x128, .f32⟩ : BufTy).Contents (Elt F) → (⟨S100000x128, .f32⟩ : BufTy).Contents (Elt F)),
    binary main_v275 main_v277 main_v278 (addf : (⟨S100000x128, .f32⟩ : BufTy).Contents (Elt F) → (⟨S100000x128, .f32⟩ : BufTy).Contents (Elt F) → (⟨S100000x128, .f32⟩ : BufTy).Contents (Elt F)),
    binary main_v269 main_arg19 main_v279 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg20 main_v280 (broadcastInDim S1x128 ![1] bcast_S128_S1x128_1 : (⟨S128, .f32⟩ : BufTy).Contents (Elt F) → (⟨S1x128, .f32⟩ : BufTy).Contents (Elt F)),
    unary main_v280 main_v281 (broadcastInDim S100000x128 ![0, 1] bcast_S1x128_S100000x128_0_1 : (⟨S1x128, .f32⟩ : BufTy).Contents (Elt F) → (⟨S100000x128, .f32⟩ : BufTy).Contents (Elt F)),
    binary main_v279 main_v281 main_v282 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v282) (TRef.of (T := ⟨S100000x128, .f32⟩) main_call7_v0) (TRef.of (T := ⟨S100000x128, .f32⟩) main_v283) maximumf,
    binary main_v283 main_arg21 main_v284 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg22 main_v285 (broadcastInDim S1x128 ![1] bcast_S128_S1x128_1 : (⟨S128, .f32⟩ : BufTy).Contents (Elt F) → (⟨S1x128, .f32⟩ : BufTy).Contents (Elt F)),
    unary main_v285 main_v286 (broadcastInDim S100000x128 ![0, 1] bcast_S1x128_S100000x128_0_1 : (⟨S1x128, .f32⟩ : BufTy).Contents (Elt F) → (⟨S100000x128, .f32⟩ : BufTy).Contents (Elt F)),
    binary main_v284 main_v286 main_v287 (addf : (⟨S100000x128, .f32⟩ : BufTy).Contents (Elt F) → (⟨S100000x128, .f32⟩ : BufTy).Contents (Elt F) → (⟨S100000x128, .f32⟩ : BufTy).Contents (Elt F)),
    nullary main_cst_62 (constant S_ .f32 0x00000000#32),
    binary main_v278 main_cst_62 main_v288 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_v288 main_v289 (broadcastInDim S1x128 ![1] bcast_S128_S1x128_1 : (⟨S128, .f32⟩ : BufTy).Contents (Elt F) → (⟨S1x128, .f32⟩ : BufTy).Contents (Elt F)),
    binary main_v289 main_arg19 main_v290 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg20 main_v291 (broadcastInDim S1x128 ![1] bcast_S128_S1x128_1 : (⟨S128, .f32⟩ : BufTy).Contents (Elt F) → (⟨S1x128, .f32⟩ : BufTy).Contents (Elt F)),
    binary main_v290 main_v291 main_v292 (addf : (⟨S1x128, .f32⟩ : BufTy).Contents (Elt F) → (⟨S1x128, .f32⟩ : BufTy).Contents (Elt F) → (⟨S1x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1x128, .f32⟩) main_call8_v0) (broadcastInDim S1x128 ![] bcast_S_S1x128),
    TRef.binary (TRef.of (T := ⟨S1x128, .f32⟩) main_v292) (TRef.of (T := ⟨S1x128, .f32⟩) main_call8_v0) (TRef.of (T := ⟨S1x128, .f32⟩) main_v293) maximumf,
    binary main_v293 main_arg21 main_v294 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)) ]

set_option maxRecDepth 8192 in
set_option maxHeartbeats 4000000 in
theorem main_part5_eq (c : Dev nD) : main_part5 (F := F) c = seq ops5 := rfl
set_option maxRecDepth 8192 in
theorem ops5_sub : (ops5 : List (HloOp τ sig (Elt F))).Forall fun op => op.bufs ⊆ tcRefs τ sig :=
  ⟨ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., unary_bufs_sub .., binary_bufs_sub .., unary_bufs_sub .., binary_bufs_sub .., nullary_bufs_sub .., unary_bufs_sub .., binary_bufs_sub .., binary_bufs_sub ..⟩
set_option maxRecDepth 8192 in
theorem ops5_fresh : ∀ op ∈ (ops5 : List (HloOp τ sig (Elt F))), op.fresh = ∅ := by
  intro _ h; (repeat (cases h with | head => rfl | tail _ h => ?_)); exact nomatch h
/-- The buffers window 5 writes. -/
abbrev ops5_W : List (Ref sig .tc) := [main_v241, main_v242, main_v243, main_v244, main_cst_57, main_v245, main_cst_58, main_v246, main_v247, main_v248, main_v249, main_v250, main_v251, main_cst_59, main_v252, main_cst_60, main_v253, main_v254, main_v255, main_v256, main_v257, main_v258, main_v259, main_v260, main_cst_61, main_v261, main_v262, main_v263, main_v264, main_v265, main_v266, main_v267, main_v268, main_v269, main_v270, main_v271, main_v272, main_v273, main_call6_cst, main_call6_v0, main_v274, main_v275, main_v276, main_v277, main_v278, main_v279, main_v280, main_v281, main_v282, main_call7_cst, main_call7_v0, main_v283, main_v284, main_v285, main_v286, main_v287, main_cst_62, main_v288, main_v289, main_v290, main_v291, main_v292, main_call8_cst, main_call8_v0, main_v293, main_v294]
set_option maxRecDepth 8192 in
theorem ops5_writes : (ops5 : List (HloOp τ sig (Elt F))).Forall fun op => op.writes ⊆ (ops5_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 5 does not write keeps its contents through it. -/
theorem ops5_keep (W : Valuation τ sig (Elt F)) (r : Ref sig .tc) (h : r ∉ ops5_W) :
    after ops5 W (Proc.devRef .tc r) = W (Proc.devRef .tc r) :=
  after_of_writes_sub ops5 W ops5_writes h

/-- The operations of window 6 of @main: operations 379 … 404 of 404. -/
abbrev ops6 : List (HloOp τ sig (Elt F)) :=
  [ unary main_arg22 main_v295 (broadcastInDim S1x128 ![1] bcast_S128_S1x128_1 : (⟨S128, .f32⟩ : BufTy).Contents (Elt F) → (⟨S1x128, .f32⟩ : BufTy).Contents (Elt F)),
    binary main_v294 main_v295 main_v296 (addf : (⟨S1x128, .f32⟩ : BufTy).Contents (Elt F) → (⟨S1x128, .f32⟩ : BufTy).Contents (Elt F) → (⟨S1x128, .f32⟩ : BufTy).Contents (Elt F)),
    nullary main_cst_63 (constant S_ .f32 0x00000000#32),
    binary main_v287 main_cst_63 main_v297 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    unary main_v297 main_v298 (broadcastInDim S1x128 ![1] bcast_S128_S1x128_1 : (⟨S128, .f32⟩ : BufTy).Contents (Elt F) → (⟨S1x128, .f32⟩ : BufTy).Contents (Elt F)),
    binary main_v298 main_arg19 main_v299 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg20 main_v300 (broadcastInDim S1x128 ![1] bcast_S128_S1x128_1 : (⟨S128, .f32⟩ : BufTy).Contents (Elt F) → (⟨S1x128, .f32⟩ : BufTy).Contents (Elt F)),
    binary main_v299 main_v300 main_v301 (addf : (⟨S1x128, .f32⟩ : BufTy).Contents (Elt F) → (⟨S1x128, .f32⟩ : BufTy).Contents (Elt F) → (⟨S1x128, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S1x128, .f32⟩) main_call9_v0) (broadcastInDim S1x128 ![] bcast_S_S1x128),
    TRef.binary (TRef.of (T := ⟨S1x128, .f32⟩) main_v301) (TRef.of (T := ⟨S1x128, .f32⟩) main_call9_v0) (TRef.of (T := ⟨S1x128, .f32⟩) main_v302) maximumf,
    binary main_v302 main_arg21 main_v303 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg22 main_v304 (broadcastInDim S1x128 ![1] bcast_S128_S1x128_1 : (⟨S128, .f32⟩ : BufTy).Contents (Elt F) → (⟨S1x128, .f32⟩ : BufTy).Contents (Elt F)),
    binary main_v303 main_v304 main_v305 (addf : (⟨S1x128, .f32⟩ : BufTy).Contents (Elt F) → (⟨S1x128, .f32⟩ : BufTy).Contents (Elt F) → (⟨S1x128, .f32⟩ : BufTy).Contents (Elt F)),
    binary main_v278 main_v287 main_v306 (addf : (⟨S100000x128, .f32⟩ : BufTy).Contents (Elt F) → (⟨S100000x128, .f32⟩ : BufTy).Contents (Elt F) → (⟨S100000x128, .f32⟩ : BufTy).Contents (Elt F)),
    binary main_v306 main_arg23 main_v307 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg24 main_v308 (broadcastInDim S1x64 ![1] bcast_S64_S1x64_1 : (⟨S64, .f32⟩ : BufTy).Contents (Elt F) → (⟨S1x64, .f32⟩ : BufTy).Contents (Elt F)),
    unary main_v308 main_v309 (broadcastInDim S100000x64 ![0, 1] bcast_S1x64_S100000x64_0_1 : (⟨S1x64, .f32⟩ : BufTy).Contents (Elt F) → (⟨S100000x64, .f32⟩ : BufTy).Contents (Elt F)),
    binary main_v307 main_v309 main_v310 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x64, .f32⟩) main_call10_v0) (broadcastInDim S100000x64 ![] bcast_S_S100000x64),
    TRef.binary (TRef.of (T := ⟨S100000x64, .f32⟩) main_v310) (TRef.of (T := ⟨S100000x64, .f32⟩) main_call10_v0) (TRef.of (T := ⟨S100000x64, .f32⟩) main_v311) maximumf,
    binary main_v311 main_arg25 main_v312 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg26 main_v313 (broadcastInDim S1x40 ![1] bcast_S40_S1x40_1 : (⟨S40, .f32⟩ : BufTy).Contents (Elt F) → (⟨S1x40, .f32⟩ : BufTy).Contents (Elt F)),
    unary main_v313 main_v314 (broadcastInDim S100000x40 ![0, 1] bcast_S1x40_S100000x40_0_1 : (⟨S1x40, .f32⟩ : BufTy).Contents (Elt F) → (⟨S100000x40, .f32⟩ : BufTy).Contents (Elt F)),
    binary main_v312 main_v314 main_v315 (addf : (⟨S100000x40, .f32⟩ : BufTy).Contents (Elt F) → (⟨S100000x40, .f32⟩ : BufTy).Contents (Elt F) → (⟨S100000x40, .f32⟩ : BufTy).Contents (Elt F)) ]

set_option maxRecDepth 8192 in
set_option maxHeartbeats 4000000 in
theorem main_part6_eq (c : Dev nD) : main_part6 (F := F) c = seq ops6 := rfl
set_option maxRecDepth 8192 in
theorem ops6_sub : (ops6 : List (HloOp τ sig (Elt F))).Forall fun op => op.bufs ⊆ tcRefs τ sig :=
  ⟨unary_bufs_sub .., binary_bufs_sub .., nullary_bufs_sub .., binary_bufs_sub .., unary_bufs_sub .., binary_bufs_sub .., unary_bufs_sub .., binary_bufs_sub .., nullary_bufs_sub .., unary_bufs_sub .., binary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem ops6_fresh : ∀ op ∈ (ops6 : List (HloOp τ sig (Elt F))), op.fresh = ∅ := by
  intro _ h; (repeat (cases h with | head => rfl | tail _ h => ?_)); exact nomatch h
/-- The buffers window 6 writes. -/
abbrev ops6_W : List (Ref sig .tc) := [main_v295, main_v296, main_cst_63, main_v297, main_v298, main_v299, main_v300, main_v301, main_call9_cst, main_call9_v0, main_v302, main_v303, main_v304, main_v305, main_v306, main_v307, main_v308, main_v309, main_v310, main_call10_cst, main_call10_v0, main_v311, main_v312, main_v313, main_v314, main_v315]
set_option maxRecDepth 8192 in
theorem ops6_writes : (ops6 : List (HloOp τ sig (Elt F))).Forall fun op => op.writes ⊆ (ops6_W.map (Proc.devRef (τ := τ) .tc)).toFinset := by
  simp only [List.Forall]; exact ⟨by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide), by simp only [nullary_writes, unary_writes, binary_writes, ternary_writes, quaternary_writes, reshape_writes, binaryIndexed_writes, unaryIndexed_writes, nary_writes, TRef.nullary, TRef.unary, TRef.binary, TRef.ternary, Finset.singleton_subset_iff, List.mem_toFinset]; exact List.mem_map_of_mem (by decide)⟩
/-- A buffer window 6 does not write keeps its contents through it. -/
theorem ops6_keep (W : Valuation τ sig (Elt F)) (r : Ref sig .tc) (h : r ∉ ops6_W) :
    after ops6 W (Proc.devRef .tc r) = W (Proc.devRef .tc r) :=
  after_of_writes_sub ops6 W ops6_writes h

/-- @main's operations: the windows in order. -/
abbrev ops : List (HloOp τ sig (Elt F)) := ops0 ++ (ops1 ++ (ops2 ++ (ops3 ++ (ops4 ++ (ops5 ++ (ops6))))))

set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c, ← main_part6_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [ops, List.forall_append]
  exact ⟨ops0_sub, ops1_sub, ops2_sub, ops3_sub, ops4_sub, ops5_sub, ops6_sub⟩
theorem ops_fresh : ∀ op ∈ (ops : List (HloOp τ sig (Elt F))), op.fresh = ∅ := by
  intro op h
  simp only [ops, List.mem_append] at h
  rcases h with h | h | h | h | h | h | h
  · exact ops0_fresh op h
  · exact ops1_fresh op h
  · exact ops2_fresh op h
  · exact ops3_fresh op h
  · exact ops4_fresh op h
  · exact ops5_fresh op h
  · exact ops6_fresh op h
/-- The contents after @main's operations: the windows' folds, one inside the other. -/
theorem after_ops (V : Valuation τ sig (Elt F)) : after ops V = after ops6 (after ops5 (after ops4 (after ops3 (after ops2 (after ops1 (after ops0 V)))))) := by
  simp only [ops, StableHlo.after_append]

end Cert.RefRun

end
-- ==== Proof.RefRunLive.lean ====
import proofs.«174816_j57878979281252_2_alg».proof.Proof.RefRunOps
import proofs.«174816_j57878979281252_2_alg».proof.Proof.RefRead

set_option maxRecDepth 8192

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26]

/-- Window 0 writes no argument. -/
theorem argRefs_not_ops0 : ∀ r ∈ argRefs, r ∉ ops0_W := by decide
/-- Window 1 writes no argument. -/
theorem argRefs_not_ops1 : ∀ r ∈ argRefs, r ∉ ops1_W := by decide
/-- Window 2 writes no argument. -/
theorem argRefs_not_ops2 : ∀ r ∈ argRefs, r ∉ ops2_W := by decide
/-- Window 3 writes no argument. -/
theorem argRefs_not_ops3 : ∀ r ∈ argRefs, r ∉ ops3_W := by decide
/-- Window 4 writes no argument. -/
theorem argRefs_not_ops4 : ∀ r ∈ argRefs, r ∉ ops4_W := by decide
/-- Window 5 writes no argument. -/
theorem argRefs_not_ops5 : ∀ r ∈ argRefs, r ∉ ops5_W := by decide
/-- Window 6 writes no argument. -/
theorem argRefs_not_ops6 : ∀ r ∈ argRefs, r ∉ ops6_W := by decide

/-- At cut 0: the arguments as launched (as in V0), and each buffer written so far that is still needed at its stage of the arguments. -/
def Live0 (V0 W : Valuation τ sig (Elt F)) : Prop :=
  (∀ r ∈ argRefs, W (Proc.devRef .tc r) = V0 (Proc.devRef .tc r))

/-- At cut 1: the arguments as launched (as in V0), and each buffer written so far that is still needed at its stage of the arguments. -/
def Live1 (V0 W : Valuation τ sig (Elt F)) : Prop :=
  (∀ r ∈ argRefs, W (Proc.devRef .tc r) = V0 (Proc.devRef .tc r))
  ∧ W (Proc.devRef .tc main_v1) = Read.val_main_v1 (F := F) (V0 (Proc.devRef .tc main_arg1))
  ∧ W (Proc.devRef .tc main_v3) = Read.val_main_v3 (F := F) (V0 (Proc.devRef .tc main_arg1))
  ∧ W (Proc.devRef .tc main_v44) = Read.val_main_v44 (F := F) (V0 (Proc.devRef .tc main_arg0)) (V0 (Proc.devRef .tc main_arg1)) (V0 (Proc.devRef .tc main_arg3)) (V0 (Proc.devRef .tc main_arg4))
  ∧ W (Proc.devRef .tc main_v45) = Read.val_main_v45 (F := F) (V0 (Proc.devRef .tc main_arg0)) (V0 (Proc.devRef .tc main_arg1)) (V0 (Proc.devRef .tc main_arg3)) (V0 (Proc.devRef .tc main_arg4))
  ∧ W (Proc.devRef .tc main_v46) = Read.val_main_v46 (F := F)

/-- At cut 2: the arguments as launched (as in V0), and each buffer written so far that is still needed at its stage of the arguments. -/
def Live2 (V0 W : Valuation τ sig (Elt F)) : Prop :=
  (∀ r ∈ argRefs, W (Proc.devRef .tc r) = V0 (Proc.devRef .tc r))
  ∧ W (Proc.devRef .tc main_v1) = Read.val_main_v1 (F := F) (V0 (Proc.devRef .tc main_arg1))
  ∧ W (Proc.devRef .tc main_v3) = Read.val_main_v3 (F := F) (V0 (Proc.devRef .tc main_arg1))
  ∧ W (Proc.devRef .tc main_v70) = Read.val_main_v70 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg7)) (V0 (Proc.devRef .tc main_arg8))
  ∧ W (Proc.devRef .tc main_v93) = Read.val_main_v93 (F := F) (V0 (Proc.devRef .tc main_arg1))
  ∧ W (Proc.devRef .tc main_v94) = Read.val_main_v94 (F := F)

/-- At cut 3: the arguments as launched (as in V0), and each buffer written so far that is still needed at its stage of the arguments. -/
def Live3 (V0 W : Valuation τ sig (Elt F)) : Prop :=
  (∀ r ∈ argRefs, W (Proc.devRef .tc r) = V0 (Proc.devRef .tc r))
  ∧ W (Proc.devRef .tc main_v134) = Read.val_main_v134 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
  ∧ W (Proc.devRef .tc main_v136) = Read.val_main_v136 (F := F) (V0 (Proc.devRef .tc main_arg2))
  ∧ W (Proc.devRef .tc main_v138) = Read.val_main_v138 (F := F) (V0 (Proc.devRef .tc main_arg2))
  ∧ W (Proc.devRef .tc main_v139) = Read.val_main_v139 (F := F) (V0 (Proc.devRef .tc main_arg0)) (V0 (Proc.devRef .tc main_arg11))
  ∧ W (Proc.devRef .tc main_v143) = Read.val_main_v143 (F := F) (V0 (Proc.devRef .tc main_arg2))
  ∧ W (Proc.devRef .tc main_v144) = Read.val_main_v144 (F := F)

/-- At cut 4: the arguments as launched (as in V0), and each buffer written so far that is still needed at its stage of the arguments. -/
def Live4 (V0 W : Valuation τ sig (Elt F)) : Prop :=
  (∀ r ∈ argRefs, W (Proc.devRef .tc r) = V0 (Proc.devRef .tc r))
  ∧ W (Proc.devRef .tc main_v134) = Read.val_main_v134 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
  ∧ W (Proc.devRef .tc main_v136) = Read.val_main_v136 (F := F) (V0 (Proc.devRef .tc main_arg2))
  ∧ W (Proc.devRef .tc main_v138) = Read.val_main_v138 (F := F) (V0 (Proc.devRef .tc main_arg2))
  ∧ W (Proc.devRef .tc main_v189) = Read.val_main_v189 (F := F) (V0 (Proc.devRef .tc main_arg0)) (V0 (Proc.devRef .tc main_arg2)) (V0 (Proc.devRef .tc main_arg11)) (V0 (Proc.devRef .tc main_arg12))
  ∧ W (Proc.devRef .tc main_v192) = Read.val_main_v192 (F := F) (V0 (Proc.devRef .tc main_arg0)) (V0 (Proc.devRef .tc main_arg2)) (V0 (Proc.devRef .tc main_arg11)) (V0 (Proc.devRef .tc main_arg12))

/-- At cut 5: the arguments as launched (as in V0), and each buffer written so far that is still needed at its stage of the arguments. -/
def Live5 (V0 W : Valuation τ sig (Elt F)) : Prop :=
  (∀ r ∈ argRefs, W (Proc.devRef .tc r) = V0 (Proc.devRef .tc r))
  ∧ W (Proc.devRef .tc main_v134) = Read.val_main_v134 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10))
  ∧ W (Proc.devRef .tc main_v238) = Read.val_main_v238 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg15)) (V0 (Proc.devRef .tc main_arg16))
  ∧ W (Proc.devRef .tc main_v239) = Read.val_main_v239 (F := F)
  ∧ W (Proc.devRef .tc main_v240) = Read.val_main_v240 (F := F) (V0 (Proc.devRef .tc main_arg2))

/-- At cut 6: the arguments as launched (as in V0), and each buffer written so far that is still needed at its stage of the arguments. -/
def Live6 (V0 W : Valuation τ sig (Elt F)) : Prop :=
  (∀ r ∈ argRefs, W (Proc.devRef .tc r) = V0 (Proc.devRef .tc r))
  ∧ W (Proc.devRef .tc main_v278) = Read.val_main_v278 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22))
  ∧ W (Proc.devRef .tc main_v287) = Read.val_main_v287 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22))
  ∧ W (Proc.devRef .tc main_v294) = Read.val_main_v294 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22))

/-- At cut 7: the arguments as launched (as in V0), and each buffer written so far that is still needed at its stage of the arguments. -/
def Live7 (V0 W : Valuation τ sig (Elt F)) : Prop :=
  (∀ r ∈ argRefs, W (Proc.devRef .tc r) = V0 (Proc.devRef .tc r))
  ∧ W (Proc.devRef .tc main_v278) = Read.val_main_v278 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22))
  ∧ W (Proc.devRef .tc main_v287) = Read.val_main_v287 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22))
  ∧ W (Proc.devRef .tc main_v296) = Read.val_main_v296 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22))
  ∧ W (Proc.devRef .tc main_v305) = Read.val_main_v305 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22))
  ∧ W (Proc.devRef .tc main_v315) = Read.val_main_v315 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26))

end Cert.RefRun

end
-- ==== Proof.RefRunStagesA.lean ====
/-
  The reference program's run, window by window: windows 0, 1 of its seven. Before a window the buffers written so
  far that are still needed each hold their stage — the whole-array function of the arguments that the chain of
  operations up to the buffer computes — and the arguments are as launched; the window's operations are folded over
  those contents, each live buffer it writes is read off the fold as its operation's function of what the window wrote
  or found, the found ones are replaced by their stages, and the result is the buffer's own stage, unfolded; a buffer
  the window does not write keeps what it held.
-/
import proofs.«174816_j57878979281252_2_alg».proof.Proof.RefRunLive

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 0 (64 operations): from the live buffers before it at their stages to those after it — 5 written, each read off the window's fold as its operation's function of buffers the window itself wrote or found, which is that buffer's stage unfolded. -/
theorem win0 (V0 W : Valuation τ sig (Elt F)) (h : Live0 V0 W) : Live1 V0 (after ops0 W) := by
  unfold Live0 at h
  unfold Live1
  have hA := h
  refine ⟨fun r hr => (ops0_keep W r (argRefs_not_ops0 r hr)).trans (hA r hr), ?_, ?_, ?_, ?_, ?_⟩
  · show after ops0 W (Proc.devRef .tc main_v1) = _
    simp only [ops0]
    after_results_simp
    rw [hA main_arg1 (by decide)]
    rfl
  · show after ops0 W (Proc.devRef .tc main_v3) = _
    simp only [ops0]
    after_results_simp
    rw [hA main_arg1 (by decide)]
    rfl
  · show after ops0 W (Proc.devRef .tc main_v44) = _
    simp only [ops0]
    after_results_simp
    rw [hA main_arg4 (by decide), hA main_arg1 (by decide), hA main_arg3 (by decide), hA main_arg0 (by decide)]
    rfl
  · show after ops0 W (Proc.devRef .tc main_v45) = _
    simp only [ops0]
    after_results_simp
    rw [hA main_arg4 (by decide), hA main_arg1 (by decide), hA main_arg3 (by decide), hA main_arg0 (by decide)]
    rfl
  · show after ops0 W (Proc.devRef .tc main_v46) = _
    simp only [ops0]
    after_results_simp
    rfl

set_option maxRecDepth 8192 in
set_option maxHeartbeats 4000000 in
/-- Window 1 (62 operations): from the live buffers before it at their stages to those after it — 2 carried through unwritten, 3 written, each read off the window's fold as its operation's function of buffers the window itself wrote or found, which is that buffer's stage unfolded. -/
theorem win1 (V0 W : Valuation τ sig (Elt F)) (h : Live1 V0 W) : Live2 V0 (after ops1 W) := by
  unfold Live1 at h
  unfold Live2
  obtain ⟨hA, h_main_v1, h_main_v3, h_main_v44, h_main_v45, h_main_v46⟩ := h
  refine ⟨fun r hr => (ops1_keep W r (argRefs_not_ops1 r hr)).trans (hA r hr), ?_, ?_, ?_, ?_, ?_⟩
  · exact (ops1_keep W main_v1 (by decide)).trans h_main_v1
  · exact (ops1_keep W main_v3 (by decide)).trans h_main_v3
  · show after ops1 W (Proc.devRef .tc main_v70) = _
    simp only [ops1]
    after_results_simp
    rw [hA main_arg5 (by decide), hA main_arg8 (by decide), h_main_v46, h_main_v45, h_main_v44, hA main_arg7 (by decide)]
    rfl
  · show after ops1 W (Proc.devRef .tc main_v93) = _
    simp only [ops1]
    after_results_simp
    rw [h_main_v3, h_main_v1]
    rfl
  · show after ops1 W (Proc.devRef .tc main_v94) = _
    simp only [ops1]
    after_results_simp
    rfl

end Cert.RefRun

end
-- ==== Proof.RefRunStagesC.lean ====
/-
  The reference program's run, window by window: windows 2, 3 of its seven. Before a window the buffers written so
  far that are still needed each hold their stage — the whole-array function of the arguments that the chain of
  operations up to the buffer computes — and the arguments are as launched; the window's operations are folded over
  those contents, each live buffer it writes is read off the fold as its operation's function of what the window wrote
  or found, the found ones are replaced by their stages, and the result is the buffer's own stage, unfolded; a buffer
  the window does not write keeps what it held.
-/
import proofs.«174816_j57878979281252_2_alg».proof.Proof.RefRunLive

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Window 2 (60 operations): from the live buffers before it at their stages to those after it — 6 written, each read off the window's fold as its operation's function of buffers the window itself wrote or found, which is that buffer's stage unfolded. -/
theorem win2 (V0 W : Valuation τ sig (Elt F)) (h : Live2 V0 W) : Live3 V0 (after ops2 W) := by
  unfold Live2 at h
  unfold Live3
  obtain ⟨hA, h_main_v1, h_main_v3, h_main_v70, h_main_v93, h_main_v94⟩ := h
  refine ⟨fun r hr => (ops2_keep W r (argRefs_not_ops2 r hr)).trans (hA r hr), ?_, ?_, ?_, ?_, ?_, ?_⟩
  · show after ops2 W (Proc.devRef .tc main_v134) = _
    simp only [ops2]
    after_results_simp
    rw [hA main_arg10 (by decide), hA main_arg6 (by decide), h_main_v93, h_main_v1, h_main_v94, h_main_v70, h_main_v3, hA main_arg9 (by decide)]
    rfl
  · show after ops2 W (Proc.devRef .tc main_v136) = _
    simp only [ops2]
    after_results_simp
    rw [hA main_arg2 (by decide)]
    rfl
  · show after ops2 W (Proc.devRef .tc main_v138) = _
    simp only [ops2]
    after_results_simp
    rw [hA main_arg2 (by decide)]
    rfl
  · show after ops2 W (Proc.devRef .tc main_v139) = _
    simp only [ops2]
    after_results_simp
    rw [hA main_arg11 (by decide), hA main_arg0 (by decide)]
    rfl
  · show after ops2 W (Proc.devRef .tc main_v143) = _
    simp only [ops2]
    after_results_simp
    rw [hA main_arg2 (by decide)]
    rfl
  · show after ops2 W (Proc.devRef .tc main_v144) = _
    simp only [ops2]
    after_results_simp
    rfl

set_option maxRecDepth 8192 in
set_option maxHeartbeats 4000000 in
/-- Window 3 (64 operations): from the live buffers before it at their stages to those after it — 3 carried through unwritten, 2 written, each read off the window's fold as its operation's function of buffers the window itself wrote or found, which is that buffer's stage unfolded. -/
theorem win3 (V0 W : Valuation τ sig (Elt F)) (h : Live3 V0 W) : Live4 V0 (after ops3 W) := by
  unfold Live3 at h
  unfold Live4
  obtain ⟨hA, h_main_v134, h_main_v136, h_main_v138, h_main_v139, h_main_v143, h_main_v144⟩ := h
  refine ⟨fun r hr => (ops3_keep W r (argRefs_not_ops3 r hr)).trans (hA r hr), ?_, ?_, ?_, ?_, ?_⟩
  · exact (ops3_keep W main_v134 (by decide)).trans h_main_v134
  · exact (ops3_keep W main_v136 (by decide)).trans h_main_v136
  · exact (ops3_keep W main_v138 (by decide)).trans h_main_v138
  · show after ops3 W (Proc.devRef .tc main_v189) = _
    simp only [ops3]
    after_results_simp
    rw [hA main_arg12 (by decide), h_main_v138, h_main_v143, h_main_v144, h_main_v136, h_main_v139]
    rfl
  · show after ops3 W (Proc.devRef .tc main_v192) = _
    simp only [ops3]
    after_results_simp
    rw [hA main_arg12 (by decide), h_main_v138, h_main_v143, h_main_v144, h_main_v136, h_main_v139]
    rfl

end Cert.RefRun

end
-- ==== Proof.RefRunStagesB.lean ====
import proofs.«174816_j57878979281252_2_alg».proof.Proof.RefRunLive

set_option maxRecDepth 16384

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 8000000 in
/-- Window 4 leaves `main_v238` at its stage. -/
theorem win4_main_v238 (V0 W : Valuation τ sig (Elt F)) (h : Live4 V0 W) :
    after (ops4 (F := F)) W (Proc.devRef .tc main_v238) = Read.val_main_v238 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg15)) (V0 (Proc.devRef .tc main_arg16)) := by
  obtain ⟨hA, h_main_v134, h_main_v136, h_main_v138, h_main_v189, h_main_v192⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops4]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v134, h_main_v136, h_main_v138, h_main_v189, h_main_v192]
  rfl

set_option maxHeartbeats 8000000 in
/-- Window 4 leaves `main_v239` at its stage. -/
theorem win4_main_v239 (V0 W : Valuation τ sig (Elt F)) (h : Live4 V0 W) :
    after (ops4 (F := F)) W (Proc.devRef .tc main_v239) = Read.val_main_v239 (F := F) := by
  obtain ⟨hA, h_main_v134, h_main_v136, h_main_v138, h_main_v189, h_main_v192⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops4]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v134, h_main_v136, h_main_v138, h_main_v189, h_main_v192]
  rfl

set_option maxHeartbeats 8000000 in
/-- Window 4 leaves `main_v240` at its stage. -/
theorem win4_main_v240 (V0 W : Valuation τ sig (Elt F)) (h : Live4 V0 W) :
    after (ops4 (F := F)) W (Proc.devRef .tc main_v240) = Read.val_main_v240 (F := F) (V0 (Proc.devRef .tc main_arg2)) := by
  obtain ⟨hA, h_main_v134, h_main_v136, h_main_v138, h_main_v189, h_main_v192⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops4]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v134, h_main_v136, h_main_v138, h_main_v189, h_main_v192]
  rfl

/-- WINDOW 4: from a valuation in which the arguments are as launched and the buffers live before the window hold
    their stages, the window's operations lead to one in which the buffers live after it hold theirs. -/
theorem win4 (V0 W : Valuation τ sig (Elt F)) (h : Live4 V0 W) : Live5 V0 (after (ops4 (F := F)) W) := by
  have h' := h
  obtain ⟨hA, h_main_v134, h_main_v136, h_main_v138, h_main_v189, h_main_v192⟩ := h
  unfold Live5
  refine ⟨fun r hr => (ops4_keep W r (argRefs_not_ops4 r hr)).trans (hA r hr), ?_, ?_, ?_, ?_⟩
  · exact (ops4_keep W main_v134 (by decide)).trans h_main_v134
  · exact win4_main_v238 V0 W h'
  · exact win4_main_v239 V0 W h'
  · exact win4_main_v240 V0 W h'

set_option maxHeartbeats 8000000 in
/-- Window 5 leaves `main_v278` at its stage. -/
theorem win5_main_v278 (V0 W : Valuation τ sig (Elt F)) (h : Live5 V0 W) :
    after (ops5 (F := F)) W (Proc.devRef .tc main_v278) = Read.val_main_v278 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) := by
  obtain ⟨hA, h_main_v134, h_main_v238, h_main_v239, h_main_v240⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops5]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v134, h_main_v238, h_main_v239, h_main_v240]
  rfl

set_option maxHeartbeats 8000000 in
/-- Window 5 leaves `main_v287` at its stage. -/
theorem win5_main_v287 (V0 W : Valuation τ sig (Elt F)) (h : Live5 V0 W) :
    after (ops5 (F := F)) W (Proc.devRef .tc main_v287) = Read.val_main_v287 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  obtain ⟨hA, h_main_v134, h_main_v238, h_main_v239, h_main_v240⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops5]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v134, h_main_v238, h_main_v239, h_main_v240]
  rfl

set_option maxHeartbeats 8000000 in
/-- Window 5 leaves `main_v294` at its stage. -/
theorem win5_main_v294 (V0 W : Valuation τ sig (Elt F)) (h : Live5 V0 W) :
    after (ops5 (F := F)) W (Proc.devRef .tc main_v294) = Read.val_main_v294 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) := by
  obtain ⟨hA, h_main_v134, h_main_v238, h_main_v239, h_main_v240⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops5]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v134, h_main_v238, h_main_v239, h_main_v240]
  rfl

/-- WINDOW 5: from a valuation in which the arguments are as launched and the buffers live before the window hold
    their stages, the window's operations lead to one in which the buffers live after it hold theirs. -/
theorem win5 (V0 W : Valuation τ sig (Elt F)) (h : Live5 V0 W) : Live6 V0 (after (ops5 (F := F)) W) := by
  have h' := h
  obtain ⟨hA, h_main_v134, h_main_v238, h_main_v239, h_main_v240⟩ := h
  unfold Live6
  refine ⟨fun r hr => (ops5_keep W r (argRefs_not_ops5 r hr)).trans (hA r hr), ?_, ?_, ?_⟩
  · exact win5_main_v278 V0 W h'
  · exact win5_main_v287 V0 W h'
  · exact win5_main_v294 V0 W h'

set_option maxHeartbeats 8000000 in
/-- Window 6 leaves `main_v296` at its stage. -/
theorem win6_main_v296 (V0 W : Valuation τ sig (Elt F)) (h : Live6 V0 W) :
    after (ops6 (F := F)) W (Proc.devRef .tc main_v296) = Read.val_main_v296 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg19)) (V0 (Proc.devRef .tc main_arg20)) (V0 (Proc.devRef .tc main_arg21)) (V0 (Proc.devRef .tc main_arg22)) := by
  obtain ⟨hA, h_main_v278, h_main_v287, h_main_v294⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops6]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v278, h_main_v287, h_main_v294]
  rfl

set_option maxHeartbeats 8000000 in
/-- Window 6 leaves `main_v305` at its stage. -/
theorem win6_main_v305 (V0 W : Valuation τ sig (Elt F)) (h : Live6 V0 W) :
    after (ops6 (F := F)) W (Proc.devRef .tc main_v305) = Read.val_main_v305 (F := F) (V0 (Proc.devRef .tc main_arg0)) (V0 (Proc.devRef .tc main_arg2)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  obtain ⟨hA, h_main_v278, h_main_v287, h_main_v294⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops6]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v278, h_main_v287, h_main_v294]
  rfl

set_option maxHeartbeats 8000000 in
/-- Window 6 leaves `main_v315` at its stage. -/
theorem win6_main_v315 (V0 W : Valuation τ sig (Elt F)) (h : Live6 V0 W) :
    after (ops6 (F := F)) W (Proc.devRef .tc main_v315) = Read.val_main_v315 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) (V0 (Proc.devRef .tc main_arg23)) (V0 (Proc.devRef .tc main_arg24)) (V0 (Proc.devRef .tc main_arg25)) (V0 (Proc.devRef .tc main_arg26)) := by
  obtain ⟨hA, h_main_v278, h_main_v287, h_main_v294⟩ := h
  have a0 := hA main_arg0 (by decide)
  have a1 := hA main_arg1 (by decide)
  have a2 := hA main_arg2 (by decide)
  have a3 := hA main_arg3 (by decide)
  have a4 := hA main_arg4 (by decide)
  have a5 := hA main_arg5 (by decide)
  have a6 := hA main_arg6 (by decide)
  have a7 := hA main_arg7 (by decide)
  have a8 := hA main_arg8 (by decide)
  have a9 := hA main_arg9 (by decide)
  have a10 := hA main_arg10 (by decide)
  have a11 := hA main_arg11 (by decide)
  have a12 := hA main_arg12 (by decide)
  have a13 := hA main_arg13 (by decide)
  have a14 := hA main_arg14 (by decide)
  have a15 := hA main_arg15 (by decide)
  have a16 := hA main_arg16 (by decide)
  have a17 := hA main_arg17 (by decide)
  have a18 := hA main_arg18 (by decide)
  have a19 := hA main_arg19 (by decide)
  have a20 := hA main_arg20 (by decide)
  have a21 := hA main_arg21 (by decide)
  have a22 := hA main_arg22 (by decide)
  have a23 := hA main_arg23 (by decide)
  have a24 := hA main_arg24 (by decide)
  have a25 := hA main_arg25 (by decide)
  have a26 := hA main_arg26 (by decide)
  simp only [ops6]
  after_results_simp
  try simp only [TRef.ofBuf, TRef.toBuf, cast_eq]
  try simp only [a0, a1, a2, a3, a4, a5, a6, a7, a8, a9, a10, a11, a12, a13, a14, a15, a16, a17, a18, a19, a20, a21, a22, a23, a24, a25, a26, h_main_v278, h_main_v287, h_main_v294]
  rfl

/-- WINDOW 6: from a valuation in which the arguments are as launched and the buffers live before the window hold
    their stages, the window's operations lead to one in which the buffers live after it hold theirs. -/
theorem win6 (V0 W : Valuation τ sig (Elt F)) (h : Live6 V0 W) : Live7 V0 (after (ops6 (F := F)) W) := by
  have h' := h
  obtain ⟨hA, h_main_v278, h_main_v287, h_main_v294⟩ := h
  unfold Live7
  refine ⟨fun r hr => (ops6_keep W r (argRefs_not_ops6 r hr)).trans (hA r hr), ?_, ?_, ?_, ?_, ?_⟩
  · exact (ops6_keep W main_v278 (by decide)).trans h_main_v278
  · exact (ops6_keep W main_v287 (by decide)).trans h_main_v287
  · exact win6_main_v296 V0 W h'
  · exact win6_main_v305 V0 W h'
  · exact win6_main_v315 V0 W h'

end Cert.RefRun

end
-- ==== Proof.RefRunStages.lean ====
/-
  The reference program's run, read over its stages. The program is host operations only, 404 of them, cut at its
  seven printed windows; window by window the buffers still needed hold their stages (the three modules imported
  here), so after the last window each of the five results holds its stage — the whole-array function of the arguments
  that the chain of operations up to it computes — and no window writes an argument. The launch is the library's run of
  a straight line of host operations: every weakly fair execution terminates with each buffer at the fold of the
  operations' results over its launch contents.
-/
import proofs.«174816_j57878979281252_2_alg».proof.Proof.RefRunStagesA
import proofs.«174816_j57878979281252_2_alg».proof.Proof.RefRunStagesC
import proofs.«174816_j57878979281252_2_alg».proof.Proof.RefRunStagesB

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-! ## The windows in sequence, and the run -/

/-- After all seven windows, from any contents: the five results at their stages of the arguments, the arguments untouched. -/
theorem live_end (V0 : Valuation τ sig (Elt F)) : Live7 V0 (after ops V0) := by
  rw [after_ops]
  exact win6 V0 _ (win5 V0 _ (win4 V0 _ (win3 V0 _ (win2 V0 _ (win1 V0 _ (win0 V0 V0 (show Live0 V0 V0 from fun _ _ => rfl)))))))

/-- On every device, for any float values, from any memory with zero counters: every weakly fair execution of @main
    terminates with each of the five results at its stage (the last of the chain of whole-array functions, one per
    operation, of the arguments it depends on) and every argument as launched. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v278) = Read.val_main_v278 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v287) = Read.val_main_v287 (F := F) (m ((c.tc : Thread nD τ).loc main_arg0)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v296) = Read.val_main_v296 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v305) = Read.val_main_v305 (F := F) (m ((c.tc : Thread nD τ).loc main_arg0)) (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_v315) = Read.val_main_v315 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => by
      have hL := live_end (F := F) (launchContents m c)
      unfold Live7 at hL
      obtain ⟨hA, h278, h287, h296, h305, h315⟩ := hL
      exact ⟨(h c main_v278).trans h278, (h c main_v287).trans h287, (h c main_v296).trans h296, (h c main_v305).trans h305, (h c main_v315).trans h315,
        (h c main_arg0).trans (hA main_arg0 (by decide)),
        (h c main_arg1).trans (hA main_arg1 (by decide)),
        (h c main_arg2).trans (hA main_arg2 (by decide)),
        (h c main_arg3).trans (hA main_arg3 (by decide)),
        (h c main_arg4).trans (hA main_arg4 (by decide)),
        (h c main_arg5).trans (hA main_arg5 (by decide)),
        (h c main_arg6).trans (hA main_arg6 (by decide)),
        (h c main_arg7).trans (hA main_arg7 (by decide)),
        (h c main_arg8).trans (hA main_arg8 (by decide)),
        (h c main_arg9).trans (hA main_arg9 (by decide)),
        (h c main_arg10).trans (hA main_arg10 (by decide)),
        (h c main_arg11).trans (hA main_arg11 (by decide)),
        (h c main_arg12).trans (hA main_arg12 (by decide)),
        (h c main_arg13).trans (hA main_arg13 (by decide)),
        (h c main_arg14).trans (hA main_arg14 (by decide)),
        (h c main_arg15).trans (hA main_arg15 (by decide)),
        (h c main_arg16).trans (hA main_arg16 (by decide)),
        (h c main_arg17).trans (hA main_arg17 (by decide)),
        (h c main_arg18).trans (hA main_arg18 (by decide)),
        (h c main_arg19).trans (hA main_arg19 (by decide)),
        (h c main_arg20).trans (hA main_arg20 (by decide)),
        (h c main_arg21).trans (hA main_arg21 (by decide)),
        (h c main_arg22).trans (hA main_arg22 (by decide)),
        (h c main_arg23).trans (hA main_arg23 (by decide)),
        (h c main_arg24).trans (hA main_arg24 (by decide)),
        (h c main_arg25).trans (hA main_arg25 (by decide)),
        (h c main_arg26).trans (hA main_arg26 (by decide))⟩)
    (run_seq scopedRefs_eq scopedSems_eq defs main (fun _ => ops) main_eq (fun _ => ops_sub) m ρ (fun _ => ops_fresh))

end Cert.RefRun

end
-- ==== Proof.Spec.lean ====
/-
  The mathematics of the certificate, with no program in sight: matrices of extended reals indexed by
  (row, column), and the handful of whole-array functions both programs are built from — a matrix product,
  a row added to every row, the positive part, column sums, and batch normalisation over the rows with
  the batch mean and the (biased) batch variance. The variance appears in its two textbook forms,
  the mean of the squared deviations and the mean of the squares less the squared mean (clamped at zero);
  they agree where every entry is a real number, and that is the one law the equivalence rests on.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns, indexed as the printed rank-2 arrays are. -/
abbrev Mat (a b : Nat) : Type := (⟨2, ![a, b]⟩ : Shape).Idx → EReal

/-- A single row: a `1 × b` matrix. -/
abbrev Row (b : Nat) : Type := Mat 1 b

/-- A rank-1 array of `b` extended reals. -/
abbrev Arr (b : Nat) : Type := (⟨1, ![b]⟩ : Shape).Idx → EReal

/-- The number of rows, 100000, as both programs write it: the float word of `1e5` (an exact integer). -/
def nRows : EReal := Ideal.ofBits .f32 0x47C35000#32

/-- Batch normalisation's epsilon: the float word nearest `1e-5`, the same word in both programs. -/
def eps : EReal := Ideal.ofBits .f32 0x3727C5AC#32

/-- A rank-1 array read as a row. -/
def rowOf {b : Nat} (v : Arr b) : Row b := fun i => v (ix1 (i 1 : Fin b))

/-- The matrix product: entry `(r, c)` is the sum over `j` of `x (r, j) · w (j, c)`. -/
def mm {a k b : Nat} (x : Mat a k) (w : Mat k b) : Mat a b :=
  fun i => ∑ j : Fin k, x (ix2 (i 0 : Fin a) j) * w (ix2 j (i 1 : Fin b))

/-- The row `r` added to every row of `x`. -/
def addRow {a b : Nat} (x : Mat a b) (r : Row b) : Mat a b :=
  fun i => x i + r (ix2 (0 : Fin 1) (i 1 : Fin b))

/-- The entrywise sum of two matrices. -/
def add {a b : Nat} (x y : Mat a b) : Mat a b := fun i => x i + y i

/-- The positive part, entry by entry. -/
def relu {a b : Nat} (x : Mat a b) : Mat a b := fun i => max (x i) 0

/-- The column sums: entry `c` is the sum over all rows `r` of `x (r, c)`. -/
def colSum {a b : Nat} (x : Mat a b) : Row b :=
  fun i => ∑ r : Fin a, x (ix2 r (i 1 : Fin b))

/-- The column sums of the squares. -/
def colSumSq {a b : Nat} (x : Mat a b) : Row b :=
  fun i => ∑ r : Fin a, x (ix2 r (i 1 : Fin b)) * x (ix2 r (i 1 : Fin b))

/-- The batch mean of each column: the column sum over the number of rows. -/
def mean {a b : Nat} (y : Mat a b) : Row b := fun i => Ideal.div (colSum y i) nRows

/-- `y` with a row subtracted from every row. -/
def subRow {a b : Nat} (y : Mat a b) (r : Row b) : Mat a b :=
  fun i => y i - r (ix2 (0 : Fin 1) (i 1 : Fin b))

/-- The batch variance as the mean of the squared deviations from the batch mean. -/
def varDev {a b : Nat} (y : Mat a b) : Row b :=
  fun i => Ideal.div (colSumSq (subRow y (mean y)) i) nRows

/-- The batch variance as the mean of the squares less the squared mean, clamped at zero. -/
def varMom {a b : Nat} (y : Mat a b) : Row b :=
  fun i => max (Ideal.div (colSumSq y i) nRows - mean y i * mean y i) 0

/-- Batch normalisation with given statistics: `(g · (y − mu)) · rsqrt (var + eps) + bt`, column by column, in
    this order of operations. -/
def bn {a b : Nat} (y : Mat a b) (mu var g bt : Row b) : Mat a b :=
  fun i => (g (ix2 (0 : Fin 1) (i 1 : Fin b)) * (y i - mu (ix2 (0 : Fin 1) (i 1 : Fin b))))
      * Ideal.rsqrt (var (ix2 (0 : Fin 1) (i 1 : Fin b)) + eps) + bt (ix2 (0 : Fin 1) (i 1 : Fin b))

/-- A two-layer perceptron: `relu (h · W1 + b1) · W2 + b2`. -/
def mlp {a k h o : Nat} (x : Mat a k) (W1 : Mat k h) (b1 : Row h) (W2 : Mat h o) (b2 : Row o) : Mat a o :=
  addRow (mm (relu (addRow (mm x W1) b1)) W2) b2

/-- The first graph-convolution layer's activation: `relu (agg (x · W1) + b1)`, `agg` the neighbourhood
    aggregation (gather, scale, scatter-add) carried as one function. -/
def layer1 {n k h : Nat} (agg : Mat n h → Mat n h) (x : Mat n k) (W1 : Mat k h) (b1 : Row h) : Mat n h :=
  relu (addRow (agg (mm x W1)) b1)

/-- The second layer before its normalisation: the first activation normalised with its batch statistics
    (`var` is the variance's form), projected, aggregated and biased. -/
def layer2 {n h o : Nat} (var : Mat n h → Row h) (agg : Mat n o → Mat n o) (y1 : Mat n h) (g1 bt1 : Row h)
    (W2 : Mat h o) (b2 : Row o) : Mat n o :=
  addRow (agg (mm (bn y1 (mean y1) (var y1) g1 bt1) W2)) b2

/-- An encoder's output through the shared perceptron: the second layer normalised with its batch
    statistics, then `mlp`. -/
def zOf {n h k o : Nat} (var : Mat n h → Row h) (y2 : Mat n h) (g2 bt2 : Row h) (mW1 : Mat h k) (mb1 : Row k)
    (mW2 : Mat k o) (mb2 : Row o) : Mat n o :=
  mlp (bn y2 (mean y2) (var y2) g2 bt2) mW1 mb1 mW2 mb2

/-- Every entry is a real number (neither infinity). -/
def AllReal {s : Shape} (v : s.Idx → EReal) : Prop := ∀ i, ∃ r : ℝ, v i = (r : EReal)

end Cert.Spec

end
-- ==== Proof.Net.lean ====
/-
  The whole network as a composition of the whole-array functions of the specification, with the two things
  the programs do not share left as parameters: the neighbourhood aggregation `agg` of an encoder (its edge
  list's gather, scaling and scatter-add, one function of the projected features) and the form `var` of the
  batch variance. Five results: each encoder's output through the shared perceptron, the perceptron of each
  output's column sums, and the node classifier of the two outputs' sum.
-/
import proofs.«174816_j57878979281252_2_alg».proof.Proof.Spec

noncomputable section

namespace Cert.Spec

open Idealize.ShloMosaic Idealize.ShloMosaic.ValueIdx

/-- One encoder's parameters: two projections with their biases and the two normalisations' scales and shifts. -/
structure Enc where
  W1 : Mat 256 128
  b1 : Row 128
  W2 : Mat 128 128
  b2 : Row 128
  g1 : Row 128
  bt1 : Row 128
  g2 : Row 128
  bt2 : Row 128

/-- The shared perceptron's and the node classifier's parameters. -/
structure Heads where
  mW1 : Mat 128 128
  mb1 : Row 128
  mW2 : Mat 128 128
  mb2 : Row 128
  cW1 : Mat 128 64
  cb1 : Row 64
  cW2 : Mat 64 40
  cb2 : Row 40

variable (var : Mat 100000 128 → Row 128) (agg : Mat 100000 128 → Mat 100000 128)

/-- The first layer's activation of an encoder. -/
def act1 (x : Mat 100000 256) (p : Enc) : Mat 100000 128 := layer1 agg x p.W1 p.b1

/-- The second layer of an encoder before its normalisation. -/
def act2 (x : Mat 100000 256) (p : Enc) : Mat 100000 128 :=
  layer2 var agg (act1 agg x p) p.g1 p.bt1 p.W2 p.b2

/-- An encoder's output through the shared perceptron. -/
def zEnc (x : Mat 100000 256) (p : Enc) (h : Heads) : Mat 100000 128 :=
  zOf var (act2 var agg x p) p.g2 p.bt2 h.mW1 h.mb1 h.mW2 h.mb2

/-- The shared perceptron of an output's column sums: a single row. -/
def pooled (z : Mat 100000 128) (h : Heads) : Row 128 := mlp (colSum z) h.mW1 h.mb1 h.mW2 h.mb2

/-- The node classifier of the two encoders' outputs. -/
def nodePred (zl zg : Mat 100000 128) (h : Heads) : Mat 100000 40 := mlp (add zl zg) h.cW1 h.cb1 h.cW2 h.cb2

end Cert.Spec

end
-- ==== Proof.Algebra.lean ====
/-
  The algebra of the certificate, with no program in sight. Three kinds of fact about the whole-array
  functions of the specification:

  * the two float words the programs share are real numbers: the row count is 100000 and the
    normalisation's epsilon is a positive real;
  * every function of the specification keeps a matrix of real numbers real (no entry becomes an
    infinity), batch normalisation included, because a variance that is a nonnegative real plus a positive
    epsilon is a positive real, whose reciprocal square root is a real;
  * on a matrix of real numbers the two forms of the batch variance agree: the mean of the squared
    deviations from the mean is the mean of the squares less the squared mean, and being a mean of squares
    it is not negative, so the clamp at zero is the identity. Hence the network computed with one form of
    the variance is the network computed with the other.

  Also here: a sum over the 100000 rows is the sum over 20 blocks of 5000 rows of the blocks' sums.
-/
import proofs.«174816_j57878979281252_2_alg».proof.Proof.Net

set_option maxRecDepth 16384

noncomputable section

namespace Cert.Spec

open Idealize.ShloMosaic Idealize.ShloMosaic.ValueIdx
open scoped BigOperators

/-! ## Real numbers among the extended reals -/

/-- The sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- The difference of two reals is a real. -/
theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy
  exact ⟨a - b, (EReal.coe_sub a b).symm⟩

/-- The product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- The positive part of a real is a real. -/
theorem real_max_zero {x : EReal} (hx : ∃ r : ℝ, x = (r : EReal)) : ∃ r : ℝ, max x 0 = (r : EReal) := by
  obtain ⟨a, rfl⟩ := hx
  rcases le_total ((a : ℝ) : EReal) 0 with h | h
  · exact ⟨0, by rw [max_eq_right h, EReal.coe_zero]⟩
  · exact ⟨a, max_eq_left h⟩

/-- The embedding of the reals commutes with finite sums. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- A finite sum of reals is a real. -/
theorem real_sum {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [← coe_sum]; exact Finset.sum_congr rfl hg⟩

/-! ## The two float words -/

/-- The float word `0x47C35000` is `(2^23 + 4411392) · 2^(143 - 127 - 23) = 12800000 / 128 = 100000`. -/
theorem nRows_eq : nRows = ((100000 : ℝ) : EReal) := by
  simp [nRows, Ideal.ofBits, Ideal.ieee, -EReal.coe_mul]; norm_num

/-- The float word `0x3727C5AC` is `(2^23 + 2606508) · 2^(110 - 127 - 23)`, a positive real. -/
theorem eps_pos : ∃ e : ℝ, 0 < e ∧ eps = (e : EReal) := by
  refine ⟨(10995116 : ℝ) * (2 : ℝ) ^ (-40 : Int), by positivity, ?_⟩
  simp [eps, Ideal.ofBits, Ideal.ieee, -EReal.coe_mul]

/-- Division by the row count is multiplication by the real `1 / 100000`. -/
theorem div_nRows (x : EReal) : Ideal.div x nRows = x * (((1 : ℝ) / 100000 : ℝ) : EReal) := by
  rw [nRows_eq, Ideal.div_coe (by norm_num)]

/-- A real divided by the row count is a real. -/
theorem real_div_nRows {x : EReal} (hx : ∃ r : ℝ, x = (r : EReal)) : ∃ r : ℝ, Ideal.div x nRows = (r : EReal) := by
  rw [div_nRows]; exact real_mul hx ⟨_, rfl⟩

/-- The reciprocal square root of a positive real is a real. -/
theorem real_rsqrt_pos {r : ℝ} (hr : 0 < r) : ∃ s : ℝ, Ideal.rsqrt (r : EReal) = (s : EReal) :=
  ⟨(Real.sqrt r)⁻¹, by rw [Ideal.rsqrt_coe, if_neg (not_lt.mpr hr.le), if_neg hr.ne']⟩

/-! ## A sum over the rows, block by block -/

/-- The 100000 rows are 20 blocks of 5000 rows: row `5000 t + q` is row `q` of block `t`. -/
theorem sum_rows_by_blocks (f : Fin 100000 → EReal) :
    ∑ r : Fin 100000, f r = ∑ t : Fin 20, ∑ q : Fin 5000, f ⟨5000 * t.val + q.val, by omega⟩ := by
  rw [← Fintype.sum_prod_type']
  symm
  refine Fintype.sum_equiv (finProdFinEquiv (m := 20) (n := 5000)) _ _ ?_
  rintro ⟨t, q⟩
  refine congrArg f (Fin.ext ?_)
  simp [finProdFinEquiv]
  omega

/-! ## The specification's functions keep real matrices real -/

theorem AllReal.rowOf {b : Nat} {v : Arr b} (hv : AllReal v) : AllReal (rowOf v) := fun _ => hv _

theorem AllReal.mm {a k b : Nat} {x : Mat a k} {w : Mat k b} (hx : AllReal x) (hw : AllReal w) : AllReal (mm x w) :=
  fun _ => real_sum _ _ fun _ _ => real_mul (hx _) (hw _)

theorem AllReal.addRow {a b : Nat} {x : Mat a b} {r : Row b} (hx : AllReal x) (hr : AllReal r) : AllReal (addRow x r) :=
  fun _ => real_add (hx _) (hr _)

theorem AllReal.add {a b : Nat} {x y : Mat a b} (hx : AllReal x) (hy : AllReal y) : AllReal (add x y) :=
  fun _ => real_add (hx _) (hy _)

theorem AllReal.relu {a b : Nat} {x : Mat a b} (hx : AllReal x) : AllReal (relu x) :=
  fun _ => real_max_zero (hx _)

theorem AllReal.subRow {a b : Nat} {y : Mat a b} {r : Row b} (hy : AllReal y) (hr : AllReal r) : AllReal (subRow y r) :=
  fun _ => real_sub (hy _) (hr _)

theorem AllReal.colSum {a b : Nat} {x : Mat a b} (hx : AllReal x) : AllReal (colSum x) :=
  fun _ => real_sum _ _ fun _ _ => hx _

theorem AllReal.colSumSq {a b : Nat} {x : Mat a b} (hx : AllReal x) : AllReal (colSumSq x) :=
  fun _ => real_sum _ _ fun _ _ => real_mul (hx _) (hx _)

theorem AllReal.mean {a b : Nat} {y : Mat a b} (hy : AllReal y) : AllReal (mean y) :=
  fun _ => real_div_nRows (hy.colSum _)

/-- Batch normalisation of a real matrix with real mean, scale and shift and a variance that is a nonnegative
    real: the variance plus epsilon is a positive real, so its reciprocal square root is a real. -/
theorem AllReal.bn {a b : Nat} {y : Mat a b} {mu var g bt : Row b} (hy : AllReal y) (hmu : AllReal mu)
    (hvar : ∀ i, ∃ r : ℝ, 0 ≤ r ∧ var i = (r : EReal)) (hg : AllReal g) (hbt : AllReal bt) :
    AllReal (bn y mu var g bt) := by
  intro i
  obtain ⟨e, he, hee⟩ := eps_pos
  obtain ⟨v, hv, hvv⟩ := hvar (ix2 (0 : Fin 1) (i 1 : Fin b))
  have hr : ∃ s : ℝ, Ideal.rsqrt (var (ix2 (0 : Fin 1) (i 1 : Fin b)) + eps) = (s : EReal) := by
    rw [hvv, hee, ← EReal.coe_add]
    exact real_rsqrt_pos (add_pos_of_nonneg_of_pos hv he)
  exact real_add (real_mul (real_mul (hg _) (real_sub (hy _) (hmu _))) hr) (hbt _)

theorem AllReal.mlp {a k h o : Nat} {x : Mat a k} {W1 : Mat k h} {b1 : Row h} {W2 : Mat h o} {b2 : Row o}
    (hx : AllReal x) (hW1 : AllReal W1) (hb1 : AllReal b1) (hW2 : AllReal W2) (hb2 : AllReal b2) :
    AllReal (mlp x W1 b1 W2 b2) :=
  ((((hx.mm hW1).addRow hb1).relu).mm hW2).addRow hb2

/-! ## The two forms of the batch variance -/

/-- Over the reals, with `N` the number of terms: the mean of the squared deviations from the mean is the
    mean of the squares less the squared mean. (Expand the square; the cross term sums to `-2 N μ²` and the
    constant term to `N μ²`.) -/
theorem real_var_eq (n : ℕ) (g : Fin n → ℝ) (N : ℝ) (hN : N = n) (h0 : N ≠ 0) :
    (∑ r, (g r - (∑ r, g r) * (1 / N)) * (g r - (∑ r, g r) * (1 / N))) * (1 / N)
      = (∑ r, g r * g r) * (1 / N) - ((∑ r, g r) * (1 / N)) * ((∑ r, g r) * (1 / N)) := by
  have h1 : ∀ r, (g r - (∑ r, g r) * (1 / N)) * (g r - (∑ r, g r) * (1 / N))
      = g r * g r - 2 * ((∑ r, g r) * (1 / N)) * g r + ((∑ r, g r) * (1 / N)) * ((∑ r, g r) * (1 / N)) :=
    fun r => by ring
  simp only [h1]
  rw [Finset.sum_add_distrib, Finset.sum_sub_distrib, ← Finset.mul_sum, Finset.sum_const, Finset.card_univ,
    Fintype.card_fin, nsmul_eq_mul, ← hN]
  field_simp
  ring

/-- The positive part of a real is a nonnegative real. -/
theorem real_max_zero_nonneg {x : EReal} (hx : ∃ r : ℝ, x = (r : EReal)) :
    ∃ r : ℝ, 0 ≤ r ∧ max x 0 = (r : EReal) := by
  obtain ⟨a, rfl⟩ := hx
  rcases le_total ((a : ℝ) : EReal) 0 with h | h
  · exact ⟨0, le_rfl, by rw [max_eq_right h, EReal.coe_zero]⟩
  · exact ⟨a, EReal.coe_nonneg.mp h, max_eq_left h⟩

/-- On a matrix of real numbers the mean of the squared deviations is the clamped mean of the squares less the
    squared mean: column by column both are real numbers, equal by `real_var_eq`, and the first is a mean of
    squares, so not negative, and the clamp at zero does nothing. -/
theorem varDev_eq_varMom {b : Nat} (y : Mat 100000 b) (hy : AllReal y) : varDev y = varMom y := by
  choose y' hy' using hy
  funext i
  let m : ℝ := (∑ r : Fin 100000, y' (ix2 r (i 1 : Fin b))) * (1 / 100000)
  have hmean : ∀ j : (⟨2, ![1, b]⟩ : Shape).Idx, (j 1 : Fin b) = (i 1 : Fin b) → mean y j = (m : EReal) := by
    intro j hj
    show Ideal.div (∑ r : Fin 100000, y (ix2 r (j 1 : Fin b))) nRows = _
    rw [hj, div_nRows]
    simp only [hy', coe_sum]
    rw [← EReal.coe_mul]
  have hdev : colSumSq (subRow y (mean y)) i
      = ((∑ r : Fin 100000, (y' (ix2 r (i 1 : Fin b)) - m) * (y' (ix2 r (i 1 : Fin b)) - m) : ℝ) : EReal) := by
    rw [← coe_sum]
    refine Finset.sum_congr rfl fun r _ => ?_
    show (y (ix2 r (i 1 : Fin b)) - mean y (ix2 (0 : Fin 1) (i 1 : Fin b)))
        * (y (ix2 r (i 1 : Fin b)) - mean y (ix2 (0 : Fin 1) (i 1 : Fin b))) = _
    rw [hmean (ix2 (0 : Fin 1) (i 1 : Fin b)) rfl, hy', ← EReal.coe_sub, ← EReal.coe_mul]
  have hsq : colSumSq y i
      = ((∑ r : Fin 100000, y' (ix2 r (i 1 : Fin b)) * y' (ix2 r (i 1 : Fin b)) : ℝ) : EReal) := by
    rw [← coe_sum]
    refine Finset.sum_congr rfl fun r _ => ?_
    rw [hy', ← EReal.coe_mul]
  have key : (∑ r : Fin 100000, (y' (ix2 r (i 1 : Fin b)) - m) * (y' (ix2 r (i 1 : Fin b)) - m)) * (1 / 100000)
      = (∑ r : Fin 100000, y' (ix2 r (i 1 : Fin b)) * y' (ix2 r (i 1 : Fin b))) * (1 / 100000) - m * m :=
    real_var_eq 100000 (fun r => y' (ix2 r (i 1 : Fin b))) 100000 (by norm_num) (by norm_num)
  have hnn : (0 : ℝ) ≤ (∑ r : Fin 100000, (y' (ix2 r (i 1 : Fin b)) - m) * (y' (ix2 r (i 1 : Fin b)) - m))
      * (1 / 100000) :=
    mul_nonneg (Finset.sum_nonneg fun r _ => mul_self_nonneg _) (by norm_num)
  show Ideal.div (colSumSq (subRow y (mean y)) i) nRows
      = max (Ideal.div (colSumSq y i) nRows - mean y i * mean y i) 0
  rw [hdev, hsq, hmean i rfl, div_nRows, div_nRows, ← EReal.coe_mul, ← EReal.coe_mul, ← EReal.coe_mul,
    ← EReal.coe_sub, ← key]
  exact (max_eq_left (EReal.coe_nonneg.mpr hnn)).symm

/-- The clamped form of the variance of a real matrix is a nonnegative real. -/
theorem varMom_nonneg {a b : Nat} (y : Mat a b) (hy : AllReal y) :
    ∀ i, ∃ r : ℝ, 0 ≤ r ∧ varMom y i = (r : EReal) :=
  fun i => real_max_zero_nonneg
    (real_sub (real_div_nRows (hy.colSumSq i)) (real_mul (hy.mean i) (hy.mean i)))

theorem AllReal.varMom {a b : Nat} {y : Mat a b} (hy : AllReal y) : AllReal (varMom y) :=
  fun i => (varMom_nonneg y hy i).imp fun _ h => h.2

/-! ## The network with either form of the variance -/

/-- Every parameter of an encoder is a matrix of real numbers. -/
structure Enc.Real (p : Enc) : Prop where
  W1 : AllReal p.W1
  b1 : AllReal p.b1
  W2 : AllReal p.W2
  b2 : AllReal p.b2
  g1 : AllReal p.g1
  bt1 : AllReal p.bt1
  g2 : AllReal p.g2
  bt2 : AllReal p.bt2

/-- Every parameter of the shared perceptron and of the node classifier is a matrix of real numbers. -/
structure Heads.Real (h : Heads) : Prop where
  mW1 : AllReal h.mW1
  mb1 : AllReal h.mb1
  mW2 : AllReal h.mW2
  mb2 : AllReal h.mb2
  cW1 : AllReal h.cW1
  cb1 : AllReal h.cb1
  cW2 : AllReal h.cW2
  cb2 : AllReal h.cb2

/-- Where the first layer's activation is real, the second layer is the same with either form of the
    variance of that activation. -/
theorem act2_var_congr (agg : Mat 100000 128 → Mat 100000 128) (x : Mat 100000 256) (p : Enc)
    (h1 : AllReal (act1 agg x p)) : act2 varDev agg x p = act2 varMom agg x p := by
  unfold act2 layer2
  rw [varDev_eq_varMom _ h1]

/-- Where both layers' activations are real, an encoder's output is the same with either form of the variance. -/
theorem zEnc_var_congr (agg : Mat 100000 128 → Mat 100000 128) (x : Mat 100000 256) (p : Enc) (h : Heads)
    (h1 : AllReal (act1 agg x p)) (h2 : AllReal (act2 varMom agg x p)) :
    zEnc varDev agg x p h = zEnc varMom agg x p h := by
  unfold zEnc zOf
  rw [act2_var_congr agg x p h1, varDev_eq_varMom _ h2]

/-- The first layer's activation is real: only the first projection and bias enter. -/
theorem act1_real_of (agg : Mat 100000 128 → Mat 100000 128) (x : Mat 100000 256) (p : Enc) (hx : AllReal x)
    (hW1 : AllReal p.W1) (hb1 : AllReal p.b1) (hagg : ∀ v, AllReal v → AllReal (agg v)) :
    AllReal (act1 agg x p) :=
  ((hagg _ (hx.mm hW1)).addRow hb1).relu

/-- The second layer before its normalisation is real, the variance in its clamped form. -/
theorem act2_real_of (agg : Mat 100000 128 → Mat 100000 128) (x : Mat 100000 256) (p : Enc) (hx : AllReal x)
    (hW1 : AllReal p.W1) (hb1 : AllReal p.b1) (hg1 : AllReal p.g1) (hbt1 : AllReal p.bt1) (hW2 : AllReal p.W2)
    (hb2 : AllReal p.b2) (hagg : ∀ v, AllReal v → AllReal (agg v)) : AllReal (act2 varMom agg x p) := by
  have h1 := act1_real_of agg x p hx hW1 hb1 hagg
  exact (hagg _ ((h1.bn h1.mean (varMom_nonneg _ h1) hg1 hbt1).mm hW2)).addRow hb2

theorem act1_real (agg : Mat 100000 128 → Mat 100000 128) (x : Mat 100000 256) (p : Enc) (hx : AllReal x)
    (hp : p.Real) (hagg : ∀ v, AllReal v → AllReal (agg v)) : AllReal (act1 agg x p) :=
  act1_real_of agg x p hx hp.W1 hp.b1 hagg

theorem act2_real (agg : Mat 100000 128 → Mat 100000 128) (x : Mat 100000 256) (p : Enc) (hx : AllReal x)
    (hp : p.Real) (hagg : ∀ v, AllReal v → AllReal (agg v)) : AllReal (act2 varMom agg x p) :=
  act2_real_of agg x p hx hp.W1 hp.b1 hp.g1 hp.bt1 hp.W2 hp.b2 hagg

/-- An encoder's output through the shared perceptron is real, the variance in its clamped form. -/
theorem zEnc_real (agg : Mat 100000 128 → Mat 100000 128) (x : Mat 100000 256) (p : Enc) (h : Heads)
    (hx : AllReal x) (hp : p.Real) (hh : h.Real) (hagg : ∀ v, AllReal v → AllReal (agg v)) :
    AllReal (zEnc varMom agg x p h) := by
  have h2 := act2_real agg x p hx hp hagg
  exact (h2.bn h2.mean (varMom_nonneg _ h2) hp.g2 hp.bt2).mlp hh.mW1 hh.mb1 hh.mW2 hh.mb2

/-- With real inputs and parameters an encoder's output is the same with either form of the variance. -/
theorem zEnc_var_eq (agg : Mat 100000 128 → Mat 100000 128) (x : Mat 100000 256) (p : Enc) (h : Heads)
    (hx : AllReal x) (hp : p.Real) (hagg : ∀ v, AllReal v → AllReal (agg v)) :
    zEnc varDev agg x p h = zEnc varMom agg x p h :=
  zEnc_var_congr agg x p h (act1_real agg x p hx hp hagg) (act2_real agg x p hx hp hagg)

theorem pooled_real {z : Mat 100000 128} (h : Heads) (hz : AllReal z) (hh : h.Real) : AllReal (pooled z h) :=
  hz.colSum.mlp hh.mW1 hh.mb1 hh.mW2 hh.mb2

theorem nodePred_real {zl zg : Mat 100000 128} (h : Heads) (hl : AllReal zl) (hg : AllReal zg) (hh : h.Real) :
    AllReal (nodePred zl zg h) :=
  (hl.add hg).mlp hh.cW1 hh.cb1 hh.cW2 hh.cb2

end Cert.Spec

end
-- ==== Proof.PreReal.lean ====
/-
  The precondition, read as mathematics: `finite_inputs` is the conjunction, one float argument after the other,
  of "every entry's absolute value lies strictly below +∞". Over the extended reals that says every entry is a
  real number. One lemma reads a single such stage at an arbitrary shape; the printed predicate is twenty-five of
  them joined by `and`, and the two programs' preconditions are that predicate at their argument arrays.
-/
import proofs.«174816_j57878979281252_2_alg».proof.Pre_finite_inputs
import proofs.«174816_j57878979281252_2_alg».proof.Proof.Gen.Pre_finite_inputs
import proofs.«174816_j57878979281252_2_alg».proof.Proof.Spec
import proofs.«174816_j57878979281252_2_alg».proof.Defs
import Idealize.ShloMosaic.Lib.ReduceAll
import Idealize.ShloMosaic.Lib.ValueIdx

set_option maxRecDepth 16384

noncomputable section

namespace Cert.PreReal

open Idealize.ShloMosaic Idealize.SL.Sem Idealize.ShloMosaic.ValueIdx Cert.Pre_finite_inputs

/-- The scalar shape has exactly one index. -/
instance : Subsingleton S_.Idx := ⟨fun a b => funext fun d => d.elim0⟩

/-- An extended real whose absolute value `max x (-x)` lies strictly below `+∞` is a real number: `⊤` fails the
    bound itself and `⊥` fails it through `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The float word `0x7F800000` (exponent all ones, significand zero, sign clear) denotes `+∞`. -/
theorem inf_word : Ideal.ofBits .f32 0x7F800000#32 = (⊤ : EReal) := by
  simp [Ideal.ofBits, Ideal.ieee]

/-- One `jnp.all(|x| < inf)` stage at an arbitrary shape `s`: if the `and` over every index `i` of the comparison
    `|x i| < +∞` comes out 1, then every entry of `x` is a real number. -/
theorem stage {s : Shape} {axes : List (Fin s.rank)} (x : s.Idx → EReal)
    (hb : S_.BroadcastsInDim s (![] : Fin 0 → Fin s.rank)) (hr : s.ReducesTo axes S_) (hu : 0 < S_.numel)
    (j : S_.Idx)
    (e : Host.reduce IntOp.andi
          (cmpf (F := Ideal) (φ := .f32) .olt (Host.absf (F := Ideal) (φ := .f32) x)
            (broadcastInDim s ![] hb (constant (F := Ideal) S_ .f32 0x7F800000#32)))
          (constantI S_ 1 1#1) hr hu j = 1#1) :
    Cert.Spec.AllReal x := by
  intro i
  -- the reduction by `and` into the one scalar index is 1, so the comparison is 1 at every index
  have h := Host.reduce_andi_all _ _ hr hu j e i
  apply real_of_abs_lt_top
  -- at index `i` the comparison is the order's `|x i| < +∞`, as a bit
  have h2 : Ideal.cmp .olt (max (x i) (-(x i))) (Ideal.ofBits .f32 0x7F800000#32) = 1#1 := h
  rw [inf_word] at h2
  by_contra hn
  simp only [Ideal.cmp] at h2
  rw [decide_eq_false hn] at h2
  exact absurd h2 (by decide)

/-- The precondition read back: if `finite_inputs` of the twenty-seven arguments is 1, each of the twenty-five float
    arguments holds real numbers only. The predicate is the left-nested conjunction, in argument order, of one
    `jnp.all(|x| < inf)` stage per float argument (the two `int32` arguments, the second and third, take no part). -/
theorem args_real [Cert.Pre_finite_inputs.Facts]
    (a0 : Vec Ideal S100000x256 .f32) (a1 a2 : Vec Ideal S2x1000000 .i32) (a3 : Vec Ideal S256x128 .f32)
    (a4 : Vec Ideal S128 .f32) (a5 : Vec Ideal S128x128 .f32) (a6 a7 a8 a9 a10 : Vec Ideal S128 .f32)
    (a11 : Vec Ideal S256x128 .f32) (a12 : Vec Ideal S128 .f32) (a13 : Vec Ideal S128x128 .f32)
    (a14 a15 a16 a17 a18 : Vec Ideal S128 .f32) (a19 : Vec Ideal S128x128 .f32) (a20 : Vec Ideal S128 .f32)
    (a21 : Vec Ideal S128x128 .f32) (a22 : Vec Ideal S128 .f32) (a23 : Vec Ideal S128x64 .f32)
    (a24 : Vec Ideal S64 .f32) (a25 : Vec Ideal S64x40 .f32) (a26 : Vec Ideal S40 .f32)
    (h : Cert.Pre_finite_inputs.fn (F := Ideal) a0 a1 a2 a3 a4 a5 a6 a7 a8 a9 a10 a11 a12 a13 a14 a15 a16 a17 a18 a19 a20
          a21 a22 a23 a24 a25 a26 = (fun _ => 1#1)) :
    Cert.Spec.AllReal a0 ∧ Cert.Spec.AllReal a3 ∧ Cert.Spec.AllReal a4 ∧ Cert.Spec.AllReal a5 ∧ Cert.Spec.AllReal a6
      ∧ Cert.Spec.AllReal a7 ∧ Cert.Spec.AllReal a8 ∧ Cert.Spec.AllReal a9 ∧ Cert.Spec.AllReal a10
      ∧ Cert.Spec.AllReal a11 ∧ Cert.Spec.AllReal a12 ∧ Cert.Spec.AllReal a13 ∧ Cert.Spec.AllReal a14
      ∧ Cert.Spec.AllReal a15 ∧ Cert.Spec.AllReal a16 ∧ Cert.Spec.AllReal a17 ∧ Cert.Spec.AllReal a18
      ∧ Cert.Spec.AllReal a19 ∧ Cert.Spec.AllReal a20 ∧ Cert.Spec.AllReal a21 ∧ Cert.Spec.AllReal a22
      ∧ Cert.Spec.AllReal a23 ∧ Cert.Spec.AllReal a24 ∧ Cert.Spec.AllReal a25 ∧ Cert.Spec.AllReal a26 := by
  have e := congrFun h ix0
  dsimp only [fn, fn_part1, fn_part2, fn_part3, fn_part4, fn_part5, fn_part6, fn_part7, Idealize.ShloMosaic.andi] at e
  -- the conjunction is nested to the left: peel the last stage off, twenty-four times
  obtain ⟨e, e26⟩ := IntOp.andi_eq_one.1 e
  obtain ⟨e, e25⟩ := IntOp.andi_eq_one.1 e
  obtain ⟨e, e24⟩ := IntOp.andi_eq_one.1 e
  obtain ⟨e, e23⟩ := IntOp.andi_eq_one.1 e
  obtain ⟨e, e22⟩ := IntOp.andi_eq_one.1 e
  obtain ⟨e, e21⟩ := IntOp.andi_eq_one.1 e
  obtain ⟨e, e20⟩ := IntOp.andi_eq_one.1 e
  obtain ⟨e, e19⟩ := IntOp.andi_eq_one.1 e
  obtain ⟨e, e18⟩ := IntOp.andi_eq_one.1 e
  obtain ⟨e, e17⟩ := IntOp.andi_eq_one.1 e
  obtain ⟨e, e16⟩ := IntOp.andi_eq_one.1 e
  obtain ⟨e, e15⟩ := IntOp.andi_eq_one.1 e
  obtain ⟨e, e14⟩ := IntOp.andi_eq_one.1 e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e0, e3⟩ := IntOp.andi_eq_one.1 e
  exact ⟨stage a0 _ _ _ _ e0, stage a3 _ _ _ _ e3, stage a4 _ _ _ _ e4, stage a5 _ _ _ _ e5, stage a6 _ _ _ _ e6,
    stage a7 _ _ _ _ e7, stage a8 _ _ _ _ e8, stage a9 _ _ _ _ e9, stage a10 _ _ _ _ e10, stage a11 _ _ _ _ e11,
    stage a12 _ _ _ _ e12, stage a13 _ _ _ _ e13, stage a14 _ _ _ _ e14, stage a15 _ _ _ _ e15, stage a16 _ _ _ _ e16,
    stage a17 _ _ _ _ e17, stage a18 _ _ _ _ e18, stage a19 _ _ _ _ e19, stage a20 _ _ _ _ e20, stage a21 _ _ _ _ e21,
    stage a22 _ _ _ _ e22, stage a23 _ _ _ _ e23, stage a24 _ _ _ _ e24, stage a25 _ _ _ _ e25, stage a26 _ _ _ _ e26⟩

/-- The same for the kernel's memory: under its precondition every float argument array, on every device, holds
    real numbers only. -/
theorem kernel_args_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.AllReal (s := S100000x256) (m ((c.tc : Thread Cert.KernelIdeal.nD Cert.KernelIdeal.τ).loc Cert.KernelIdeal.main_arg0))
      ∧ Cert.Spec.AllReal (s := S256x128) (m ((c.tc : Thread Cert.KernelIdeal.nD Cert.KernelIdeal.τ).loc Cert.KernelIdeal.main_arg3))
      ∧ Cert.Spec.AllReal (s := S128) (m ((c.tc : Thread Cert.KernelIdeal.nD Cert.KernelIdeal.τ).loc Cert.KernelIdeal.main_arg4))
      ∧ Cert.Spec.AllReal (s := S128x128) (m ((c.tc : Thread Cert.KernelIdeal.nD Cert.KernelIdeal.τ).loc Cert.KernelIdeal.main_arg5))
      ∧ Cert.Spec.AllReal (s := S128) (m ((c.tc : Thread Cert.KernelIdeal.nD Cert.KernelIdeal.τ).loc Cert.KernelIdeal.main_arg6))
      ∧ Cert.Spec.AllReal (s := S128) (m ((c.tc : Thread Cert.KernelIdeal.nD Cert.KernelIdeal.τ).loc Cert.KernelIdeal.main_arg7))
      ∧ Cert.Spec.AllReal (s := S128) (m ((c.tc : Thread Cert.KernelIdeal.nD Cert.KernelIdeal.τ).loc Cert.KernelIdeal.main_arg8))
      ∧ Cert.Spec.AllReal (s := S128) (m ((c.tc : Thread Cert.KernelIdeal.nD Cert.KernelIdeal.τ).loc Cert.KernelIdeal.main_arg9))
      ∧ Cert.Spec.AllReal (s := S128) (m ((c.tc : Thread Cert.KernelIdeal.nD Cert.KernelIdeal.τ).loc Cert.KernelIdeal.main_arg10))
      ∧ Cert.Spec.AllReal (s := S256x128) (m ((c.tc : Thread Cert.KernelIdeal.nD Cert.KernelIdeal.τ).loc Cert.KernelIdeal.main_arg11))
      ∧ Cert.Spec.AllReal (s := S128) (m ((c.tc : Thread Cert.KernelIdeal.nD Cert.KernelIdeal.τ).loc Cert.KernelIdeal.main_arg12))
      ∧ Cert.Spec.AllReal (s := S128x128) (m ((c.tc : Thread Cert.KernelIdeal.nD Cert.KernelIdeal.τ).loc Cert.KernelIdeal.main_arg13))
      ∧ Cert.Spec.AllReal (s := S128) (m ((c.tc : Thread Cert.KernelIdeal.nD Cert.KernelIdeal.τ).loc Cert.KernelIdeal.main_arg14))
      ∧ Cert.Spec.AllReal (s := S128) (m ((c.tc : Thread Cert.KernelIdeal.nD Cert.KernelIdeal.τ).loc Cert.KernelIdeal.main_arg15))
      ∧ Cert.Spec.AllReal (s := S128) (m ((c.tc : Thread Cert.KernelIdeal.nD Cert.KernelIdeal.τ).loc Cert.KernelIdeal.main_arg16))
      ∧ Cert.Spec.AllReal (s := S128) (m ((c.tc : Thread Cert.KernelIdeal.nD Cert.KernelIdeal.τ).loc Cert.KernelIdeal.main_arg17))
      ∧ Cert.Spec.AllReal (s := S128) (m ((c.tc : Thread Cert.KernelIdeal.nD Cert.KernelIdeal.τ).loc Cert.KernelIdeal.main_arg18))
      ∧ Cert.Spec.AllReal (s := S128x128) (m ((c.tc : Thread Cert.KernelIdeal.nD Cert.KernelIdeal.τ).loc Cert.KernelIdeal.main_arg19))
      ∧ Cert.Spec.AllReal (s := S128) (m ((c.tc : Thread Cert.KernelIdeal.nD Cert.KernelIdeal.τ).loc Cert.KernelIdeal.main_arg20))
      ∧ Cert.Spec.AllReal (s := S128x128) (m ((c.tc : Thread Cert.KernelIdeal.nD Cert.KernelIdeal.τ).loc Cert.KernelIdeal.main_arg21))
      ∧ Cert.Spec.AllReal (s := S128) (m ((c.tc : Thread Cert.KernelIdeal.nD Cert.KernelIdeal.τ).loc Cert.KernelIdeal.main_arg22))
      ∧ Cert.Spec.AllReal (s := S128x64) (m ((c.tc : Thread Cert.KernelIdeal.nD Cert.KernelIdeal.τ).loc Cert.KernelIdeal.main_arg23))
      ∧ Cert.Spec.AllReal (s := S64) (m ((c.tc : Thread Cert.KernelIdeal.nD Cert.KernelIdeal.τ).loc Cert.KernelIdeal.main_arg24))
      ∧ Cert.Spec.AllReal (s := S64x40) (m ((c.tc : Thread Cert.KernelIdeal.nD Cert.KernelIdeal.τ).loc Cert.KernelIdeal.main_arg25))
      ∧ Cert.Spec.AllReal (s := S40) (m ((c.tc : Thread Cert.KernelIdeal.nD Cert.KernelIdeal.τ).loc Cert.KernelIdeal.main_arg26)) :=
  args_real _ _ _ _ _ _ _ _ _ _ _ _ _ _ _ _ _ _ _ _ _ _ _ _ _ _ _ (hpre c)

/-- The same for the reference's memory. -/
theorem reference_args_real [Cert.Pre_finite_inputs.Facts]
    (m : (ℓ : Loc Cert.ReferenceIdeal.nD Cert.ReferenceIdeal.τ Cert.ReferenceIdeal.sig) → Buf (Elt Ideal) ℓ)
    (hpre : Cert.Pre_ReferenceIdeal m) (c : Dev Cert.ReferenceIdeal.nD) :
    Cert.Spec.AllReal (s := S100000x256) (m ((c.tc : Thread Cert.ReferenceIdeal.nD Cert.ReferenceIdeal.τ).loc Cert.ReferenceIdeal.main_arg0))
      ∧ Cert.Spec.AllReal (s := S256x128) (m ((c.tc : Thread Cert.ReferenceIdeal.nD Cert.ReferenceIdeal.τ).loc Cert.ReferenceIdeal.main_arg3))
      ∧ Cert.Spec.AllReal (s := S128) (m ((c.tc : Thread Cert.ReferenceIdeal.nD Cert.ReferenceIdeal.τ).loc Cert.ReferenceIdeal.main_arg4))
      ∧ Cert.Spec.AllReal (s := S128x128) (m ((c.tc : Thread Cert.ReferenceIdeal.nD Cert.ReferenceIdeal.τ).loc Cert.ReferenceIdeal.main_arg5))
      ∧ Cert.Spec.AllReal (s := S128) (m ((c.tc : Thread Cert.ReferenceIdeal.nD Cert.ReferenceIdeal.τ).loc Cert.ReferenceIdeal.main_arg6))
      ∧ Cert.Spec.AllReal (s := S128) (m ((c.tc : Thread Cert.ReferenceIdeal.nD Cert.ReferenceIdeal.τ).loc Cert.ReferenceIdeal.main_arg7))
      ∧ Cert.Spec.AllReal (s := S128) (m ((c.tc : Thread Cert.ReferenceIdeal.nD Cert.ReferenceIdeal.τ).loc Cert.ReferenceIdeal.main_arg8))
      ∧ Cert.Spec.AllReal (s := S128) (m ((c.tc : Thread Cert.ReferenceIdeal.nD Cert.ReferenceIdeal.τ).loc Cert.ReferenceIdeal.main_arg9))
      ∧ Cert.Spec.AllReal (s := S128) (m ((c.tc : Thread Cert.ReferenceIdeal.nD Cert.ReferenceIdeal.τ).loc Cert.ReferenceIdeal.main_arg10))
      ∧ Cert.Spec.AllReal (s := S256x128) (m ((c.tc : Thread Cert.ReferenceIdeal.nD Cert.ReferenceIdeal.τ).loc Cert.ReferenceIdeal.main_arg11))
      ∧ Cert.Spec.AllReal (s := S128) (m ((c.tc : Thread Cert.ReferenceIdeal.nD Cert.ReferenceIdeal.τ).loc Cert.ReferenceIdeal.main_arg12))
      ∧ Cert.Spec.AllReal (s := S128x128) (m ((c.tc : Thread Cert.ReferenceIdeal.nD Cert.ReferenceIdeal.τ).loc Cert.ReferenceIdeal.main_arg13))
      ∧ Cert.Spec.AllReal (s := S128) (m ((c.tc : Thread Cert.ReferenceIdeal.nD Cert.ReferenceIdeal.τ).loc Cert.ReferenceIdeal.main_arg14))
      ∧ Cert.Spec.AllReal (s := S128) (m ((c.tc : Thread Cert.ReferenceIdeal.nD Cert.ReferenceIdeal.τ).loc Cert.ReferenceIdeal.main_arg15))
      ∧ Cert.Spec.AllReal (s := S128) (m ((c.tc : Thread Cert.ReferenceIdeal.nD Cert.ReferenceIdeal.τ).loc Cert.ReferenceIdeal.main_arg16))
      ∧ Cert.Spec.AllReal (s := S128) (m ((c.tc : Thread Cert.ReferenceIdeal.nD Cert.ReferenceIdeal.τ).loc Cert.ReferenceIdeal.main_arg17))
      ∧ Cert.Spec.AllReal (s := S128) (m ((c.tc : Thread Cert.ReferenceIdeal.nD Cert.ReferenceIdeal.τ).loc Cert.ReferenceIdeal.main_arg18))
      ∧ Cert.Spec.AllReal (s := S128x128) (m ((c.tc : Thread Cert.ReferenceIdeal.nD Cert.ReferenceIdeal.τ).loc Cert.ReferenceIdeal.main_arg19))
      ∧ Cert.Spec.AllReal (s := S128) (m ((c.tc : Thread Cert.ReferenceIdeal.nD Cert.ReferenceIdeal.τ).loc Cert.ReferenceIdeal.main_arg20))
      ∧ Cert.Spec.AllReal (s := S128x128) (m ((c.tc : Thread Cert.ReferenceIdeal.nD Cert.ReferenceIdeal.τ).loc Cert.ReferenceIdeal.main_arg21))
      ∧ Cert.Spec.AllReal (s := S128) (m ((c.tc : Thread Cert.ReferenceIdeal.nD Cert.ReferenceIdeal.τ).loc Cert.ReferenceIdeal.main_arg22))
      ∧ Cert.Spec.AllReal (s := S128x64) (m ((c.tc : Thread Cert.ReferenceIdeal.nD Cert.ReferenceIdeal.τ).loc Cert.ReferenceIdeal.main_arg23))
      ∧ Cert.Spec.AllReal (s := S64) (m ((c.tc : Thread Cert.ReferenceIdeal.nD Cert.ReferenceIdeal.τ).loc Cert.ReferenceIdeal.main_arg24))
      ∧ Cert.Spec.AllReal (s := S64x40) (m ((c.tc : Thread Cert.ReferenceIdeal.nD Cert.ReferenceIdeal.τ).loc Cert.ReferenceIdeal.main_arg25))
      ∧ Cert.Spec.AllReal (s := S40) (m ((c.tc : Thread Cert.ReferenceIdeal.nD Cert.ReferenceIdeal.τ).loc Cert.ReferenceIdeal.main_arg26)) :=
  args_real _ _ _ _ _ _ _ _ _ _ _ _ _ _ _ _ _ _ _ _ _ _ _ _ _ _ _ (hpre c)

end Cert.PreReal

end
-- ==== Proof.Agg.lean ====
/-
  The neighbourhood aggregation of a graph convolution, as one function of the edge list and the projected
  features. An edge list is a 2 × 1000000 array of integers: row 0 holds each edge's source node, row 1 its
  target node. A node's degree is the number of edges that point at it; `dinv` is the degree's inverse square
  root where the degree is positive and 0 elsewhere; an edge's weight is the product of `dinv` at its two ends
  (an end given as a negative number is counted from the far end: 100000 is added to it). The aggregate at a
  node is the sum, over the edges pointing at it, of the source node's feature row times the edge's weight.

  Whatever the integers in the edge list are, an entry of the result is a finite sum of products of real
  numbers, so the result is real wherever the features are: a gather reads one element of its operand, a
  scatter-add is its operand plus a finite sum of updates, and the inverse square root is taken only of a
  positive real.
-/
import proofs.«174816_j57878979281252_2_alg».proof.ReferenceIdeal
import proofs.«174816_j57878979281252_2_alg».proof.Proof.Spec
import Idealize.ShloMosaic.PureOps.Ideal.Laws

set_option maxRecDepth 16384

noncomputable section

namespace Cert.Agg

open Idealize.ShloMosaic Cert.ReferenceIdeal Cert.ReferenceIdeal.Facts₀ Cert.Spec

/-! ## Sums and products of real numbers among the extended reals -/

/-- A product of two reals is a real. -/
theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- A finite sum of reals is a real. -/
theorem real_sum {ι : Type} (s : Finset ι) (f : ι → EReal) (hf : ∀ j ∈ s, ∃ r : ℝ, f j = (r : EReal)) :
    ∃ r : ℝ, ∑ j ∈ s, f j = (r : EReal) := by
  classical
  induction s using Finset.induction_on with
  | empty => exact ⟨0, by rw [Finset.sum_empty, EReal.coe_zero]⟩
  | insert a s ha ih =>
    obtain ⟨r, hr⟩ := hf a (Finset.mem_insert_self a s)
    obtain ⟨t, ht⟩ := ih (fun j hj => hf j (Finset.mem_insert_of_mem hj))
    exact ⟨r + t, by rw [Finset.sum_insert ha, hr, ht, EReal.coe_add]⟩

/-- The float word of zero is the real 0. -/
theorem zero_real : ∃ r : ℝ, Ideal.ofBits .f32 0x00000000#32 = (r : EReal) :=
  ⟨0, by rw [Ideal.ofBits_zero_f32, EReal.coe_zero]⟩

/-- The float word of one is the real 1. -/
theorem one_real : ∃ r : ℝ, Ideal.ofBits .f32 0x3F800000#32 = (r : EReal) :=
  ⟨1, by
    have h : Ideal.ofBits .f32 0x3F800000#32 = 1 := by
      simp [Ideal.ofBits, Ideal.ieee, -EReal.coe_mul]; norm_num
    rw [h, EReal.coe_one]⟩

/-! ## The whole-array operations keep every entry real -/

/-- A broadcast repeats entries of its operand. -/
theorem allReal_bcast {s t : Shape} (dims : Fin s.rank → Fin t.rank) (hb : s.BroadcastsInDim t dims)
    {x : s.Idx → EReal} (hx : AllReal x) : AllReal (broadcastInDim t dims hb x) :=
  fun _ => hx _

/-- A gather reads, at each result index, one entry of its operand: which one depends on the integers, that
    it is one does not. -/
theorem allReal_gather {s si t : Shape} {w : Nat} (d : GatherDims s si t) (idx : IVec si w)
    {x : s.Idx → EReal} (hx : AllReal x) : AllReal (Host.gather d x idx) :=
  fun _ => hx _

/-- An entrywise product. -/
theorem allReal_mul {s : Shape} {a b : s.Idx → EReal} (ha : AllReal a) (hb : AllReal b) :
    AllReal (mulf (F := Ideal) (φ := .f32) a b) :=
  fun i => real_mul (ha i) (hb i)

/-- A scatter-add is its operand plus, at each entry, the sum of the updates that land there. -/
theorem allReal_scatterAdd {s si su : Shape} {w : Nat} (d : ScatterDims s si su) (idx : IVec si w)
    {x : s.Idx → EReal} {upd : su.Idx → EReal} (hx : AllReal x) (hu : AllReal upd) :
    AllReal (Host.scatterAdd (F := Ideal) (φ := .f32) d x idx upd) := by
  intro i
  obtain ⟨a, ha⟩ := hx i
  obtain ⟨b, hb⟩ := real_sum (Finset.univ.filter fun j => d.resultIdx? j idx = some i) upd (fun j _ => hu j)
  refine ⟨a + b, ?_⟩
  show x i + ∑ j ∈ Finset.univ.filter (fun j => d.resultIdx? j idx = some i), upd j = _
  rw [ha, hb, EReal.coe_add]

/-- An array filled with the zero word. -/
theorem allReal_zeros {t : Shape} (hb : S_.BroadcastsInDim t (![] : Fin 0 → Fin t.rank)) :
    AllReal (broadcastInDim t ![] hb (constant (F := Ideal) S_ .f32 0x00000000#32)) :=
  fun _ => zero_real

/-- One entry of the normalising factor: the inverse square root of a real, kept only where that real is
    positive — there it is the real `1 / √r` — and 0 elsewhere. -/
theorem real_select_rsqrt (r : ℝ) :
    ∃ t : ℝ, Scalar.select (Ideal.cmp .ogt (r : EReal) 0) (Ideal.rsqrt (r : EReal)) (0 : EReal) = (t : EReal) := by
  unfold Scalar.select
  by_cases h0 : (0 : EReal) < (r : EReal)
  · have hc : Ideal.cmp .ogt (r : EReal) 0 = 1 := by
      unfold Ideal.cmp
      simp only [h0, decide_true]
      rfl
    have hr0 : (0 : ℝ) < r := by exact_mod_cast h0
    rw [if_pos hc, Ideal.rsqrt_coe, if_neg (not_lt.mpr hr0.le), if_neg hr0.ne']
    exact ⟨_, rfl⟩
  · have hc : ¬ Ideal.cmp .ogt (r : EReal) 0 = 1 := by
      unfold Ideal.cmp
      simp only [h0, decide_false]
      decide
    rw [if_neg hc]
    exact ⟨0, EReal.coe_zero.symm⟩

/-- The same for a whole array: where `dg` is real everywhere, "the inverse square root of `dg` where `dg` is
    positive, zero elsewhere" is real everywhere. -/
theorem allReal_select_rsqrt {s : Shape} (hb : S_.BroadcastsInDim s (![] : Fin 0 → Fin s.rank))
    {dg : s.Idx → EReal} (hd : AllReal dg) :
    AllReal (select (cmpf (F := Ideal) (φ := .f32) .ogt dg
        (broadcastInDim s ![] hb (constant (F := Ideal) S_ .f32 0x00000000#32)))
      (Host.rsqrt (F := Ideal) (φ := .f32) dg)
      (broadcastInDim s ![] hb (constant (F := Ideal) S_ .f32 0x00000000#32))) := by
  intro i
  obtain ⟨r, hr⟩ := hd i
  have hz : (broadcastInDim s ![] hb (constant (F := Ideal) S_ .f32 0x00000000#32)) i = (0 : EReal) := by
    unfold broadcastInDim
    exact (ValueIdx.constant_apply _ _).trans Ideal.ofBits_zero_f32
  rw [ValueIdx.select_apply, ValueIdx.cmpf_apply, Ideal.cmpf_def, hz]
  have hrs : Host.rsqrt (F := Ideal) (φ := .f32) dg i = Ideal.rsqrt (dg i) := Ideal.hostUnary_rsqrt_def _
  rw [hrs, hr]
  exact real_select_rsqrt r

variable [Cert.ReferenceIdeal.Facts₀]

/-! ## The aggregation, operation by operation as the programs apply it -/

/-- The edges' source nodes: row 0 of the edge list, as a rank-1 array. -/
def src (ei : Vec Ideal S2x1000000 .i32) : IVec S1000000 32 :=
  shapeCast _ (extractStridedSlice S1x1000000 ![0, 0] ei slices_S2x1000000_S1x1000000_0_0) shapeCasts_S1x1000000_S1000000

/-- The edges' target nodes: row 1 of the edge list, as a rank-1 array. -/
def dst (ei : Vec Ideal S2x1000000 .i32) : IVec S1000000 32 :=
  shapeCast _ (extractStridedSlice S1x1000000 ![1, 0] ei slices_S2x1000000_S1x1000000_1_0) shapeCasts_S1x1000000_S1000000

/-- Node numbers with the negative ones counted from the far end: 100000 added where the number is below 0. -/
def wrap (v : IVec S1000000 32) : IVec S1000000 32 :=
  select (cmpi .slt v (broadcastInDim S1000000 ![] bcast_S_S1000000 (constantI S_ 32 0#32)))
    (addi v (broadcastInDim S1000000 ![] bcast_S_S1000000 (constantI S_ 32 100000#32))) v

/-- One value per edge laid out as a column, the layout the gathers and scatters take their indices in. -/
def col {α : Type} (v : S1000000.Idx → α) : S1000000x1.Idx → α :=
  broadcastInDim S1000000x1 ![0] bcast_S1000000_S1000000x1_0 v

theorem allReal_col {v : S1000000.Idx → EReal} (hv : AllReal v) : AllReal (col v) :=
  allReal_bcast _ _ hv

/-- A node's degree: zero plus a one for every edge that points at it. -/
def deg (ei : Vec Ideal S2x1000000 .i32) : FVec Ideal S100000 .f32 :=
  Host.scatterAdd (F := Ideal) (φ := .f32) scatter_S100000_S1000000x1_S1000000_n_0_0_1
    (broadcastInDim S100000 ![] bcast_S_S100000 (constant (F := Ideal) S_ .f32 0x00000000#32))
    (col (dst ei))
    (broadcastInDim S1000000 ![] bcast_S_S1000000 (constant (F := Ideal) S_ .f32 0x3F800000#32))

/-- The degree's inverse square root where the degree is positive, 0 elsewhere. -/
def dinv (ei : Vec Ideal S2x1000000 .i32) : FVec Ideal S100000 .f32 :=
  select (cmpf (F := Ideal) (φ := .f32) .ogt (deg ei)
      (broadcastInDim S100000 ![] bcast_S_S100000 (constant (F := Ideal) S_ .f32 0x00000000#32)))
    (Host.rsqrt (F := Ideal) (φ := .f32) (deg ei))
    (broadcastInDim S100000 ![] bcast_S_S100000 (constant (F := Ideal) S_ .f32 0x00000000#32))

/-- An edge's weight: `dinv` at its source times `dinv` at its target. -/
def norm (ei : Vec Ideal S2x1000000 .i32) : FVec Ideal S1000000 .f32 :=
  mulf (F := Ideal) (φ := .f32)
    (Host.gather gather_S100000_S1000000x1_S1000000_n_0_n_n_0_1_1 (dinv ei) (col (wrap (src ei))))
    (Host.gather gather_S100000_S1000000x1_S1000000_n_0_n_n_0_1_1 (dinv ei) (col (wrap (dst ei))))

/-- The aggregation: at each node, zero plus, for every edge that points at it, the source node's feature row
    times the edge's weight. -/
def agg (ei : Vec Ideal S2x1000000 .i32) (h : Mat 100000 128) : Mat 100000 128 :=
  Host.scatterAdd (F := Ideal) (φ := .f32) scatter_S100000x128_S1000000x1_S1000000x128_1_0_0_1
    (broadcastInDim S100000x128 ![] bcast_S_S100000x128 (constant (F := Ideal) S_ .f32 0x00000000#32))
    (col (dst ei))
    (mulf (F := Ideal) (φ := .f32)
      (Host.gather gather_S100000x128_S1000000x1_S1000000x128_1_0_n_n_0_1_1128 h (col (wrap (src ei))))
      (broadcastInDim S1000000x128 ![0, 1] bcast_S1000000x1_S1000000x128_0_1 (col (norm ei))))

/-! ## Every entry stays real -/

/-- A degree is a finite sum of ones. -/
theorem deg_real (ei : Vec Ideal S2x1000000 .i32) : AllReal (deg ei) :=
  allReal_scatterAdd _ _ (allReal_zeros _) (allReal_bcast _ _ (fun _ => one_real))

/-- The inverse square root is taken of a real degree and kept only where that degree is positive. -/
theorem dinv_real (ei : Vec Ideal S2x1000000 .i32) : AllReal (dinv ei) := by
  unfold dinv
  exact allReal_select_rsqrt _ (deg_real ei)

/-- An edge's weight is a product of two reals. -/
theorem norm_real (ei : Vec Ideal S2x1000000 .i32) : AllReal (norm ei) :=
  allReal_mul (allReal_gather _ _ (dinv_real ei)) (allReal_gather _ _ (dinv_real ei))

/-- The aggregate of real features is real, whatever the edge list holds. -/
theorem agg_real (ei : Vec Ideal S2x1000000 .i32) (h : Mat 100000 128) (hh : AllReal h) : AllReal (agg ei h) :=
  allReal_scatterAdd _ _ (allReal_zeros _)
    (allReal_mul (allReal_gather _ _ hh) (allReal_bcast _ _ (allReal_col (norm_real ei))))

end Cert.Agg

end
-- ==== Proof.ChainArgs.lean ====
import proofs.«174816_j57878979281252_2_alg».proof.Proof.Gen.KernelIdeal.Regions
import proofs.«174816_j57878979281252_2_alg».proof.Proof.Net

/-!
# The arguments of the network, read off the launch memory

The program's twenty-seven argument arrays as the specification's objects: the feature matrix, the two edge
lists, each encoder's eight parameters and the eight parameters of the two heads. A bias, scale or shift is a
rank-1 array of the program and a single row of the specification (`Spec.rowOf`).
-/

set_option maxRecDepth 16384

noncomputable section

namespace Cert.KernelIdeal.Chain

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- The node features: 100000 rows of 256. -/
def xOf : Spec.Mat 100000 256 := Gen.V0 m c main_arg0

/-- The local edge list: sources in row 0, destinations in row 1. -/
def eiL : Vec Ideal S2x1000000 .i32 := Gen.V0 m c main_arg1

/-- The global edge list. -/
def eiG : Vec Ideal S2x1000000 .i32 := Gen.V0 m c main_arg2

/-- The local encoder's parameters. -/
def pL : Spec.Enc where
  W1 := Gen.V0 m c main_arg3
  b1 := Spec.rowOf (Gen.V0 m c main_arg4)
  W2 := Gen.V0 m c main_arg5
  b2 := Spec.rowOf (Gen.V0 m c main_arg6)
  g1 := Spec.rowOf (Gen.V0 m c main_arg7)
  bt1 := Spec.rowOf (Gen.V0 m c main_arg8)
  g2 := Spec.rowOf (Gen.V0 m c main_arg9)
  bt2 := Spec.rowOf (Gen.V0 m c main_arg10)

/-- The global encoder's parameters. -/
def pG : Spec.Enc where
  W1 := Gen.V0 m c main_arg11
  b1 := Spec.rowOf (Gen.V0 m c main_arg12)
  W2 := Gen.V0 m c main_arg13
  b2 := Spec.rowOf (Gen.V0 m c main_arg14)
  g1 := Spec.rowOf (Gen.V0 m c main_arg15)
  bt1 := Spec.rowOf (Gen.V0 m c main_arg16)
  g2 := Spec.rowOf (Gen.V0 m c main_arg17)
  bt2 := Spec.rowOf (Gen.V0 m c main_arg18)

/-- The shared perceptron's and the node classifier's parameters. -/
def hd : Spec.Heads where
  mW1 := Gen.V0 m c main_arg19
  mb1 := Spec.rowOf (Gen.V0 m c main_arg20)
  mW2 := Gen.V0 m c main_arg21
  mb2 := Spec.rowOf (Gen.V0 m c main_arg22)
  cW1 := Gen.V0 m c main_arg23
  cb1 := Spec.rowOf (Gen.V0 m c main_arg24)
  cW2 := Gen.V0 m c main_arg25
  cb2 := Spec.rowOf (Gen.V0 m c main_arg26)

end Cert.KernelIdeal.Chain

end
-- ==== Proof.RefArgs.lean ====
/-
  The reference program's arguments by what they are to the network: the node features, the two edge lists,
  each encoder's eight parameters and the eight parameters of the shared perceptron and the node classifier,
  read out of a memory on a device. The rank-1 arguments (biases, scales, shifts) are taken as rows.
-/
import proofs.«174816_j57878979281252_2_alg».proof.ReferenceIdeal
import proofs.«174816_j57878979281252_2_alg».proof.Proof.Net

noncomputable section

namespace Cert.RefValue

open Idealize.ShloMosaic Idealize.SL.Sem Cert.ReferenceIdeal Cert.Spec

/-- A memory of the reference program at the ideal instance. -/
abbrev Mem : Type := (ℓ : Loc Cert.ReferenceIdeal.nD Cert.ReferenceIdeal.τ Cert.ReferenceIdeal.sig) → Buf (Elt Ideal) ℓ

/-- The node features: 100000 rows of 256. -/
def xOf (m : Mem) (c : Dev Cert.ReferenceIdeal.nD) : Mat 100000 256 :=
  m ((c.tc : Thread Cert.ReferenceIdeal.nD Cert.ReferenceIdeal.τ).loc main_arg0)

/-- The local view's edge list. -/
def eiL (m : Mem) (c : Dev Cert.ReferenceIdeal.nD) : Vec Ideal S2x1000000 .i32 :=
  m ((c.tc : Thread Cert.ReferenceIdeal.nD Cert.ReferenceIdeal.τ).loc main_arg1)

/-- The global view's edge list. -/
def eiG (m : Mem) (c : Dev Cert.ReferenceIdeal.nD) : Vec Ideal S2x1000000 .i32 :=
  m ((c.tc : Thread Cert.ReferenceIdeal.nD Cert.ReferenceIdeal.τ).loc main_arg2)

/-- The local encoder's parameters: arguments 3 to 10, in the order W1, b1, W2, b2, g1, bt1, g2, bt2. -/
def pL (m : Mem) (c : Dev Cert.ReferenceIdeal.nD) : Enc :=
  ⟨m ((c.tc : Thread Cert.ReferenceIdeal.nD Cert.ReferenceIdeal.τ).loc main_arg3),
   rowOf (m ((c.tc : Thread Cert.ReferenceIdeal.nD Cert.ReferenceIdeal.τ).loc main_arg4)),
   m ((c.tc : Thread Cert.ReferenceIdeal.nD Cert.ReferenceIdeal.τ).loc main_arg5),
   rowOf (m ((c.tc : Thread Cert.ReferenceIdeal.nD Cert.ReferenceIdeal.τ).loc main_arg6)),
   rowOf (m ((c.tc : Thread Cert.ReferenceIdeal.nD Cert.ReferenceIdeal.τ).loc main_arg7)),
   rowOf (m ((c.tc : Thread Cert.ReferenceIdeal.nD Cert.ReferenceIdeal.τ).loc main_arg8)),
   rowOf (m ((c.tc : Thread Cert.ReferenceIdeal.nD Cert.ReferenceIdeal.τ).loc main_arg9)),
   rowOf (m ((c.tc : Thread Cert.ReferenceIdeal.nD Cert.ReferenceIdeal.τ).loc main_arg10))⟩

/-- The global encoder's parameters: arguments 11 to 18, in the same order. -/
def pG (m : Mem) (c : Dev Cert.ReferenceIdeal.nD) : Enc :=
  ⟨m ((c.tc : Thread Cert.ReferenceIdeal.nD Cert.ReferenceIdeal.τ).loc main_arg11),
   rowOf (m ((c.tc : Thread Cert.ReferenceIdeal.nD Cert.ReferenceIdeal.τ).loc main_arg12)),
   m ((c.tc : Thread Cert.ReferenceIdeal.nD Cert.ReferenceIdeal.τ).loc main_arg13),
   rowOf (m ((c.tc : Thread Cert.ReferenceIdeal.nD Cert.ReferenceIdeal.τ).loc main_arg14)),
   rowOf (m ((c.tc : Thread Cert.ReferenceIdeal.nD Cert.ReferenceIdeal.τ).loc main_arg15)),
   rowOf (m ((c.tc : Thread Cert.ReferenceIdeal.nD Cert.ReferenceIdeal.τ).loc main_arg16)),
   rowOf (m ((c.tc : Thread Cert.ReferenceIdeal.nD Cert.ReferenceIdeal.τ).loc main_arg17)),
   rowOf (m ((c.tc : Thread Cert.ReferenceIdeal.nD Cert.ReferenceIdeal.τ).loc main_arg18))⟩

/-- The shared perceptron's and the node classifier's parameters: arguments 19 to 26, in the order
    mW1, mb1, mW2, mb2, cW1, cb1, cW2, cb2. -/
def hd (m : Mem) (c : Dev Cert.ReferenceIdeal.nD) : Heads :=
  ⟨m ((c.tc : Thread Cert.ReferenceIdeal.nD Cert.ReferenceIdeal.τ).loc main_arg19),
   rowOf (m ((c.tc : Thread Cert.ReferenceIdeal.nD Cert.ReferenceIdeal.τ).loc main_arg20)),
   m ((c.tc : Thread Cert.ReferenceIdeal.nD Cert.ReferenceIdeal.τ).loc main_arg21),
   rowOf (m ((c.tc : Thread Cert.ReferenceIdeal.nD Cert.ReferenceIdeal.τ).loc main_arg22)),
   m ((c.tc : Thread Cert.ReferenceIdeal.nD Cert.ReferenceIdeal.τ).loc main_arg23),
   rowOf (m ((c.tc : Thread Cert.ReferenceIdeal.nD Cert.ReferenceIdeal.τ).loc main_arg24)),
   m ((c.tc : Thread Cert.ReferenceIdeal.nD Cert.ReferenceIdeal.τ).loc main_arg25),
   rowOf (m ((c.tc : Thread Cert.ReferenceIdeal.nD Cert.ReferenceIdeal.τ).loc main_arg26))⟩

end Cert.RefValue

end
-- ==== Proof.ValueCond.lean ====
/-
  The run of the program, conditional on its eleven kernel regions, with the RESULTS in its conclusion.

  Between two items of the program a core holds every unscoped buffer whole at a known valuation: the launch
  contents, then what each host stretch computes from the valuation before it, then, after a kernel region, the
  same valuation with the region's output arrays replaced by what the region leaves there (the unknowns `outs`).
  Given, for each region, a segment record entered from the thread state before it and left at the one after it,
  every weakly fair execution from memory `m` with zero counters terminates, and in every final memory each core
  holds, in each of the five result buffers, exactly what the LAST valuation of the chain assigns to it, and in
  each of the 27 argument buffers its launch contents.

  The run is the same as for the frame alone: the program is the list of its host stretches and regions, the
  stretches chain by themselves, the regions by the given records, the launch makes the first thread state. Only
  the end differs: the last thread state holds all unscoped buffers at the last valuation, and reading them all
  off the final memory at once gives the result buffers' equations beside the arguments'; an argument is written
  by no item, so the last valuation still has its launch contents, while a result's entry in the last valuation is
  left as it stands, to be evaluated by whoever knows the regions' outputs.
-/
import proofs.«174816_j57878979281252_2_alg».proof.Proof.Gen.KernelIdeal.Regions

-- decided memberships among the 368 references recurse past the default depth
set_option maxRecDepth 1984

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

-- the run theorem's implicit arguments are found by unifying its conclusion with this one, which takes unfolding
-- plain definitions in a metavariable's type
set_option backward.isDefEq.respectTransparency.types false in
/-- The run with the results. For any user algebra, level assignment, launch dues and ghost resources, any rest
    states `E` the launch makes on every core at once (`hE0`) and that end owing nothing (`hE11`), any contents the
    regions leave (`outs`) and any proof data: given, per region K, a segment record entered from the thread state
    before it and left at the one after it (`RK`, `hpreK`, `hpostK`), every weakly fair execution of the program
    from memory `m` with zero counters terminates and every final memory holds each result buffer at the last
    valuation's entry for it and each argument as launched. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V25 m outs c) ∗ E 10 c) ⊢ R10.pre c)
    (hpost10 : ∀ c : Dev nD, R10.post c ⊢ iprop(StableHlo.held (c : Thread nD τ) (Pipeline.ucRefs τ sig) (V26 m outs c) ∗ E 11 c)) :
    θ_run defs (onTc (τ := τ) (main (F := F))) ⟨m, fun _ => 0, ρ⟩ (fun r => ∀ c : Dev nD,
      r.2.mem ((c.tc : Thread nD τ).loc main_v158) = V31 m outs c main_v158
      ∧ r.2.mem ((c.tc : Thread nD τ).loc main_v163) = V31 m outs c main_v163
      ∧ r.2.mem ((c.tc : Thread nD τ).loc main_v173) = V31 m outs c main_v173
      ∧ r.2.mem ((c.tc : Thread nD τ).loc main_v180) = V31 m outs c main_v180
      ∧ r.2.mem ((c.tc : Thread nD τ).loc main_v166_0) = V31 m outs c main_v166_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          Prog.lift (.customCall (Pipeline.entry 10) ()),
          StableHlo.seq hostOps11,
          StableHlo.seq hostOps11_1,
          StableHlo.seq hostOps11_2,
          StableHlo.seq hostOps11_3,
          StableHlo.seq hostOps11_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V31 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, hpost9 c, hpre10 c, hpost10 c, .rfl, .rfl, .rfl, .rfl, sep_mono .rfl (hE11 c)⟩)
    (hinit := ?_) (QY := fun c s => s.mem ((c.tc : Thread nD τ).loc main_v158) = V31 m outs c main_v158 ∧ s.mem ((c.tc : Thread nD τ).loc main_v163) = V31 m outs c main_v163 ∧ s.mem ((c.tc : Thread nD τ).loc main_v173) = V31 m outs c main_v173 ∧ s.mem ((c.tc : Thread nD τ).loc main_v180) = V31 m outs c main_v180 ∧ s.mem ((c.tc : Thread nD τ).loc main_v166_0) = V31 m outs c main_v166_0 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each result's and each argument's buffer read off the last valuation
    unfold StableHlo.held
    iintro ⟨Hh, HSI⟩
    ihave Hr := (pointsTo_read_all (Pipeline.ucRefs τ sig) (fun b => ((c : Thread nD τ).1, b)) (V31 m outs c) s') $$ [Hh HSI]
    · isplitl [Hh] <;> iassumption
    icases Hr with ⟨%h, HSI⟩
    imodintro
    isplitr
    · ipureintro
      exact ⟨h (Proc.devRef .tc main_v158) (Finset.mem_filter.mpr ⟨StableHlo.devRef_mem_tcRefs main_v158, by decide⟩),
        h (Proc.devRef .tc main_v163) (Finset.mem_filter.mpr ⟨StableHlo.devRef_mem_tcRefs main_v163, by decide⟩),
        h (Proc.devRef .tc main_v173) (Finset.mem_filter.mpr ⟨StableHlo.devRef_mem_tcRefs main_v173, by decide⟩),
        h (Proc.devRef .tc main_v180) (Finset.mem_filter.mpr ⟨StableHlo.devRef_mem_tcRefs main_v180, by decide⟩),
        h (Proc.devRef .tc main_v166_0) (Finset.mem_filter.mpr ⟨StableHlo.devRef_mem_tcRefs main_v166_0, by decide⟩),
        (h (Proc.devRef .tc main_arg0) (Finset.mem_filter.mpr ⟨StableHlo.devRef_mem_tcRefs main_arg0, by decide⟩)).trans (V31_main_arg0 m outs c),
        (h (Proc.devRef .tc main_arg1) (Finset.mem_filter.mpr ⟨StableHlo.devRef_mem_tcRefs main_arg1, by decide⟩)).trans (V31_main_arg1 m outs c),
        (h (Proc.devRef .tc main_arg2) (Finset.mem_filter.mpr ⟨StableHlo.devRef_mem_tcRefs main_arg2, by decide⟩)).trans (V31_main_arg2 m outs c),
        (h (Proc.devRef .tc main_arg3) (Finset.mem_filter.mpr ⟨StableHlo.devRef_mem_tcRefs main_arg3, by decide⟩)).trans (V31_main_arg3 m outs c),
        (h (Proc.devRef .tc main_arg4) (Finset.mem_filter.mpr ⟨StableHlo.devRef_mem_tcRefs main_arg4, by decide⟩)).trans (V31_main_arg4 m outs c),
        (h (Proc.devRef .tc main_arg5) (Finset.mem_filter.mpr ⟨StableHlo.devRef_mem_tcRefs main_arg5, by decide⟩)).trans (V31_main_arg5 m outs c),
        (h (Proc.devRef .tc main_arg6) (Finset.mem_filter.mpr ⟨StableHlo.devRef_mem_tcRefs main_arg6, by decide⟩)).trans (V31_main_arg6 m outs c),
        (h (Proc.devRef .tc main_arg7) (Finset.mem_filter.mpr ⟨StableHlo.devRef_mem_tcRefs main_arg7, by decide⟩)).trans (V31_main_arg7 m outs c),
        (h (Proc.devRef .tc main_arg8) (Finset.mem_filter.mpr ⟨StableHlo.devRef_mem_tcRefs main_arg8, by decide⟩)).trans (V31_main_arg8 m outs c),
        (h (Proc.devRef .tc main_arg9) (Finset.mem_filter.mpr ⟨StableHlo.devRef_mem_tcRefs main_arg9, by decide⟩)).trans (V31_main_arg9 m outs c),
        (h (Proc.devRef .tc main_arg10) (Finset.mem_filter.mpr ⟨StableHlo.devRef_mem_tcRefs main_arg10, by decide⟩)).trans (V31_main_arg10 m outs c),
        (h (Proc.devRef .tc main_arg11) (Finset.mem_filter.mpr ⟨StableHlo.devRef_mem_tcRefs main_arg11, by decide⟩)).trans (V31_main_arg11 m outs c),
        (h (Proc.devRef .tc main_arg12) (Finset.mem_filter.mpr ⟨StableHlo.devRef_mem_tcRefs main_arg12, by decide⟩)).trans (V31_main_arg12 m outs c),
        (h (Proc.devRef .tc main_arg13) (Finset.mem_filter.mpr ⟨StableHlo.devRef_mem_tcRefs main_arg13, by decide⟩)).trans (V31_main_arg13 m outs c),
        (h (Proc.devRef .tc main_arg14) (Finset.mem_filter.mpr ⟨StableHlo.devRef_mem_tcRefs main_arg14, by decide⟩)).trans (V31_main_arg14 m outs c),
        (h (Proc.devRef .tc main_arg15) (Finset.mem_filter.mpr ⟨StableHlo.devRef_mem_tcRefs main_arg15, by decide⟩)).trans (V31_main_arg15 m outs c),
        (h (Proc.devRef .tc main_arg16) (Finset.mem_filter.mpr ⟨StableHlo.devRef_mem_tcRefs main_arg16, by decide⟩)).trans (V31_main_arg16 m outs c),
        (h (Proc.devRef .tc main_arg17) (Finset.mem_filter.mpr ⟨StableHlo.devRef_mem_tcRefs main_arg17, by decide⟩)).trans (V31_main_arg17 m outs c),
        (h (Proc.devRef .tc main_arg18) (Finset.mem_filter.mpr ⟨StableHlo.devRef_mem_tcRefs main_arg18, by decide⟩)).trans (V31_main_arg18 m outs c),
        (h (Proc.devRef .tc main_arg19) (Finset.mem_filter.mpr ⟨StableHlo.devRef_mem_tcRefs main_arg19, by decide⟩)).trans (V31_main_arg19 m outs c),
        (h (Proc.devRef .tc main_arg20) (Finset.mem_filter.mpr ⟨StableHlo.devRef_mem_tcRefs main_arg20, by decide⟩)).trans (V31_main_arg20 m outs c),
        (h (Proc.devRef .tc main_arg21) (Finset.mem_filter.mpr ⟨StableHlo.devRef_mem_tcRefs main_arg21, by decide⟩)).trans (V31_main_arg21 m outs c),
        (h (Proc.devRef .tc main_arg22) (Finset.mem_filter.mpr ⟨StableHlo.devRef_mem_tcRefs main_arg22, by decide⟩)).trans (V31_main_arg22 m outs c),
        (h (Proc.devRef .tc main_arg23) (Finset.mem_filter.mpr ⟨StableHlo.devRef_mem_tcRefs main_arg23, by decide⟩)).trans (V31_main_arg23 m outs c),
        (h (Proc.devRef .tc main_arg24) (Finset.mem_filter.mpr ⟨StableHlo.devRef_mem_tcRefs main_arg24, by decide⟩)).trans (V31_main_arg24 m outs c),
        (h (Proc.devRef .tc main_arg25) (Finset.mem_filter.mpr ⟨StableHlo.devRef_mem_tcRefs main_arg25, by decide⟩)).trans (V31_main_arg25 m outs c),
        (h (Proc.devRef .tc main_arg26) (Finset.mem_filter.mpr ⟨StableHlo.devRef_mem_tcRefs main_arg26, by decide⟩)).trans (V31_main_arg26 m outs c)⟩
    · iexact HSI

end Cert.KernelIdeal.Run

end
-- ==== Proof.ValueRun.lean ====
import proofs.«174816_j57878979281252_2_alg».proof.Proof.FrameRun
import proofs.«174816_j57878979281252_2_alg».proof.Proof.ValueCond

/-!
# The run of the kernel program, with its results

The same run as the frame's, with the five result buffers in its conclusion: every weakly fair execution from a
memory with zero counters terminates, and every final memory holds in each result buffer what the last valuation
of the chain, T31, has there, and in each of the 27 argument buffers its launch contents. The conditional run
names the results at its own last valuation; read over the chain that valuation is T31.
-/

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Reg

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

/-- The conditional run's last valuation, its unknown family read off the chain, is the chain's last. -/
theorem V31_fun : Gen.V31 m (outs m) = T31 m := funext (V31_eq m)

set_option backward.isDefEq.respectTransparency.types false in
/-- From any memory with zero counters every weakly fair execution of the program terminates, and every final
    memory holds each result buffer at T31's entry for it and each argument array as launched. -/
theorem value_run : θ_run defs (onTc (τ := τ) (main (F := F))) ⟨m, fun _ => 0, ρ⟩ (fun r => ∀ c : Dev nD,
      r.2.mem ((c.tc : Thread nD τ).loc main_v158) = T31 m c main_v158
      ∧ r.2.mem ((c.tc : Thread nD τ).loc main_v163) = T31 m c main_v163
      ∧ r.2.mem ((c.tc : Thread nD τ).loc main_v173) = T31 m c main_v173
      ∧ r.2.mem ((c.tc : Thread nD τ).loc main_v180) = T31 m c main_v180
      ∧ r.2.mem ((c.tc : Thread nD τ).loc main_v166_0) = T31 m c main_v166_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  have h := value_cond m emb₁ () 𝒱₀ L lv (fun _ _ => rfl) ρ (outs m) (pdats m) 0 (fun _ => (BI.emp : sProp 𝕄))
    (initOf (Pipeline.cells cfgs cellOf_inj) (Pipeline.launchToks cfgs cellOf_inj)) hu₀ (fun _ c => R c) (hE0 ρ) hE11
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
  rw [V31_fun] at h
  exact h

end Cert.KernelIdeal.Run

end
-- ==== Proof.ChainL1.lean ====
import proofs.«174816_j57878979281252_2_alg».proof.Proof.Gen.KernelIdeal.Regions
import proofs.«174816_j57878979281252_2_alg».proof.Proof.Gen.ReferenceIdeal
import proofs.«174816_j57878979281252_2_alg».proof.Proof.Agg
import proofs.«174816_j57878979281252_2_alg».proof.Proof.Net
import Idealize.ShloMosaic.Lib.Pipeline.Value
import Idealize.ShloMosaic.Lib.StableHlo.Run

/-!
# The edge weights: what the first five host stretches leave

Before any kernel region runs, the host splits each edge list into its row of source nodes and its row of target
nodes, counts every node's degree, takes the inverse square root of the positive degrees, and multiplies that at
an edge's two ends: the edge's weight. The five stretches do this for the local edge list and then for the global
one. Each lemma below reads one buffer after one stretch, over whatever valuation the stretch starts from, as the
aggregation's own term (`Cert.Agg.src`, `dst`, `deg`, `dinv`, `norm`); the two programs' gather and
scatter descriptors are the same records, so the terms agree as written.
-/

set_option maxRecDepth 16384

noncomputable section

namespace Cert.KernelIdeal.Chain

open Idealize.ShloMosaic Idealize.ShloMosaic.TcCoe Idealize.ShloMosaic.ValueIdx
open Cert.KernelIdeal Cert.KernelIdeal.Gen

variable (V : Valuation τ sig (Elt Ideal))

/-! ## The first stretch: rows of the edge lists, and the local degrees -/

/-- The local edges' source nodes. -/
theorem h0_v1 : (StableHlo.after hostOps0 V main_v1 : IVec S1000000 32) = Cert.Agg.src (V main_arg1) := by
  show StableHlo.after hostOps0 V (Proc.devRef .tc main_v1) = _
  after_results
  rfl

/-- The local edges' target nodes. -/
theorem h0_v3 : (StableHlo.after hostOps0 V main_v3 : IVec S1000000 32) = Cert.Agg.dst (V main_arg1) := by
  show StableHlo.after hostOps0 V (Proc.devRef .tc main_v3) = _
  after_results
  rfl

/-- The global edges' source nodes. -/
theorem h0_v5 : (StableHlo.after hostOps0 V main_v5 : IVec S1000000 32) = Cert.Agg.src (V main_arg2) := by
  show StableHlo.after hostOps0 V (Proc.devRef .tc main_v5) = _
  after_results
  rfl

/-- The global edges' target nodes. -/
theorem h0_v7 : (StableHlo.after hostOps0 V main_v7 : IVec S1000000 32) = Cert.Agg.dst (V main_arg2) := by
  show StableHlo.after hostOps0 V (Proc.devRef .tc main_v7) = _
  after_results
  rfl

/-- Where the local degree is positive. -/
theorem h0_v13 : (StableHlo.after hostOps0 V main_v13 : IVec S100000 1)
    = cmpf (F := Ideal) (φ := .f32) .ogt (Cert.Agg.deg (V main_arg1)) (broadcastInDim S100000 ![] bcast_S_S100000 (constant (F := Ideal) S_ .f32 0x00000000#32)) := by
  show StableHlo.after hostOps0 V (Proc.devRef .tc main_v13) = _
  after_results
  rfl

/-- The inverse square root of the local degree, everywhere. -/
theorem h0_v14 : (StableHlo.after hostOps0 V main_v14 : FVec Ideal S100000 .f32)
    = Host.rsqrt (F := Ideal) (φ := .f32) (Cert.Agg.deg (V main_arg1)) := by
  show StableHlo.after hostOps0 V (Proc.devRef .tc main_v14) = _
  after_results
  rfl

/-- The zero the selection falls back to. -/
theorem h0_cst2 : (StableHlo.after hostOps0 V main_cst_2 : FVec Ideal S_ .f32) = constant (F := Ideal) S_ .f32 0x00000000#32 := by
  show StableHlo.after hostOps0 V (Proc.devRef .tc main_cst_2) = _
  after_results

/-! ## The second stretch: the selection, for the local edge list -/

/-- The selected inverse square root of an edge list's degrees is that edge list's `dinv`, as written. -/
theorem dinv_eq (ei : Vec Ideal S2x1000000 .i32) :
    select (cmpf (F := Ideal) (φ := .f32) .ogt (Cert.Agg.deg ei) (broadcastInDim S100000 ![] bcast_S_S100000 (constant (F := Ideal) S_ .f32 0x00000000#32)))
        (Host.rsqrt (F := Ideal) (φ := .f32) (Cert.Agg.deg ei)) (broadcastInDim S100000 ![] bcast_S_S100000 (constant (F := Ideal) S_ .f32 0x00000000#32))
      = Cert.Agg.dinv ei := rfl

/-- The selection over whatever array the comparison and the inverse square root were taken of. -/
theorem h01_v15_raw (d : FVec Ideal S100000 .f32)
    (em : V (Proc.devRef .tc main_v13) = cmpf (F := Ideal) (φ := .f32) .ogt d (broadcastInDim S100000 ![] bcast_S_S100000 (constant (F := Ideal) S_ .f32 0x00000000#32)))
    (er : V (Proc.devRef .tc main_v14) = Host.rsqrt (F := Ideal) (φ := .f32) d)
    (ez : V (Proc.devRef .tc main_cst_2) = constant (F := Ideal) S_ .f32 0x00000000#32) :
    (StableHlo.after hostOps0_1 V main_v15 : FVec Ideal S100000 .f32)
      = select (cmpf (F := Ideal) (φ := .f32) .ogt d (broadcastInDim S100000 ![] bcast_S_S100000 (constant (F := Ideal) S_ .f32 0x00000000#32))) (Host.rsqrt (F := Ideal) (φ := .f32) d) (broadcastInDim S100000 ![] bcast_S_S100000 (constant (F := Ideal) S_ .f32 0x00000000#32)) := by
  show StableHlo.after hostOps0_1 V (Proc.devRef .tc main_v15) = _
  after_results
  rw [em, er, ez]
  rfl

/-- The inverse square root where the local degree is positive and zero elsewhere. -/
theorem h01_v15 (ei : Vec Ideal S2x1000000 .i32)
    (e13 : V (Proc.devRef .tc main_v13) = cmpf (F := Ideal) (φ := .f32) .ogt (Cert.Agg.deg ei) (broadcastInDim S100000 ![] bcast_S_S100000 (constant (F := Ideal) S_ .f32 0x00000000#32)))
    (e14 : V (Proc.devRef .tc main_v14) = Host.rsqrt (F := Ideal) (φ := .f32) (Cert.Agg.deg ei))
    (e2 : V (Proc.devRef .tc main_cst_2) = constant (F := Ideal) S_ .f32 0x00000000#32) :
    (StableHlo.after hostOps0_1 V main_v15 : FVec Ideal S100000 .f32) = Cert.Agg.dinv ei :=
  (h01_v15_raw V (Cert.Agg.deg ei) e13 e14 e2).trans (dinv_eq ei)

/-! ## The third stretch: the local edges' weights, and the global degrees -/

set_option maxHeartbeats 2000000 in
/-- An edge's weight: the selected inverse square root at its source times that at its target. -/
theorem h02_v30 (ei : Vec Ideal S2x1000000 .i32)
    (e15 : V (Proc.devRef .tc main_v15) = Cert.Agg.dinv ei)
    (e1 : V (Proc.devRef .tc main_v1) = Cert.Agg.src ei) (e3 : V (Proc.devRef .tc main_v3) = Cert.Agg.dst ei) :
    (StableHlo.after hostOps0_2 V main_v30 : FVec Ideal S1000000 .f32) = Cert.Agg.norm ei := by
  show StableHlo.after hostOps0_2 V (Proc.devRef .tc main_v30) = _
  after_results_simp
  rw [e15, e1, e3]
  rfl

set_option maxHeartbeats 2000000 in
/-- Where the global degree is positive. -/
theorem h02_v36 (ei : Vec Ideal S2x1000000 .i32) (e7 : V (Proc.devRef .tc main_v7) = Cert.Agg.dst ei) :
    (StableHlo.after hostOps0_2 V main_v36 : IVec S100000 1)
      = cmpf (F := Ideal) (φ := .f32) .ogt (Cert.Agg.deg ei) (broadcastInDim S100000 ![] bcast_S_S100000 (constant (F := Ideal) S_ .f32 0x00000000#32)) := by
  show StableHlo.after hostOps0_2 V (Proc.devRef .tc main_v36) = _
  after_results_simp
  rw [e7]
  rfl

set_option maxHeartbeats 2000000 in
/-- The inverse square root of the global degree, everywhere. -/
theorem h02_v37 (ei : Vec Ideal S2x1000000 .i32) (e7 : V (Proc.devRef .tc main_v7) = Cert.Agg.dst ei) :
    (StableHlo.after hostOps0_2 V main_v37 : FVec Ideal S100000 .f32)
      = Host.rsqrt (F := Ideal) (φ := .f32) (Cert.Agg.deg ei) := by
  show StableHlo.after hostOps0_2 V (Proc.devRef .tc main_v37) = _
  after_results_simp
  rw [e7]
  rfl

set_option maxHeartbeats 2000000 in
/-- The zero the second selection falls back to. -/
theorem h02_cst9 : (StableHlo.after hostOps0_2 V main_cst_9 : FVec Ideal S_ .f32) = constant (F := Ideal) S_ .f32 0x00000000#32 := by
  show StableHlo.after hostOps0_2 V (Proc.devRef .tc main_cst_9) = _
  after_results_simp

/-! ## The fourth stretch: the selection, for the global edge list -/

/-- The selection over whatever array the comparison and the inverse square root were taken of. -/
theorem h03_v38_raw (d : FVec Ideal S100000 .f32)
    (em : V (Proc.devRef .tc main_v36) = cmpf (F := Ideal) (φ := .f32) .ogt d (broadcastInDim S100000 ![] bcast_S_S100000 (constant (F := Ideal) S_ .f32 0x00000000#32)))
    (er : V (Proc.devRef .tc main_v37) = Host.rsqrt (F := Ideal) (φ := .f32) d)
    (ez : V (Proc.devRef .tc main_cst_9) = constant (F := Ideal) S_ .f32 0x00000000#32) :
    (StableHlo.after hostOps0_3 V main_v38 : FVec Ideal S100000 .f32)
      = select (cmpf (F := Ideal) (φ := .f32) .ogt d (broadcastInDim S100000 ![] bcast_S_S100000 (constant (F := Ideal) S_ .f32 0x00000000#32))) (Host.rsqrt (F := Ideal) (φ := .f32) d) (broadcastInDim S100000 ![] bcast_S_S100000 (constant (F := Ideal) S_ .f32 0x00000000#32)) := by
  show StableHlo.after hostOps0_3 V (Proc.devRef .tc main_v38) = _
  after_results
  rw [em, er, ez]
  rfl

/-- The inverse square root where the global degree is positive and zero elsewhere. -/
theorem h03_v38 (ei : Vec Ideal S2x1000000 .i32)
    (e36 : V (Proc.devRef .tc main_v36) = cmpf (F := Ideal) (φ := .f32) .ogt (Cert.Agg.deg ei) (broadcastInDim S100000 ![] bcast_S_S100000 (constant (F := Ideal) S_ .f32 0x00000000#32)))
    (e37 : V (Proc.devRef .tc main_v37) = Host.rsqrt (F := Ideal) (φ := .f32) (Cert.Agg.deg ei))
    (e9 : V (Proc.devRef .tc main_cst_9) = constant (F := Ideal) S_ .f32 0x00000000#32) :
    (StableHlo.after hostOps0_3 V main_v38 : FVec Ideal S100000 .f32) = Cert.Agg.dinv ei :=
  (h03_v38_raw V (Cert.Agg.deg ei) e36 e37 e9).trans (dinv_eq ei)

/-! ## The fifth stretch: the global edges' weights -/

set_option maxHeartbeats 2000000 in
theorem h04_v53 (ei : Vec Ideal S2x1000000 .i32)
    (e38 : V (Proc.devRef .tc main_v38) = Cert.Agg.dinv ei)
    (e5 : V (Proc.devRef .tc main_v5) = Cert.Agg.src ei) (e7 : V (Proc.devRef .tc main_v7) = Cert.Agg.dst ei) :
    (StableHlo.after hostOps0_4 V main_v53 : FVec Ideal S1000000 .f32) = Cert.Agg.norm ei := by
  show StableHlo.after hostOps0_4 V (Proc.devRef .tc main_v53) = _
  after_results_simp
  rw [e38, e5, e7]
  rfl

end Cert.KernelIdeal.Chain

end
-- ==== Proof.ChainL2.lean ====
import proofs.«174816_j57878979281252_2_alg».proof.Proof.Gen.KernelIdeal.Regions
import proofs.«174816_j57878979281252_2_alg».proof.Proof.Gen.ReferenceIdeal
import proofs.«174816_j57878979281252_2_alg».proof.Proof.Agg
import proofs.«174816_j57878979281252_2_alg».proof.Proof.Net
import Idealize.ShloMosaic.Lib.Pipeline.Value
import Idealize.ShloMosaic.Lib.StableHlo.Run
import Idealize.ShloMosaic.PureOps.Ideal.Laws

/-!
# Between the local encoder's regions: aggregation, bias rows, mean and variance

Each host stretch between two kernel regions of the local encoder, read at the buffers the next region takes, over
whatever valuation the stretch starts from: the neighbourhood aggregation of a region's result (gather at the
edges' sources, scale by the edges' weights, scatter-add at their targets: `Cert.Agg.agg`), a rank-1 parameter
recast as a row (`Spec.rowOf`), and the batch statistics from the column sums a region leaves (`Spec.mean`,
`Spec.varMom`).
-/

set_option maxRecDepth 16384

noncomputable section

namespace Cert.KernelIdeal.Chain

open Idealize.ShloMosaic Idealize.ShloMosaic.TcCoe Idealize.ShloMosaic.ValueIdx
open Cert.KernelIdeal Cert.KernelIdeal.Gen

variable (V : Valuation τ sig (Elt Ideal))

/-- A rank-1 array of 128 recast as a 1 × 128 array is that array read as a row. -/
theorem reshape_rowOf (v : Vec Ideal S128 .f32) :
    (shapeCast S1x128 v shapeCasts_S128_S1x128 : Spec.Row 128) = Spec.rowOf v := by
  funext i
  refine shapeCast_apply v shapeCasts_S128_S1x128 i (ix1 (i 1)) ?_
  rw [Shape.rowMajor_val_one, Shape.rowMajor_val_two]
  have h0 : (i 0).val < 1 := (i 0).isLt
  show (i 1).val = (i 0).val * 128 + (i 1).val
  omega

/-! ## After the first projection -/

set_option maxHeartbeats 2000000 in
/-- The projected features aggregated over the local edges. -/
theorem h1_v67 (ei : Vec Ideal S2x1000000 .i32) (h : Spec.Mat 100000 128)
    (e1 : V (Proc.devRef .tc main_v1) = Cert.Agg.src ei) (e3 : V (Proc.devRef .tc main_v3) = Cert.Agg.dst ei)
    (e30 : V (Proc.devRef .tc main_v30) = Cert.Agg.norm ei) (eh : V (Proc.devRef .tc main_v54) = h) :
    (StableHlo.after hostOps1 V main_v67 : Spec.Mat 100000 128) = Cert.Agg.agg ei h := by
  show StableHlo.after hostOps1 V (Proc.devRef .tc main_v67) = _
  after_results_simp
  rw [e1, e3, e30, eh]
  rfl

/-- The first layer's bias as a row. -/
theorem h1_v68 : (StableHlo.after hostOps1 V main_v68 : Spec.Row 128) = Spec.rowOf (V main_arg4) := by
  show StableHlo.after hostOps1 V (Proc.devRef .tc main_v68) = _
  after_results
  exact reshape_rowOf _

/-! ## After the first activation: its batch statistics, and the first normalisation's scale and shift -/

/-- The batch mean: the column sums over the number of rows. -/
theorem h2_v71 (y : Spec.Mat 100000 128) (e1 : V (Proc.devRef .tc main_v69_1) = Spec.colSum y) :
    (StableHlo.after hostOps2 V main_v71 : Spec.Row 128) = Spec.mean y := by
  show StableHlo.after hostOps2 V (Proc.devRef .tc main_v71) = _
  after_results
  rw [e1]
  rfl

/-- The batch variance: the mean of the squares less the squared mean, clamped at zero. -/
theorem h2_v77 (y : Spec.Mat 100000 128) (e1 : V (Proc.devRef .tc main_v69_1) = Spec.colSum y)
    (e2 : V (Proc.devRef .tc main_v69_2) = Spec.colSumSq y) :
    (StableHlo.after hostOps2 V main_v77 : Spec.Row 128) = Spec.varMom y := by
  show StableHlo.after hostOps2 V (Proc.devRef .tc main_v77) = _
  after_results
  rw [e1, e2]
  funext i
  show max (Ideal.div (Spec.colSumSq y i) Spec.nRows
      - Ideal.div (Spec.colSum y i) Spec.nRows * Ideal.div (Spec.colSum y i) Spec.nRows) (Ideal.ofBits .f32 0x00000000#32) = _
  rw [Ideal.ofBits_zero_f32]
  rfl

/-- The first normalisation's scale as a row. -/
theorem h2_v78 : (StableHlo.after hostOps2 V main_v78 : Spec.Row 128) = Spec.rowOf (V main_arg7) := by
  show StableHlo.after hostOps2 V (Proc.devRef .tc main_v78) = _
  after_results
  exact reshape_rowOf _

/-- The first normalisation's shift as a row. -/
theorem h2_v79 : (StableHlo.after hostOps2 V main_v79 : Spec.Row 128) = Spec.rowOf (V main_arg8) := by
  show StableHlo.after hostOps2 V (Proc.devRef .tc main_v79) = _
  after_results
  exact reshape_rowOf _

/-! ## After the second projection -/

set_option maxHeartbeats 2000000 in
/-- The second projection aggregated over the local edges. -/
theorem h3_v93 (ei : Vec Ideal S2x1000000 .i32) (h : Spec.Mat 100000 128)
    (e1 : V (Proc.devRef .tc main_v1) = Cert.Agg.src ei) (e3 : V (Proc.devRef .tc main_v3) = Cert.Agg.dst ei)
    (e30 : V (Proc.devRef .tc main_v30) = Cert.Agg.norm ei) (eh : V (Proc.devRef .tc main_v80) = h) :
    (StableHlo.after hostOps3 V main_v93 : Spec.Mat 100000 128) = Cert.Agg.agg ei h := by
  show StableHlo.after hostOps3 V (Proc.devRef .tc main_v93) = _
  after_results_simp
  rw [e1, e3, e30, eh]
  rfl

/-- The second layer's bias as a row. -/
theorem h3_v94 : (StableHlo.after hostOps3 V main_v94 : Spec.Row 128) = Spec.rowOf (V main_arg6) := by
  show StableHlo.after hostOps3 V (Proc.devRef .tc main_v94) = _
  after_results
  exact reshape_rowOf _

/-! ## After the second layer: its batch statistics -/

/-- The batch mean: the column sums over the number of rows. -/
theorem h4_v97 (y : Spec.Mat 100000 128) (e1 : V (Proc.devRef .tc main_v95_1) = Spec.colSum y) :
    (StableHlo.after hostOps4 V main_v97 : Spec.Row 128) = Spec.mean y := by
  show StableHlo.after hostOps4 V (Proc.devRef .tc main_v97) = _
  after_results
  rw [e1]
  rfl

/-- The batch variance: the mean of the squares less the squared mean, clamped at zero. -/
theorem h4_v103 (y : Spec.Mat 100000 128) (e1 : V (Proc.devRef .tc main_v95_1) = Spec.colSum y)
    (e2 : V (Proc.devRef .tc main_v95_2) = Spec.colSumSq y) :
    (StableHlo.after hostOps4 V main_v103 : Spec.Row 128) = Spec.varMom y := by
  show StableHlo.after hostOps4 V (Proc.devRef .tc main_v103) = _
  after_results
  rw [e1, e2]
  funext i
  show max (Ideal.div (Spec.colSumSq y i) Spec.nRows
      - Ideal.div (Spec.colSum y i) Spec.nRows * Ideal.div (Spec.colSum y i) Spec.nRows) (Ideal.ofBits .f32 0x00000000#32) = _
  rw [Ideal.ofBits_zero_f32]
  rfl

/-! ## Before the local encoder's perceptron: four parameters as rows -/

/-- The second normalisation's scale as a row. -/
theorem h8_v154 : (StableHlo.after hostOps8 V main_v154 : Spec.Row 128) = Spec.rowOf (V main_arg9) := by
  show StableHlo.after hostOps8 V (Proc.devRef .tc main_v154) = _
  after_results
  exact reshape_rowOf _

/-- The second normalisation's shift as a row. -/
theorem h8_v155 : (StableHlo.after hostOps8 V main_v155 : Spec.Row 128) = Spec.rowOf (V main_arg10) := by
  show StableHlo.after hostOps8 V (Proc.devRef .tc main_v155) = _
  after_results
  exact reshape_rowOf _

/-- The perceptron's first bias as a row. -/
theorem h8_v156 : (StableHlo.after hostOps8 V main_v156 : Spec.Row 128) = Spec.rowOf (V main_arg20) := by
  show StableHlo.after hostOps8 V (Proc.devRef .tc main_v156) = _
  after_results
  exact reshape_rowOf _

/-- The perceptron's second bias as a row. -/
theorem h8_v157 : (StableHlo.after hostOps8 V main_v157 : Spec.Row 128) = Spec.rowOf (V main_arg22) := by
  show StableHlo.after hostOps8 V (Proc.devRef .tc main_v157) = _
  after_results
  exact reshape_rowOf _

end Cert.KernelIdeal.Chain

end
-- ==== Proof.ChainSteps.lean ====
import proofs.«174816_j57878979281252_2_alg».proof.Proof.Family
import Idealize.ShloMosaic.PureOps.Ideal

/-!
# Item by item: what an item does not write it leaves alone, and the arguments stay as launched

The program is 31 items in order, a stretch of host operations or a kernel region, and the chain of valuations
T0, ..., T31 names the buffers' contents between them. A host stretch changes only the buffers its operations
write; a kernel region only its result arrays. So a buffer outside an item's written list holds after the item
what it held before: one lemma per item. No item writes an argument array, so where an item of the local encoder
reads one it still holds its launch contents: the steps before that item, one after the other.
-/

set_option maxRecDepth 16384

noncomputable section

namespace Cert.KernelIdeal.Chain

open Idealize.ShloMosaic Idealize.ShloMosaic.TcCoe
open Cert.KernelIdeal Cert.KernelIdeal.Gen Cert.KernelIdeal.Reg Cert.KernelIdeal.Run

variable (m : (ℓ : Loc nD τ sig) → Buf (Elt Ideal) ℓ) (c : Dev nD)

/-! ## One item at a time -/

theorem step0 (r : Ref sig .tc) (h : r ∉ hostOps0_W) : T1 m c r = T0 m c r :=
  StableHlo.after_of_writes_sub hostOps0 (T0 m c) hostOps0_writes h
theorem step1 (r : Ref sig .tc) (h : r ∉ hostOps0_1_W) : T2 m c r = T1 m c r :=
  StableHlo.after_of_writes_sub hostOps0_1 (T1 m c) hostOps0_1_writes h
theorem step2 (r : Ref sig .tc) (h : r ∉ hostOps0_2_W) : T3 m c r = T2 m c r :=
  StableHlo.after_of_writes_sub hostOps0_2 (T2 m c) hostOps0_2_writes h
theorem step3 (r : Ref sig .tc) (h : r ∉ hostOps0_3_W) : T4 m c r = T3 m c r :=
  StableHlo.after_of_writes_sub hostOps0_3 (T3 m c) hostOps0_3_writes h
theorem step4 (r : Ref sig .tc) (h : r ∉ hostOps0_4_W) : T5 m c r = T4 m c r :=
  StableHlo.after_of_writes_sub hostOps0_4 (T4 m c) hostOps0_4_writes h
theorem step5 (r : Ref sig .tc) (h : r ∉ ([main_v54] : List (Ref sig .tc))) : T6 m c r = T5 m c r :=
  T6_of m c r h
theorem step6 (r : Ref sig .tc) (h : r ∉ hostOps1_W) : T7 m c r = T6 m c r :=
  StableHlo.after_of_writes_sub hostOps1 (T6 m c) hostOps1_writes h
theorem step7 (r : Ref sig .tc) (h : r ∉ ([main_v69_0, main_v69_1, main_v69_2] : List (Ref sig .tc))) : T8 m c r = T7 m c r :=
  T8_of m c r h
theorem step8 (r : Ref sig .tc) (h : r ∉ hostOps2_W) : T9 m c r = T8 m c r :=
  StableHlo.after_of_writes_sub hostOps2 (T8 m c) hostOps2_writes h
theorem step9 (r : Ref sig .tc) (h : r ∉ ([main_v80] : List (Ref sig .tc))) : T10 m c r = T9 m c r :=
  T10_of m c r h
theorem step10 (r : Ref sig .tc) (h : r ∉ hostOps3_W) : T11 m c r = T10 m c r :=
  StableHlo.after_of_writes_sub hostOps3 (T10 m c) hostOps3_writes h
theorem step11 (r : Ref sig .tc) (h : r ∉ ([main_v95_0, main_v95_1, main_v95_2] : List (Ref sig .tc))) : T12 m c r = T11 m c r :=
  T12_of m c r h
theorem step12 (r : Ref sig .tc) (h : r ∉ hostOps4_W) : T13 m c r = T12 m c r :=
  StableHlo.after_of_writes_sub hostOps4 (T12 m c) hostOps4_writes h
theorem step13 (r : Ref sig .tc) (h : r ∉ ([main_v104] : List (Ref sig .tc))) : T14 m c r = T13 m c r :=
  T14_of m c r h
theorem step14 (r : Ref sig .tc) (h : r ∉ hostOps5_W) : T15 m c r = T14 m c r :=
  StableHlo.after_of_writes_sub hostOps5 (T14 m c) hostOps5_writes h
theorem step15 (r : Ref sig .tc) (h : r ∉ ([main_v119_0, main_v119_1, main_v119_2] : List (Ref sig .tc))) : T16 m c r = T15 m c r :=
  T16_of m c r h
theorem step16 (r : Ref sig .tc) (h : r ∉ hostOps6_W) : T17 m c r = T16 m c r :=
  StableHlo.after_of_writes_sub hostOps6 (T16 m c) hostOps6_writes h
theorem step17 (r : Ref sig .tc) (h : r ∉ ([main_v130] : List (Ref sig .tc))) : T18 m c r = T17 m c r :=
  T18_of m c r h
theorem step18 (r : Ref sig .tc) (h : r ∉ hostOps7_W) : T19 m c r = T18 m c r :=
  StableHlo.after_of_writes_sub hostOps7 (T18 m c) hostOps7_writes h
theorem step19 (r : Ref sig .tc) (h : r ∉ ([main_v145_0, main_v145_1, main_v145_2] : List (Ref sig .tc))) : T20 m c r = T19 m c r :=
  T20_of m c r h
theorem step20 (r : Ref sig .tc) (h : r ∉ hostOps8_W) : T21 m c r = T20 m c r :=
  StableHlo.after_of_writes_sub hostOps8 (T20 m c) hostOps8_writes h
theorem step21 (r : Ref sig .tc) (h : r ∉ ([main_v158] : List (Ref sig .tc))) : T22 m c r = T21 m c r :=
  T22_of m c r h
theorem step22 (r : Ref sig .tc) (h : r ∉ hostOps9_W) : T23 m c r = T22 m c r :=
  StableHlo.after_of_writes_sub hostOps9 (T22 m c) hostOps9_writes h
theorem step23 (r : Ref sig .tc) (h : r ∉ ([main_v163] : List (Ref sig .tc))) : T24 m c r = T23 m c r :=
  T24_of m c r h
theorem step24 (r : Ref sig .tc) (h : r ∉ hostOps10_W) : T25 m c r = T24 m c r :=
  StableHlo.after_of_writes_sub hostOps10 (T24 m c) hostOps10_writes h
theorem step25 (r : Ref sig .tc) (h : r ∉ ([main_v166_0, main_v166_1, main_v166_2] : List (Ref sig .tc))) : T26 m c r = T25 m c r :=
  T26_of m c r h
theorem step26 (r : Ref sig .tc) (h : r ∉ hostOps11_W) : T27 m c r = T26 m c r :=
  StableHlo.after_of_writes_sub hostOps11 (T26 m c) hostOps11_writes h
theorem step27 (r : Ref sig .tc) (h : r ∉ hostOps11_1_W) : T28 m c r = T27 m c r :=
  StableHlo.after_of_writes_sub hostOps11_1 (T27 m c) hostOps11_1_writes h
theorem step28 (r : Ref sig .tc) (h : r ∉ hostOps11_2_W) : T29 m c r = T28 m c r :=
  StableHlo.after_of_writes_sub hostOps11_2 (T28 m c) hostOps11_2_writes h
theorem step29 (r : Ref sig .tc) (h : r ∉ hostOps11_3_W) : T30 m c r = T29 m c r :=
  StableHlo.after_of_writes_sub hostOps11_3 (T29 m c) hostOps11_3_writes h
theorem step30 (r : Ref sig .tc) (h : r ∉ hostOps11_4_W) : T31 m c r = T30 m c r :=
  StableHlo.after_of_writes_sub hostOps11_4 (T30 m c) hostOps11_4_writes h

/-! ## The arguments stay as launched -/

theorem arg0_T5 : T5 m c main_arg0 = T0 m c main_arg0 :=
  (step4 m c main_arg0 (by decide)).trans <| (step3 m c main_arg0 (by decide)).trans <| (step2 m c main_arg0 (by decide)).trans <| (step1 m c main_arg0 (by decide)).trans <| step0 m c main_arg0 (by decide)
theorem arg3_T5 : T5 m c main_arg3 = T0 m c main_arg3 :=
  (step4 m c main_arg3 (by decide)).trans <| (step3 m c main_arg3 (by decide)).trans <| (step2 m c main_arg3 (by decide)).trans <| (step1 m c main_arg3 (by decide)).trans <| step0 m c main_arg3 (by decide)
theorem arg4_T6 : T6 m c main_arg4 = T0 m c main_arg4 :=
  (step5 m c main_arg4 (by decide)).trans <| (step4 m c main_arg4 (by decide)).trans <| (step3 m c main_arg4 (by decide)).trans <| (step2 m c main_arg4 (by decide)).trans <| (step1 m c main_arg4 (by decide)).trans <| step0 m c main_arg4 (by decide)
theorem arg7_T8 : T8 m c main_arg7 = T0 m c main_arg7 :=
  (step7 m c main_arg7 (by decide)).trans <| (step6 m c main_arg7 (by decide)).trans <| (step5 m c main_arg7 (by decide)).trans <| (step4 m c main_arg7 (by decide)).trans <| (step3 m c main_arg7 (by decide)).trans <| (step2 m c main_arg7 (by decide)).trans <| (step1 m c main_arg7 (by decide)).trans <| step0 m c main_arg7 (by decide)
theorem arg8_T8 : T8 m c main_arg8 = T0 m c main_arg8 :=
  (step7 m c main_arg8 (by decide)).trans <| (step6 m c main_arg8 (by decide)).trans <| (step5 m c main_arg8 (by decide)).trans <| (step4 m c main_arg8 (by decide)).trans <| (step3 m c main_arg8 (by decide)).trans <| (step2 m c main_arg8 (by decide)).trans <| (step1 m c main_arg8 (by decide)).trans <| step0 m c main_arg8 (by decide)
theorem arg5_T9 : T9 m c main_arg5 = T0 m c main_arg5 :=
  (step8 m c main_arg5 (by decide)).trans <| (step7 m c main_arg5 (by decide)).trans <| (step6 m c main_arg5 (by decide)).trans <| (step5 m c main_arg5 (by decide)).trans <| (step4 m c main_arg5 (by decide)).trans <| (step3 m c main_arg5 (by decide)).trans <| (step2 m c main_arg5 (by decide)).trans <| (step1 m c main_arg5 (by decide)).trans <| step0 m c main_arg5 (by decide)
theorem arg6_T10 : T10 m c main_arg6 = T0 m c main_arg6 :=
  (step9 m c main_arg6 (by decide)).trans <| (step8 m c main_arg6 (by decide)).trans <| (step7 m c main_arg6 (by decide)).trans <| (step6 m c main_arg6 (by decide)).trans <| (step5 m c main_arg6 (by decide)).trans <| (step4 m c main_arg6 (by decide)).trans <| (step3 m c main_arg6 (by decide)).trans <| (step2 m c main_arg6 (by decide)).trans <| (step1 m c main_arg6 (by decide)).trans <| step0 m c main_arg6 (by decide)
theorem arg9_T20 : T20 m c main_arg9 = T0 m c main_arg9 :=
  (step19 m c main_arg9 (by decide)).trans <| (step18 m c main_arg9 (by decide)).trans <| (step17 m c main_arg9 (by decide)).trans <| (step16 m c main_arg9 (by decide)).trans <| (step15 m c main_arg9 (by decide)).trans <| (step14 m c main_arg9 (by decide)).trans <| (step13 m c main_arg9 (by decide)).trans <| (step12 m c main_arg9 (by decide)).trans <| (step11 m c main_arg9 (by decide)).trans <| (step10 m c main_arg9 (by decide)).trans <| (step9 m c main_arg9 (by decide)).trans <| (step8 m c main_arg9 (by decide)).trans <| (step7 m c main_arg9 (by decide)).trans <| (step6 m c main_arg9 (by decide)).trans <| (step5 m c main_arg9 (by decide)).trans <| (step4 m c main_arg9 (by decide)).trans <| (step3 m c main_arg9 (by decide)).trans <| (step2 m c main_arg9 (by decide)).trans <| (step1 m c main_arg9 (by decide)).trans <| step0 m c main_arg9 (by decide)
theorem arg10_T20 : T20 m c main_arg10 = T0 m c main_arg10 :=
  (step19 m c main_arg10 (by decide)).trans <| (step18 m c main_arg10 (by decide)).trans <| (step17 m c main_arg10 (by decide)).trans <| (step16 m c main_arg10 (by decide)).trans <| (step15 m c main_arg10 (by decide)).trans <| (step14 m c main_arg10 (by decide)).trans <| (step13 m c main_arg10 (by decide)).trans <| (step12 m c main_arg10 (by decide)).trans <| (step11 m c main_arg10 (by decide)).trans <| (step10 m c main_arg10 (by decide)).trans <| (step9 m c main_arg10 (by decide)).trans <| (step8 m c main_arg10 (by decide)).trans <| (step7 m c main_arg10 (by decide)).trans <| (step6 m c main_arg10 (by decide)).trans <| (step5 m c main_arg10 (by decide)).trans <| (step4 m c main_arg10 (by decide)).trans <| (step3 m c main_arg10 (by decide)).trans <| (step2 m c main_arg10 (by decide)).trans <| (step1 m c main_arg10 (by decide)).trans <| step0 m c main_arg10 (by decide)
theorem arg20_T20 : T20 m c main_arg20 = T0 m c main_arg20 :=
  (step19 m c main_arg20 (by decide)).trans <| (step18 m c main_arg20 (by decide)).trans <| (step17 m c main_arg20 (by decide)).trans <| (step16 m c main_arg20 (by decide)).trans <| (step15 m c main_arg20 (by decide)).trans <| (step14 m c main_arg20 (by decide)).trans <| (step13 m c main_arg20 (by decide)).trans <| (step12 m c main_arg20 (by decide)).trans <| (step11 m c main_arg20 (by decide)).trans <| (step10 m c main_arg20 (by decide)).trans <| (step9 m c main_arg20 (by decide)).trans <| (step8 m c main_arg20 (by decide)).trans <| (step7 m c main_arg20 (by decide)).trans <| (step6 m c main_arg20 (by decide)).trans <| (step5 m c main_arg20 (by decide)).trans <| (step4 m c main_arg20 (by decide)).trans <| (step3 m c main_arg20 (by decide)).trans <| (step2 m c main_arg20 (by decide)).trans <| (step1 m c main_arg20 (by decide)).trans <| step0 m c main_arg20 (by decide)
theorem arg22_T20 : T20 m c main_arg22 = T0 m c main_arg22 :=
  (step19 m c main_arg22 (by decide)).trans <| (step18 m c main_arg22 (by decide)).trans <| (step17 m c main_arg22 (by decide)).trans <| (step16 m c main_arg22 (by decide)).trans <| (step15 m c main_arg22 (by decide)).trans <| (step14 m c main_arg22 (by decide)).trans <| (step13 m c main_arg22 (by decide)).trans <| (step12 m c main_arg22 (by decide)).trans <| (step11 m c main_arg22 (by decide)).trans <| (step10 m c main_arg22 (by decide)).trans <| (step9 m c main_arg22 (by decide)).trans <| (step8 m c main_arg22 (by decide)).trans <| (step7 m c main_arg22 (by decide)).trans <| (step6 m c main_arg22 (by decide)).trans <| (step5 m c main_arg22 (by decide)).trans <| (step4 m c main_arg22 (by decide)).trans <| (step3 m c main_arg22 (by decide)).trans <| (step2 m c main_arg22 (by decide)).trans <| (step1 m c main_arg22 (by decide)).trans <| step0 m c main_arg22 (by decide)
theorem arg19_T21 : T21 m c main_arg19 = T0 m c main_arg19 :=
  (step20 m c main_arg19 (by decide)).trans <| (step19 m c main_arg19 (by decide)).trans <| (step18 m c main_arg19 (by decide)).trans <| (step17 m c main_arg19 (by decide)).trans <| (step16 m c main_arg19 (by decide)).trans <| (step15 m c main_arg19 (by decide)).trans <| (step14 m c main_arg19 (by decide)).trans <| (step13 m c main_arg19 (by decide)).trans <| (step12 m c main_arg19 (by decide)).trans <| (step11 m c main_arg19 (by decide)).trans <| (step10 m c main_arg19 (by decide)).trans <| (step9 m c main_arg19 (by decide)).trans <| (step8 m c main_arg19 (by decide)).trans <| (step7 m c main_arg19 (by decide)).trans <| (step6 m c main_arg19 (by decide)).trans <| (step5 m c main_arg19 (by decide)).trans <| (step4 m c main_arg19 (by decide)).trans <| (step3 m c main_arg19 (by decide)).trans <| (step2 m c main_arg19 (by decide)).trans <| (step1 m c main_arg19 (by decide)).trans <| step0 m c main_arg19 (by decide)
theorem arg21_T21 : T21 m c main_arg21 = T0 m c main_arg21 :=
  (step20 m c main_arg21 (by decide)).trans <| (step19 m c main_arg21 (by decide)).trans <| (step18 m c main_arg21 (by decide)).trans <| (step17 m c main_arg21 (by decide)).trans <| (step16 m c main_arg21 (by decide)).trans <| (step15 m c main_arg21 (by decide)).trans <| (step14 m c main_arg21 (by decide)).trans <| (step13 m c main_arg21 (by decide)).trans <| (step12 m c main_arg21 (by decide)).trans <| (step11 m c main_arg21 (by decide)).trans <| (step10 m c main_arg21 (by decide)).trans <| (step9 m c main_arg21 (by decide)).trans <| (step8 m c main_arg21 (by decide)).trans <| (step7 m c main_arg21 (by decide)).trans <| (step6 m c main_arg21 (by decide)).trans <| (step5 m c main_arg21 (by decide)).trans <| (step4 m c main_arg21 (by decide)).trans <| (step3 m c main_arg21 (by decide)).trans <| (step2 m c main_arg21 (by decide)).trans <| (step1 m c main_arg21 (by decide)).trans <| step0 m c main_arg21 (by decide)

end Cert.KernelIdeal.Chain

end
-- ==== Proof.ChainL3.lean ====
import proofs.«174816_j57878979281252_2_alg».proof.Proof.ChainArgs
import proofs.«174816_j57878979281252_2_alg».proof.Proof.ChainL1
import proofs.«174816_j57878979281252_2_alg».proof.Proof.ChainL2
import proofs.«174816_j57878979281252_2_alg».proof.Proof.ChainSteps

/-!
# The local encoder, item by item, to its output

The program's items are run through in order. After each, the buffers the later items of the local encoder read
are named as terms of the specification: the edge list's rows and weights after the first five stretches; the
first projection; its aggregation and the bias row; the first activation with its column sums, then its batch mean
and variance; the second projection, aggregation and bias; the second layer with its statistics; and, after the
global encoder's items (which write none of these buffers), the local output through the shared perceptron. No
later item writes that output, so the last valuation still holds it. An argument array is written by no item: where
an item reads one it holds its launch contents.

Each kernel region enters through what it leaves in a result array as a function of the arrays it found (the
value modules' theorems, gathered in `LocalVals`); each host stretch through the lemmas over an arbitrary
valuation proved before.
-/

set_option maxRecDepth 16384
set_option maxHeartbeats 2000000

noncomputable section

namespace Cert.KernelIdeal.Chain

open Idealize.ShloMosaic Idealize.ShloMosaic.TcCoe Idealize.ShloMosaic.ValueIdx
open Idealize.ShloMosaic.Pipeline (Dat)
open Cert.KernelIdeal Cert.KernelIdeal.Gen Cert.KernelIdeal.Reg Cert.KernelIdeal.Run

variable (m : (ℓ : Loc nD τ sig) → Buf (Elt Ideal) ℓ) (c : Dev nD)

/-! ## What the local encoder's kernel regions leave, as the value modules state it -/

set_option maxHeartbeats 8000000 in
/-- The nine facts about the regions of the local encoder this file rests on: what each region's write-backs leave
    in a result array, as a function of the arrays the region found, whatever valuation it is entered from. -/
structure LocalVals : Prop where
  r0 : ∀ (V : (c : Dev nD) → (b : Ref sig .tc) → Buf (Elt Ideal) ((c : Thread nD τ).loc b)) (c : Dev nD), (dat0 (F := Ideal) V c).arrAt 2 cfg0.N
      = Spec.mm (V c (Pipeline.arrRef spec0 0) : Spec.Mat 100000 256) (V c (Pipeline.arrRef spec0 1) : Spec.Mat 256 128)
  r1_2 : ∀ (V : (c : Dev nD) → (b : Ref sig .tc) → Buf (Elt Ideal) ((c : Thread nD τ).loc b)) (c : Dev nD), (dat1 (F := Ideal) V c).arrAt 2 cfg1.N
      = Spec.relu (Spec.addRow (V c (Pipeline.arrRef spec1 0) : Spec.Mat 100000 128) (V c (Pipeline.arrRef spec1 1) : Spec.Row 128))
  r1_3 : ∀ (V : (c : Dev nD) → (b : Ref sig .tc) → Buf (Elt Ideal) ((c : Thread nD τ).loc b)) (c : Dev nD), (dat1 (F := Ideal) V c).arrAt 3 cfg1.N
      = Spec.colSum (Spec.relu (Spec.addRow (V c (Pipeline.arrRef spec1 0) : Spec.Mat 100000 128) (V c (Pipeline.arrRef spec1 1) : Spec.Row 128)))
  r1_4 : ∀ (V : (c : Dev nD) → (b : Ref sig .tc) → Buf (Elt Ideal) ((c : Thread nD τ).loc b)) (c : Dev nD), (dat1 (F := Ideal) V c).arrAt 4 cfg1.N
      = Spec.colSumSq (Spec.relu (Spec.addRow (V c (Pipeline.arrRef spec1 0) : Spec.Mat 100000 128) (V c (Pipeline.arrRef spec1 1) : Spec.Row 128)))
  r2_6 : ∀ (V : (c : Dev nD) → (b : Ref sig .tc) → Buf (Elt Ideal) ((c : Thread nD τ).loc b)) (c : Dev nD), (dat2 (F := Ideal) V c).arrAt 6 cfg2.N
      = Spec.mm (Spec.bn (V c (Pipeline.arrRef spec2 0) : Spec.Mat 100000 128) (V c (Pipeline.arrRef spec2 1) : Spec.Row 128) (V c (Pipeline.arrRef spec2 2) : Spec.Row 128) (V c (Pipeline.arrRef spec2 3) : Spec.Row 128) (V c (Pipeline.arrRef spec2 4) : Spec.Row 128))
          (V c (Pipeline.arrRef spec2 5) : Spec.Mat 128 128)
  r3_2 : ∀ (V : (c : Dev nD) → (b : Ref sig .tc) → Buf (Elt Ideal) ((c : Thread nD τ).loc b)) (c : Dev nD), (dat3 (F := Ideal) V c).arrAt 2 cfg3.N
      = Spec.addRow (V c (Pipeline.arrRef spec3 0) : Spec.Mat 100000 128) (V c (Pipeline.arrRef spec3 1) : Spec.Row 128)
  r3_3 : ∀ (V : (c : Dev nD) → (b : Ref sig .tc) → Buf (Elt Ideal) ((c : Thread nD τ).loc b)) (c : Dev nD), (dat3 (F := Ideal) V c).arrAt 3 cfg3.N
      = Spec.colSum (Spec.addRow (V c (Pipeline.arrRef spec3 0) : Spec.Mat 100000 128) (V c (Pipeline.arrRef spec3 1) : Spec.Row 128))
  r3_4 : ∀ (V : (c : Dev nD) → (b : Ref sig .tc) → Buf (Elt Ideal) ((c : Thread nD τ).loc b)) (c : Dev nD), (dat3 (F := Ideal) V c).arrAt 4 cfg3.N
      = Spec.colSumSq (Spec.addRow (V c (Pipeline.arrRef spec3 0) : Spec.Mat 100000 128) (V c (Pipeline.arrRef spec3 1) : Spec.Row 128))
  r8_9 : ∀ (V : (c : Dev nD) → (b : Ref sig .tc) → Buf (Elt Ideal) ((c : Thread nD τ).loc b)) (c : Dev nD), (dat8 (F := Ideal) V c).arrAt 9 cfg8.N
      = Spec.mlp (Spec.bn (V c (Pipeline.arrRef spec8 0) : Spec.Mat 100000 128) (V c (Pipeline.arrRef spec8 1) : Spec.Row 128) (V c (Pipeline.arrRef spec8 2) : Spec.Row 128) (V c (Pipeline.arrRef spec8 3) : Spec.Row 128) (V c (Pipeline.arrRef spec8 4) : Spec.Row 128))
          (V c (Pipeline.arrRef spec8 5) : Spec.Mat 128 128) (V c (Pipeline.arrRef spec8 6) : Spec.Row 128) (V c (Pipeline.arrRef spec8 7) : Spec.Mat 128 128) (V c (Pipeline.arrRef spec8 8) : Spec.Row 128)

/-! ## The specification's names for the local encoder's intermediate arrays -/

/-- The local encoder's first activation. -/
abbrev y1L : Spec.Mat 100000 128 := Spec.act1 (Cert.Agg.agg (eiL m c)) (xOf m c) (pL m c)
/-- The local encoder's second layer, before its normalisation. -/
abbrev y2L : Spec.Mat 100000 128 := Spec.act2 Spec.varMom (Cert.Agg.agg (eiL m c)) (xOf m c) (pL m c)
/-- The second projection: the first activation normalised with its batch statistics, times the second weights. -/
abbrev h2L : Spec.Mat 100000 128 :=
  Spec.mm (Spec.bn (y1L m c) (Spec.mean (y1L m c)) (Spec.varMom (y1L m c)) (pL m c).g1 (pL m c).bt1) (pL m c).W2

/-! ## The edge lists' rows and weights (items 0 to 4) -/

theorem T1_v1 : (T1 m c main_v1 : IVec S1000000 32) = Cert.Agg.src (eiL m c) := h0_v1 (T0 m c)
theorem T1_v3 : (T1 m c main_v3 : IVec S1000000 32) = Cert.Agg.dst (eiL m c) := h0_v3 (T0 m c)
theorem T1_v5 : (T1 m c main_v5 : IVec S1000000 32) = Cert.Agg.src (eiG m c) := h0_v5 (T0 m c)
theorem T1_v7 : (T1 m c main_v7 : IVec S1000000 32) = Cert.Agg.dst (eiG m c) := h0_v7 (T0 m c)
theorem T1_v13 : (T1 m c main_v13 : IVec S100000 1)
    = cmpf (F := Ideal) (φ := .f32) .ogt (Cert.Agg.deg (eiL m c)) (broadcastInDim S100000 ![] bcast_S_S100000 (constant (F := Ideal) S_ .f32 0x00000000#32)) := h0_v13 (T0 m c)
theorem T1_v14 : (T1 m c main_v14 : FVec Ideal S100000 .f32)
    = Host.rsqrt (F := Ideal) (φ := .f32) (Cert.Agg.deg (eiL m c)) := h0_v14 (T0 m c)
theorem T1_cst2 : (T1 m c main_cst_2 : FVec Ideal S_ .f32) = constant (F := Ideal) S_ .f32 0x00000000#32 := h0_cst2 (T0 m c)

theorem T2_v15 : (T2 m c main_v15 : FVec Ideal S100000 .f32) = Cert.Agg.dinv (eiL m c) :=
  h01_v15 (T1 m c) (eiL m c) (T1_v13 m c) (T1_v14 m c) (T1_cst2 m c)
theorem T2_v1 : (T2 m c main_v1 : IVec S1000000 32) = Cert.Agg.src (eiL m c) :=
  (step1 m c main_v1 (by decide)).trans (T1_v1 m c)
theorem T2_v3 : (T2 m c main_v3 : IVec S1000000 32) = Cert.Agg.dst (eiL m c) :=
  (step1 m c main_v3 (by decide)).trans (T1_v3 m c)
theorem T2_v5 : (T2 m c main_v5 : IVec S1000000 32) = Cert.Agg.src (eiG m c) :=
  (step1 m c main_v5 (by decide)).trans (T1_v5 m c)
theorem T2_v7 : (T2 m c main_v7 : IVec S1000000 32) = Cert.Agg.dst (eiG m c) :=
  (step1 m c main_v7 (by decide)).trans (T1_v7 m c)

theorem T3_v30 : (T3 m c main_v30 : FVec Ideal S1000000 .f32) = Cert.Agg.norm (eiL m c) :=
  h02_v30 (T2 m c) (eiL m c) (T2_v15 m c) (T2_v1 m c) (T2_v3 m c)
theorem T3_v36 : (T3 m c main_v36 : IVec S100000 1)
    = cmpf (F := Ideal) (φ := .f32) .ogt (Cert.Agg.deg (eiG m c)) (broadcastInDim S100000 ![] bcast_S_S100000 (constant (F := Ideal) S_ .f32 0x00000000#32)) := h02_v36 (T2 m c) (eiG m c) (T2_v7 m c)
theorem T3_v37 : (T3 m c main_v37 : FVec Ideal S100000 .f32)
    = Host.rsqrt (F := Ideal) (φ := .f32) (Cert.Agg.deg (eiG m c)) := h02_v37 (T2 m c) (eiG m c) (T2_v7 m c)
theorem T3_cst9 : (T3 m c main_cst_9 : FVec Ideal S_ .f32) = constant (F := Ideal) S_ .f32 0x00000000#32 := h02_cst9 (T2 m c)
theorem T3_v1 : (T3 m c main_v1 : IVec S1000000 32) = Cert.Agg.src (eiL m c) :=
  (step2 m c main_v1 (by decide)).trans (T2_v1 m c)
theorem T3_v3 : (T3 m c main_v3 : IVec S1000000 32) = Cert.Agg.dst (eiL m c) :=
  (step2 m c main_v3 (by decide)).trans (T2_v3 m c)
theorem T3_v5 : (T3 m c main_v5 : IVec S1000000 32) = Cert.Agg.src (eiG m c) :=
  (step2 m c main_v5 (by decide)).trans (T2_v5 m c)
theorem T3_v7 : (T3 m c main_v7 : IVec S1000000 32) = Cert.Agg.dst (eiG m c) :=
  (step2 m c main_v7 (by decide)).trans (T2_v7 m c)

theorem T4_v38 : (T4 m c main_v38 : FVec Ideal S100000 .f32) = Cert.Agg.dinv (eiG m c) :=
  h03_v38 (T3 m c) (eiG m c) (T3_v36 m c) (T3_v37 m c) (T3_cst9 m c)
theorem T4_v1 : (T4 m c main_v1 : IVec S1000000 32) = Cert.Agg.src (eiL m c) :=
  (step3 m c main_v1 (by decide)).trans (T3_v1 m c)
theorem T4_v3 : (T4 m c main_v3 : IVec S1000000 32) = Cert.Agg.dst (eiL m c) :=
  (step3 m c main_v3 (by decide)).trans (T3_v3 m c)
theorem T4_v5 : (T4 m c main_v5 : IVec S1000000 32) = Cert.Agg.src (eiG m c) :=
  (step3 m c main_v5 (by decide)).trans (T3_v5 m c)
theorem T4_v7 : (T4 m c main_v7 : IVec S1000000 32) = Cert.Agg.dst (eiG m c) :=
  (step3 m c main_v7 (by decide)).trans (T3_v7 m c)
theorem T4_v30 : (T4 m c main_v30 : FVec Ideal S1000000 .f32) = Cert.Agg.norm (eiL m c) :=
  (step3 m c main_v30 (by decide)).trans (T3_v30 m c)

/-- The global edges' weights, for the global encoder's stretches. -/
theorem T5_v53 : (T5 m c main_v53 : FVec Ideal S1000000 .f32) = Cert.Agg.norm (eiG m c) :=
  h04_v53 (T4 m c) (eiG m c) (T4_v38 m c) (T4_v5 m c) (T4_v7 m c)
theorem T5_v1 : (T5 m c main_v1 : IVec S1000000 32) = Cert.Agg.src (eiL m c) :=
  (step4 m c main_v1 (by decide)).trans (T4_v1 m c)
theorem T5_v3 : (T5 m c main_v3 : IVec S1000000 32) = Cert.Agg.dst (eiL m c) :=
  (step4 m c main_v3 (by decide)).trans (T4_v3 m c)
theorem T5_v5 : (T5 m c main_v5 : IVec S1000000 32) = Cert.Agg.src (eiG m c) :=
  (step4 m c main_v5 (by decide)).trans (T4_v5 m c)
theorem T5_v7 : (T5 m c main_v7 : IVec S1000000 32) = Cert.Agg.dst (eiG m c) :=
  (step4 m c main_v7 (by decide)).trans (T4_v7 m c)
theorem T5_v30 : (T5 m c main_v30 : FVec Ideal S1000000 .f32) = Cert.Agg.norm (eiL m c) :=
  (step4 m c main_v30 (by decide)).trans (T4_v30 m c)

/-! ## The first projection and its aggregation (items 5 and 6) -/

theorem T6_v54 (H : LocalVals) : (T6 m c main_v54 : Spec.Mat 100000 128) = Spec.mm (xOf m c) (pL m c).W1 := by
  rw [T6_out2 m c, H.r0]
  show Spec.mm (T5 m c main_arg0 : Spec.Mat 100000 256) (T5 m c main_arg3 : Spec.Mat 256 128) = _
  rw [arg0_T5 m c, arg3_T5 m c]
  rfl
theorem T6_v1 : (T6 m c main_v1 : IVec S1000000 32) = Cert.Agg.src (eiL m c) :=
  (step5 m c main_v1 (by decide)).trans (T5_v1 m c)
theorem T6_v3 : (T6 m c main_v3 : IVec S1000000 32) = Cert.Agg.dst (eiL m c) :=
  (step5 m c main_v3 (by decide)).trans (T5_v3 m c)
theorem T6_v30 : (T6 m c main_v30 : FVec Ideal S1000000 .f32) = Cert.Agg.norm (eiL m c) :=
  (step5 m c main_v30 (by decide)).trans (T5_v30 m c)

theorem T7_v67 (H : LocalVals) : (T7 m c main_v67 : Spec.Mat 100000 128) = Cert.Agg.agg (eiL m c) (Spec.mm (xOf m c) (pL m c).W1) :=
  h1_v67 (T6 m c) (eiL m c) _ (T6_v1 m c) (T6_v3 m c) (T6_v30 m c) (T6_v54 m c H)
theorem T7_v68 : (T7 m c main_v68 : Spec.Row 128) = (pL m c).b1 :=
  (h1_v68 (T6 m c)).trans (congrArg Spec.rowOf (arg4_T6 m c))
theorem T7_v1 : (T7 m c main_v1 : IVec S1000000 32) = Cert.Agg.src (eiL m c) :=
  (step6 m c main_v1 (by decide)).trans (T6_v1 m c)
theorem T7_v3 : (T7 m c main_v3 : IVec S1000000 32) = Cert.Agg.dst (eiL m c) :=
  (step6 m c main_v3 (by decide)).trans (T6_v3 m c)
theorem T7_v30 : (T7 m c main_v30 : FVec Ideal S1000000 .f32) = Cert.Agg.norm (eiL m c) :=
  (step6 m c main_v30 (by decide)).trans (T6_v30 m c)

/-! ## The first activation and its column sums (item 7), its batch statistics (item 8) -/

theorem T8_v69_0 (H : LocalVals) : (T8 m c main_v69_0 : Spec.Mat 100000 128) = y1L m c := by
  rw [T8_out2 m c, H.r1_2]
  show Spec.relu (Spec.addRow (T7 m c main_v67 : Spec.Mat 100000 128) (T7 m c main_v68 : Spec.Row 128)) = _
  rw [T7_v67 m c H, T7_v68 m c]
  rfl
theorem T8_v69_1 (H : LocalVals) : (T8 m c main_v69_1 : Spec.Row 128) = Spec.colSum (y1L m c) := by
  rw [T8_out3 m c, H.r1_3]
  show Spec.colSum (Spec.relu (Spec.addRow (T7 m c main_v67 : Spec.Mat 100000 128) (T7 m c main_v68 : Spec.Row 128))) = _
  rw [T7_v67 m c H, T7_v68 m c]
  rfl
theorem T8_v69_2 (H : LocalVals) : (T8 m c main_v69_2 : Spec.Row 128) = Spec.colSumSq (y1L m c) := by
  rw [T8_out4 m c, H.r1_4]
  show Spec.colSumSq (Spec.relu (Spec.addRow (T7 m c main_v67 : Spec.Mat 100000 128) (T7 m c main_v68 : Spec.Row 128))) = _
  rw [T7_v67 m c H, T7_v68 m c]
  rfl
theorem T8_v1 : (T8 m c main_v1 : IVec S1000000 32) = Cert.Agg.src (eiL m c) :=
  (step7 m c main_v1 (by decide)).trans (T7_v1 m c)
theorem T8_v3 : (T8 m c main_v3 : IVec S1000000 32) = Cert.Agg.dst (eiL m c) :=
  (step7 m c main_v3 (by decide)).trans (T7_v3 m c)
theorem T8_v30 : (T8 m c main_v30 : FVec Ideal S1000000 .f32) = Cert.Agg.norm (eiL m c) :=
  (step7 m c main_v30 (by decide)).trans (T7_v30 m c)

theorem T9_v71 (H : LocalVals) : (T9 m c main_v71 : Spec.Row 128) = Spec.mean (y1L m c) := h2_v71 (T8 m c) (y1L m c) (T8_v69_1 m c H)
theorem T9_v77 (H : LocalVals) : (T9 m c main_v77 : Spec.Row 128) = Spec.varMom (y1L m c) :=
  h2_v77 (T8 m c) (y1L m c) (T8_v69_1 m c H) (T8_v69_2 m c H)
theorem T9_v78 : (T9 m c main_v78 : Spec.Row 128) = (pL m c).g1 :=
  (h2_v78 (T8 m c)).trans (congrArg Spec.rowOf (arg7_T8 m c))
theorem T9_v79 : (T9 m c main_v79 : Spec.Row 128) = (pL m c).bt1 :=
  (h2_v79 (T8 m c)).trans (congrArg Spec.rowOf (arg8_T8 m c))
theorem T9_v69_0 (H : LocalVals) : (T9 m c main_v69_0 : Spec.Mat 100000 128) = y1L m c :=
  (step8 m c main_v69_0 (by decide)).trans (T8_v69_0 m c H)
theorem T9_v1 : (T9 m c main_v1 : IVec S1000000 32) = Cert.Agg.src (eiL m c) :=
  (step8 m c main_v1 (by decide)).trans (T8_v1 m c)
theorem T9_v3 : (T9 m c main_v3 : IVec S1000000 32) = Cert.Agg.dst (eiL m c) :=
  (step8 m c main_v3 (by decide)).trans (T8_v3 m c)
theorem T9_v30 : (T9 m c main_v30 : FVec Ideal S1000000 .f32) = Cert.Agg.norm (eiL m c) :=
  (step8 m c main_v30 (by decide)).trans (T8_v30 m c)

/-! ## The second projection and its aggregation (items 9 and 10) -/

theorem T10_v80 (H : LocalVals) : (T10 m c main_v80 : Spec.Mat 100000 128) = h2L m c := by
  rw [T10_out6 m c, H.r2_6]
  show Spec.mm (Spec.bn (T9 m c main_v69_0 : Spec.Mat 100000 128) (T9 m c main_v71 : Spec.Row 128) (T9 m c main_v77 : Spec.Row 128)
      (T9 m c main_v78 : Spec.Row 128) (T9 m c main_v79 : Spec.Row 128)) (T9 m c main_arg5 : Spec.Mat 128 128) = _
  rw [T9_v69_0 m c H, T9_v71 m c H, T9_v77 m c H, T9_v78 m c, T9_v79 m c, arg5_T9 m c]
  rfl
theorem T10_v1 : (T10 m c main_v1 : IVec S1000000 32) = Cert.Agg.src (eiL m c) :=
  (step9 m c main_v1 (by decide)).trans (T9_v1 m c)
theorem T10_v3 : (T10 m c main_v3 : IVec S1000000 32) = Cert.Agg.dst (eiL m c) :=
  (step9 m c main_v3 (by decide)).trans (T9_v3 m c)
theorem T10_v30 : (T10 m c main_v30 : FVec Ideal S1000000 .f32) = Cert.Agg.norm (eiL m c) :=
  (step9 m c main_v30 (by decide)).trans (T9_v30 m c)

theorem T11_v93 (H : LocalVals) : (T11 m c main_v93 : Spec.Mat 100000 128) = Cert.Agg.agg (eiL m c) (h2L m c) :=
  h3_v93 (T10 m c) (eiL m c) _ (T10_v1 m c) (T10_v3 m c) (T10_v30 m c) (T10_v80 m c H)
theorem T11_v94 : (T11 m c main_v94 : Spec.Row 128) = (pL m c).b2 :=
  (h3_v94 (T10 m c)).trans (congrArg Spec.rowOf (arg6_T10 m c))

/-! ## The second layer and its column sums (item 11), its batch statistics (item 12) -/

theorem T12_v95_0 (H : LocalVals) : (T12 m c main_v95_0 : Spec.Mat 100000 128) = y2L m c := by
  rw [T12_out2 m c, H.r3_2]
  show Spec.addRow (T11 m c main_v93 : Spec.Mat 100000 128) (T11 m c main_v94 : Spec.Row 128) = _
  rw [T11_v93 m c H, T11_v94 m c]
  rfl
theorem T12_v95_1 (H : LocalVals) : (T12 m c main_v95_1 : Spec.Row 128) = Spec.colSum (y2L m c) := by
  rw [T12_out3 m c, H.r3_3]
  show Spec.colSum (Spec.addRow (T11 m c main_v93 : Spec.Mat 100000 128) (T11 m c main_v94 : Spec.Row 128)) = _
  rw [T11_v93 m c H, T11_v94 m c]
  rfl
theorem T12_v95_2 (H : LocalVals) : (T12 m c main_v95_2 : Spec.Row 128) = Spec.colSumSq (y2L m c) := by
  rw [T12_out4 m c, H.r3_4]
  show Spec.colSumSq (Spec.addRow (T11 m c main_v93 : Spec.Mat 100000 128) (T11 m c main_v94 : Spec.Row 128)) = _
  rw [T11_v93 m c H, T11_v94 m c]
  rfl

theorem T13_v97 (H : LocalVals) : (T13 m c main_v97 : Spec.Row 128) = Spec.mean (y2L m c) := h4_v97 (T12 m c) (y2L m c) (T12_v95_1 m c H)
theorem T13_v103 (H : LocalVals) : (T13 m c main_v103 : Spec.Row 128) = Spec.varMom (y2L m c) :=
  h4_v103 (T12 m c) (y2L m c) (T12_v95_1 m c H) (T12_v95_2 m c H)
theorem T13_v95_0 (H : LocalVals) : (T13 m c main_v95_0 : Spec.Mat 100000 128) = y2L m c :=
  (step12 m c main_v95_0 (by decide)).trans (T12_v95_0 m c H)

/-! ## Across the global encoder's items (13 to 19): nothing of the local encoder's is written -/

/-- A buffer none of the items 13 to 19 writes holds at the end of them what it held before. -/
theorem carry13_20 (r : Ref sig .tc) (h13 : r ∉ ([main_v104] : List (Ref sig .tc))) (h14 : r ∉ hostOps5_W) (h15 : r ∉ ([main_v119_0, main_v119_1, main_v119_2] : List (Ref sig .tc)))
    (h16 : r ∉ hostOps6_W) (h17 : r ∉ ([main_v130] : List (Ref sig .tc))) (h18 : r ∉ hostOps7_W) (h19 : r ∉ ([main_v145_0, main_v145_1, main_v145_2] : List (Ref sig .tc))) :
    T20 m c r = T13 m c r :=
  (step19 m c r h19).trans ((step18 m c r h18).trans ((step17 m c r h17).trans ((step16 m c r h16).trans
    ((step15 m c r h15).trans ((step14 m c r h14).trans (step13 m c r h13))))))

theorem T20_v95_0 (H : LocalVals) : (T20 m c main_v95_0 : Spec.Mat 100000 128) = y2L m c :=
  (carry13_20 m c main_v95_0 (by decide) (by decide) (by decide) (by decide) (by decide) (by decide) (by decide)).trans (T13_v95_0 m c H)
theorem T20_v97 (H : LocalVals) : (T20 m c main_v97 : Spec.Row 128) = Spec.mean (y2L m c) :=
  (carry13_20 m c main_v97 (by decide) (by decide) (by decide) (by decide) (by decide) (by decide) (by decide)).trans (T13_v97 m c H)
theorem T20_v103 (H : LocalVals) : (T20 m c main_v103 : Spec.Row 128) = Spec.varMom (y2L m c) :=
  (carry13_20 m c main_v103 (by decide) (by decide) (by decide) (by decide) (by decide) (by decide) (by decide)).trans (T13_v103 m c H)

/-! ## Before the perceptron (item 20), and the perceptron (item 21) -/

theorem T21_v154 : (T21 m c main_v154 : Spec.Row 128) = (pL m c).g2 :=
  (h8_v154 (T20 m c)).trans (congrArg Spec.rowOf (arg9_T20 m c))
theorem T21_v155 : (T21 m c main_v155 : Spec.Row 128) = (pL m c).bt2 :=
  (h8_v155 (T20 m c)).trans (congrArg Spec.rowOf (arg10_T20 m c))
theorem T21_v156 : (T21 m c main_v156 : Spec.Row 128) = (hd m c).mb1 :=
  (h8_v156 (T20 m c)).trans (congrArg Spec.rowOf (arg20_T20 m c))
theorem T21_v157 : (T21 m c main_v157 : Spec.Row 128) = (hd m c).mb2 :=
  (h8_v157 (T20 m c)).trans (congrArg Spec.rowOf (arg22_T20 m c))
theorem T21_v95_0 (H : LocalVals) : (T21 m c main_v95_0 : Spec.Mat 100000 128) = y2L m c := (step20 m c main_v95_0 (by decide)).trans (T20_v95_0 m c H)
theorem T21_v97 (H : LocalVals) : (T21 m c main_v97 : Spec.Row 128) = Spec.mean (y2L m c) := (step20 m c main_v97 (by decide)).trans (T20_v97 m c H)
theorem T21_v103 (H : LocalVals) : (T21 m c main_v103 : Spec.Row 128) = Spec.varMom (y2L m c) := (step20 m c main_v103 (by decide)).trans (T20_v103 m c H)

/-- The local encoder's output through the shared perceptron, as region 8 leaves it. -/
theorem T22_v158 (H : LocalVals) : (T22 m c main_v158 : Spec.Mat 100000 128)
    = Spec.zEnc Spec.varMom (Cert.Agg.agg (eiL m c)) (xOf m c) (pL m c) (hd m c) := by
  rw [T22_out9 m c, H.r8_9]
  show Spec.mlp (Spec.bn (T21 m c main_v95_0 : Spec.Mat 100000 128) (T21 m c main_v97 : Spec.Row 128) (T21 m c main_v103 : Spec.Row 128)
      (T21 m c main_v154 : Spec.Row 128) (T21 m c main_v155 : Spec.Row 128)) (T21 m c main_arg19 : Spec.Mat 128 128)
      (T21 m c main_v156 : Spec.Row 128) (T21 m c main_arg21 : Spec.Mat 128 128) (T21 m c main_v157 : Spec.Row 128) = _
  rw [T21_v95_0 m c H, T21_v97 m c H, T21_v103 m c H, T21_v154 m c, T21_v155 m c, T21_v156 m c, T21_v157 m c,
    arg19_T21 m c, arg21_T21 m c]
  rfl

/-! ## To the end: no later item writes the local encoder's output -/

/-- The local output where the head (region 10) reads it. -/
theorem zLocal25_of (H : LocalVals) : (T25 m c main_v158 : Spec.Mat 100000 128)
    = Spec.zEnc Spec.varMom (Cert.Agg.agg (eiL m c)) (xOf m c) (pL m c) (hd m c) :=
  (step24 m c main_v158 (by decide)).trans ((step23 m c main_v158 (by decide)).trans
    ((step22 m c main_v158 (by decide)).trans (T22_v158 m c H)))

/-- The local output in the last valuation. -/
theorem zLocal_of (H : LocalVals) : (T31 m c main_v158 : Spec.Mat 100000 128)
    = Spec.zEnc Spec.varMom (Cert.Agg.agg (eiL m c)) (xOf m c) (pL m c) (hd m c) :=
  (step30 m c main_v158 (by decide)).trans ((step29 m c main_v158 (by decide)).trans
    ((step28 m c main_v158 (by decide)).trans ((step27 m c main_v158 (by decide)).trans
    ((step26 m c main_v158 (by decide)).trans ((step25 m c main_v158 (by decide)).trans (zLocal25_of m c H))))))

end Cert.KernelIdeal.Chain

end
-- ==== Proof.Value0.lean ====
import proofs.«174816_j57878979281252_2_alg».proof.Proof.Region0
import proofs.«174816_j57878979281252_2_alg».proof.Proof.Spec
import Idealize.ShloMosaic.Lib.Pipeline.Value
import Idealize.ShloMosaic.Lib.ValueIdx
import Idealize.ShloMosaic.PureOps.Ideal.Laws

/-!
# Pipeline 0's result array: the matrix product of its two operand arrays

At the extended reals the body's payload is the plain sum of products over the contracted axis (the change of float
format is the identity and the accumulator is zero). Point t reads rows 5000 t … 5000 t + 4999 of the left operand
and the whole right operand, so what it writes back is rows 5000 t … 5000 t + 4999 of the product of the two whole
arrays; the twenty row blocks cover the 100000 rows, and the result array ends holding that product.
-/

set_option maxRecDepth 16384

noncomputable section

namespace Cert.KernelIdeal.RegValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Reg

-- the buffers of each core as the region finds them
variable (V : (c : Dev nD) → (b : Ref sig .tc) → Buf (Elt Ideal) ((c : Thread nD τ).loc b))

/-! ## The product's operand indices, axis by axis -/

theorem lhs0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
theorem lhs0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-! ## The payload at an index -/

/-- Entry (p, q) of the body's payload is the sum over k of x0 (p, k) · x1 (k, q). -/
theorem pay0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  simp only [matmul]
  rw [Ideal.matmul_constant_zero_apply,
    ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q)
      ((contrEquiv1 dot_S5000x256_S256x128_S5000x128_1_0_0_1_n_n 256 rfl rfl).symm k) = ix2 p k :=
    funext fun a => Fin.ext (by
      match a with
      | ⟨0, _⟩ => exact lhs0_0 _ _
      | ⟨1, _⟩ => exact (lhs0_1 _ _).trans hk)
  have er : dot_S5000x256_S256x128_S5000x128_1_0_0_1_n_n.rhsIdx (ix2 p q)
      ((contrEquiv1 dot_S5000x256_S256x128_S5000x128_1_0_0_1_n_n 256 rfl rfl).symm k) = ix2 k q :=
    funext fun a => Fin.ext (by
      match a with
      | ⟨0, _⟩ => exact (rhs0_0 _ _).trans hk
      | ⟨1, _⟩ => exact rhs0_1 _ _)
  rw [el, er]
  rfl

/-- The payload of a row block of X and the whole of W is the same row block of the product of X and W: entry j
    of the payload is entry i of the product whenever i is j moved down by the block's first row. -/
theorem pay0_mm (x0 : Vec Ideal S5000x256 .f32) (x1 : Vec Ideal S256x128 .f32)
    (X : Cert.Spec.Mat 100000 256) (W : Cert.Spec.Mat 256 128) (t : Nat)
    (h0 : ∀ (p : Fin 5000) (k : Fin 256) (r : Fin 100000), r.val = 5000 * t + p.val → x0 (ix2 p k) = X (ix2 r k))
    (h1 : ∀ (k : Fin 256) (q : Fin 128), x1 (ix2 k q) = W (ix2 k q))
    (j : S5000x128.Idx) (i : S100000x128.Idx) (hi0 : (i 0).val = 5000 * t + (j 0).val) (hi1 : (i 1).val = (j 1).val) :
    k0_pay1 x0 x1 j = Cert.Spec.mm X W i := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs
  rw [pay0_apply]
  unfold Cert.Spec.mm
  refine Finset.sum_congr rfl fun k _ => ?_
  rw [h0 p k r hi0, h1 k s]

/-! ## The blocks the body reads, as entries of the arrays -/

/-- The printed index maps, decided over the grid: the left operand's and the result's row block index is the
    point, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the left operand's block at point t is entry (5000 t + p, k) of its array. -/
theorem iblk0_0_apply (c : Dev nD) (t : Fin cfg0.N) (p : Fin 5000) (k : Fin 256) (r : Fin 100000)
    (hr : r.val = 5000 * t.val + p.val) :
    (iblk0 V c 0 t : Vec Ideal S5000x256 .f32) (ix2 p k)
      = (V c (Pipeline.arrRef spec0 0) : Cert.Spec.Mat 100000 256) (ix2 r k) := by
  obtain ⟨e0, e1, -⟩ := idx_facts0 t
  unfold iblk0
  rw [View.read_apply]
  show (V c (Pipeline.arrRef spec0 0) : Cert.Spec.Mat 100000 256) (((cfg0.win 0).blk t).view.emb (ix2 p k)) = _
  refine congrArg (V c (Pipeline.arrRef spec0 0) : Cert.Spec.Mat 100000 256) (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The right operand's block at any point is its whole array. -/
theorem iblk0_1_apply (c : Dev nD) (t : Fin cfg0.N) (k : Fin 256) (q : Fin 128) :
    (iblk0 V c 1 t : Vec Ideal S256x128 .f32) (ix2 k q)
      = (V c (Pipeline.arrRef spec0 1) : Cert.Spec.Mat 256 128) (ix2 k q) := by
  obtain ⟨-, -, e0, e1, -⟩ := idx_facts0 t
  unfold iblk0
  rw [View.read_apply]
  show (V c (Pipeline.arrRef spec0 1) : Cert.Spec.Mat 256 128) (((cfg0.win 1).blk t).view.emb (ix2 k q)) = _
  refine congrArg (V c (Pipeline.arrRef spec0 1) : Cert.Spec.Mat 256 128) (funext fun a => Fin.ext ?_)
  match a with
  | ⟨0, _⟩ => show win0_1.index t (0 : Fin 2) * 256 + 1 * k.val = k.val; rw [e0]; omega
  | ⟨1, _⟩ => show win0_1.index t (1 : Fin 2) * 128 + 1 * q.val = q.val; rw [e1]; omega

/-! ## What a point writes back, the cover, the array -/

/-- What point t writes back is row block t of the product of the two operand arrays. -/
theorem flushed0_2 (c : Dev nD) (t : Fin cfg0.N) :
    (dat0 (F := Ideal) V c).flushed 2 t = ((cfg0.win 2).blk t).view.read (Elt Ideal)
      (Cert.Spec.mm (V c (Pipeline.arrRef spec0 0) : Cert.Spec.Mat 100000 256) (V c (Pipeline.arrRef spec0 1) : Cert.Spec.Mat 256 128)) := by
  show (cfg0.win 2).cut (grid0.coords t) ((dat0 V c).after 2 t) = _
  rw [dat0_after_2]
  obtain ⟨-, -, -, -, e0, e1⟩ := idx_facts0 t
  funext j
  rw [View.read_apply]
  refine pay0_mm (iblk0 V c 0 t) (iblk0 V c 1 t) _ _ t.val (fun p k r hr => iblk0_0_apply V c t p k r hr)
    (fun k q => iblk0_1_apply V c t k q) j _ ?_ ?_
  · show win0_2.index t (0 : Fin 2) * 5000 + 1 * (j 0).val = 5000 * t.val + (j 0).val; rw [e0]; omega
  · show win0_2.index t (1 : Fin 2) * 128 + 1 * (j 1).val = (j 1).val; rw [e1]; omega

/-- An index of the result array is in point t's block iff each coordinate is in the block's range on its axis. -/
theorem mem_blk0_2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole (Pipeline.arrRef spec0 2)).slice (win0_2.rect t)).set ↔ _
  rw [View.set_slice_whole, Rect.mem_set_unit]
  exact Iff.rfl

/-- Every index of the result array is in the block of the point its row falls to. -/
theorem cover0_2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, e0, e1⟩ := idx_facts0 t
  refine ⟨t, flush0_2 t, ?_⟩
  rw [mem_blk0_2]
  intro a
  match a with
  | ⟨0, _⟩ =>
    show win0_2.index t (0 : Fin 2) * 5000 ≤ (i 0).val ∧ (i 0).val < win0_2.index t (0 : Fin 2) * 5000 + 5000
    rw [e0]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e1]; omega

/-- The result array after the region is the product of the two operand arrays as the region found them. -/
theorem final0_2 (c : Dev nD) : (dat0 (F := Ideal) V c).arrAt 2 cfg0.N
    = Cert.Spec.mm (V c (Pipeline.arrRef spec0 0) : Cert.Spec.Mat 100000 256) (V c (Pipeline.arrRef spec0 1) : Cert.Spec.Mat 256 128) :=
  (dat0 (F := Ideal) V c).arrAt_eq_of_cover 2 _ (fun t _ => flushed0_2 V c t) cover0_2

end Cert.KernelIdeal.RegValue

end
-- ==== Proof.Value1.lean ====
import proofs.«174816_j57878979281252_2_alg».proof.Proof.Region1
import proofs.«174816_j57878979281252_2_alg».proof.Proof.Algebra
import Idealize.ShloMosaic.Lib.Pipeline.Value
import Idealize.ShloMosaic.Lib.ValueIdx
import Idealize.ShloMosaic.PureOps.Ideal.Laws

set_option maxRecDepth 16384

noncomputable section

namespace Cert.KernelIdeal.RegValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg
open scoped BigOperators

/-! ## The body's arithmetic, read at an index -/

/-- The block out at row `p`, column `q`: the raw entry plus the bias of its column, clamped below at zero. -/
theorem pay3_1_apply (x0 : Vec Ideal S5000x128 .f32) (x1 : Vec Ideal S1x128 .f32) (p : Fin 5000) (q : Fin 128) :
    (k1_pay3 (F := Ideal) x0 x1) (ix2 p q) = max (x0 (ix2 p q) + x1 (ix2 (0 : Fin 1) q)) 0 := by
  unfold k1_pay3
  rw [maximumf_apply, addf_apply, broadcast_apply, shapeCast_self, shapeCast_self,
    broadcastTo_apply x1 broadcasts_S1x128_S5000x128 (ix2 p q) (ix2 (0 : Fin 1) q) (fun a => by
      match a with
      | ⟨0, _⟩ => rfl
      | ⟨1, _⟩ => rfl)]
  show max (x0 (ix2 p q) + x1 (ix2 0 q)) (Ideal.ofBits .f32 0x00000000#32) = _
  rw [Ideal.ofBits_zero_f32]

/-- A column sum over the 5000 rows of a block, laid out as a row. -/
theorem colsum_1_apply (y : FVec Ideal S5000x128 .f32) (q : Fin 128) :
    (shapeCast S1x128 (multiReduction (F := Ideal) .add [0] S128 y 0x00000000#32 reduces_S5000x128_S128 (.inl rfl) rfl) shapeCasts_S128_S1x128)
      (ix2 (0 : Fin 1) q) = ∑ p : Fin 5000, y (ix2 p q) := by
  rw [shapeCast_apply _ shapeCasts_S128_S1x128 (ix2 (0 : Fin 1) q) (ix1 q) (by
    rw [Shape.rowMajor_val_one, Shape.rowMajor_val_two]; simp [ix1, ix2])]
  refine (Ideal.multiReduction_add_single y _ reduces_S5000x128_S128 _ _ (ix1 q)).trans ?_
  exact Finset.sum_congr rfl fun p _ => congrArg y (funext fun a => Fin.ext (by
    match a with
    | ⟨0, _⟩ => rfl
    | ⟨1, _⟩ => rfl))

/-- The column-sum accumulator's update: the accumulator plus this block's column sums. -/
theorem pay4_1_apply (x0 : Vec Ideal S5000x128 .f32) (x1 : Vec Ideal S1x128 .f32) (a : Vec Ideal S1x128 .f32) (q : Fin 128) :
    (k1_pay4 (F := Ideal) x0 x1 a) (ix2 (0 : Fin 1) q)
      = a (ix2 (0 : Fin 1) q) + ∑ p : Fin 5000, (k1_pay3 (F := Ideal) x0 x1) (ix2 p q) := by
  unfold k1_pay4
  rw [shapeCast_self, addf_apply, colsum_1_apply]

/-- The update of the accumulator of squares. -/
theorem pay5_1_apply (x0 : Vec Ideal S5000x128 .f32) (x1 : Vec Ideal S1x128 .f32) (a : Vec Ideal S1x128 .f32) (q : Fin 128) :
    (k1_pay5 (F := Ideal) x0 x1 a) (ix2 (0 : Fin 1) q)
      = a (ix2 (0 : Fin 1) q) + ∑ p : Fin 5000, (k1_pay3 (F := Ideal) x0 x1) (ix2 p q) * (k1_pay3 (F := Ideal) x0 x1) (ix2 p q) := by
  unfold k1_pay5
  rw [shapeCast_self, addf_apply, colsum_1_apply]
  rfl

/-- The accumulators start from zero. -/
theorem pay1_1_apply (q : Fin 128) : (k1_pay1 (F := Ideal)) (ix2 (0 : Fin 1) q) = 0 := by
  unfold k1_pay1
  rw [shapeCast_self, broadcast_apply]
  exact Ideal.ofBits_zero_f32
theorem pay2_1_apply (q : Fin 128) : (k1_pay2 (F := Ideal)) (ix2 (0 : Fin 1) q) = 0 := by
  unfold k1_pay2
  rw [shapeCast_self, broadcast_apply]
  exact Ideal.ofBits_zero_f32

/-! ## The region's arrays as matrices -/

section Region
variable (V : (c : Dev nD) → (b : Ref sig .tc) → Buf (Elt Ideal) ((c : Thread nD τ).loc b))

/-- The raw array (100000 rows of 128) and the bias row as the region finds them, -/
abbrev rawM1 (c : Dev nD) : Cert.Spec.Mat 100000 128 := V c (Pipeline.arrRef spec1 0)
abbrev biasM1 (c : Dev nD) : Cert.Spec.Row 128 := V c (Pipeline.arrRef spec1 1)
/-- and the region's first result as one function of them: the bias added to every row, then the positive part. -/
abbrev outM1 (c : Dev nD) : Cert.Spec.Mat 100000 128 := Cert.Spec.relu (Cert.Spec.addRow (rawM1 V c) (biasM1 V c))

/-- The block indices over the grid: the raw window and the block out move one block of rows per point, the bias
    and the two small outputs stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `p` of block `t` is row `5000 t + p` of the array. -/
def row1 (t : Fin cfg1.N) (p : Fin 5000) : Fin 100000 :=
  ⟨5000 * t.val + p.val, by
    have := lt_of_lt_of_eq t.isLt (show cfg1.N = 20 from N_1); have := p.isLt; omega⟩

/-! ## The blocks the body reads -/

theorem raw1_apply (c : Dev nD) (t : Fin cfg1.N) (p : Fin 5000) (q : Fin 128) :
    (raw1 V c t) (ix2 p q) = rawM1 V c (ix2 (row1 t p) q) := by
  obtain ⟨h0, h1, -⟩ := idx1 t
  show (iblk1 V c 0 t) (ix2 p q) = _
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = 5000 * t.val + p.val; rw [h0]; omega
  | ⟨1, _⟩ => show win1_0.index t (1 : Fin 2) * 128 + 1 * q.val = q.val; rw [h1]; omega

theorem bias1_apply (c : Dev nD) (t : Fin cfg1.N) (q : Fin 128) :
    (bias1 V c t) (ix2 (0 : Fin 1) q) = biasM1 V c (ix2 (0 : Fin 1) q) := by
  obtain ⟨-, -, h0, h1, -⟩ := idx1 t
  show (iblk1 V c 1 t) (ix2 (0 : Fin 1) q) = _
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * 0 = 0; rw [h0]
  | ⟨1, _⟩ => show win1_1.index t (1 : Fin 2) * 128 + 1 * q.val = q.val; rw [h1]; omega

/-- The block out at point `t` is the rows of block `t` of `outM1`. -/
theorem out1_apply (c : Dev nD) (t : Fin cfg1.N) (p : Fin 5000) (q : Fin 128) :
    (k1_pay3 (F := Ideal) (raw1 V c t) (bias1 V c t)) (ix2 p q) = outM1 V c (ix2 (row1 t p) q) := by
  refine (pay3_1_apply (raw1 V c t) (bias1 V c t) p q).trans ?_
  rw [raw1_apply, bias1_apply]
  rfl

/-! ## The accumulators in closed form -/

/-- Block `k`'s column sum at column `q` (zero past the grid), -/
def blockSum1 (c : Dev nD) (q : Fin 128) (k : ℕ) : EReal :=
  if h : k < cfg1.N then ∑ p : Fin 5000, outM1 V c (ix2 (row1 ⟨k, h⟩ p) q) else 0
/-- and its column sum of squares. -/
def blockSq1 (c : Dev nD) (q : Fin 128) (k : ℕ) : EReal :=
  if h : k < cfg1.N then ∑ p : Fin 5000, outM1 V c (ix2 (row1 ⟨k, h⟩ p) q) * outM1 V c (ix2 (row1 ⟨k, h⟩ p) q) else 0

/-- After point `n` the first accumulator holds the column sums of blocks `0 … n`. -/
theorem accS1_apply (c : Dev nD) (q : Fin 128) : ∀ (n : ℕ) (h : n < cfg1.N),
    (accS1 V c n h) (ix2 (0 : Fin 1) q) = ∑ k ∈ Finset.range (n + 1), blockSum1 V c q k := by
  intro n
  induction n with
  | zero =>
    intro h
    rw [Finset.sum_range_one]
    unfold blockSum1
    rw [dif_pos h]
    refine (congrFun (accS1_first V c ⟨0, h⟩ rfl) (ix2 (0 : Fin 1) q)).trans ?_
    refine (pay4_1_apply _ _ _ q).trans ?_
    rw [pay1_1_apply, zero_add]
    exact Finset.sum_congr rfl fun p _ => out1_apply V c ⟨0, h⟩ p q
  | succ n ih =>
    intro h
    rw [Finset.sum_range_succ, ← ih (Nat.lt_of_succ_lt h)]
    unfold blockSum1
    rw [dif_pos h]
    refine (congrFun (accS1_next V c ⟨n + 1, h⟩ n (Nat.lt_of_succ_lt h) rfl) (ix2 (0 : Fin 1) q)).trans ?_
    refine (pay4_1_apply _ _ _ q).trans ?_
    exact congrArg _ (Finset.sum_congr rfl fun p _ => out1_apply V c ⟨n + 1, h⟩ p q)

/-- After point `n` the second holds their column sums of squares. -/
theorem accQ1_apply (c : Dev nD) (q : Fin 128) : ∀ (n : ℕ) (h : n < cfg1.N),
    (accQ1 V c n h) (ix2 (0 : Fin 1) q) = ∑ k ∈ Finset.range (n + 1), blockSq1 V c q k := by
  intro n
  induction n with
  | zero =>
    intro h
    rw [Finset.sum_range_one]
    unfold blockSq1
    rw [dif_pos h]
    refine (congrFun (accQ1_first V c ⟨0, h⟩ rfl) (ix2 (0 : Fin 1) q)).trans ?_
    refine (pay5_1_apply _ _ _ q).trans ?_
    rw [pay2_1_apply, zero_add]
    exact Finset.sum_congr rfl fun p _ => by rw [out1_apply V c ⟨0, h⟩ p q]
  | succ n ih =>
    intro h
    rw [Finset.sum_range_succ, ← ih (Nat.lt_of_succ_lt h)]
    unfold blockSq1
    rw [dif_pos h]
    refine (congrFun (accQ1_next V c ⟨n + 1, h⟩ n (Nat.lt_of_succ_lt h) rfl) (ix2 (0 : Fin 1) q)).trans ?_
    refine (pay5_1_apply _ _ _ q).trans ?_
    exact congrArg _ (Finset.sum_congr rfl fun p _ => by rw [out1_apply V c ⟨n + 1, h⟩ p q])

/-- The twenty blocks' column sums add up to the column sum over all the rows. -/
theorem blocks1_sum (c : Dev nD) (q : Fin 128) :
    ∑ k ∈ Finset.range 20, blockSum1 V c q k = Cert.Spec.colSum (outM1 V c) (ix2 (0 : Fin 1) q) := by
  rw [Finset.sum_range]
  show _ = ∑ r : Fin 100000, outM1 V c (ix2 r q)
  rw [Cert.Spec.sum_rows_by_blocks fun r => outM1 V c (ix2 r q)]
  refine Finset.sum_congr rfl fun t _ => ?_
  have ht : t.val < cfg1.N := lt_of_lt_of_eq t.isLt (show 20 = cfg1.N from N_1.symm)
  unfold blockSum1
  rw [dif_pos ht]
  rfl

theorem blocks1_sumSq (c : Dev nD) (q : Fin 128) :
    ∑ k ∈ Finset.range 20, blockSq1 V c q k = Cert.Spec.colSumSq (outM1 V c) (ix2 (0 : Fin 1) q) := by
  rw [Finset.sum_range]
  show _ = ∑ r : Fin 100000, outM1 V c (ix2 r q) * outM1 V c (ix2 r q)
  rw [Cert.Spec.sum_rows_by_blocks fun r => outM1 V c (ix2 r q) * outM1 V c (ix2 r q)]
  refine Finset.sum_congr rfl fun t _ => ?_
  have ht : t.val < cfg1.N := lt_of_lt_of_eq t.isLt (show 20 = cfg1.N from N_1.symm)
  unfold blockSq1
  rw [dif_pos ht]
  rfl

/-! ## From the blocks to the arrays -/

/-- What point `t` writes back into the first result is block `t` of `outM1`. -/
theorem flushed1_2 (c : Dev nD) (t : Fin cfg1.N) :
    (dat1 V c).flushed 2 t = ((cfg1.win 2).blk t).view.read (Elt Ideal) (outM1 V c) := by
  obtain ⟨-, -, -, -, h0, h1, -⟩ := idx1 t
  show (cfg1.win 2).cut (grid1.coords t) ((dat1 V c).after 2 t) = _
  rw [dat1_after_2]
  funext j
  obtain ⟨p, q, rfl⟩ : ∃ (p : Fin 5000) (q : Fin 128), j = ix2 p q := ⟨j 0, j 1, eq_ix2 j⟩
  refine (out1_apply V c t p q).trans ?_
  rw [View.read_apply]
  show outM1 V c _ = outM1 V c _
  congr 1
  funext a
  apply Fin.ext
  match a with
  | ⟨0, _⟩ => show 5000 * t.val + p.val = win1_2.index t (0 : Fin 2) * 5000 + 1 * p.val; rw [h0]; omega
  | ⟨1, _⟩ => show q.val = win1_2.index t (1 : Fin 2) * 128 + 1 * q.val; rw [h1]; omega

/-- An index of the first result is in point `t`'s block iff its row is one of that block's. -/
theorem mem_blk1_2 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- THE FIRST RESULT after the region. -/
theorem final1_2 (c : Dev nD) :
    (dat1 (F := Ideal) V c).arrAt 2 cfg1.N = Cert.Spec.relu (Cert.Spec.addRow (V c (Pipeline.arrRef spec1 0) : Cert.Spec.Mat 100000 128) (V c (Pipeline.arrRef spec1 1) : Cert.Spec.Row 128)) := by
  refine (dat1 V c).arrAt_eq_of_cover 2 (outM1 V c) (fun t _ => flushed1_2 V c t) fun i => ?_
  have hi0 : (i 0).val < 100000 := (i 0).isLt
  have hi1 : (i 1).val < 128 := (i 1).isLt
  have hN : (i 0).val / 5000 < cfg1.N := lt_of_lt_of_eq (by omega : (i 0).val / 5000 < 20) (show 20 = cfg1.N from N_1.symm)
  refine ⟨⟨(i 0).val / 5000, hN⟩, flush1_2 _, ?_⟩
  obtain ⟨-, -, -, -, h0, h1, -⟩ := idx1 ⟨(i 0).val / 5000, hN⟩
  rw [mem_blk1_2]
  intro a
  match a with
  | ⟨0, _⟩ =>
    show win1_2.index _ (0 : Fin 2) * 5000 ≤ (i 0).val ∧ (i 0).val < win1_2.index _ (0 : Fin 2) * 5000 + 5000
    rw [h0]; dsimp only; omega
  | ⟨1, _⟩ =>
    show win1_2.index _ (1 : Fin 2) * 128 ≤ (i 1).val ∧ (i 1).val < win1_2.index _ (1 : Fin 2) * 128 + 128
    rw [h1]; omega

/-- A small output's block is its whole row: reading a row `G` through the block at any point reads `G`. -/
theorem read_small1_3 (G : Cert.Spec.Row 128) (t : Fin cfg1.N) (q : Fin 128) :
    (((cfg1.win 3).blk t).view.read (Elt Ideal) G) (ix2 (0 : Fin 1) q) = G (ix2 (0 : Fin 1) q) := by
  obtain ⟨-, -, -, -, -, -, h0, h1, -⟩ := idx1 t
  rw [View.read_apply]
  show G _ = G _
  congr 1
  funext a
  apply Fin.ext
  match a with
  | ⟨0, _⟩ => show win1_3.index t (0 : Fin 2) * 1 + 1 * 0 = 0; rw [h0]
  | ⟨1, _⟩ => show win1_3.index t (1 : Fin 2) * 128 + 1 * q.val = q.val; rw [h1]; omega
theorem read_small1_4 (G : Cert.Spec.Row 128) (t : Fin cfg1.N) (q : Fin 128) :
    (((cfg1.win 4).blk t).view.read (Elt Ideal) G) (ix2 (0 : Fin 1) q) = G (ix2 (0 : Fin 1) q) := by
  obtain ⟨-, -, -, -, -, -, -, -, h0, h1⟩ := idx1 t
  rw [View.read_apply]
  show G _ = G _
  congr 1
  funext a
  apply Fin.ext
  match a with
  | ⟨0, _⟩ => show win1_4.index t (0 : Fin 2) * 1 + 1 * 0 = 0; rw [h0]
  | ⟨1, _⟩ => show win1_4.index t (1 : Fin 2) * 128 + 1 * q.val = q.val; rw [h1]; omega

/-- The one write-back of the second result, at the last point, writes the column sums of `outM1`. -/
theorem flushed1_3 (c : Dev nD) (t : Fin cfg1.N) (hf : (cfg1.win 3).flush t = true) :
    (dat1 V c).flushed 3 t = ((cfg1.win 3).blk t).view.read (Elt Ideal) (Cert.Spec.colSum (outM1 V c)) := by
  have hN : t.val < 20 := lt_of_lt_of_eq t.isLt (show cfg1.N = 20 from N_1)
  have h19 : t.val = 19 := by have := (flush1_3 t).mp hf; omega
  show (cfg1.win 3).cut (grid1.coords t) ((dat1 V c).after 3 t) = _
  rw [dat1_after_3]
  funext j
  obtain ⟨z, q, rfl⟩ : ∃ (z : Fin 1) (q : Fin 128), j = ix2 z q := ⟨j 0, j 1, eq_ix2 j⟩
  obtain rfl : z = 0 := Subsingleton.elim _ _
  refine (accS1_apply V c q t.val t.isLt).trans ?_
  rw [h19, blocks1_sum]
  exact (read_small1_3 (Cert.Spec.colSum (outM1 V c)) t q).symm

/-- and that of the third their column sums of squares. -/
theorem flushed1_4 (c : Dev nD) (t : Fin cfg1.N) (hf : (cfg1.win 4).flush t = true) :
    (dat1 V c).flushed 4 t = ((cfg1.win 4).blk t).view.read (Elt Ideal) (Cert.Spec.colSumSq (outM1 V c)) := by
  have hN : t.val < 20 := lt_of_lt_of_eq t.isLt (show cfg1.N = 20 from N_1)
  have h19 : t.val = 19 := by have := (flush1_4 t).mp hf; omega
  show (cfg1.win 4).cut (grid1.coords t) ((dat1 V c).after 4 t) = _
  rw [dat1_after_4]
  funext j
  obtain ⟨z, q, rfl⟩ : ∃ (z : Fin 1) (q : Fin 128), j = ix2 z q := ⟨j 0, j 1, eq_ix2 j⟩
  obtain rfl : z = 0 := Subsingleton.elim _ _
  refine (accQ1_apply V c q t.val t.isLt).trans ?_
  rw [h19, blocks1_sumSq]
  exact (read_small1_4 (Cert.Spec.colSumSq (outM1 V c)) t q).symm

/-- The last point, -/
def tLast1 : Fin cfg1.N := ⟨19, lt_of_lt_of_eq (by decide : 19 < 20) (show 20 = cfg1.N from N_1.symm)⟩

/-- whose block of a small output is the whole row. -/
theorem cover1_3 (i : S1x128.Idx) :
    ∀ a : Fin 2, win1_3.index tLast1 a * S1x128.size a ≤ (i a).val ∧ (i a).val < win1_3.index tLast1 a * S1x128.size a + S1x128.size a := by
  obtain ⟨-, -, -, -, -, -, h0, h1, -⟩ := idx1 tLast1
  have hi0 : (i 0).val < 1 := (i 0).isLt
  have hi1 : (i 1).val < 128 := (i 1).isLt
  intro a
  match a with
  | ⟨0, _⟩ => show win1_3.index tLast1 (0 : Fin 2) * 1 ≤ (i 0).val ∧ (i 0).val < win1_3.index tLast1 (0 : Fin 2) * 1 + 1; rw [h0]; omega
  | ⟨1, _⟩ => show win1_3.index tLast1 (1 : Fin 2) * 128 ≤ (i 1).val ∧ (i 1).val < win1_3.index tLast1 (1 : Fin 2) * 128 + 128; rw [h1]; omega
theorem cover1_4 (i : S1x128.Idx) :
    ∀ a : Fin 2, win1_4.index tLast1 a * S1x128.size a ≤ (i a).val ∧ (i a).val < win1_4.index tLast1 a * S1x128.size a + S1x128.size a := by
  obtain ⟨-, -, -, -, -, -, -, -, h0, h1⟩ := idx1 tLast1
  have hi0 : (i 0).val < 1 := (i 0).isLt
  have hi1 : (i 1).val < 128 := (i 1).isLt
  intro a
  match a with
  | ⟨0, _⟩ => show win1_4.index tLast1 (0 : Fin 2) * 1 ≤ (i 0).val ∧ (i 0).val < win1_4.index tLast1 (0 : Fin 2) * 1 + 1; rw [h0]; omega
  | ⟨1, _⟩ => show win1_4.index tLast1 (1 : Fin 2) * 128 ≤ (i 1).val ∧ (i 1).val < win1_4.index tLast1 (1 : Fin 2) * 128 + 128; rw [h1]; omega

/-- THE SECOND RESULT after the region: the column sums of the first. -/
theorem final1_3 (c : Dev nD) :
    (dat1 (F := Ideal) V c).arrAt 3 cfg1.N = Cert.Spec.colSum (Cert.Spec.relu (Cert.Spec.addRow (V c (Pipeline.arrRef spec1 0) : Cert.Spec.Mat 100000 128) (V c (Pipeline.arrRef spec1 1) : Cert.Spec.Row 128))) := by
  refine (dat1 V c).arrAt_eq_of_cover 3 (Cert.Spec.colSum (outM1 V c)) (flushed1_3 V c) fun i => ?_
  refine ⟨tLast1, (flush1_3 tLast1).mpr rfl, ?_⟩
  show i ∈ ((View.whole (Pipeline.arrRef spec1 3)).slice (win1_3.rect tLast1)).set
  rw [View.set_slice_whole, Rect.mem_set_unit]
  exact cover1_3 i

/-- THE THIRD RESULT after the region: the column sums of the squares of the first. -/
theorem final1_4 (c : Dev nD) :
    (dat1 (F := Ideal) V c).arrAt 4 cfg1.N = Cert.Spec.colSumSq (Cert.Spec.relu (Cert.Spec.addRow (V c (Pipeline.arrRef spec1 0) : Cert.Spec.Mat 100000 128) (V c (Pipeline.arrRef spec1 1) : Cert.Spec.Row 128))) := by
  refine (dat1 V c).arrAt_eq_of_cover 4 (Cert.Spec.colSumSq (outM1 V c)) (flushed1_4 V c) fun i => ?_
  refine ⟨tLast1, (flush1_4 tLast1).mpr rfl, ?_⟩
  show i ∈ ((View.whole (Pipeline.arrRef spec1 4)).slice (win1_4.rect tLast1)).set
  rw [View.set_slice_whole, Rect.mem_set_unit]
  exact cover1_4 i

end Region

end Cert.KernelIdeal.RegValue

end
-- ==== Proof.Value2.lean ====
import proofs.«174816_j57878979281252_2_alg».proof.Proof.Region2
import proofs.«174816_j57878979281252_2_alg».proof.Proof.Spec
import Idealize.ShloMosaic.PureOps.Ideal.Laws
import Idealize.ShloMosaic.Lib.ValueIdx
import Idealize.ShloMosaic.Lib.ValueLayout
import Idealize.ShloMosaic.Lib.Pipeline.Value

/-!
# The kernel that normalises, scales, shifts and projects: what it leaves in its output array

At the extended reals the body's payload at row `r` and column `q` of a block is
`∑ j, ((g j * (y (r, j) - mu j)) * rsqrt (var j + eps) + bt j) * w (j, q)`: the narrowing of the product's
operands is the identity there and the product into a zero accumulator is the plain sum over the shared axis.
Point `t`'s block of `y` is rows `5000 t … 5000 t + 4999` of `y`, the five resident windows are their whole
arrays, and the output's block at point `t` is written back to the same rows; the twenty blocks cover the
100000 rows, so the array ends holding the product of the normalised `y` with `w`, as one matrix.
-/

set_option maxRecDepth 16384

noncomputable section

namespace Cert.KernelIdeal.RegValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Reg

/-! ## The body's product, entry by entry -/

/-- The product's left operand is read at the output's row and the contraction position, -/
theorem lhs2_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)
theorem lhs2_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  DotDims.lhsIdx_val_of_single (d := dot_S5000x128_S128x128_S5000x128_1_0_0_1_n_n) rfl j k
/-- the right operand at the contraction position and the output's column. -/
theorem rhs2_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  DotDims.rhsIdx_val_of_single (d := dot_S5000x128_S128x128_S5000x128_1_0_0_1_n_n) rfl j k
theorem rhs2_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- The block product into a zero accumulator, at row `r` and column `q`: the sum over the shared axis. -/
theorem matmul2_apply (x : FVec Ideal S5000x128 .bf16) (w : FVec Ideal S128x128 .bf16) (r : Fin 5000) (q : Fin 128) :
    matmul dot_S5000x128_S128x128_S5000x128_1_0_0_1_n_n none x w (constant (F := Ideal) S5000x128 .f32 0x00000000#32) (ix2 r q)
      = ∑ j : Fin 128, x (ix2 r j) * w (ix2 j q) := by
  simp only [matmul]
  rw [Ideal.matmul_constant_zero_apply,
    ← Equiv.sum_comp (contrEquiv1 dot_S5000x128_S128x128_S5000x128_1_0_0_1_n_n 128 rfl rfl).symm]
  refine Finset.sum_congr rfl fun j _ => ?_
  have hl : dot_S5000x128_S128x128_S5000x128_1_0_0_1_n_n.lhsIdx (ix2 r q) ((contrEquiv1 dot_S5000x128_S128x128_S5000x128_1_0_0_1_n_n 128 rfl rfl).symm j) = ix2 r j := by
    funext a; apply Fin.ext
    match a with
    | ⟨0, _⟩ => exact lhs2_0 _ _
    | ⟨1, _⟩ => exact (lhs2_1 _ _).trans (contrEquiv1_symm_val dot_S5000x128_S128x128_S5000x128_1_0_0_1_n_n 128 rfl rfl j)
  have hr : dot_S5000x128_S128x128_S5000x128_1_0_0_1_n_n.rhsIdx (ix2 r q) ((contrEquiv1 dot_S5000x128_S128x128_S5000x128_1_0_0_1_n_n 128 rfl rfl).symm j) = ix2 j q := by
    funext a; apply Fin.ext
    match a with
    | ⟨0, _⟩ => exact (rhs2_0 _ _).trans (contrEquiv1_symm_val dot_S5000x128_S128x128_S5000x128_1_0_0_1_n_n 128 rfl rfl j)
    | ⟨1, _⟩ => exact rhs2_1 _ _
  rw [hl, hr]

/-- The body's payload at row `r` and column `q` of the block: the normalised, scaled and shifted row of `y`
    against column `q` of `w`. -/
theorem pay2_apply (var g : Vec Ideal S1x128 .f32) (y : Vec Ideal S5000x128 .f32) (mu bt : Vec Ideal S1x128 .f32)
    (w : Vec Ideal S128x128 .f32) (r : Fin 5000) (q : Fin 128) :
    k2_pay1 (F := Ideal) var g y mu bt w (ix2 r q)
      = ∑ j : Fin 128, ((g (ix2 (0 : Fin 1) j) * (y (ix2 r j) - mu (ix2 (0 : Fin 1) j)))
          * Ideal.rsqrt (var (ix2 (0 : Fin 1) j) + Cert.Spec.eps) + bt (ix2 (0 : Fin 1) j)) * w (ix2 j q) := by
  unfold k2_pay1
  refine (matmul2_apply _ _ r q).trans ?_
  refine Finset.sum_congr rfl fun j _ => ?_
  simp only [truncf_apply, addf_apply, mulf_apply, subf_apply, shapeCast_self, broadcastTo_1b_ab_apply]
  rfl

/-! ## The blocks as rows of the arrays -/

-- the buffers as the region finds them, at the extended reals
variable (V : (c : Dev nD) → (b : Ref sig .tc) → Buf (Elt Ideal) ((c : Thread nD τ).loc b))

/-- The six input arrays, as matrices. -/
abbrev yArr2 (c : Dev nD) : Cert.Spec.Mat 100000 128 := V c (Pipeline.arrRef spec2 0)
abbrev muArr2 (c : Dev nD) : Cert.Spec.Row 128 := V c (Pipeline.arrRef spec2 1)
abbrev varArr2 (c : Dev nD) : Cert.Spec.Row 128 := V c (Pipeline.arrRef spec2 2)
abbrev gArr2 (c : Dev nD) : Cert.Spec.Row 128 := V c (Pipeline.arrRef spec2 3)
abbrev btArr2 (c : Dev nD) : Cert.Spec.Row 128 := V c (Pipeline.arrRef spec2 4)
abbrev wArr2 (c : Dev nD) : Cert.Spec.Mat 128 128 := V c (Pipeline.arrRef spec2 5)

/-- The blocks at a point, at their literal shapes. -/
abbrev yBlk2 (c : Dev nD) (t : Fin cfg2.N) : Vec Ideal S5000x128 .f32 := iblk2 V c 0 t
abbrev muBlk2 (c : Dev nD) (t : Fin cfg2.N) : Vec Ideal S1x128 .f32 := iblk2 V c 1 t
abbrev varBlk2 (c : Dev nD) (t : Fin cfg2.N) : Vec Ideal S1x128 .f32 := iblk2 V c 2 t
abbrev gBlk2 (c : Dev nD) (t : Fin cfg2.N) : Vec Ideal S1x128 .f32 := iblk2 V c 3 t
abbrev btBlk2 (c : Dev nD) (t : Fin cfg2.N) : Vec Ideal S1x128 .f32 := iblk2 V c 4 t
abbrev wBlk2 (c : Dev nD) (t : Fin cfg2.N) : Vec Ideal S128x128 .f32 := iblk2 V c 5 t

/-- The printed index maps, decided over the grid: the row windows sit at block row `t`, the resident windows at
    block zero. -/
theorem idx2_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem lt2_rows (t : Fin cfg2.N) (r : Fin 5000) : 5000 * t.val + r.val < 100000 := by
  have ht : t.val < 20 := N_2 ▸ t.isLt
  have hr := r.isLt
  omega

/-- Row `r` of `y`'s block at point `t` is row `5000 t + r` of `y`. -/
theorem yBlk2_apply (c : Dev nD) (t : Fin cfg2.N) (r : Fin 5000) (j : Fin 128) :
    yBlk2 V c t (ix2 r j) = yArr2 V c (ix2 ⟨5000 * t.val + r.val, lt2_rows t r⟩ j) := by
  obtain ⟨e0, e1, -⟩ := idx2_facts t
  show V c (Pipeline.arrRef spec2 0) (((cfg2.win 0).blk t).view.emb (ix2 r j)) = V c (Pipeline.arrRef spec2 0) _
  congr 1
  funext a; apply Fin.ext
  match a with
  | ⟨0, _⟩ => show win2_0.index t (0 : Fin 2) * 5000 + 1 * r.val = 5000 * t.val + r.val; rw [e0]; omega
  | ⟨1, _⟩ => show win2_0.index t (1 : Fin 2) * 128 + 1 * j.val = j.val; rw [e1]; omega

/-- The resident rows and the resident matrix are their whole arrays at every point. -/
theorem muBlk2_apply (c : Dev nD) (t : Fin cfg2.N) (j : Fin 128) :
    muBlk2 V c t (ix2 (0 : Fin 1) j) = muArr2 V c (ix2 (0 : Fin 1) j) := by
  obtain ⟨-, -, e0, e1, -⟩ := idx2_facts t
  show V c (Pipeline.arrRef spec2 1) (((cfg2.win 1).blk t).view.emb (ix2 (0 : Fin 1) j)) = V c (Pipeline.arrRef spec2 1) _
  congr 1
  funext a; apply Fin.ext
  match a with
  | ⟨0, _⟩ => show win2_1.index t (0 : Fin 2) * 1 + 1 * 0 = 0; rw [e0]
  | ⟨1, _⟩ => show win2_1.index t (1 : Fin 2) * 128 + 1 * j.val = j.val; rw [e1]; omega

theorem varBlk2_apply (c : Dev nD) (t : Fin cfg2.N) (j : Fin 128) :
    varBlk2 V c t (ix2 (0 : Fin 1) j) = varArr2 V c (ix2 (0 : Fin 1) j) := by
  obtain ⟨-, -, -, -, e0, e1, -⟩ := idx2_facts t
  show V c (Pipeline.arrRef spec2 2) (((cfg2.win 2).blk t).view.emb (ix2 (0 : Fin 1) j)) = V c (Pipeline.arrRef spec2 2) _
  congr 1
  funext a; apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

theorem gBlk2_apply (c : Dev nD) (t : Fin cfg2.N) (j : Fin 128) :
    gBlk2 V c t (ix2 (0 : Fin 1) j) = gArr2 V c (ix2 (0 : Fin 1) j) := by
  obtain ⟨-, -, -, -, -, -, e0, e1, -⟩ := idx2_facts t
  show V c (Pipeline.arrRef spec2 3) (((cfg2.win 3).blk t).view.emb (ix2 (0 : Fin 1) j)) = V c (Pipeline.arrRef spec2 3) _
  congr 1
  funext a; apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

theorem btBlk2_apply (c : Dev nD) (t : Fin cfg2.N) (j : Fin 128) :
    btBlk2 V c t (ix2 (0 : Fin 1) j) = btArr2 V c (ix2 (0 : Fin 1) j) := by
  obtain ⟨-, -, -, -, -, -, -, -, e0, e1, -⟩ := idx2_facts t
  show V c (Pipeline.arrRef spec2 4) (((cfg2.win 4).blk t).view.emb (ix2 (0 : Fin 1) j)) = V c (Pipeline.arrRef spec2 4) _
  congr 1
  funext a; apply Fin.ext
  match a with
  | ⟨0, _⟩ => show win2_4.index t (0 : Fin 2) * 1 + 1 * 0 = 0; rw [e0]
  | ⟨1, _⟩ => show win2_4.index t (1 : Fin 2) * 128 + 1 * j.val = j.val; rw [e1]; omega

theorem wBlk2_apply (c : Dev nD) (t : Fin cfg2.N) (j q : Fin 128) :
    wBlk2 V c t (ix2 j q) = wArr2 V c (ix2 j q) := by
  obtain ⟨-, -, -, -, -, -, -, -, -, -, e0, e1, -⟩ := idx2_facts t
  show V c (Pipeline.arrRef spec2 5) (((cfg2.win 5).blk t).view.emb (ix2 j q)) = V c (Pipeline.arrRef spec2 5) _
  congr 1
  funext a; apply Fin.ext
  match a with
  | ⟨0, _⟩ => show win2_5.index t (0 : Fin 2) * 128 + 1 * j.val = j.val; rw [e0]; omega
  | ⟨1, _⟩ => show win2_5.index t (1 : Fin 2) * 128 + 1 * q.val = q.val; rw [e1]; omega

/-- Row `r`, column `q` of the output's block at point `t` sits at row `5000 t + r`, column `q` of its array. -/
theorem out2_emb (t : Fin cfg2.N) (r : Fin 5000) (q : Fin 128) :
    ((cfg2.win 6).blk t).view.emb (ix2 r q) = (ix2 ⟨5000 * t.val + r.val, lt2_rows t r⟩ q : S100000x128.Idx) := by
  obtain ⟨-, -, -, -, -, -, -, -, -, -, -, -, e0, e1⟩ := idx2_facts t
  funext a; apply Fin.ext
  match a with
  | ⟨0, _⟩ => show win2_6.index t (0 : Fin 2) * 5000 + 1 * r.val = 5000 * t.val + r.val; rw [e0]; omega
  | ⟨1, _⟩ => show win2_6.index t (1 : Fin 2) * 128 + 1 * q.val = q.val; rw [e1]; omega

/-! ## From blocks to the array -/

/-- What the output array ends holding: the normalised, scaled and shifted `y` times `w`. -/
def G2 (c : Dev nD) : Cert.Spec.Mat 100000 128 :=
  Cert.Spec.mm (Cert.Spec.bn (yArr2 V c) (muArr2 V c) (varArr2 V c) (gArr2 V c) (btArr2 V c)) (wArr2 V c)

/-- What point `t` writes back is block `t` of that matrix: each of its entries is the same sum over the shared axis,
    the point's blocks read as rows of the arrays. -/
theorem flushed2_6_eq (c : Dev nD) (t : Fin cfg2.N) :
    (dat2 V c).flushed 6 t = ((cfg2.win 6).blk t).view.read (Elt Ideal) (G2 V c) := by
  show (cfg2.win 6).cut (grid2.coords t) ((dat2 V c).after 6 t) = _
  rw [dat2_after_6]
  refine funext fun (x : S5000x128.Idx) => ?_
  obtain ⟨r, q, rfl⟩ : ∃ (r : Fin 5000) (q : Fin 128), x = ix2 r q := ⟨x 0, x 1, eq_ix2 x⟩
  show k2_pay1 (F := Ideal) (varBlk2 V c t) (gBlk2 V c t) (yBlk2 V c t) (muBlk2 V c t) (btBlk2 V c t) (wBlk2 V c t) (ix2 r q)
    = G2 V c (((cfg2.win 6).blk t).view.emb (ix2 r q))
  rw [out2_emb t r q]
  refine (pay2_apply (varBlk2 V c t) (gBlk2 V c t) (yBlk2 V c t) (muBlk2 V c t) (btBlk2 V c t) (wBlk2 V c t) r q).trans ?_
  unfold G2 Cert.Spec.mm Cert.Spec.bn
  refine Finset.sum_congr rfl fun j _ => ?_
  rw [yBlk2_apply V c t r j, muBlk2_apply V c t j, varBlk2_apply V c t j, gBlk2_apply V c t j, btBlk2_apply V c t j,
    wBlk2_apply V c t j q]

/-- An index of the output array is in point `t`'s block iff each coordinate is in the block's range on its axis. -/
theorem mem_blk2_6 (t : Fin cfg2.N) (i : S100000x128.Idx) :
    i ∈ ((cfg2.win 6).blk t).view.set
      ↔ ∀ a : Fin 2, win2_6.index t a * S5000x128.size a ≤ (i a).val ∧ (i a).val < win2_6.index t a * S5000x128.size a + S5000x128.size a := by
  show i ∈ ((View.whole (Pipeline.arrRef spec2 6)).slice (win2_6.rect t)).set ↔ _
  rw [View.set_slice_whole, Rect.mem_set_unit]
  exact Iff.rfl

/-- The twenty row blocks cover the array: row `i` is in block `i / 5000`. -/
theorem cover2_6 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, -, -, -, e0, e1⟩ := idx2_facts t
  have ht : t.val = (i 0).val / 5000 := rfl
  refine ⟨t, flush2_6 t, ?_⟩
  rw [mem_blk2_6]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

/-- The output array after the region: the normalised, scaled and shifted `y` times `w`, as one matrix of the
    region's input arrays. -/
theorem final2_6 (c : Dev nD) :
    (dat2 (F := Ideal) V c).arrAt 6 cfg2.N
      = Cert.Spec.mm (Cert.Spec.bn (V c (Pipeline.arrRef spec2 0)) (V c (Pipeline.arrRef spec2 1)) (V c (Pipeline.arrRef spec2 2))
          (V c (Pipeline.arrRef spec2 3)) (V c (Pipeline.arrRef spec2 4))) (V c (Pipeline.arrRef spec2 5)) :=
  (dat2 V c).arrAt_eq_of_cover 6 (G2 V c) (fun t _ => flushed2_6_eq V c t) cover2_6

end Cert.KernelIdeal.RegValue

end
-- ==== Proof.Value3.lean ====
import proofs.«174816_j57878979281252_2_alg».proof.Proof.Region3
import proofs.«174816_j57878979281252_2_alg».proof.Proof.Algebra
import Idealize.ShloMosaic.Lib.Pipeline.Value
import Idealize.ShloMosaic.Lib.ValueIdx
import Idealize.ShloMosaic.PureOps.Ideal.Laws

set_option maxRecDepth 16384

noncomputable section

namespace Cert.KernelIdeal.RegValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg
open scoped BigOperators

/-! ## The body's arithmetic, read at an index -/

/-- The block out at row `p`, column `q`: the raw entry plus the bias of its column. -/
theorem pay3_3_apply (x0 : Vec Ideal S5000x128 .f32) (x1 : Vec Ideal S1x128 .f32) (p : Fin 5000) (q : Fin 128) :
    (k3_pay3 (F := Ideal) x0 x1) (ix2 p q) = x0 (ix2 p q) + x1 (ix2 (0 : Fin 1) q) := by
  unfold k3_pay3
  rw [addf_apply, shapeCast_self, shapeCast_self,
    broadcastTo_apply x1 broadcasts_S1x128_S5000x128 (ix2 p q) (ix2 (0 : Fin 1) q) (fun a => by
      match a with
      | ⟨0, _⟩ => rfl
      | ⟨1, _⟩ => rfl)]

/-- A column sum over the 5000 rows of a block, laid out as a row. -/
theorem colsum_3_apply (y : FVec Ideal S5000x128 .f32) (q : Fin 128) :
    (shapeCast S1x128 (multiReduction (F := Ideal) .add [0] S128 y 0x00000000#32 reduces_S5000x128_S128 (.inl rfl) rfl) shapeCasts_S128_S1x128)
      (ix2 (0 : Fin 1) q) = ∑ p : Fin 5000, y (ix2 p q) := by
  rw [shapeCast_apply _ shapeCasts_S128_S1x128 (ix2 (0 : Fin 1) q) (ix1 q) (by
    rw [Shape.rowMajor_val_one, Shape.rowMajor_val_two]; simp [ix1, ix2])]
  refine (Ideal.multiReduction_add_single y _ reduces_S5000x128_S128 _ _ (ix1 q)).trans ?_
  exact Finset.sum_congr rfl fun p _ => congrArg y (funext fun a => Fin.ext (by
    match a with
    | ⟨0, _⟩ => rfl
    | ⟨1, _⟩ => rfl))

/-- The column-sum accumulator's update: the accumulator plus this block's column sums. -/
theorem pay4_3_apply (x0 : Vec Ideal S5000x128 .f32) (x1 : Vec Ideal S1x128 .f32) (a : Vec Ideal S1x128 .f32) (q : Fin 128) :
    (k3_pay4 (F := Ideal) x0 x1 a) (ix2 (0 : Fin 1) q)
      = a (ix2 (0 : Fin 1) q) + ∑ p : Fin 5000, (k3_pay3 (F := Ideal) x0 x1) (ix2 p q) := by
  unfold k3_pay4
  rw [shapeCast_self, addf_apply, colsum_3_apply]

/-- The update of the accumulator of squares. -/
theorem pay5_3_apply (x0 : Vec Ideal S5000x128 .f32) (x1 : Vec Ideal S1x128 .f32) (a : Vec Ideal S1x128 .f32) (q : Fin 128) :
    (k3_pay5 (F := Ideal) x0 x1 a) (ix2 (0 : Fin 1) q)
      = a (ix2 (0 : Fin 1) q) + ∑ p : Fin 5000, (k3_pay3 (F := Ideal) x0 x1) (ix2 p q) * (k3_pay3 (F := Ideal) x0 x1) (ix2 p q) := by
  unfold k3_pay5
  rw [shapeCast_self, addf_apply, colsum_3_apply]
  rfl

/-- The accumulators start from zero. -/
theorem pay1_3_apply (q : Fin 128) : (k3_pay1 (F := Ideal)) (ix2 (0 : Fin 1) q) = 0 := by
  unfold k3_pay1
  rw [shapeCast_self, broadcast_apply]
  exact Ideal.ofBits_zero_f32
theorem pay2_3_apply (q : Fin 128) : (k3_pay2 (F := Ideal)) (ix2 (0 : Fin 1) q) = 0 := by
  unfold k3_pay2
  rw [shapeCast_self, broadcast_apply]
  exact Ideal.ofBits_zero_f32

/-! ## The region's arrays as matrices -/

section Region
variable (V : (c : Dev nD) → (b : Ref sig .tc) → Buf (Elt Ideal) ((c : Thread nD τ).loc b))

/-- The raw array (100000 rows of 128) and the bias row as the region finds them, -/
abbrev rawM3 (c : Dev nD) : Cert.Spec.Mat 100000 128 := V c (Pipeline.arrRef spec3 0)
abbrev biasM3 (c : Dev nD) : Cert.Spec.Row 128 := V c (Pipeline.arrRef spec3 1)
/-- and the region's first result as one function of them: the bias added to every row. -/
abbrev outM3 (c : Dev nD) : Cert.Spec.Mat 100000 128 := Cert.Spec.addRow (rawM3 V c) (biasM3 V c)

/-- The block indices over the grid: the raw window and the block out move one block of rows per point, the bias
    and the two small outputs stay at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `p` of block `t` is row `5000 t + p` of the array. -/
def row3 (t : Fin cfg3.N) (p : Fin 5000) : Fin 100000 :=
  ⟨5000 * t.val + p.val, by
    have := lt_of_lt_of_eq t.isLt (show cfg3.N = 20 from N_3); have := p.isLt; omega⟩

/-! ## The blocks the body reads -/

theorem raw3_apply (c : Dev nD) (t : Fin cfg3.N) (p : Fin 5000) (q : Fin 128) :
    (raw3 V c t) (ix2 p q) = rawM3 V c (ix2 (row3 t p) q) := by
  obtain ⟨h0, h1, -⟩ := idx3 t
  show (iblk3 V c 0 t) (ix2 p q) = _
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = 5000 * t.val + p.val; rw [h0]; omega
  | ⟨1, _⟩ => show win3_0.index t (1 : Fin 2) * 128 + 1 * q.val = q.val; rw [h1]; omega

theorem bias3_apply (c : Dev nD) (t : Fin cfg3.N) (q : Fin 128) :
    (bias3 V c t) (ix2 (0 : Fin 1) q) = biasM3 V c (ix2 (0 : Fin 1) q) := by
  obtain ⟨-, -, h0, h1, -⟩ := idx3 t
  show (iblk3 V c 1 t) (ix2 (0 : Fin 1) q) = _
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * 0 = 0; rw [h0]
  | ⟨1, _⟩ => show win3_1.index t (1 : Fin 2) * 128 + 1 * q.val = q.val; rw [h1]; omega

/-- The block out at point `t` is the rows of block `t` of `outM3`. -/
theorem out3_apply (c : Dev nD) (t : Fin cfg3.N) (p : Fin 5000) (q : Fin 128) :
    (k3_pay3 (F := Ideal) (raw3 V c t) (bias3 V c t)) (ix2 p q) = outM3 V c (ix2 (row3 t p) q) := by
  refine (pay3_3_apply (raw3 V c t) (bias3 V c t) p q).trans ?_
  rw [raw3_apply, bias3_apply]
  rfl

/-! ## The accumulators in closed form -/

/-- Block `k`'s column sum at column `q` (zero past the grid), -/
def blockSum3 (c : Dev nD) (q : Fin 128) (k : ℕ) : EReal :=
  if h : k < cfg3.N then ∑ p : Fin 5000, outM3 V c (ix2 (row3 ⟨k, h⟩ p) q) else 0
/-- and its column sum of squares. -/
def blockSq3 (c : Dev nD) (q : Fin 128) (k : ℕ) : EReal :=
  if h : k < cfg3.N then ∑ p : Fin 5000, outM3 V c (ix2 (row3 ⟨k, h⟩ p) q) * outM3 V c (ix2 (row3 ⟨k, h⟩ p) q) else 0

/-- After point `n` the first accumulator holds the column sums of blocks `0 … n`. -/
theorem accS3_apply (c : Dev nD) (q : Fin 128) : ∀ (n : ℕ) (h : n < cfg3.N),
    (accS3 V c n h) (ix2 (0 : Fin 1) q) = ∑ k ∈ Finset.range (n + 1), blockSum3 V c q k := by
  intro n
  induction n with
  | zero =>
    intro h
    rw [Finset.sum_range_one]
    unfold blockSum3
    rw [dif_pos h]
    refine (congrFun (accS3_first V c ⟨0, h⟩ rfl) (ix2 (0 : Fin 1) q)).trans ?_
    refine (pay4_3_apply _ _ _ q).trans ?_
    rw [pay1_3_apply, zero_add]
    exact Finset.sum_congr rfl fun p _ => out3_apply V c ⟨0, h⟩ p q
  | succ n ih =>
    intro h
    rw [Finset.sum_range_succ, ← ih (Nat.lt_of_succ_lt h)]
    unfold blockSum3
    rw [dif_pos h]
    refine (congrFun (accS3_next V c ⟨n + 1, h⟩ n (Nat.lt_of_succ_lt h) rfl) (ix2 (0 : Fin 1) q)).trans ?_
    refine (pay4_3_apply _ _ _ q).trans ?_
    exact congrArg _ (Finset.sum_congr rfl fun p _ => out3_apply V c ⟨n + 1, h⟩ p q)

/-- After point `n` the second holds their column sums of squares. -/
theorem accQ3_apply (c : Dev nD) (q : Fin 128) : ∀ (n : ℕ) (h : n < cfg3.N),
    (accQ3 V c n h) (ix2 (0 : Fin 1) q) = ∑ k ∈ Finset.range (n + 1), blockSq3 V c q k := by
  intro n
  induction n with
  | zero =>
    intro h
    rw [Finset.sum_range_one]
    unfold blockSq3
    rw [dif_pos h]
    refine (congrFun (accQ3_first V c ⟨0, h⟩ rfl) (ix2 (0 : Fin 1) q)).trans ?_
    refine (pay5_3_apply _ _ _ q).trans ?_
    rw [pay2_3_apply, zero_add]
    exact Finset.sum_congr rfl fun p _ => by rw [out3_apply V c ⟨0, h⟩ p q]
  | succ n ih =>
    intro h
    rw [Finset.sum_range_succ, ← ih (Nat.lt_of_succ_lt h)]
    unfold blockSq3
    rw [dif_pos h]
    refine (congrFun (accQ3_next V c ⟨n + 1, h⟩ n (Nat.lt_of_succ_lt h) rfl) (ix2 (0 : Fin 1) q)).trans ?_
    refine (pay5_3_apply _ _ _ q).trans ?_
    exact congrArg _ (Finset.sum_congr rfl fun p _ => by rw [out3_apply V c ⟨n + 1, h⟩ p q])

/-- The twenty blocks' column sums add up to the column sum over all the rows. -/
theorem blocks3_sum (c : Dev nD) (q : Fin 128) :
    ∑ k ∈ Finset.range 20, blockSum3 V c q k = Cert.Spec.colSum (outM3 V c) (ix2 (0 : Fin 1) q) := by
  rw [Finset.sum_range]
  show _ = ∑ r : Fin 100000, outM3 V c (ix2 r q)
  rw [Cert.Spec.sum_rows_by_blocks fun r => outM3 V c (ix2 r q)]
  refine Finset.sum_congr rfl fun t _ => ?_
  have ht : t.val < cfg3.N := lt_of_lt_of_eq t.isLt (show 20 = cfg3.N from N_3.symm)
  unfold blockSum3
  rw [dif_pos ht]
  rfl

theorem blocks3_sumSq (c : Dev nD) (q : Fin 128) :
    ∑ k ∈ Finset.range 20, blockSq3 V c q k = Cert.Spec.colSumSq (outM3 V c) (ix2 (0 : Fin 1) q) := by
  rw [Finset.sum_range]
  show _ = ∑ r : Fin 100000, outM3 V c (ix2 r q) * outM3 V c (ix2 r q)
  rw [Cert.Spec.sum_rows_by_blocks fun r => outM3 V c (ix2 r q) * outM3 V c (ix2 r q)]
  refine Finset.sum_congr rfl fun t _ => ?_
  have ht : t.val < cfg3.N := lt_of_lt_of_eq t.isLt (show 20 = cfg3.N from N_3.symm)
  unfold blockSq3
  rw [dif_pos ht]
  rfl

/-! ## From the blocks to the arrays -/

/-- What point `t` writes back into the first result is block `t` of `outM3`. -/
theorem flushed3_2 (c : Dev nD) (t : Fin cfg3.N) :
    (dat3 V c).flushed 2 t = ((cfg3.win 2).blk t).view.read (Elt Ideal) (outM3 V c) := by
  obtain ⟨-, -, -, -, h0, h1, -⟩ := idx3 t
  show (cfg3.win 2).cut (grid3.coords t) ((dat3 V c).after 2 t) = _
  rw [dat3_after_2]
  funext j
  obtain ⟨p, q, rfl⟩ : ∃ (p : Fin 5000) (q : Fin 128), j = ix2 p q := ⟨j 0, j 1, eq_ix2 j⟩
  refine (out3_apply V c t p q).trans ?_
  rw [View.read_apply]
  show outM3 V c _ = outM3 V c _
  congr 1
  funext a
  apply Fin.ext
  match a with
  | ⟨0, _⟩ => show 5000 * t.val + p.val = win3_2.index t (0 : Fin 2) * 5000 + 1 * p.val; rw [h0]; omega
  | ⟨1, _⟩ => show q.val = win3_2.index t (1 : Fin 2) * 128 + 1 * q.val; rw [h1]; omega

/-- An index of the first result is in point `t`'s block iff its row is one of that block's. -/
theorem mem_blk3_2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- THE FIRST RESULT after the region. -/
theorem final3_2 (c : Dev nD) :
    (dat3 (F := Ideal) V c).arrAt 2 cfg3.N = Cert.Spec.addRow (V c (Pipeline.arrRef spec3 0) : Cert.Spec.Mat 100000 128) (V c (Pipeline.arrRef spec3 1) : Cert.Spec.Row 128) := by
  refine (dat3 V c).arrAt_eq_of_cover 2 (outM3 V c) (fun t _ => flushed3_2 V c t) fun i => ?_
  have hi0 : (i 0).val < 100000 := (i 0).isLt
  have hi1 : (i 1).val < 128 := (i 1).isLt
  have hN : (i 0).val / 5000 < cfg3.N := lt_of_lt_of_eq (by omega : (i 0).val / 5000 < 20) (show 20 = cfg3.N from N_3.symm)
  refine ⟨⟨(i 0).val / 5000, hN⟩, flush3_2 _, ?_⟩
  obtain ⟨-, -, -, -, h0, h1, -⟩ := idx3 ⟨(i 0).val / 5000, hN⟩
  rw [mem_blk3_2]
  intro a
  match a with
  | ⟨0, _⟩ =>
    show win3_2.index _ (0 : Fin 2) * 5000 ≤ (i 0).val ∧ (i 0).val < win3_2.index _ (0 : Fin 2) * 5000 + 5000
    rw [h0]; dsimp only; omega
  | ⟨1, _⟩ =>
    show win3_2.index _ (1 : Fin 2) * 128 ≤ (i 1).val ∧ (i 1).val < win3_2.index _ (1 : Fin 2) * 128 + 128
    rw [h1]; omega

/-- A small output's block is its whole row: reading a row `G` through the block at any point reads `G`. -/
theorem read_small3_3 (G : Cert.Spec.Row 128) (t : Fin cfg3.N) (q : Fin 128) :
    (((cfg3.win 3).blk t).view.read (Elt Ideal) G) (ix2 (0 : Fin 1) q) = G (ix2 (0 : Fin 1) q) := by
  obtain ⟨-, -, -, -, -, -, h0, h1, -⟩ := idx3 t
  rw [View.read_apply]
  show G _ = G _
  congr 1
  funext a
  apply Fin.ext
  match a with
  | ⟨0, _⟩ => show win3_3.index t (0 : Fin 2) * 1 + 1 * 0 = 0; rw [h0]
  | ⟨1, _⟩ => show win3_3.index t (1 : Fin 2) * 128 + 1 * q.val = q.val; rw [h1]; omega
theorem read_small3_4 (G : Cert.Spec.Row 128) (t : Fin cfg3.N) (q : Fin 128) :
    (((cfg3.win 4).blk t).view.read (Elt Ideal) G) (ix2 (0 : Fin 1) q) = G (ix2 (0 : Fin 1) q) := by
  obtain ⟨-, -, -, -, -, -, -, -, h0, h1⟩ := idx3 t
  rw [View.read_apply]
  show G _ = G _
  congr 1
  funext a
  apply Fin.ext
  match a with
  | ⟨0, _⟩ => show win3_4.index t (0 : Fin 2) * 1 + 1 * 0 = 0; rw [h0]
  | ⟨1, _⟩ => show win3_4.index t (1 : Fin 2) * 128 + 1 * q.val = q.val; rw [h1]; omega

/-- The one write-back of the second result, at the last point, writes the column sums of `outM3`. -/
theorem flushed3_3 (c : Dev nD) (t : Fin cfg3.N) (hf : (cfg3.win 3).flush t = true) :
    (dat3 V c).flushed 3 t = ((cfg3.win 3).blk t).view.read (Elt Ideal) (Cert.Spec.colSum (outM3 V c)) := by
  have hN : t.val < 20 := lt_of_lt_of_eq t.isLt (show cfg3.N = 20 from N_3)
  have h19 : t.val = 19 := by have := (flush3_3 t).mp hf; omega
  show (cfg3.win 3).cut (grid3.coords t) ((dat3 V c).after 3 t) = _
  rw [dat3_after_3]
  funext j
  obtain ⟨z, q, rfl⟩ : ∃ (z : Fin 1) (q : Fin 128), j = ix2 z q := ⟨j 0, j 1, eq_ix2 j⟩
  obtain rfl : z = 0 := Subsingleton.elim _ _
  refine (accS3_apply V c q t.val t.isLt).trans ?_
  rw [h19, blocks3_sum]
  exact (read_small3_3 (Cert.Spec.colSum (outM3 V c)) t q).symm

/-- and that of the third their column sums of squares. -/
theorem flushed3_4 (c : Dev nD) (t : Fin cfg3.N) (hf : (cfg3.win 4).flush t = true) :
    (dat3 V c).flushed 4 t = ((cfg3.win 4).blk t).view.read (Elt Ideal) (Cert.Spec.colSumSq (outM3 V c)) := by
  have hN : t.val < 20 := lt_of_lt_of_eq t.isLt (show cfg3.N = 20 from N_3)
  have h19 : t.val = 19 := by have := (flush3_4 t).mp hf; omega
  show (cfg3.win 4).cut (grid3.coords t) ((dat3 V c).after 4 t) = _
  rw [dat3_after_4]
  funext j
  obtain ⟨z, q, rfl⟩ : ∃ (z : Fin 1) (q : Fin 128), j = ix2 z q := ⟨j 0, j 1, eq_ix2 j⟩
  obtain rfl : z = 0 := Subsingleton.elim _ _
  refine (accQ3_apply V c q t.val t.isLt).trans ?_
  rw [h19, blocks3_sumSq]
  exact (read_small3_4 (Cert.Spec.colSumSq (outM3 V c)) t q).symm

/-- The last point, -/
def tLast3 : Fin cfg3.N := ⟨19, lt_of_lt_of_eq (by decide : 19 < 20) (show 20 = cfg3.N from N_3.symm)⟩

/-- whose block of a small output is the whole row. -/
theorem cover3_3 (i : S1x128.Idx) :
    ∀ a : Fin 2, win3_3.index tLast3 a * S1x128.size a ≤ (i a).val ∧ (i a).val < win3_3.index tLast3 a * S1x128.size a + S1x128.size a := by
  obtain ⟨-, -, -, -, -, -, h0, h1, -⟩ := idx3 tLast3
  have hi0 : (i 0).val < 1 := (i 0).isLt
  have hi1 : (i 1).val < 128 := (i 1).isLt
  intro a
  match a with
  | ⟨0, _⟩ => show win3_3.index tLast3 (0 : Fin 2) * 1 ≤ (i 0).val ∧ (i 0).val < win3_3.index tLast3 (0 : Fin 2) * 1 + 1; rw [h0]; omega
  | ⟨1, _⟩ => show win3_3.index tLast3 (1 : Fin 2) * 128 ≤ (i 1).val ∧ (i 1).val < win3_3.index tLast3 (1 : Fin 2) * 128 + 128; rw [h1]; omega
theorem cover3_4 (i : S1x128.Idx) :
    ∀ a : Fin 2, win3_4.index tLast3 a * S1x128.size a ≤ (i a).val ∧ (i a).val < win3_4.index tLast3 a * S1x128.size a + S1x128.size a := by
  obtain ⟨-, -, -, -, -, -, -, -, h0, h1⟩ := idx3 tLast3
  have hi0 : (i 0).val < 1 := (i 0).isLt
  have hi1 : (i 1).val < 128 := (i 1).isLt
  intro a
  match a with
  | ⟨0, _⟩ => show win3_4.index tLast3 (0 : Fin 2) * 1 ≤ (i 0).val ∧ (i 0).val < win3_4.index tLast3 (0 : Fin 2) * 1 + 1; rw [h0]; omega
  | ⟨1, _⟩ => show win3_4.index tLast3 (1 : Fin 2) * 128 ≤ (i 1).val ∧ (i 1).val < win3_4.index tLast3 (1 : Fin 2) * 128 + 128; rw [h1]; omega

/-- THE SECOND RESULT after the region: the column sums of the first. -/
theorem final3_3 (c : Dev nD) :
    (dat3 (F := Ideal) V c).arrAt 3 cfg3.N = Cert.Spec.colSum (Cert.Spec.addRow (V c (Pipeline.arrRef spec3 0) : Cert.Spec.Mat 100000 128) (V c (Pipeline.arrRef spec3 1) : Cert.Spec.Row 128)) := by
  refine (dat3 V c).arrAt_eq_of_cover 3 (Cert.Spec.colSum (outM3 V c)) (flushed3_3 V c) fun i => ?_
  refine ⟨tLast3, (flush3_3 tLast3).mpr rfl, ?_⟩
  show i ∈ ((View.whole (Pipeline.arrRef spec3 3)).slice (win3_3.rect tLast3)).set
  rw [View.set_slice_whole, Rect.mem_set_unit]
  exact cover3_3 i

/-- THE THIRD RESULT after the region: the column sums of the squares of the first. -/
theorem final3_4 (c : Dev nD) :
    (dat3 (F := Ideal) V c).arrAt 4 cfg3.N = Cert.Spec.colSumSq (Cert.Spec.addRow (V c (Pipeline.arrRef spec3 0) : Cert.Spec.Mat 100000 128) (V c (Pipeline.arrRef spec3 1) : Cert.Spec.Row 128)) := by
  refine (dat3 V c).arrAt_eq_of_cover 4 (Cert.Spec.colSumSq (outM3 V c)) (flushed3_4 V c) fun i => ?_
  refine ⟨tLast3, (flush3_4 tLast3).mpr rfl, ?_⟩
  show i ∈ ((View.whole (Pipeline.arrRef spec3 4)).slice (win3_4.rect tLast3)).set
  rw [View.set_slice_whole, Rect.mem_set_unit]
  exact cover3_4 i

end Region

end Cert.KernelIdeal.RegValue

end
-- ==== Proof.Value8.lean ====
import proofs.«174816_j57878979281252_2_alg».proof.Proof.Region8
import proofs.«174816_j57878979281252_2_alg».proof.Proof.Spec
import Idealize.ShloMosaic.Lib.Pipeline.Value
import Idealize.ShloMosaic.Lib.ValueLayout
import Idealize.ShloMosaic.Lib.ValueIdx
import Idealize.ShloMosaic.PureOps.Ideal.Laws

/-!
# Pallas call 8 at the ideal values: the result's array as one function of the nine input arrays

The body's payload at an entry (p, q) of a row block is, sum by sum, the perceptron
`relu (bn(y) · w1 + b1) · w2 + b2` of the block's rows; that function reads only row p of the block,
and the block at point t is rows 5000 t … 5000 t + 4999 of the activations while every small window's
block is its whole array; the twenty row blocks cover the 100000 rows. So the result's array ends
holding the perceptron of the normalised activations, index by index.
-/

set_option maxRecDepth 16384

noncomputable section

namespace Cert.KernelIdeal.RegValue

open Idealize.ShloMosaic Idealize.ShloMosaic.TcCoe Idealize.ShloMosaic.ValueIdx
open Cert.KernelIdeal Cert.KernelIdeal.Gen

/-! ## The block product at an index

The matrix unit's product of a 5000 × 128 block by a 128 × 128 matrix contracts the block's second axis
with the matrix's first; at the ideal values, into a zero accumulator, entry (p, q) is the plain sum
over k of A (p, k) · B (k, q). -/

theorem lhs8_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs8_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs8_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs8_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem mm8_apply {φ₁ φ₂ : FTy} (A : FVec Ideal S5000x128 φ₁) (B : FVec Ideal S128x128 φ₂) (p : Fin 5000) (q : Fin 128) :
    FloatOps.matmul dot_S5000x128_S128x128_S5000x128_1_0_0_1_n_n none A B (constant (F := Ideal) S5000x128 .f32 0x00000000#32) (ix2 p q)
      = ∑ k : Fin 128, A (ix2 p k) * B (ix2 k q) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhs8_0 _ _
      | ⟨1, _⟩ => exact (lhs8_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhs8_0 _ _).trans hk
      | ⟨1, _⟩ => exact rhs8_1 _ _)
  rw [el, er]

/-! ## The body's payload is the perceptron of the normalised block -/

/-- The reciprocal square root acts entry by entry. -/
theorem rsqrt8_apply {s : Shape} (v : FVec Ideal s .f32) (i : s.Idx) : rsqrt v i = Ideal.rsqrt (v i) := rfl

theorem pay8_apply (y : Vec Ideal S5000x128 .f32) (mu var g bt : Vec Ideal S1x128 .f32) (w1 : Vec Ideal S128x128 .f32)
    (b1 : Vec Ideal S1x128 .f32) (w2 : Vec Ideal S128x128 .f32) (b2 : Vec Ideal S1x128 .f32) (p : Fin 5000) (q : Fin 128) :
    k8_pay1 (k8_pay2 var g y mu bt w1 b1 w2) (k8_pay3 b2) (ix2 p q)
      = Cert.Spec.mlp (Cert.Spec.bn y mu var g bt) w1 b1 w2 b2 (ix2 p q) := by
  unfold k8_pay1 k8_pay2 k8_pay3
  simp only [matmul, addf_apply, mulf_apply, subf_apply, maximumf_apply, truncf_apply, broadcast_apply, rsqrt8_apply,
    mm8_apply, broadcastTo_1b_ab_apply, shapeCast_self]
  unfold Cert.Spec.mlp Cert.Spec.addRow Cert.Spec.mm Cert.Spec.relu Cert.Spec.bn Cert.Spec.eps
  rw [show (FloatOps.ofBits FTy.f32 0x00000000#32 : Ideal .f32) = 0 from Ideal.ofBits_zero_f32]
  rfl

/-! ## The perceptron of the normalised rows acts row by row

Every function the specification composes here reads, for the output's row r, only row r of the
normalised matrix and that in turn only row r of the input: so the rows may be selected before or after. -/

theorem mlp_bn_rows8 {a n : Nat} (f : Fin a → Fin n) (Y : Cert.Spec.Mat n 128) (mu var g bt : Cert.Spec.Row 128)
    (W1 : Cert.Spec.Mat 128 128) (b1 : Cert.Spec.Row 128) (W2 : Cert.Spec.Mat 128 128) (b2 : Cert.Spec.Row 128)
    (p : Fin a) (q : Fin 128) :
    Cert.Spec.mlp (Cert.Spec.bn (fun i : (⟨2, ![a, 128]⟩ : Shape).Idx => Y (ix2 (f (i 0)) (i 1))) mu var g bt) W1 b1 W2 b2 (ix2 p q)
      = Cert.Spec.mlp (Cert.Spec.bn Y mu var g bt) W1 b1 W2 b2 (ix2 (f p) q) := rfl

/-! ## From the blocks to the array -/

-- the buffers as the region finds them
variable (V : (c : Dev nD) → (b : Ref sig .tc) → Buf (Elt Ideal) ((c : Thread nD τ).loc b))

/-- The printed index maps, decided over the twenty points: the activations' window and the result's window sit at
    row block `t`, column block 0; each of the eight small windows at its one block. -/
theorem idx_facts8 : ∀ t : Fin cfg8.N,
    win8_0.index t (0 : Fin 2) = t.val ∧ win8_0.index t (1 : Fin 2) = 0
    ∧ win8_9.index t (0 : Fin 2) = t.val ∧ win8_9.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0 :=
  (by decide +kernel : ∀ t : Fin grid8.N, _)

/-- The row of the whole array that row `p` of point `t`'s block is. -/
def row8 (t : Fin cfg8.N) (p : Fin 5000) : Fin 100000 :=
  ⟨5000 * t.val + p.val, by have h : t.val < 20 := Nat.lt_of_lt_of_eq t.isLt N_8; have := p.isLt; omega⟩

/-- The activations' block at point `t` is rows `5000 t … 5000 t + 4999` of their array. -/
theorem iblk8_0_eq (c : Dev nD) (t : Fin cfg8.N) :
    (Reg.iblk8 V c 0 t : Vec Ideal S5000x128 .f32)
      = fun i => (V c (Pipeline.arrRef spec8 0) : Cert.Spec.Mat 100000 128) (ix2 (row8 t (i 0)) (i 1)) := by
  obtain ⟨e0, e1, -⟩ := idx_facts8 t
  funext x
  unfold Reg.iblk8
  show (V c (Pipeline.arrRef spec8 0) : Cert.Spec.Mat 100000 128) (((cfg8.win 0).blk t).view.emb x) = _
  refine congrArg _ (funext fun a => Fin.ext ?_)
  match a with
  | ⟨0, _⟩ => show win8_0.index t (0 : Fin 2) * 5000 + 1 * (x 0).val = 5000 * t.val + (x 0).val; rw [e0]; omega
  | ⟨1, _⟩ => show win8_0.index t (1 : Fin 2) * 128 + 1 * (x 1).val = (x 1).val; rw [e1]; omega

/-- The body's payload on a point's blocks is the rows of the whole-array function the point covers: the
    activations' block is those rows of its array, each small block its whole array. -/
theorem blk8_eq (Y : Cert.Spec.Mat 100000 128) (mu var g bt : Cert.Spec.Row 128) (W1 : Cert.Spec.Mat 128 128)
    (b1 : Cert.Spec.Row 128) (W2 : Cert.Spec.Mat 128 128) (b2 : Cert.Spec.Row 128) (t : Fin cfg8.N)
    (y : Vec Ideal S5000x128 .f32) (x1 x2 x3 x4 : Vec Ideal S1x128 .f32) (x5 : Vec Ideal S128x128 .f32)
    (x6 : Vec Ideal S1x128 .f32) (x7 : Vec Ideal S128x128 .f32) (x8 : Vec Ideal S1x128 .f32)
    (h0 : y = fun i => Y (ix2 (row8 t (i 0)) (i 1))) (h1 : x1 = mu) (h2 : x2 = var) (h3 : x3 = g) (h4 : x4 = bt)
    (h5 : x5 = W1) (h6 : x6 = b1) (h7 : x7 = W2) (h8 : x8 = b2) (p : Fin 5000) (q : Fin 128) :
    k8_pay1 (k8_pay2 x2 x3 y x1 x4 x5 x6 x7) (k8_pay3 x8) (ix2 p q)
      = Cert.Spec.mlp (Cert.Spec.bn Y mu var g bt) W1 b1 W2 b2 (ix2 (row8 t p) q) := by
  subst h0 h1 h2 h3 h4 h5 h6 h7 h8
  exact (pay8_apply _ x1 x2 x3 x4 x5 x6 x7 x8 p q).trans (mlp_bn_rows8 (row8 t) Y x1 x2 x3 x4 x5 x6 x7 x8 p q)

/-- A small window's one block is its whole array: the block index is zero on both axes at every point. -/
theorem iblk8_1_eq (c : Dev nD) (t : Fin cfg8.N) :
    (Reg.iblk8 V c 1 t : Vec Ideal S1x128 .f32) = (V c (Pipeline.arrRef spec8 1) : Cert.Spec.Row 128) := by
  obtain ⟨-, -, -, -, e0, e1, -⟩ := idx_facts8 t
  funext x
  unfold Reg.iblk8
  show (V c (Pipeline.arrRef spec8 1) : Cert.Spec.Row 128) (((cfg8.win 1).blk t).view.emb x) = _
  refine congrArg _ (funext fun a => Fin.ext ?_)
  match a with
  | ⟨0, _⟩ => show win8_1.index t (0 : Fin 2) * 1 + 1 * (x 0).val = (x 0).val; rw [e0]; omega
  | ⟨1, _⟩ => show win8_1.index t (1 : Fin 2) * 128 + 1 * (x 1).val = (x 1).val; rw [e1]; omega
theorem iblk8_2_eq (c : Dev nD) (t : Fin cfg8.N) :
    (Reg.iblk8 V c 2 t : Vec Ideal S1x128 .f32) = (V c (Pipeline.arrRef spec8 2) : Cert.Spec.Row 128) := by
  obtain ⟨-, -, -, -, -, -, e0, e1, -⟩ := idx_facts8 t
  funext x
  unfold Reg.iblk8
  show (V c (Pipeline.arrRef spec8 2) : Cert.Spec.Row 128) (((cfg8.win 2).blk t).view.emb x) = _
  refine congrArg _ (funext fun a => Fin.ext ?_)
  match a with
  | ⟨0, _⟩ => show win8_2.index t (0 : Fin 2) * 1 + 1 * (x 0).val = (x 0).val; rw [e0]; omega
  | ⟨1, _⟩ => show win8_2.index t (1 : Fin 2) * 128 + 1 * (x 1).val = (x 1).val; rw [e1]; omega
theorem iblk8_3_eq (c : Dev nD) (t : Fin cfg8.N) :
    (Reg.iblk8 V c 3 t : Vec Ideal S1x128 .f32) = (V c (Pipeline.arrRef spec8 3) : Cert.Spec.Row 128) := by
  obtain ⟨-, -, -, -, -, -, -, -, e0, e1, -⟩ := idx_facts8 t
  funext x
  unfold Reg.iblk8
  show (V c (Pipeline.arrRef spec8 3) : Cert.Spec.Row 128) (((cfg8.win 3).blk t).view.emb x) = _
  refine congrArg _ (funext fun a => Fin.ext ?_)
  match a with
  | ⟨0, _⟩ => show win8_3.index t (0 : Fin 2) * 1 + 1 * (x 0).val = (x 0).val; rw [e0]; omega
  | ⟨1, _⟩ => show win8_3.index t (1 : Fin 2) * 128 + 1 * (x 1).val = (x 1).val; rw [e1]; omega
theorem iblk8_4_eq (c : Dev nD) (t : Fin cfg8.N) :
    (Reg.iblk8 V c 4 t : Vec Ideal S1x128 .f32) = (V c (Pipeline.arrRef spec8 4) : Cert.Spec.Row 128) := by
  obtain ⟨-, -, -, -, -, -, -, -, -, -, e0, e1, -⟩ := idx_facts8 t
  funext x
  unfold Reg.iblk8
  show (V c (Pipeline.arrRef spec8 4) : Cert.Spec.Row 128) (((cfg8.win 4).blk t).view.emb x) = _
  refine congrArg _ (funext fun a => Fin.ext ?_)
  match a with
  | ⟨0, _⟩ => show win8_4.index t (0 : Fin 2) * 1 + 1 * (x 0).val = (x 0).val; rw [e0]; omega
  | ⟨1, _⟩ => show win8_4.index t (1 : Fin 2) * 128 + 1 * (x 1).val = (x 1).val; rw [e1]; omega
theorem iblk8_5_eq (c : Dev nD) (t : Fin cfg8.N) :
    (Reg.iblk8 V c 5 t : Vec Ideal S128x128 .f32) = (V c (Pipeline.arrRef spec8 5) : Cert.Spec.Mat 128 128) := by
  obtain ⟨-, -, -, -, -, -, -, -, -, -, -, -, e0, e1, -⟩ := idx_facts8 t
  funext x
  unfold Reg.iblk8
  show (V c (Pipeline.arrRef spec8 5) : Cert.Spec.Mat 128 128) (((cfg8.win 5).blk t).view.emb x) = _
  refine congrArg _ (funext fun a => Fin.ext ?_)
  match a with
  | ⟨0, _⟩ => show win8_5.index t (0 : Fin 2) * 128 + 1 * (x 0).val = (x 0).val; rw [e0]; omega
  | ⟨1, _⟩ => show win8_5.index t (1 : Fin 2) * 128 + 1 * (x 1).val = (x 1).val; rw [e1]; omega
theorem iblk8_6_eq (c : Dev nD) (t : Fin cfg8.N) :
    (Reg.iblk8 V c 6 t : Vec Ideal S1x128 .f32) = (V c (Pipeline.arrRef spec8 6) : Cert.Spec.Row 128) := by
  obtain ⟨-, -, -, -, -, -, -, -, -, -, -, -, -, -, e0, e1, -⟩ := idx_facts8 t
  funext x
  unfold Reg.iblk8
  show (V c (Pipeline.arrRef spec8 6) : Cert.Spec.Row 128) (((cfg8.win 6).blk t).view.emb x) = _
  refine congrArg _ (funext fun a => Fin.ext ?_)
  match a with
  | ⟨0, _⟩ => show win8_6.index t (0 : Fin 2) * 1 + 1 * (x 0).val = (x 0).val; rw [e0]; omega
  | ⟨1, _⟩ => show win8_6.index t (1 : Fin 2) * 128 + 1 * (x 1).val = (x 1).val; rw [e1]; omega
theorem iblk8_7_eq (c : Dev nD) (t : Fin cfg8.N) :
    (Reg.iblk8 V c 7 t : Vec Ideal S128x128 .f32) = (V c (Pipeline.arrRef spec8 7) : Cert.Spec.Mat 128 128) := by
  obtain ⟨-, -, -, -, -, -, -, -, -, -, -, -, -, -, -, -, e0, e1, -⟩ := idx_facts8 t
  funext x
  unfold Reg.iblk8
  show (V c (Pipeline.arrRef spec8 7) : Cert.Spec.Mat 128 128) (((cfg8.win 7).blk t).view.emb x) = _
  refine congrArg _ (funext fun a => Fin.ext ?_)
  match a with
  | ⟨0, _⟩ => show win8_7.index t (0 : Fin 2) * 128 + 1 * (x 0).val = (x 0).val; rw [e0]; omega
  | ⟨1, _⟩ => show win8_7.index t (1 : Fin 2) * 128 + 1 * (x 1).val = (x 1).val; rw [e1]; omega
theorem iblk8_8_eq (c : Dev nD) (t : Fin cfg8.N) :
    (Reg.iblk8 V c 8 t : Vec Ideal S1x128 .f32) = (V c (Pipeline.arrRef spec8 8) : Cert.Spec.Row 128) := by
  obtain ⟨-, -, -, -, -, -, -, -, -, -, -, -, -, -, -, -, -, -, e0, e1⟩ := idx_facts8 t
  funext x
  unfold Reg.iblk8
  show (V c (Pipeline.arrRef spec8 8) : Cert.Spec.Row 128) (((cfg8.win 8).blk t).view.emb x) = _
  refine congrArg _ (funext fun a => Fin.ext ?_)
  match a with
  | ⟨0, _⟩ => show win8_8.index t (0 : Fin 2) * 1 + 1 * (x 0).val = (x 0).val; rw [e0]; omega
  | ⟨1, _⟩ => show win8_8.index t (1 : Fin 2) * 128 + 1 * (x 1).val = (x 1).val; rw [e1]; omega

/-! ## The array after the region -/

/-- What the result's array ends holding: the perceptron of the normalised activations, as one function of the
    region's nine input arrays. -/
abbrev G8 (c : Dev nD) : Cert.Spec.Mat 100000 128 :=
  Cert.Spec.mlp (Cert.Spec.bn (V c (Pipeline.arrRef spec8 0) : Cert.Spec.Mat 100000 128)
      (V c (Pipeline.arrRef spec8 1) : Cert.Spec.Row 128) (V c (Pipeline.arrRef spec8 2) : Cert.Spec.Row 128)
      (V c (Pipeline.arrRef spec8 3) : Cert.Spec.Row 128) (V c (Pipeline.arrRef spec8 4) : Cert.Spec.Row 128))
    (V c (Pipeline.arrRef spec8 5) : Cert.Spec.Mat 128 128) (V c (Pipeline.arrRef spec8 6) : Cert.Spec.Row 128)
    (V c (Pipeline.arrRef spec8 7) : Cert.Spec.Mat 128 128) (V c (Pipeline.arrRef spec8 8) : Cert.Spec.Row 128)

set_option maxHeartbeats 2000000 in
/-- What point `t` writes back is block `t` of `G8`: rows `5000 t … 5000 t + 4999`. -/
theorem flushed8_9 (c : Dev nD) (t : Fin cfg8.N) :
    (Reg.dat8 (F := Ideal) V c).flushed 9 t = ((cfg8.win 9).blk t).view.read (Elt Ideal) (G8 V c) := by
  show (cfg8.win 9).cut (grid8.coords t) ((Reg.dat8 (F := Ideal) V c).after 9 t) = _
  rw [Reg.dat8_after_9]
  obtain ⟨-, -, e0, e1, -⟩ := idx_facts8 t
  funext j
  obtain ⟨p, q, rfl⟩ : ∃ (p : Fin 5000) (q : Fin 128), j = ix2 p q := ⟨j 0, j 1, eq_ix2 j⟩
  have hemb : ((cfg8.win 9).blk t).view.emb (ix2 p q) = (ix2 (row8 t p) q : S100000x128.Idx) := by
    funext a; apply Fin.ext
    match a with
    | ⟨0, _⟩ => show win8_9.index t (0 : Fin 2) * 5000 + 1 * p.val = 5000 * t.val + p.val; rw [e0]; omega
    | ⟨1, _⟩ => show win8_9.index t (1 : Fin 2) * 128 + 1 * q.val = q.val; rw [e1]; omega
  show k8_pay1 (k8_pay2 (Reg.iblk8 V c 2 t) (Reg.iblk8 V c 3 t) (Reg.iblk8 V c 0 t) (Reg.iblk8 V c 1 t) (Reg.iblk8 V c 4 t)
      (Reg.iblk8 V c 5 t) (Reg.iblk8 V c 6 t) (Reg.iblk8 V c 7 t)) (k8_pay3 (Reg.iblk8 V c 8 t)) (ix2 p q)
    = G8 V c (((cfg8.win 9).blk t).view.emb (ix2 p q))
  rw [hemb]
  exact blk8_eq (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (V c (Pipeline.arrRef spec8 6)) (V c (Pipeline.arrRef spec8 7)) (V c (Pipeline.arrRef spec8 8)) t
    (Reg.iblk8 V c 0 t) (Reg.iblk8 V c 1 t) (Reg.iblk8 V c 2 t) (Reg.iblk8 V c 3 t) (Reg.iblk8 V c 4 t)
    (Reg.iblk8 V c 5 t) (Reg.iblk8 V c 6 t) (Reg.iblk8 V c 7 t) (Reg.iblk8 V c 8 t)
    (iblk8_0_eq V c t) (iblk8_1_eq V c t) (iblk8_2_eq V c t) (iblk8_3_eq V c t) (iblk8_4_eq V c t)
    (iblk8_5_eq V c t) (iblk8_6_eq V c t) (iblk8_7_eq V c t) (iblk8_8_eq V c t) p q

/-- An index of the result's array is in point `t`'s block iff each coordinate is in the block's range on its axis. -/
theorem mem_blk8_9 (t : Fin cfg8.N) (i : S100000x128.Idx) :
    i ∈ ((cfg8.win 9).blk t).view.set ↔ ∀ a : Fin 2, win8_9.index t a * S5000x128.size a ≤ (i a).val
      ∧ (i a).val < win8_9.index t a * S5000x128.size a + S5000x128.size a := by
  show i ∈ ((View.whole (Pipeline.arrRef spec8 9)).slice (win8_9.rect t)).set ↔ _
  rw [View.set_slice_whole, Rect.mem_set_unit]
  exact Iff.rfl

/-- Every row lies in one of the twenty row blocks: row `r` in block `r / 5000`. -/
theorem cover8_9 (i : S100000x128.Idx) : ∃ t : Fin cfg8.N, (cfg8.win 9).flush t = true ∧ i ∈ ((cfg8.win 9).blk t).view.set := by
  have hi0 : (i 0).val < 100000 := (i 0).isLt
  have hi1 : (i 1).val < 128 := (i 1).isLt
  have hN : cfg8.N = 20 := N_8
  let t : Fin cfg8.N := ⟨(i 0).val / 5000, Nat.lt_of_lt_of_eq (by omega : (i 0).val / 5000 < 20) N_8.symm⟩
  obtain ⟨-, -, e0, e1, -⟩ := idx_facts8 t
  refine ⟨t, flush8_9 t, ?_⟩
  rw [mem_blk8_9]
  intro a
  match a with
  | ⟨0, _⟩ =>
    show win8_9.index t (0 : Fin 2) * 5000 ≤ (i 0).val ∧ (i 0).val < win8_9.index t (0 : Fin 2) * 5000 + 5000
    rw [e0]; show (i 0).val / 5000 * 5000 ≤ (i 0).val ∧ (i 0).val < (i 0).val / 5000 * 5000 + 5000; omega
  | ⟨1, _⟩ =>
    show win8_9.index t (1 : Fin 2) * 128 ≤ (i 1).val ∧ (i 1).val < win8_9.index t (1 : Fin 2) * 128 + 128
    rw [e1]; omega

/-- THE RESULT'S ARRAY after the region: the perceptron of the normalised activations, index by index. -/
theorem final8_9 (c : Dev nD) : (Reg.dat8 (F := Ideal) V c).arrAt 9 cfg8.N
    = Cert.Spec.mlp (Cert.Spec.bn (V c (Pipeline.arrRef spec8 0) : Cert.Spec.Mat 100000 128)
        (V c (Pipeline.arrRef spec8 1) : Cert.Spec.Row 128) (V c (Pipeline.arrRef spec8 2) : Cert.Spec.Row 128)
        (V c (Pipeline.arrRef spec8 3) : Cert.Spec.Row 128) (V c (Pipeline.arrRef spec8 4) : Cert.Spec.Row 128))
      (V c (Pipeline.arrRef spec8 5) : Cert.Spec.Mat 128 128) (V c (Pipeline.arrRef spec8 6) : Cert.Spec.Row 128)
      (V c (Pipeline.arrRef spec8 7) : Cert.Spec.Mat 128 128) (V c (Pipeline.arrRef spec8 8) : Cert.Spec.Row 128) :=
  (Reg.dat8 (F := Ideal) V c).arrAt_eq_of_cover 9 (G8 V c) (fun t _ => flushed8_9 V c t) cover8_9

end Cert.KernelIdeal.RegValue

end
-- ==== Proof.ChainL4.lean ====
import proofs.«174816_j57878979281252_2_alg».proof.Proof.ChainL3
import proofs.«174816_j57878979281252_2_alg».proof.Proof.Value0
import proofs.«174816_j57878979281252_2_alg».proof.Proof.Value1
import proofs.«174816_j57878979281252_2_alg».proof.Proof.Value2
import proofs.«174816_j57878979281252_2_alg».proof.Proof.Value3
import proofs.«174816_j57878979281252_2_alg».proof.Proof.Value8

/-!
# The local encoder's output in the last valuation

The nine facts about the local encoder's kernel regions are the value modules' theorems; with them the chain of
the previous file gives what the program's last valuation holds in the local encoder's result buffer: the
specification's encoder output through the shared perceptron, with the variance in its moment form and the
neighbourhood aggregation over the local edge list.
-/

set_option maxRecDepth 16384

noncomputable section

namespace Cert.KernelIdeal.Chain

open Idealize.ShloMosaic Idealize.ShloMosaic.TcCoe
open Cert.KernelIdeal Cert.KernelIdeal.Gen Cert.KernelIdeal.Reg Cert.KernelIdeal.Run

/-- What the local encoder's regions leave, from the value modules. -/
theorem localVals : LocalVals where
  r0 := RegValue.final0_2
  r1_2 := RegValue.final1_2
  r1_3 := RegValue.final1_3
  r1_4 := RegValue.final1_4
  r2_6 := RegValue.final2_6
  r3_2 := RegValue.final3_2
  r3_3 := RegValue.final3_3
  r3_4 := RegValue.final3_4
  r8_9 := RegValue.final8_9

variable (m : (ℓ : Loc nD τ sig) → Buf (Elt Ideal) ℓ) (c : Dev nD)

/-- The local encoder's output where the head reads it. -/
theorem zLocal25 : (T25 m c main_v158 : Spec.Mat 100000 128)
    = Spec.zEnc Spec.varMom (Cert.Agg.agg (eiL m c)) (xOf m c) (pL m c) (hd m c) := zLocal25_of m c localVals

/-- The local encoder's output in the last valuation. -/
theorem zLocal : (T31 m c main_v158 : Spec.Mat 100000 128)
    = Spec.zEnc Spec.varMom (Cert.Agg.agg (eiL m c)) (xOf m c) (pL m c) (hd m c) := zLocal_of m c localVals

end Cert.KernelIdeal.Chain

end
-- ==== Proof.ChainG1.lean ====
import proofs.«174816_j57878979281252_2_alg».proof.Proof.Gen.KernelIdeal.Launch
import proofs.«174816_j57878979281252_2_alg».proof.Proof.Gen.ReferenceIdeal
import proofs.«174816_j57878979281252_2_alg».proof.Proof.Agg
import proofs.«174816_j57878979281252_2_alg».proof.Proof.Net
import Idealize.ShloMosaic.Lib.StableHlo.Run
import Idealize.ShloMosaic.Lib.ValueLayout
import Idealize.ShloMosaic.PureOps.Ideal.Laws

set_option maxRecDepth 16384

noncomputable section

/-!
# The global encoder's host stretches, read from any starting contents

Each stretch of host operations between two kernel regions is a fixed composition of whole-array functions of the
buffers it reads. Read at the one or two buffers a later item needs, and from whatever contents the stretch starts
at, it is: the neighbourhood aggregation of a feature matrix; a column sum over the number of rows, which is the batch mean, and
the mean of the squares less the squared mean clamped at zero, which is the batch variance; a rank-1 parameter
recast as a single row.
-/

namespace Cert.KernelIdeal.Chain.G

open Idealize.ShloMosaic Idealize.ShloMosaic.TcCoe Idealize.ShloMosaic.ValueIdx Idealize.ShloMosaic.StableHlo
open Cert.KernelIdeal Cert.KernelIdeal.Gen

/-- A rank-1 array of 128 entries recast as a 1 × 128 array is that array read as a row. -/
theorem reshape_rowOf (v : Cert.Spec.Arr 128) (h : S128.ShapeCasts S1x128) :
    (shapeCast S1x128 v h : Cert.Spec.Row 128) = Cert.Spec.rowOf v := by
  funext i
  obtain ⟨u, j, rfl⟩ : ∃ (u : Fin 1) (j : Fin 128), i = ix2 u j := ⟨i 0, i 1, eq_ix2 i⟩
  exact shapeCast_a_1a_apply (a := 128) v h u j

/-- The mean of the squares less the squared mean, clamped at the zero word, is the moment form of the variance. -/
theorem var_of_sums (y : Cert.Spec.Mat 100000 128) (z : FVec Ideal S1x128 .f32)
    (hz : ∀ i, z i = max (Ideal.div (Cert.Spec.colSumSq y i) Cert.Spec.nRows
      - Cert.Spec.mean y i * Cert.Spec.mean y i) (Ideal.ofBits .f32 0x00000000#32)) :
    z = Cert.Spec.varMom y := by
  funext i
  rw [hz i, Ideal.ofBits_zero_f32]
  rfl

variable (X : Valuation τ sig (Elt Ideal))

/-! ## The first layer's aggregation and bias -/

set_option maxHeartbeats 4000000 in
/-- The stretch before the first activation aggregates the projected features. -/
theorem h5_v117 (ei : Vec Ideal Cert.ReferenceIdeal.S2x1000000 .i32)
    (h5 : X main_v5 = Cert.Agg.src ei) (h7 : X main_v7 = Cert.Agg.dst ei) (h53 : X main_v53 = Cert.Agg.norm ei) :
    after hostOps5 X main_v117 = Cert.Agg.agg ei (X main_v104) := by
  show after hostOps5 X (Proc.devRef .tc main_v117) = _
  after_results_simp
  rw [h5, h7, h53]
  rfl

/-- The first bias as a row. -/
theorem h5_v118 : after hostOps5 X main_v118 = Cert.Spec.rowOf (X main_arg12) := by
  show after hostOps5 X (Proc.devRef .tc main_v118) = _
  after_results
  exact reshape_rowOf _ _

/-! ## The first activation's statistics, scale and shift -/

/-- The column sums over the number of rows: the batch mean. -/
theorem h6_v121 (y : Cert.Spec.Mat 100000 128) (h1 : X main_v119_1 = Cert.Spec.colSum y) :
    after hostOps6 X main_v121 = Cert.Spec.mean y := by
  show after hostOps6 X (Proc.devRef .tc main_v121) = _
  after_results
  rw [h1]
  rfl

/-- The mean of the squares less the squared mean, clamped at zero: the batch variance. -/
theorem h6_v127 (y : Cert.Spec.Mat 100000 128) (h1 : X main_v119_1 = Cert.Spec.colSum y)
    (h2 : X main_v119_2 = Cert.Spec.colSumSq y) :
    after hostOps6 X main_v127 = Cert.Spec.varMom y := by
  show after hostOps6 X (Proc.devRef .tc main_v127) = _
  after_results
  rw [h1, h2]
  exact var_of_sums y _ (fun _ => rfl)

/-- The first normalisation's scale as a row. -/
theorem h6_v128 : after hostOps6 X main_v128 = Cert.Spec.rowOf (X main_arg15) := by
  show after hostOps6 X (Proc.devRef .tc main_v128) = _
  after_results
  exact reshape_rowOf _ _

/-- The first normalisation's shift as a row. -/
theorem h6_v129 : after hostOps6 X main_v129 = Cert.Spec.rowOf (X main_arg16) := by
  show after hostOps6 X (Proc.devRef .tc main_v129) = _
  after_results
  exact reshape_rowOf _ _

/-! ## The second layer's aggregation and bias -/

set_option maxHeartbeats 4000000 in
/-- The stretch before the second layer's bias aggregates the projected, normalised activation. -/
theorem h7_v143 (ei : Vec Ideal Cert.ReferenceIdeal.S2x1000000 .i32)
    (h5 : X main_v5 = Cert.Agg.src ei) (h7 : X main_v7 = Cert.Agg.dst ei) (h53 : X main_v53 = Cert.Agg.norm ei) :
    after hostOps7 X main_v143 = Cert.Agg.agg ei (X main_v130) := by
  show after hostOps7 X (Proc.devRef .tc main_v143) = _
  after_results_simp
  rw [h5, h7, h53]
  rfl

/-- The second bias as a row. -/
theorem h7_v144 : after hostOps7 X main_v144 = Cert.Spec.rowOf (X main_arg14) := by
  show after hostOps7 X (Proc.devRef .tc main_v144) = _
  after_results
  exact reshape_rowOf _ _

/-! ## The second layer's statistics -/

/-- The batch mean of the second layer. -/
theorem h8_v147 (y : Cert.Spec.Mat 100000 128) (h1 : X main_v145_1 = Cert.Spec.colSum y) :
    after hostOps8 X main_v147 = Cert.Spec.mean y := by
  show after hostOps8 X (Proc.devRef .tc main_v147) = _
  after_results
  rw [h1]
  rfl

/-- The batch variance of the second layer. -/
theorem h8_v153 (y : Cert.Spec.Mat 100000 128) (h1 : X main_v145_1 = Cert.Spec.colSum y)
    (h2 : X main_v145_2 = Cert.Spec.colSumSq y) :
    after hostOps8 X main_v153 = Cert.Spec.varMom y := by
  show after hostOps8 X (Proc.devRef .tc main_v153) = _
  after_results
  rw [h1, h2]
  exact var_of_sums y _ (fun _ => rfl)

/-! ## The second normalisation's and the perceptron's rows -/

/-- The second normalisation's scale as a row. -/
theorem h9_v159 : after hostOps9 X main_v159 = Cert.Spec.rowOf (X main_arg17) := by
  show after hostOps9 X (Proc.devRef .tc main_v159) = _
  after_results
  exact reshape_rowOf _ _

/-- The second normalisation's shift as a row. -/
theorem h9_v160 : after hostOps9 X main_v160 = Cert.Spec.rowOf (X main_arg18) := by
  show after hostOps9 X (Proc.devRef .tc main_v160) = _
  after_results
  exact reshape_rowOf _ _

/-- The perceptron's first bias as a row. -/
theorem h9_v161 : after hostOps9 X main_v161 = Cert.Spec.rowOf (X main_arg20) := by
  show after hostOps9 X (Proc.devRef .tc main_v161) = _
  after_results
  exact reshape_rowOf _ _

/-- The perceptron's second bias as a row. -/
theorem h9_v162 : after hostOps9 X main_v162 = Cert.Spec.rowOf (X main_arg22) := by
  show after hostOps9 X (Proc.devRef .tc main_v162) = _
  after_results
  exact reshape_rowOf _ _

end Cert.KernelIdeal.Chain.G

end
-- ==== Proof.ChainG2.lean ====
import proofs.«174816_j57878979281252_2_alg».proof.Proof.Family
import proofs.«174816_j57878979281252_2_alg».proof.Proof.ChainArgs
import proofs.«174816_j57878979281252_2_alg».proof.Proof.ChainL1
import proofs.«174816_j57878979281252_2_alg».proof.Proof.ChainG1
import proofs.«174816_j57878979281252_2_alg».proof.Proof.Value4
import proofs.«174816_j57878979281252_2_alg».proof.Proof.Value5
import proofs.«174816_j57878979281252_2_alg».proof.Proof.Value6
import proofs.«174816_j57878979281252_2_alg».proof.Proof.Value7
import proofs.«174816_j57878979281252_2_alg».proof.Proof.Value9

set_option maxRecDepth 16384

noncomputable section

/-!
# The global encoder, item by item

From the launch memory on, what each item of the program leaves in the buffers the global encoder's later items
read, as the specification's functions of the arguments: the second edge list's rows and weights; the features'
first projection; its aggregation and the first bias; the first activation with its column sums; their mean and
variance and the first normalisation's scale and shift; the normalised activation's projection; its aggregation
and the second bias; the second layer with its column sums; their mean and variance; the second normalisation's
and the perceptron's rows; the perceptron's output. A buffer an item does not write is carried across it.
-/

namespace Cert.KernelIdeal.Chain.G

open Idealize.ShloMosaic Idealize.ShloMosaic.TcCoe Idealize.ShloMosaic.ValueIdx
open Cert.KernelIdeal Cert.KernelIdeal.Gen Cert.KernelIdeal.Reg Cert.KernelIdeal.Run Cert.KernelIdeal.Chain
open Cert.Spec (Mat Row)

variable (m : (ℓ : Loc nD τ sig) → Buf (Elt Ideal) ℓ) (c : Dev nD)

/-! ## What a host stretch leaves unchanged -/

theorem T1_of (r : Ref sig .tc) (h : r ∉ hostOps0_W) : T1 m c r = T0 m c r :=
  StableHlo.after_of_writes_sub hostOps0 _ hostOps0_writes h
theorem T2_of (r : Ref sig .tc) (h : r ∉ hostOps0_1_W) : T2 m c r = T1 m c r :=
  StableHlo.after_of_writes_sub hostOps0_1 _ hostOps0_1_writes h
theorem T3_of (r : Ref sig .tc) (h : r ∉ hostOps0_2_W) : T3 m c r = T2 m c r :=
  StableHlo.after_of_writes_sub hostOps0_2 _ hostOps0_2_writes h
theorem T4_of (r : Ref sig .tc) (h : r ∉ hostOps0_3_W) : T4 m c r = T3 m c r :=
  StableHlo.after_of_writes_sub hostOps0_3 _ hostOps0_3_writes h
theorem T5_of (r : Ref sig .tc) (h : r ∉ hostOps0_4_W) : T5 m c r = T4 m c r :=
  StableHlo.after_of_writes_sub hostOps0_4 _ hostOps0_4_writes h
theorem T7_of (r : Ref sig .tc) (h : r ∉ hostOps1_W) : T7 m c r = T6 m c r :=
  StableHlo.after_of_writes_sub hostOps1 _ hostOps1_writes h
theorem T9_of (r : Ref sig .tc) (h : r ∉ hostOps2_W) : T9 m c r = T8 m c r :=
  StableHlo.after_of_writes_sub hostOps2 _ hostOps2_writes h
theorem T11_of (r : Ref sig .tc) (h : r ∉ hostOps3_W) : T11 m c r = T10 m c r :=
  StableHlo.after_of_writes_sub hostOps3 _ hostOps3_writes h
theorem T13_of (r : Ref sig .tc) (h : r ∉ hostOps4_W) : T13 m c r = T12 m c r :=
  StableHlo.after_of_writes_sub hostOps4 _ hostOps4_writes h
theorem T15_of (r : Ref sig .tc) (h : r ∉ hostOps5_W) : T15 m c r = T14 m c r :=
  StableHlo.after_of_writes_sub hostOps5 _ hostOps5_writes h
theorem T17_of (r : Ref sig .tc) (h : r ∉ hostOps6_W) : T17 m c r = T16 m c r :=
  StableHlo.after_of_writes_sub hostOps6 _ hostOps6_writes h
theorem T19_of (r : Ref sig .tc) (h : r ∉ hostOps7_W) : T19 m c r = T18 m c r :=
  StableHlo.after_of_writes_sub hostOps7 _ hostOps7_writes h
theorem T21_of (r : Ref sig .tc) (h : r ∉ hostOps8_W) : T21 m c r = T20 m c r :=
  StableHlo.after_of_writes_sub hostOps8 _ hostOps8_writes h
theorem T23_of (r : Ref sig .tc) (h : r ∉ hostOps9_W) : T23 m c r = T22 m c r :=
  StableHlo.after_of_writes_sub hostOps9 _ hostOps9_writes h
theorem T25_of (r : Ref sig .tc) (h : r ∉ hostOps10_W) : T25 m c r = T24 m c r :=
  StableHlo.after_of_writes_sub hostOps10 _ hostOps10_writes h
theorem T27_of (r : Ref sig .tc) (h : r ∉ hostOps11_W) : T27 m c r = T26 m c r :=
  StableHlo.after_of_writes_sub hostOps11 _ hostOps11_writes h
theorem T28_of (r : Ref sig .tc) (h : r ∉ hostOps11_1_W) : T28 m c r = T27 m c r :=
  StableHlo.after_of_writes_sub hostOps11_1 _ hostOps11_1_writes h
theorem T29_of (r : Ref sig .tc) (h : r ∉ hostOps11_2_W) : T29 m c r = T28 m c r :=
  StableHlo.after_of_writes_sub hostOps11_2 _ hostOps11_2_writes h
theorem T30_of (r : Ref sig .tc) (h : r ∉ hostOps11_3_W) : T30 m c r = T29 m c r :=
  StableHlo.after_of_writes_sub hostOps11_3 _ hostOps11_3_writes h
theorem T31_of (r : Ref sig .tc) (h : r ∉ hostOps11_4_W) : T31 m c r = T30 m c r :=
  StableHlo.after_of_writes_sub hostOps11_4 _ hostOps11_4_writes h

/-- Carries a buffer's contents back across every item that does not write it, item by item, until the item
    that does. -/
macro "carry" : tactic => `(tactic| repeat (first
  | (rw [T31_of]; rotate_left; decide)
  | (rw [T30_of]; rotate_left; decide)
  | (rw [T29_of]; rotate_left; decide)
  | (rw [T28_of]; rotate_left; decide)
  | (rw [T27_of]; rotate_left; decide)
  | (rw [Cert.KernelIdeal.Run.T26_of]; rotate_left; decide)
  | (rw [T25_of]; rotate_left; decide)
  | (rw [Cert.KernelIdeal.Run.T24_of]; rotate_left; decide)
  | (rw [T23_of]; rotate_left; decide)
  | (rw [Cert.KernelIdeal.Run.T22_of]; rotate_left; decide)
  | (rw [T21_of]; rotate_left; decide)
  | (rw [Cert.KernelIdeal.Run.T20_of]; rotate_left; decide)
  | (rw [T19_of]; rotate_left; decide)
  | (rw [Cert.KernelIdeal.Run.T18_of]; rotate_left; decide)
  | (rw [T17_of]; rotate_left; decide)
  | (rw [Cert.KernelIdeal.Run.T16_of]; rotate_left; decide)
  | (rw [T15_of]; rotate_left; decide)
  | (rw [Cert.KernelIdeal.Run.T14_of]; rotate_left; decide)
  | (rw [T13_of]; rotate_left; decide)
  | (rw [Cert.KernelIdeal.Run.T12_of]; rotate_left; decide)
  | (rw [T11_of]; rotate_left; decide)
  | (rw [Cert.KernelIdeal.Run.T10_of]; rotate_left; decide)
  | (rw [T9_of]; rotate_left; decide)
  | (rw [Cert.KernelIdeal.Run.T8_of]; rotate_left; decide)
  | (rw [T7_of]; rotate_left; decide)
  | (rw [Cert.KernelIdeal.Run.T6_of]; rotate_left; decide)
  | (rw [T5_of]; rotate_left; decide)
  | (rw [T4_of]; rotate_left; decide)
  | (rw [T3_of]; rotate_left; decide)
  | (rw [T2_of]; rotate_left; decide)
  | (rw [T1_of]; rotate_left; decide)
  ))

/-! ## The second edge list -/

local notation "aggG" => Cert.Agg.agg (eiG m c)

theorem v5_1 : T1 m c main_v5 = Cert.Agg.src (eiG m c) := h0_v5 (T0 m c)
theorem v7_1 : T1 m c main_v7 = Cert.Agg.dst (eiG m c) := h0_v7 (T0 m c)
theorem v7_2 : T2 m c main_v7 = Cert.Agg.dst (eiG m c) := by carry; exact v7_1 m c
theorem v5_4 : T4 m c main_v5 = Cert.Agg.src (eiG m c) := by carry; exact v5_1 m c
theorem v7_4 : T4 m c main_v7 = Cert.Agg.dst (eiG m c) := by carry; exact v7_1 m c
theorem v38_4 : T4 m c main_v38 = Cert.Agg.dinv (eiG m c) :=
  h03_v38 (T3 m c) (eiG m c) (h02_v36 (T2 m c) (eiG m c) (v7_2 m c)) (h02_v37 (T2 m c) (eiG m c) (v7_2 m c))
    (h02_cst9 (T2 m c))
theorem v53_5 : T5 m c main_v53 = Cert.Agg.norm (eiG m c) :=
  h04_v53 (T4 m c) (eiG m c) (v38_4 m c) (v5_4 m c) (v7_4 m c)
theorem v5_14 : T14 m c main_v5 = Cert.Agg.src (eiG m c) := by carry; exact v5_1 m c
theorem v7_14 : T14 m c main_v7 = Cert.Agg.dst (eiG m c) := by carry; exact v7_1 m c
theorem v53_14 : T14 m c main_v53 = Cert.Agg.norm (eiG m c) := by carry; exact v53_5 m c
theorem v5_18 : T18 m c main_v5 = Cert.Agg.src (eiG m c) := by carry; exact v5_1 m c
theorem v7_18 : T18 m c main_v7 = Cert.Agg.dst (eiG m c) := by carry; exact v7_1 m c
theorem v53_18 : T18 m c main_v53 = Cert.Agg.norm (eiG m c) := by carry; exact v53_5 m c

/-! ## The first layer -/

/-- Region 4 leaves the features' projection by the first weights. -/
theorem v104_14 : (T14 m c main_v104 : Mat 100000 128) = Spec.mm (xOf m c) (pG m c).W1 := by
  rw [T14_out2, RegValue.final4_2]
  show Spec.mm (T13 m c main_arg0) (T13 m c main_arg11) = _
  carry
  rfl

/-- The stretch after it aggregates that projection over the second edge list. -/
theorem v117_15 : (T15 m c main_v117 : Mat 100000 128) = aggG (Spec.mm (xOf m c) (pG m c).W1) :=
  (h5_v117 (T14 m c) (eiG m c) (v5_14 m c) (v7_14 m c) (v53_14 m c)).trans (by rw [v104_14])

theorem v118_15 : (T15 m c main_v118 : Row 128) = (pG m c).b1 := by
  refine (h5_v118 (T14 m c)).trans ?_
  carry
  rfl

/-- Region 5 leaves the first activation … -/
theorem v119_0_16 : (T16 m c main_v119_0 : Mat 100000 128) = Spec.act1 aggG (xOf m c) (pG m c) := by
  rw [T16_out2, RegValue.final5_2]
  show Spec.relu (Spec.addRow (T15 m c main_v117) (T15 m c main_v118)) = _
  rw [v117_15, v118_15]
  rfl
/-- … its column sums … -/
theorem v119_1_16 : (T16 m c main_v119_1 : Row 128) = Spec.colSum (Spec.act1 aggG (xOf m c) (pG m c)) := by
  rw [T16_out3, RegValue.final5_3]
  show Spec.colSum (Spec.relu (Spec.addRow (T15 m c main_v117) (T15 m c main_v118))) = _
  rw [v117_15, v118_15]
  rfl
/-- … and the column sums of its squares. -/
theorem v119_2_16 : (T16 m c main_v119_2 : Row 128) = Spec.colSumSq (Spec.act1 aggG (xOf m c) (pG m c)) := by
  rw [T16_out4, RegValue.final5_4]
  show Spec.colSumSq (Spec.relu (Spec.addRow (T15 m c main_v117) (T15 m c main_v118))) = _
  rw [v117_15, v118_15]
  rfl

/-! ## The first normalisation and the second projection -/

theorem v119_0_17 : (T17 m c main_v119_0 : Mat 100000 128) = Spec.act1 aggG (xOf m c) (pG m c) := by
  carry; exact v119_0_16 m c
theorem v121_17 : (T17 m c main_v121 : Row 128) = Spec.mean (Spec.act1 aggG (xOf m c) (pG m c)) :=
  h6_v121 (T16 m c) _ (v119_1_16 m c)
theorem v127_17 : (T17 m c main_v127 : Row 128) = Spec.varMom (Spec.act1 aggG (xOf m c) (pG m c)) :=
  h6_v127 (T16 m c) _ (v119_1_16 m c) (v119_2_16 m c)
theorem v128_17 : (T17 m c main_v128 : Row 128) = (pG m c).g1 := by
  refine (h6_v128 (T16 m c)).trans ?_
  carry
  rfl
theorem v129_17 : (T17 m c main_v129 : Row 128) = (pG m c).bt1 := by
  refine (h6_v129 (T16 m c)).trans ?_
  carry
  rfl

/-- Region 6 leaves the normalised first activation's projection by the second weights. -/
theorem v130_18 : (T18 m c main_v130 : Mat 100000 128)
    = Spec.mm (Spec.bn (Spec.act1 aggG (xOf m c) (pG m c)) (Spec.mean (Spec.act1 aggG (xOf m c) (pG m c)))
        (Spec.varMom (Spec.act1 aggG (xOf m c) (pG m c))) (pG m c).g1 (pG m c).bt1) (pG m c).W2 := by
  rw [T18_out6, RegValue.final6_6]
  show Spec.mm (Spec.bn (T17 m c main_v119_0) (T17 m c main_v121) (T17 m c main_v127) (T17 m c main_v128)
    (T17 m c main_v129)) (T17 m c main_arg13) = _
  rw [v119_0_17, v121_17, v127_17, v128_17, v129_17]
  carry
  rfl

/-! ## The second layer -/

theorem v143_19 : (T19 m c main_v143 : Mat 100000 128)
    = aggG (Spec.mm (Spec.bn (Spec.act1 aggG (xOf m c) (pG m c)) (Spec.mean (Spec.act1 aggG (xOf m c) (pG m c)))
        (Spec.varMom (Spec.act1 aggG (xOf m c) (pG m c))) (pG m c).g1 (pG m c).bt1) (pG m c).W2) :=
  (h7_v143 (T18 m c) (eiG m c) (v5_18 m c) (v7_18 m c) (v53_18 m c)).trans (by rw [v130_18])

theorem v144_19 : (T19 m c main_v144 : Row 128) = (pG m c).b2 := by
  refine (h7_v144 (T18 m c)).trans ?_
  carry
  rfl

/-- Region 7 leaves the second layer before its normalisation … -/
theorem v145_0_20 : (T20 m c main_v145_0 : Mat 100000 128) = Spec.act2 Spec.varMom aggG (xOf m c) (pG m c) := by
  rw [T20_out2, RegValue.final7_2]
  show Spec.addRow (T19 m c main_v143) (T19 m c main_v144) = _
  rw [v143_19, v144_19]
  rfl
/-- … its column sums … -/
theorem v145_1_20 : (T20 m c main_v145_1 : Row 128) = Spec.colSum (Spec.act2 Spec.varMom aggG (xOf m c) (pG m c)) := by
  rw [T20_out3, RegValue.final7_3]
  show Spec.colSum (Spec.addRow (T19 m c main_v143) (T19 m c main_v144)) = _
  rw [v143_19, v144_19]
  rfl
/-- … and the column sums of its squares. -/
theorem v145_2_20 : (T20 m c main_v145_2 : Row 128) = Spec.colSumSq (Spec.act2 Spec.varMom aggG (xOf m c) (pG m c)) := by
  rw [T20_out4, RegValue.final7_4]
  show Spec.colSumSq (Spec.addRow (T19 m c main_v143) (T19 m c main_v144)) = _
  rw [v143_19, v144_19]
  rfl

/-! ## The second normalisation and the perceptron -/

theorem v147_21 : (T21 m c main_v147 : Row 128) = Spec.mean (Spec.act2 Spec.varMom aggG (xOf m c) (pG m c)) :=
  h8_v147 (T20 m c) _ (v145_1_20 m c)
theorem v153_21 : (T21 m c main_v153 : Row 128) = Spec.varMom (Spec.act2 Spec.varMom aggG (xOf m c) (pG m c)) :=
  h8_v153 (T20 m c) _ (v145_1_20 m c) (v145_2_20 m c)

theorem v145_0_23 : (T23 m c main_v145_0 : Mat 100000 128) = Spec.act2 Spec.varMom aggG (xOf m c) (pG m c) := by
  carry; exact v145_0_20 m c
theorem v147_23 : (T23 m c main_v147 : Row 128) = Spec.mean (Spec.act2 Spec.varMom aggG (xOf m c) (pG m c)) := by
  carry; exact v147_21 m c
theorem v153_23 : (T23 m c main_v153 : Row 128) = Spec.varMom (Spec.act2 Spec.varMom aggG (xOf m c) (pG m c)) := by
  carry; exact v153_21 m c
theorem v159_23 : (T23 m c main_v159 : Row 128) = (pG m c).g2 := by
  refine (h9_v159 (T22 m c)).trans ?_
  carry
  rfl
theorem v160_23 : (T23 m c main_v160 : Row 128) = (pG m c).bt2 := by
  refine (h9_v160 (T22 m c)).trans ?_
  carry
  rfl
theorem v161_23 : (T23 m c main_v161 : Row 128) = (hd m c).mb1 := by
  refine (h9_v161 (T22 m c)).trans ?_
  carry
  rfl
theorem v162_23 : (T23 m c main_v162 : Row 128) = (hd m c).mb2 := by
  refine (h9_v162 (T22 m c)).trans ?_
  carry
  rfl

/-- Region 9 leaves the global encoder's output through the shared perceptron. -/
theorem v163_24 : (T24 m c main_v163 : Mat 100000 128) = Spec.zEnc Spec.varMom aggG (xOf m c) (pG m c) (hd m c) := by
  rw [T24_out9, RegValue.final9_9]
  show Spec.mlp (Spec.bn (T23 m c main_v145_0) (T23 m c main_v147) (T23 m c main_v153) (T23 m c main_v159)
    (T23 m c main_v160)) (T23 m c main_arg19) (T23 m c main_v161) (T23 m c main_arg21) (T23 m c main_v162) = _
  rw [v145_0_23, v147_23, v153_23, v159_23, v160_23, v161_23, v162_23]
  carry
  rfl

end Cert.KernelIdeal.Chain.G

namespace Cert.KernelIdeal.Chain

open Idealize.ShloMosaic Idealize.ShloMosaic.TcCoe
open Cert.KernelIdeal Cert.KernelIdeal.Gen Cert.KernelIdeal.Run
open Cert.KernelIdeal.Chain.G

/-- At the end of the program the second result buffer holds the global encoder's output: the specification's
    encoder over the second edge list's aggregation, with the moment form of the variance. -/
theorem zGlobal (m : (ℓ : Loc nD τ sig) → Buf (Elt Ideal) ℓ) (c : Dev nD) :
    T31 m c main_v163 = Spec.zEnc Spec.varMom (Cert.Agg.agg (eiG m c)) (xOf m c) (pG m c) (hd m c) := by
  carry
  exact v163_24 m c

end Cert.KernelIdeal.Chain

end
-- ==== Proof.ChainH1.lean ====
import proofs.«174816_j57878979281252_2_alg».proof.Proof.Gen.KernelIdeal.Regions
import proofs.«174816_j57878979281252_2_alg».proof.Proof.Net
import Idealize.ShloMosaic.Lib.Pipeline.Value
import Idealize.ShloMosaic.Lib.ValueIdx
import Idealize.ShloMosaic.Lib.ValueLayout
import Idealize.ShloMosaic.Lib.StackMember
import Idealize.ShloMosaic.Lib.StableHlo.Run
import Idealize.ShloMosaic.PureOps.Ideal.Laws

/-!
# The last host operations of the program: two perceptrons on single rows

After the last kernel region the program applies the shared two-layer perceptron to each of the two rows of
column sums: a product with the first weight matrix, the first bias added, the positive part (an outlined
function: the maximum with a broadcast zero), a product with the second weight matrix, the second bias added.
A product of a [1,128] row with a [128,128] matrix is the specification's matrix product at one row; a
128-vector broadcast along the columns, or reshaped to [1,n], is the vector read as a row. Each stretch of
host operations is read here over an arbitrary valuation of the buffers, so that nothing depends on what the
buffers hold before it; the composites give the three results the stretches leave.
-/

set_option maxRecDepth 16384

noncomputable section

namespace Cert.KernelIdeal.Chain.Tail

open Idealize.ShloMosaic Idealize.ShloMosaic.TcCoe Idealize.ShloMosaic.ValueIdx
open Idealize.SL.Sem
open Cert.KernelIdeal Cert.KernelIdeal.Gen

/-! ## Rows, products and the positive part -/

/-- The printed contraction of a [1,128] row with a [128,128] matrix has the plain product's dimension numbers. -/
theorem dot1_eq : dot_S1x128_S128x128_S1x128_1_0_0_1_n_n = DotDims.plain 1 128 128 := rfl

/-- The host product of a row and a square matrix is the specification's matrix product. -/
theorem hostDot_eq_mm (l : FVec Ideal S1x128 .f32) (r : FVec Ideal S128x128 .f32) :
    (Host.dotGeneral (F := Ideal) dot_S1x128_S128x128_S1x128_1_0_0_1_n_n none l r : Cert.Spec.Mat 1 128)
      = Cert.Spec.mm (l : Cert.Spec.Mat 1 128) (r : Cert.Spec.Mat 128 128) := by
  funext i
  obtain ⟨a, b, rfl⟩ : ∃ (a : Fin 1) (b : Fin 128), i = ix2 a b := ⟨i 0, i 1, eq_ix2 i⟩
  rw [dot1_eq]
  exact StackMember.dotGeneral_plain_apply none l r a b

/-- A 128-vector broadcast along the columns of a [1,128] array is the vector read as a row. -/
theorem bcastRow128 (v : FVec Ideal S128 .f32) :
    (broadcastInDim S1x128 ![1] bcast_S128_S1x128_1 v : Cert.Spec.Row 128) = Cert.Spec.rowOf (v : Cert.Spec.Arr 128) := by
  funext i
  unfold Cert.Spec.rowOf
  refine broadcastInDim_apply _ _ v i (ix1 (i 1)) fun a => ?_
  match a with
  | ⟨0, _⟩ => rfl

/-- A 64-vector reshaped to [1,64] is the vector read as a row. -/
theorem reshapeRow64 (v : FVec Ideal S64 .f32) :
    (shapeCast S1x64 v shapeCasts_S64_S1x64 : Cert.Spec.Row 64) = Cert.Spec.rowOf (v : Cert.Spec.Arr 64) := by
  funext i
  obtain ⟨u, j, rfl⟩ : ∃ (u : Fin 1) (j : Fin 64), i = ix2 u j := ⟨i 0, i 1, eq_ix2 i⟩
  exact shapeCast_a_1a_apply v _ u j

/-- A 40-vector reshaped to [1,40] is the vector read as a row. -/
theorem reshapeRow40 (v : FVec Ideal S40 .f32) :
    (shapeCast S1x40 v shapeCasts_S40_S1x40 : Cert.Spec.Row 40) = Cert.Spec.rowOf (v : Cert.Spec.Arr 40) := by
  funext i
  obtain ⟨u, j, rfl⟩ : ∃ (u : Fin 1) (j : Fin 40), i = ix2 u j := ⟨i 0, i 1, eq_ix2 i⟩
  exact shapeCast_a_1a_apply v _ u j

/-- The maximum with the broadcast zero word is the positive part. -/
theorem hostRelu (x : FVec Ideal S1x128 .f32) :
    (maximumf x (broadcastInDim S1x128 ![] bcast_S_S1x128 (constant S_ .f32 0x00000000#32)) : Cert.Spec.Row 128)
      = Cert.Spec.relu (x : Cert.Spec.Row 128) := by
  funext i
  show max (x i) (Ideal.ofBits .f32 0x00000000#32) = max (x i) 0
  rw [Ideal.ofBits_zero_f32]

/-- A row plus a broadcast vector is the specification's row addition. -/
theorem hostAddRow (x : FVec Ideal S1x128 .f32) (v : FVec Ideal S128 .f32) :
    (addf x (broadcastInDim S1x128 ![1] bcast_S128_S1x128_1 v) : Cert.Spec.Row 128)
      = Cert.Spec.addRow (x : Cert.Spec.Row 128) (Cert.Spec.rowOf (v : Cert.Spec.Arr 128)) := by
  rw [bcastRow128]
  rfl

/-- One affine layer on a row, as the host composes it: the product with the weights plus the broadcast bias. -/
def lin (p : FVec Ideal S1x128 .f32) (Wt : FVec Ideal S128x128 .f32) (b : FVec Ideal S128 .f32) : FVec Ideal S1x128 .f32 :=
  addf (Host.dotGeneral dot_S1x128_S128x128_S1x128_1_0_0_1_n_n none p Wt) (broadcastInDim S1x128 ![1] bcast_S128_S1x128_1 b)

/-- The outlined positive part: the maximum with the broadcast zero word. -/
def reluH (x : FVec Ideal S1x128 .f32) : FVec Ideal S1x128 .f32 :=
  maximumf x (broadcastInDim S1x128 ![] bcast_S_S1x128 (constant S_ .f32 0x00000000#32))

/-- Two affine layers with the positive part between them are the specification's perceptron, the two bias
    vectors read as rows. -/
theorem lin_relu_lin (p : FVec Ideal S1x128 .f32) (W1 : FVec Ideal S128x128 .f32) (b1 : FVec Ideal S128 .f32)
    (W2 : FVec Ideal S128x128 .f32) (b2 : FVec Ideal S128 .f32) :
    (lin (reluH (lin p W1 b1)) W2 b2 : Cert.Spec.Row 128)
      = Cert.Spec.mlp (p : Cert.Spec.Row 128) (W1 : Cert.Spec.Mat 128 128) (Cert.Spec.rowOf (b1 : Cert.Spec.Arr 128))
          (W2 : Cert.Spec.Mat 128 128) (Cert.Spec.rowOf (b2 : Cert.Spec.Arr 128)) := by
  unfold lin reluH Cert.Spec.mlp
  rw [hostAddRow, hostDot_eq_mm, hostRelu, hostAddRow, hostDot_eq_mm]

/-! ## Each stretch of host operations, read over an arbitrary valuation -/

variable (W : Valuation τ sig (Elt Ideal))

/-- The two reshapes before the last region leave the classifier's first bias as a row … -/
theorem s10_v164 :
    (StableHlo.after hostOps10 W main_v164 : Cert.Spec.Row 64) = Cert.Spec.rowOf (W main_arg24 : Cert.Spec.Arr 64) := by
  rw [← reshapeRow64]
  show StableHlo.after hostOps10 W (Proc.devRef .tc main_v164) = _
  after_results <;> rfl

/-- … and its second bias as a row. -/
theorem s10_v165 :
    (StableHlo.after hostOps10 W main_v165 : Cert.Spec.Row 40) = Cert.Spec.rowOf (W main_arg26 : Cert.Spec.Arr 40) := by
  rw [← reshapeRow40]
  show StableHlo.after hostOps10 W (Proc.devRef .tc main_v165) = _
  after_results <;> rfl

/-- The first affine layer on the first row of column sums. -/
theorem s11_v169 :
    (StableHlo.after hostOps11 W main_v169 : FVec Ideal S1x128 .f32)
      = lin (W main_v166_1) (W main_arg19) (W main_arg20) := by
  show StableHlo.after hostOps11 W (Proc.devRef .tc main_v169) = _
  after_results <;> rfl

/-- The outlined positive part of it. -/
theorem s11_1_v170 :
    (StableHlo.after hostOps11_1 W main_v170 : FVec Ideal S1x128 .f32) = reluH (W main_v169) := by
  show StableHlo.after hostOps11_1 W (Proc.devRef .tc main_v170) = _
  after_results <;> rfl

/-- The second affine layer on the first row … -/
theorem s11_2_v173 :
    (StableHlo.after hostOps11_2 W main_v173 : FVec Ideal S1x128 .f32)
      = lin (W main_v170) (W main_arg21) (W main_arg22) := by
  show StableHlo.after hostOps11_2 W (Proc.devRef .tc main_v173) = _
  after_results <;> rfl

/-- … and, in the same stretch, the first affine layer on the second row of column sums. -/
theorem s11_2_v176 :
    (StableHlo.after hostOps11_2 W main_v176 : FVec Ideal S1x128 .f32)
      = lin (W main_v166_2) (W main_arg19) (W main_arg20) := by
  show StableHlo.after hostOps11_2 W (Proc.devRef .tc main_v176) = _
  after_results <;> rfl

/-- The outlined positive part of that. -/
theorem s11_3_v177 :
    (StableHlo.after hostOps11_3 W main_v177 : FVec Ideal S1x128 .f32) = reluH (W main_v176) := by
  show StableHlo.after hostOps11_3 W (Proc.devRef .tc main_v177) = _
  after_results <;> rfl

/-- The second affine layer on the second row. -/
theorem s11_4_v180 :
    (StableHlo.after hostOps11_4 W main_v180 : FVec Ideal S1x128 .f32)
      = lin (W main_v177) (W main_arg21) (W main_arg22) := by
  show StableHlo.after hostOps11_4 W (Proc.devRef .tc main_v180) = _
  after_results <;> rfl

/-! ## What a stretch does not write it leaves as it was -/

theorem k10 (r : Ref sig .tc) (h : r ∉ hostOps10_W) : StableHlo.after hostOps10 W r = W r :=
  StableHlo.after_of_writes_sub hostOps10 W hostOps10_writes h
theorem k11 (r : Ref sig .tc) (h : r ∉ hostOps11_W) : StableHlo.after hostOps11 W r = W r :=
  StableHlo.after_of_writes_sub hostOps11 W hostOps11_writes h
theorem k11_1 (r : Ref sig .tc) (h : r ∉ hostOps11_1_W) : StableHlo.after hostOps11_1 W r = W r :=
  StableHlo.after_of_writes_sub hostOps11_1 W hostOps11_1_writes h
theorem k11_2 (r : Ref sig .tc) (h : r ∉ hostOps11_2_W) : StableHlo.after hostOps11_2 W r = W r :=
  StableHlo.after_of_writes_sub hostOps11_2 W hostOps11_2_writes h
theorem k11_3 (r : Ref sig .tc) (h : r ∉ hostOps11_3_W) : StableHlo.after hostOps11_3 W r = W r :=
  StableHlo.after_of_writes_sub hostOps11_3 W hostOps11_3_writes h
theorem k11_4 (r : Ref sig .tc) (h : r ∉ hostOps11_4_W) : StableHlo.after hostOps11_4 W r = W r :=
  StableHlo.after_of_writes_sub hostOps11_4 W hostOps11_4_writes h

/-! ## The five last stretches together -/

/-- The five last stretches of host operations, run from W. -/
def tailOf : Valuation τ sig (Elt Ideal) :=
  StableHlo.after hostOps11_4 (StableHlo.after hostOps11_3 (StableHlo.after hostOps11_2
    (StableHlo.after hostOps11_1 (StableHlo.after hostOps11 W))))

/-- A buffer none of the five stretches writes is left as it was. -/
theorem tail_keep (r : Ref sig .tc) (h0 : r ∉ hostOps11_W) (h1 : r ∉ hostOps11_1_W) (h2 : r ∉ hostOps11_2_W)
    (h3 : r ∉ hostOps11_3_W) (h4 : r ∉ hostOps11_4_W) : tailOf W r = W r := by
  unfold tailOf
  rw [k11_4 _ r h4, k11_3 _ r h3, k11_2 _ r h2, k11_1 _ r h1, k11 _ r h0]

/-- The third result: the perceptron of the first row of column sums. -/
theorem tail_v173 :
    (tailOf W main_v173 : Cert.Spec.Row 128)
      = Cert.Spec.mlp (W main_v166_1 : Cert.Spec.Row 128) (W main_arg19 : Cert.Spec.Mat 128 128)
          (Cert.Spec.rowOf (W main_arg20 : Cert.Spec.Arr 128)) (W main_arg21 : Cert.Spec.Mat 128 128)
          (Cert.Spec.rowOf (W main_arg22 : Cert.Spec.Arr 128)) := by
  rw [← lin_relu_lin]
  unfold tailOf
  rw [k11_4 _ main_v173 (by decide), k11_3 _ main_v173 (by decide), s11_2_v173, s11_1_v170, s11_v169,
    k11_1 _ main_arg21 (by decide), k11 _ main_arg21 (by decide), k11_1 _ main_arg22 (by decide), k11 _ main_arg22 (by decide)]

/-- The fourth result: the perceptron of the second row of column sums. -/
theorem tail_v180 :
    (tailOf W main_v180 : Cert.Spec.Row 128)
      = Cert.Spec.mlp (W main_v166_2 : Cert.Spec.Row 128) (W main_arg19 : Cert.Spec.Mat 128 128)
          (Cert.Spec.rowOf (W main_arg20 : Cert.Spec.Arr 128)) (W main_arg21 : Cert.Spec.Mat 128 128)
          (Cert.Spec.rowOf (W main_arg22 : Cert.Spec.Arr 128)) := by
  rw [← lin_relu_lin]
  unfold tailOf
  rw [s11_4_v180, s11_3_v177, s11_2_v176,
    k11_1 _ main_v166_2 (by decide), k11 _ main_v166_2 (by decide),
    k11_1 _ main_arg19 (by decide), k11 _ main_arg19 (by decide), k11_1 _ main_arg20 (by decide), k11 _ main_arg20 (by decide),
    k11_3 _ main_arg21 (by decide), k11_2 _ main_arg21 (by decide), k11_1 _ main_arg21 (by decide), k11 _ main_arg21 (by decide),
    k11_3 _ main_arg22 (by decide), k11_2 _ main_arg22 (by decide), k11_1 _ main_arg22 (by decide), k11 _ main_arg22 (by decide)]

end Cert.KernelIdeal.Chain.Tail

end
-- ==== Proof.Value10.lean ====
/-
  The last kernel region's three result arrays as whole-array functions of its six operand arrays, at the extended
  reals. The predictions: a point's payload is the two-layer perceptron of that point's row blocks of the two
  embeddings (no rounding at the extended reals, the accumulators zero), the twenty row blocks cover the 100000 rows,
  so the array ends holding the perceptron of the sum of the two embeddings. The two pooled sums: each running sum
  before point n is the sum of the column sums of the row blocks below n; the last point writes them back, and the
  twenty blocks' column sums add up to the column sums of all 100000 rows.
-/
import proofs.«174816_j57878979281252_2_alg».proof.Proof.Region10
import proofs.«174816_j57878979281252_2_alg».proof.Proof.Spec
import proofs.«174816_j57878979281252_2_alg».proof.Proof.Algebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegValue

open Idealize.ShloMosaic Idealize.ShloMosaic.TcCoe Idealize.ShloMosaic.ValueIdx
open Idealize.SL.Sem
open Idealize.ShloMosaic.Pipeline (Dat)
open Cert.KernelIdeal Cert.KernelIdeal.Gen

/-! ## The two block products' operand indices, axis by axis -/

theorem lhs10a_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs10a_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs10a_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs10a_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

theorem lhs10b_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide),
    dif_pos (show (0 : Fin S5000x64.rank) ∈ dot_S5000x64_S64x40_S5000x40_1_0_0_1_n_n.lhsNonContracting by decide)]
  rfl
theorem lhs10b_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
theorem rhs10b_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
theorem rhs10b_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide),
    dif_pos (show (1 : Fin S64x40.rank) ∈ dot_S5000x64_S64x40_S5000x40_1_0_0_1_n_n.rhsNonContracting by decide)]
  rfl

/-! ## The block products at an index -/

/-- Entry (p, j) of a block product into a zero accumulator is the sum over the contracted axis of the products. -/
theorem mm10a_apply (a : FVec Ideal S5000x128 .bf16) (b : FVec Ideal S128x64 .bf16) (p : Fin 5000) (j : Fin 64) :
    matmul dot_S5000x128_S128x64_S5000x64_1_0_0_1_n_n none a b (constant (F := Ideal) S5000x64 .f32 0x00000000#32) (ix2 p j)
      = ∑ k : Fin 128, a (ix2 p k) * b (ix2 k j) := by
  simp only [matmul]
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p j) ((contrEquiv1 dot_S5000x128_S128x64_S5000x64_1_0_0_1_n_n 128 rfl rfl).symm k) = ix2 p k :=
    funext fun a => Fin.ext (by
      match a with
      | ⟨0, _⟩ => exact lhs10a_0 _ _
      | ⟨1, _⟩ => exact (lhs10a_1 _ _).trans hk)
  have er : dot_S5000x128_S128x64_S5000x64_1_0_0_1_n_n.rhsIdx (ix2 p j) ((contrEquiv1 dot_S5000x128_S128x64_S5000x64_1_0_0_1_n_n 128 rfl rfl).symm k) = ix2 k j :=
    funext fun a => Fin.ext (by
      match a with
      | ⟨0, _⟩ => exact (rhs10a_0 _ _).trans hk
      | ⟨1, _⟩ => exact rhs10a_1 _ _)
  rw [el, er]

/-- Entry (p, j) of a block product into a zero accumulator is the sum over the contracted axis of the products. -/
theorem mm10b_apply (a : FVec Ideal S5000x64 .bf16) (b : FVec Ideal S64x40 .bf16) (p : Fin 5000) (j : Fin 40) :
    matmul dot_S5000x64_S64x40_S5000x40_1_0_0_1_n_n none a b (constant (F := Ideal) S5000x40 .f32 0x00000000#32) (ix2 p j)
      = ∑ k : Fin 64, a (ix2 p k) * b (ix2 k j) := by
  simp only [matmul]
  rw [Ideal.matmul_constant_zero_apply, ← Equiv.sum_comp (contrEquiv1 dot_S5000x64_S64x40_S5000x40_1_0_0_1_n_n 64 rfl rfl).symm]
  refine Finset.sum_congr rfl fun k _ => ?_
  have hk := contrEquiv1_symm_val dot_S5000x64_S64x40_S5000x40_1_0_0_1_n_n 64 rfl rfl k
  have el : dot_S5000x64_S64x40_S5000x40_1_0_0_1_n_n.lhsIdx (ix2 p j) ((contrEquiv1 dot_S5000x64_S64x40_S5000x40_1_0_0_1_n_n 64 rfl rfl).symm k) = ix2 p k :=
    funext fun a => Fin.ext (by
      match a with
      | ⟨0, _⟩ => exact lhs10b_0 _ _
      | ⟨1, _⟩ => exact (lhs10b_1 _ _).trans hk)
  have er : dot_S5000x64_S64x40_S5000x40_1_0_0_1_n_n.rhsIdx (ix2 p j) ((contrEquiv1 dot_S5000x64_S64x40_S5000x40_1_0_0_1_n_n 64 rfl rfl).symm k) = ix2 k j :=
    funext fun a => Fin.ext (by
      match a with
      | ⟨0, _⟩ => exact (rhs10b_0 _ _).trans hk
      | ⟨1, _⟩ => exact rhs10b_1 _ _)
  rw [el, er]

/-! ## The body's payloads at an index -/

/-- Entry (p, q) of the predictions' payload: the second layer's product over the hidden axis of the positive part
    of the first layer's product (of the two embeddings' sum) plus its bias, plus the second bias. -/
theorem pay10_7_apply (x0 x1 : Vec Ideal S5000x128 .f32) (x2 : Vec Ideal S128x64 .f32) (x3 : Vec Ideal S1x64 .f32)
    (x4 : Vec Ideal S64x40 .f32) (x5 : Vec Ideal S1x40 .f32) (p : Fin 5000) (q : Fin 40) :
    k10_pay7 x0 x1 x2 x3 x4 x5 (ix2 p q)
      = (∑ j : Fin 64, max ((∑ k : Fin 128, (x0 (ix2 p k) + x1 (ix2 p k)) * x2 (ix2 k j)) + x3 (ix2 (0 : Fin 1) j)) 0 * x4 (ix2 j q))
        + x5 (ix2 (0 : Fin 1) q) := by
  unfold k10_pay7 k10_pay5 k10_pay6
  simp only [shapeCast_self, addf_apply, mm10b_apply, mm10a_apply, broadcastTo_1b_ab_apply, truncf_apply, maximumf_apply,
    broadcast_apply]
  rw [show (FloatOps.ofBits FTy.f32 (0x00000000#32) : Ideal FTy.f32) = 0 from Ideal.ofBits_zero_f32]

/-- The column sum of a block: entry q is the sum over the block's 5000 rows. -/
theorem colsum10_apply (x : FVec Ideal S5000x128 .f32) (q : Fin 128) :
    multiReduction .add [0] S128 x 0x00000000#32 reduces_S5000x128_S128 (.inl rfl) rfl (ix1 q) = ∑ r : Fin 5000, x (ix2 r q) := by
  refine (Ideal.multiReduction_add_single x 0x00000000#32 reduces_S5000x128_S128 (.inl rfl) rfl (ix1 q)).trans ?_
  refine Finset.sum_congr rfl fun r _ => congrArg x ?_
  funext c
  apply Fin.ext
  match c with
  | ⟨0, _⟩ => rfl
  | ⟨1, _⟩ => rfl

/-- The first running sum's step at an index: the sum before plus the block's column sum. -/
theorem pay10_8_apply (x : Vec Ideal S5000x128 .f32) (a : Vec Ideal S1x128 .f32) (u : Fin 1) (q : Fin 128) :
    k10_pay1 (k10_pay8 x a) (ix2 u q) = a (ix2 u q) + ∑ r : Fin 5000, x (ix2 r q) := by
  unfold k10_pay1 k10_pay8 k10_pay5
  simp only [shapeCast_self, addf_apply, shapeCast_a_1a_apply]
  exact congrArg (a (ix2 u q) + ·) (colsum10_apply x q)

/-- The second running sum's step at an index. -/
theorem pay10_2_apply (x : Vec Ideal S5000x128 .f32) (a : Vec Ideal S1x128 .f32) (u : Fin 1) (q : Fin 128) :
    k10_pay2 (k10_pay6 x) a (ix2 u q) = a (ix2 u q) + ∑ r : Fin 5000, x (ix2 r q) := by
  unfold k10_pay2 k10_pay6
  simp only [shapeCast_self, addf_apply, shapeCast_a_1a_apply]
  exact congrArg (a (ix2 u q) + ·) (colsum10_apply x q)

/-- The running sums start from zero. -/
theorem pay10_3_apply (u : Fin 1) (q : Fin 128) : (k10_pay3 (F := Ideal)) (ix2 u q) = 0 := by
  unfold k10_pay3
  simp only [shapeCast_self, broadcast_apply]
  exact Ideal.ofBits_zero_f32
theorem pay10_4_apply (u : Fin 1) (q : Fin 128) : (k10_pay4 (F := Ideal)) (ix2 u q) = 0 := by
  unfold k10_pay4
  simp only [shapeCast_self, broadcast_apply]
  exact Ideal.ofBits_zero_f32

open Cert.KernelIdeal.Reg

-- the buffers of each core as the region finds them
variable (V : (c : Dev nD) → (b : Ref sig .tc) → Buf (Elt Ideal) ((c : Thread nD τ).loc b))

/-- The two embeddings' arrays as the region finds them, as matrices. -/
abbrev zl10 (c : Dev nD) : Cert.Spec.Mat 100000 128 := V c (Pipeline.arrRef spec10 0)
abbrev zg10 (c : Dev nD) : Cert.Spec.Mat 100000 128 := V c (Pipeline.arrRef spec10 1)

/-! ## The payloads as the specification's functions of the arrays -/

/-- The predictions' payload of row blocks of the two embeddings and the whole weight and bias arrays is the same row
    block of the two-layer perceptron of the whole arrays. -/
theorem pay10_7_mlp (x0 x1 : Vec Ideal S5000x128 .f32) (x2 : Vec Ideal S128x64 .f32) (x3 : Vec Ideal S1x64 .f32)
    (x4 : Vec Ideal S64x40 .f32) (x5 : Vec Ideal S1x40 .f32)
    (X0 X1 : Cert.Spec.Mat 100000 128) (W1 : Cert.Spec.Mat 128 64) (b1 : Cert.Spec.Row 64) (W2 : Cert.Spec.Mat 64 40) (b2 : Cert.Spec.Row 40) (t : Nat)
    (h0 : ∀ (p : Fin 5000) (k : Fin 128) (r : Fin 100000), r.val = 5000 * t + p.val → x0 (ix2 p k) = X0 (ix2 r k))
    (h1 : ∀ (p : Fin 5000) (k : Fin 128) (r : Fin 100000), r.val = 5000 * t + p.val → x1 (ix2 p k) = X1 (ix2 r k))
    (h2 : ∀ (k : Fin 128) (j : Fin 64), x2 (ix2 k j) = W1 (ix2 k j))
    (h3 : ∀ (u : Fin 1) (j : Fin 64), x3 (ix2 u j) = b1 (ix2 u j))
    (h4 : ∀ (j : Fin 64) (q : Fin 40), x4 (ix2 j q) = W2 (ix2 j q))
    (h5 : ∀ (u : Fin 1) (q : Fin 40), x5 (ix2 u q) = b2 (ix2 u q))
    (j : S5000x40.Idx) (i : S100000x40.Idx) (hi0 : (i 0).val = 5000 * t + (j 0).val) (hi1 : (i 1).val = (j 1).val) :
    k10_pay7 x0 x1 x2 x3 x4 x5 j = Cert.Spec.mlp (Cert.Spec.add X0 X1) W1 b1 W2 b2 i := by
  obtain ⟨p, q, rfl⟩ : ∃ (p : Fin 5000) (q : Fin 40), j = ix2 p q := ⟨j 0, j 1, eq_ix2 j⟩
  obtain ⟨r, s, rfl⟩ : ∃ (r : Fin 100000) (s : Fin 40), i = ix2 r s := ⟨i 0, i 1, eq_ix2 i⟩
  have hs : s = q := Fin.ext hi1
  subst hs
  rw [pay10_7_apply]
  show _ = (∑ j : Fin 64, max ((∑ k : Fin 128, (X0 (ix2 r k) + X1 (ix2 r k)) * W1 (ix2 k j)) + b1 (ix2 (0 : Fin 1) j)) 0 * W2 (ix2 j s))
      + b2 (ix2 (0 : Fin 1) s)
  simp only [fun k => h0 p k r hi0, fun k => h1 p k r hi0, h2, h3, h4, h5]

/-- A row whose entry at column q is the sum, over the twenty row blocks, of the blocks' column sums at q is the
    column sums of the whole matrix: entry j of the row is entry i of the column sums whenever i is in j's column. -/
theorem colSum10_of_blocks (X : Cert.Spec.Mat 100000 128) (G : Vec Ideal S1x128 .f32)
    (h : ∀ (u : Fin 1) (q : Fin 128), G (ix2 u q)
      = ∑ t : Fin 20, ∑ r : Fin 5000, X (ix2 (⟨5000 * t.val + r.val, by have := t.isLt; have := r.isLt; omega⟩ : Fin 100000) q))
    (j : S1x128.Idx) (i : S1x128.Idx) (hi : (i 1).val = (j 1).val) : G j = Cert.Spec.colSum X i := by
  obtain ⟨u, q, rfl⟩ : ∃ (u : Fin 1) (q : Fin 128), j = ix2 u q := ⟨j 0, j 1, eq_ix2 j⟩
  rw [h u q]
  unfold Cert.Spec.colSum
  rw [show (i 1 : Fin 128) = q from Fin.ext hi]
  exact (Cert.Spec.sum_rows_by_blocks fun r => X (ix2 r q)).symm

/-! ## The blocks the body reads, as entries of the arrays -/

/-- The printed index maps, decided over the grid: the two embeddings' and the predictions' row block index is the
    point, every other block index is zero. -/
theorem idx10_0 : ∀ t : Fin cfg10.N, win10_0.index t (0 : Fin 2) = t.val ∧ win10_0.index t (1 : Fin 2) = 0 :=
  (by decide +kernel : ∀ t : Fin grid10.N, _)
theorem idx10_1 : ∀ t : Fin cfg10.N, win10_1.index t (0 : Fin 2) = t.val ∧ win10_1.index t (1 : Fin 2) = 0 :=
  (by decide +kernel : ∀ t : Fin grid10.N, _)
theorem idx10_2 : ∀ t : Fin cfg10.N, win10_2.index t (0 : Fin 2) = 0 ∧ win10_2.index t (1 : Fin 2) = 0 :=
  (by decide +kernel : ∀ t : Fin grid10.N, _)
theorem idx10_3 : ∀ t : Fin cfg10.N, win10_3.index t (0 : Fin 2) = 0 ∧ win10_3.index t (1 : Fin 2) = 0 :=
  (by decide +kernel : ∀ t : Fin grid10.N, _)
theorem idx10_4 : ∀ t : Fin cfg10.N, win10_4.index t (0 : Fin 2) = 0 ∧ win10_4.index t (1 : Fin 2) = 0 :=
  (by decide +kernel : ∀ t : Fin grid10.N, _)
theorem idx10_5 : ∀ t : Fin cfg10.N, win10_5.index t (0 : Fin 2) = 0 ∧ win10_5.index t (1 : Fin 2) = 0 :=
  (by decide +kernel : ∀ t : Fin grid10.N, _)
theorem idx10_6 : ∀ t : Fin cfg10.N, win10_6.index t (0 : Fin 2) = t.val ∧ win10_6.index t (1 : Fin 2) = 0 :=
  (by decide +kernel : ∀ t : Fin grid10.N, _)
theorem idx10_7 : ∀ t : Fin cfg10.N, win10_7.index t (0 : Fin 2) = 0 ∧ win10_7.index t (1 : Fin 2) = 0 :=
  (by decide +kernel : ∀ t : Fin grid10.N, _)
theorem idx10_8 : ∀ t : Fin cfg10.N, win10_8.index t (0 : Fin 2) = 0 ∧ win10_8.index t (1 : Fin 2) = 0 :=
  (by decide +kernel : ∀ t : Fin grid10.N, _)

/-- Entry (p, k) of embedding one's block at point t is entry (5000 t + p, k) of its array. -/
theorem iblk10_0_apply (c : Dev nD) (t : Fin cfg10.N) (p : Fin 5000) (k : Fin 128) (r : Fin 100000)
    (hr : r.val = 5000 * t.val + p.val) :
    (iblk10 V c 0 t : Vec Ideal S5000x128 .f32) (ix2 p k) = (V c (Pipeline.arrRef spec10 0) : Cert.Spec.Mat 100000 128) (ix2 r k) := by
  obtain ⟨e0, e1⟩ := idx10_0 t
  unfold iblk10
  rw [View.read_apply]
  show (V c (Pipeline.arrRef spec10 0) : Cert.Spec.Mat 100000 128) (((cfg10.win 0).blk t).view.emb (ix2 p k)) = _
  refine congrArg (V c (Pipeline.arrRef spec10 0) : Cert.Spec.Mat 100000 128) (funext fun a => Fin.ext ?_)
  match a with
  | ⟨0, _⟩ => show win10_0.index t (0 : Fin 2) * 5000 + 1 * p.val = r.val; rw [e0, hr]; omega
  | ⟨1, _⟩ => show win10_0.index t (1 : Fin 2) * 128 + 1 * k.val = k.val; rw [e1]; omega

/-- Entry (p, k) of embedding two's block at point t is entry (5000 t + p, k) of its array. -/
theorem iblk10_1_apply (c : Dev nD) (t : Fin cfg10.N) (p : Fin 5000) (k : Fin 128) (r : Fin 100000)
    (hr : r.val = 5000 * t.val + p.val) :
    (iblk10 V c 1 t : Vec Ideal S5000x128 .f32) (ix2 p k) = (V c (Pipeline.arrRef spec10 1) : Cert.Spec.Mat 100000 128) (ix2 r k) := by
  obtain ⟨e0, e1⟩ := idx10_1 t
  unfold iblk10
  rw [View.read_apply]
  show (V c (Pipeline.arrRef spec10 1) : Cert.Spec.Mat 100000 128) (((cfg10.win 1).blk t).view.emb (ix2 p k)) = _
  refine congrArg (V c (Pipeline.arrRef spec10 1) : Cert.Spec.Mat 100000 128) (funext fun a => Fin.ext ?_)
  match a with
  | ⟨0, _⟩ => show win10_1.index t (0 : Fin 2) * 5000 + 1 * p.val = r.val; rw [e0, hr]; omega
  | ⟨1, _⟩ => show win10_1.index t (1 : Fin 2) * 128 + 1 * k.val = k.val; rw [e1]; omega

/-- The first weight matrix's block at any point is its whole array. -/
theorem iblk10_2_apply (c : Dev nD) (t : Fin cfg10.N) (k : Fin 128) (j : Fin 64) :
    (iblk10 V c 2 t : Vec Ideal S128x64 .f32) (ix2 k j) = (V c (Pipeline.arrRef spec10 2) : Cert.Spec.Mat 128 64) (ix2 k j) := by
  obtain ⟨e0, e1⟩ := idx10_2 t
  unfold iblk10
  rw [View.read_apply]
  show (V c (Pipeline.arrRef spec10 2) : Cert.Spec.Mat 128 64) (((cfg10.win 2).blk t).view.emb (ix2 k j)) = _
  refine congrArg (V c (Pipeline.arrRef spec10 2) : Cert.Spec.Mat 128 64) (funext fun a => Fin.ext ?_)
  match a with
  | ⟨0, _⟩ => show win10_2.index t (0 : Fin 2) * 128 + 1 * k.val = k.val; rw [e0]; omega
  | ⟨1, _⟩ => show win10_2.index t (1 : Fin 2) * 64 + 1 * j.val = j.val; rw [e1]; omega

/-- The first bias row's block at any point is its whole array. -/
theorem iblk10_3_apply (c : Dev nD) (t : Fin cfg10.N) (k : Fin 1) (j : Fin 64) :
    (iblk10 V c 3 t : Vec Ideal S1x64 .f32) (ix2 k j) = (V c (Pipeline.arrRef spec10 3) : Cert.Spec.Row 64) (ix2 k j) := by
  obtain ⟨e0, e1⟩ := idx10_3 t
  unfold iblk10
  rw [View.read_apply]
  show (V c (Pipeline.arrRef spec10 3) : Cert.Spec.Row 64) (((cfg10.win 3).blk t).view.emb (ix2 k j)) = _
  refine congrArg (V c (Pipeline.arrRef spec10 3) : Cert.Spec.Row 64) (funext fun a => Fin.ext ?_)
  match a with
  | ⟨0, _⟩ => show win10_3.index t (0 : Fin 2) * 1 + 1 * k.val = k.val; rw [e0]; omega
  | ⟨1, _⟩ => show win10_3.index t (1 : Fin 2) * 64 + 1 * j.val = j.val; rw [e1]; omega

/-- The second weight matrix's block at any point is its whole array. -/
theorem iblk10_4_apply (c : Dev nD) (t : Fin cfg10.N) (k : Fin 64) (j : Fin 40) :
    (iblk10 V c 4 t : Vec Ideal S64x40 .f32) (ix2 k j) = (V c (Pipeline.arrRef spec10 4) : Cert.Spec.Mat 64 40) (ix2 k j) := by
  obtain ⟨e0, e1⟩ := idx10_4 t
  unfold iblk10
  rw [View.read_apply]
  show (V c (Pipeline.arrRef spec10 4) : Cert.Spec.Mat 64 40) (((cfg10.win 4).blk t).view.emb (ix2 k j)) = _
  refine congrArg (V c (Pipeline.arrRef spec10 4) : Cert.Spec.Mat 64 40) (funext fun a => Fin.ext ?_)
  match a with
  | ⟨0, _⟩ => show win10_4.index t (0 : Fin 2) * 64 + 1 * k.val = k.val; rw [e0]; omega
  | ⟨1, _⟩ => show win10_4.index t (1 : Fin 2) * 40 + 1 * j.val = j.val; rw [e1]; omega

/-- The second bias row's block at any point is its whole array. -/
theorem iblk10_5_apply (c : Dev nD) (t : Fin cfg10.N) (k : Fin 1) (j : Fin 40) :
    (iblk10 V c 5 t : Vec Ideal S1x40 .f32) (ix2 k j) = (V c (Pipeline.arrRef spec10 5) : Cert.Spec.Row 40) (ix2 k j) := by
  obtain ⟨e0, e1⟩ := idx10_5 t
  unfold iblk10
  rw [View.read_apply]
  show (V c (Pipeline.arrRef spec10 5) : Cert.Spec.Row 40) (((cfg10.win 5).blk t).view.emb (ix2 k j)) = _
  refine congrArg (V c (Pipeline.arrRef spec10 5) : Cert.Spec.Row 40) (funext fun a => Fin.ext ?_)
  match a with
  | ⟨0, _⟩ => show win10_5.index t (0 : Fin 2) * 1 + 1 * k.val = k.val; rw [e0]; omega
  | ⟨1, _⟩ => show win10_5.index t (1 : Fin 2) * 40 + 1 * j.val = j.val; rw [e1]; omega

/-! ## The predictions: what a point writes back, the cover, the array -/

/-- What point t writes back is row block t of the perceptron of the arrays. -/
theorem flushed10_6 (c : Dev nD) (t : Fin cfg10.N) :
    (dat10 (F := Ideal) V c).flushed 6 t = ((cfg10.win 6).blk t).view.read (Elt Ideal)
      (Cert.Spec.mlp (Cert.Spec.add (V c (Pipeline.arrRef spec10 0) : Cert.Spec.Mat 100000 128) (V c (Pipeline.arrRef spec10 1) : Cert.Spec.Mat 100000 128))
      (V c (Pipeline.arrRef spec10 2) : Cert.Spec.Mat 128 64) (V c (Pipeline.arrRef spec10 3) : Cert.Spec.Row 64)
      (V c (Pipeline.arrRef spec10 4) : Cert.Spec.Mat 64 40) (V c (Pipeline.arrRef spec10 5) : Cert.Spec.Row 40)) := by
  show (cfg10.win 6).cut (grid10.coords t) ((dat10 V c).after 6 t) = _
  rw [dat10_after_6]
  obtain ⟨e0, e1⟩ := idx10_6 t
  funext j
  rw [View.read_apply]
  refine pay10_7_mlp (iblk10 V c 0 t) (iblk10 V c 1 t) (iblk10 V c 2 t) (iblk10 V c 3 t) (iblk10 V c 4 t) (iblk10 V c 5 t)
    _ _ _ _ _ _ t.val (fun p k r hr => iblk10_0_apply V c t p k r hr) (fun p k r hr => iblk10_1_apply V c t p k r hr)
    (fun k j => iblk10_2_apply V c t k j) (fun u j => iblk10_3_apply V c t u j)
    (fun j q => iblk10_4_apply V c t j q) (fun u q => iblk10_5_apply V c t u q) j _ ?_ ?_
  · show win10_6.index t (0 : Fin 2) * 5000 + 1 * (j 0).val = 5000 * t.val + (j 0).val; rw [e0]; omega
  · show win10_6.index t (1 : Fin 2) * 40 + 1 * (j 1).val = (j 1).val; rw [e1]; omega

/-- An index of the predictions' array is in point t's block iff each coordinate is in the block's range on its axis. -/
theorem mem_blk10_6 (t : Fin cfg10.N) (i : S100000x40.Idx) :
    i ∈ ((cfg10.win 6).blk t).view.set ↔ ∀ a : Fin 2, win10_6.index t a * S5000x40.size a ≤ (i a).val ∧ (i a).val < win10_6.index t a * S5000x40.size a + S5000x40.size a := by
  show i ∈ ((View.whole (Pipeline.arrRef spec10 6)).slice (win10_6.rect t)).set ↔ _
  rw [View.set_slice_whole, Rect.mem_set_unit]
  exact Iff.rfl

/-- Every index of the predictions' array is in the block of the point its row falls to. -/
theorem cover10_6 (i : S100000x40.Idx) :
    ∃ t : Fin cfg10.N, (cfg10.win 6).flush t = true ∧ i ∈ ((cfg10.win 6).blk t).view.set := by
  have hi0 : (i 0).val < 100000 := (i 0).isLt
  have hi1 : (i 1).val < 40 := (i 1).isLt
  have hN : cfg10.N = 20 := N_10
  let t : Fin cfg10.N := ⟨(i 0).val / 5000, by rw [hN]; omega⟩
  obtain ⟨e0, e1⟩ := idx10_6 t
  refine ⟨t, flush10_6 t, ?_⟩
  rw [mem_blk10_6]
  intro a
  match a with
  | ⟨0, _⟩ =>
    show win10_6.index t (0 : Fin 2) * 5000 ≤ (i 0).val ∧ (i 0).val < win10_6.index t (0 : Fin 2) * 5000 + 5000
    rw [e0]; show (i 0).val / 5000 * 5000 ≤ (i 0).val ∧ (i 0).val < (i 0).val / 5000 * 5000 + 5000; omega
  | ⟨1, _⟩ =>
    show win10_6.index t (1 : Fin 2) * 40 ≤ (i 1).val ∧ (i 1).val < win10_6.index t (1 : Fin 2) * 40 + 40
    rw [e1]; omega

/-- The predictions' array after the region is the two-layer perceptron of the sum of the two embeddings' arrays. -/
theorem final10_6 (c : Dev nD) : (dat10 (F := Ideal) V c).arrAt 6 cfg10.N
    = Cert.Spec.mlp (Cert.Spec.add (V c (Pipeline.arrRef spec10 0) : Cert.Spec.Mat 100000 128) (V c (Pipeline.arrRef spec10 1) : Cert.Spec.Mat 100000 128))
      (V c (Pipeline.arrRef spec10 2) : Cert.Spec.Mat 128 64) (V c (Pipeline.arrRef spec10 3) : Cert.Spec.Row 64)
      (V c (Pipeline.arrRef spec10 4) : Cert.Spec.Mat 64 40) (V c (Pipeline.arrRef spec10 5) : Cert.Spec.Row 40) :=
  (dat10 (F := Ideal) V c).arrAt_eq_of_cover 6 _ (fun t _ => flushed10_6 V c t) cover10_6

/-! ## The two pooled sums -/

-- the running sums are read through their step equations only
attribute [local irreducible] acc10_0 acc10_1

/-- The first running sum before point n, at an index: the column sums of the blocks of the points below n. -/
theorem acc10_0_apply (c : Dev nD) : ∀ (n : ℕ) (hn : n ≤ 20) (u : Fin 1) (q : Fin 128),
    acc10_0 (F := Ideal) V c n (ix2 u q)
      = ∑ t : Fin n, ∑ r : Fin 5000, zl10 V c (ix2 (⟨5000 * t.val + r.val, by have := t.isLt; have := r.isLt; omega⟩ : Fin 100000) q)
  | 0, _, u, q => by
    rw [acc10_0_zero, pay10_3_apply]
    exact (Finset.sum_empty).symm
  | n + 1, hn, u, q => by
    have hlt : n < cfg10.N := by rw [show cfg10.N = 20 from N_10]; omega
    rw [show acc10_0 V c (n + 1) = k10_pay1 (k10_pay8 (iblk10 V c 0 ⟨n, hlt⟩) (acc10_0 V c n)) from acc10_0_step V c ⟨n, hlt⟩,
      pay10_8_apply, acc10_0_apply c n (by omega) u q]
    conv_rhs => rw [Fin.sum_univ_castSucc]
    refine congrArg₂ (fun a b : EReal => a + b) rfl (Finset.sum_congr rfl fun r _ => ?_)
    exact iblk10_0_apply V c ⟨n, hlt⟩ r q _ rfl

/-- A block of the first small result read through its window is the array at the window's index (stated for any
    row, so that the row is never opened to read it). -/
theorem read_blk10_7 (t : Fin cfg10.N) (G : S1x128.Idx → EReal) (j : ((cfg10.win 7).xblock (grid10.coords t)).Idx) :
    ((cfg10.win 7).blk t).view.read (Elt Ideal) G j = G (((cfg10.win 7).blk t).view.emb j) := by
  rw [View.read_apply]; rfl

/-- What the last point writes back to the first small result: the column sums of the whole array. -/
theorem flushed10_7 (c : Dev nD) (t : Fin cfg10.N) (hf : (cfg10.win 7).flush t = true) :
    (dat10 (F := Ideal) V c).flushed 7 t = ((cfg10.win 7).blk t).view.read (Elt Ideal)
      (Cert.Spec.colSum (V c (Pipeline.arrRef spec10 0) : Cert.Spec.Mat 100000 128)) := by
  have hN : t.val < 20 := lt_of_lt_of_eq t.isLt (show cfg10.N = 20 from N_10)
  have ht : t.val + 1 = 20 := by have := (flush10_7 t).mp hf; omega
  obtain ⟨e0, e1⟩ := idx10_7 t
  show (cfg10.win 7).cut (grid10.coords t) ((dat10 V c).after 7 t) = _
  rw [dat10_after_7, ht]
  funext j
  refine (colSum10_of_blocks (zl10 V c) (acc10_0 V c 20) (fun u q => acc10_0_apply V c 20 le_rfl u q) j
    (((cfg10.win 7).blk t).view.emb j) ?_).trans (read_blk10_7 t (Cert.Spec.colSum (zl10 V c)) j).symm
  show win10_7.index t (1 : Fin 2) * 128 + 1 * (j 1).val = (j 1).val
  rw [e1]; omega

/-- An index of the first small result is in a point's block iff each coordinate is in the block's range. -/
theorem mem_blk10_7 (t : Fin cfg10.N) (i : S1x128.Idx) :
    i ∈ ((cfg10.win 7).blk t).view.set ↔ ∀ a : Fin 2, win10_7.index t a * S1x128.size a ≤ (i a).val ∧ (i a).val < win10_7.index t a * S1x128.size a + S1x128.size a := by
  show i ∈ ((View.whole (Pipeline.arrRef spec10 7)).slice (win10_7.rect t)).set ↔ _
  rw [View.set_slice_whole, Rect.mem_set_unit]
  exact Iff.rfl

/-- The last point's block is the whole of the first small result. -/
theorem cover10_7 (i : S1x128.Idx) :
    ∃ t : Fin cfg10.N, (cfg10.win 7).flush t = true ∧ i ∈ ((cfg10.win 7).blk t).view.set := by
  have hi0 : (i 0).val < 1 := (i 0).isLt
  have hi1 : (i 1).val < 128 := (i 1).isLt
  have hN : cfg10.N = 20 := N_10
  let t : Fin cfg10.N := ⟨19, by rw [hN]; omega⟩
  obtain ⟨e0, e1⟩ := idx10_7 t
  refine ⟨t, (flush10_7 t).mpr rfl, ?_⟩
  rw [mem_blk10_7]
  intro a
  match a with
  | ⟨0, _⟩ =>
    show win10_7.index t (0 : Fin 2) * 1 ≤ (i 0).val ∧ (i 0).val < win10_7.index t (0 : Fin 2) * 1 + 1
    rw [e0]; omega
  | ⟨1, _⟩ =>
    show win10_7.index t (1 : Fin 2) * 128 ≤ (i 1).val ∧ (i 1).val < win10_7.index t (1 : Fin 2) * 128 + 128
    rw [e1]; omega

/-- The first small result after the region: the column sums of the first embedding's array as the region found it. -/
theorem final10_7 (c : Dev nD) : (dat10 (F := Ideal) V c).arrAt 7 cfg10.N
    = Cert.Spec.colSum (V c (Pipeline.arrRef spec10 0) : Cert.Spec.Mat 100000 128) :=
  (dat10 (F := Ideal) V c).arrAt_eq_of_cover 7 _ (fun t hf => flushed10_7 V c t hf) cover10_7

/-- The second running sum before point n, at an index: the column sums of the blocks of the points below n. -/
theorem acc10_1_apply (c : Dev nD) : ∀ (n : ℕ) (hn : n ≤ 20) (u : Fin 1) (q : Fin 128),
    acc10_1 (F := Ideal) V c n (ix2 u q)
      = ∑ t : Fin n, ∑ r : Fin 5000, zg10 V c (ix2 (⟨5000 * t.val + r.val, by have := t.isLt; have := r.isLt; omega⟩ : Fin 100000) q)
  | 0, _, u, q => by
    rw [acc10_1_zero, pay10_4_apply]
    exact (Finset.sum_empty).symm
  | n + 1, hn, u, q => by
    have hlt : n < cfg10.N := by rw [show cfg10.N = 20 from N_10]; omega
    rw [show acc10_1 V c (n + 1) = k10_pay2 (k10_pay6 (iblk10 V c 1 ⟨n, hlt⟩)) (acc10_1 V c n) from acc10_1_step V c ⟨n, hlt⟩,
      pay10_2_apply, acc10_1_apply c n (by omega) u q]
    conv_rhs => rw [Fin.sum_univ_castSucc]
    refine congrArg₂ (fun a b : EReal => a + b) rfl (Finset.sum_congr rfl fun r _ => ?_)
    exact iblk10_1_apply V c ⟨n, hlt⟩ r q _ rfl

/-- A block of the second small result read through its window is the array at the window's index (stated for any
    row, so that the row is never opened to read it). -/
theorem read_blk10_8 (t : Fin cfg10.N) (G : S1x128.Idx → EReal) (j : ((cfg10.win 8).xblock (grid10.coords t)).Idx) :
    ((cfg10.win 8).blk t).view.read (Elt Ideal) G j = G (((cfg10.win 8).blk t).view.emb j) := by
  rw [View.read_apply]; rfl

/-- What the last point writes back to the second small result: the column sums of the whole array. -/
theorem flushed10_8 (c : Dev nD) (t : Fin cfg10.N) (hf : (cfg10.win 8).flush t = true) :
    (dat10 (F := Ideal) V c).flushed 8 t = ((cfg10.win 8).blk t).view.read (Elt Ideal)
      (Cert.Spec.colSum (V c (Pipeline.arrRef spec10 1) : Cert.Spec.Mat 100000 128)) := by
  have hN : t.val < 20 := lt_of_lt_of_eq t.isLt (show cfg10.N = 20 from N_10)
  have ht : t.val + 1 = 20 := by have := (flush10_8 t).mp hf; omega
  obtain ⟨e0, e1⟩ := idx10_8 t
  show (cfg10.win 8).cut (grid10.coords t) ((dat10 V c).after 8 t) = _
  rw [dat10_after_8, ht]
  funext j
  refine (colSum10_of_blocks (zg10 V c) (acc10_1 V c 20) (fun u q => acc10_1_apply V c 20 le_rfl u q) j
    (((cfg10.win 8).blk t).view.emb j) ?_).trans (read_blk10_8 t (Cert.Spec.colSum (zg10 V c)) j).symm
  show win10_8.index t (1 : Fin 2) * 128 + 1 * (j 1).val = (j 1).val
  rw [e1]; omega

/-- An index of the second small result is in a point's block iff each coordinate is in the block's range. -/
theorem mem_blk10_8 (t : Fin cfg10.N) (i : S1x128.Idx) :
    i ∈ ((cfg10.win 8).blk t).view.set ↔ ∀ a : Fin 2, win10_8.index t a * S1x128.size a ≤ (i a).val ∧ (i a).val < win10_8.index t a * S1x128.size a + S1x128.size a := by
  show i ∈ ((View.whole (Pipeline.arrRef spec10 8)).slice (win10_8.rect t)).set ↔ _
  rw [View.set_slice_whole, Rect.mem_set_unit]
  exact Iff.rfl

/-- The last point's block is the whole of the second small result. -/
theorem cover10_8 (i : S1x128.Idx) :
    ∃ t : Fin cfg10.N, (cfg10.win 8).flush t = true ∧ i ∈ ((cfg10.win 8).blk t).view.set := by
  have hi0 : (i 0).val < 1 := (i 0).isLt
  have hi1 : (i 1).val < 128 := (i 1).isLt
  have hN : cfg10.N = 20 := N_10
  let t : Fin cfg10.N := ⟨19, by rw [hN]; omega⟩
  obtain ⟨e0, e1⟩ := idx10_8 t
  refine ⟨t, (flush10_8 t).mpr rfl, ?_⟩
  rw [mem_blk10_8]
  intro a
  match a with
  | ⟨0, _⟩ =>
    show win10_8.index t (0 : Fin 2) * 1 ≤ (i 0).val ∧ (i 0).val < win10_8.index t (0 : Fin 2) * 1 + 1
    rw [e0]; omega
  | ⟨1, _⟩ =>
    show win10_8.index t (1 : Fin 2) * 128 ≤ (i 1).val ∧ (i 1).val < win10_8.index t (1 : Fin 2) * 128 + 128
    rw [e1]; omega

/-- The second small result after the region: the column sums of the second embedding's array as the region found it. -/
theorem final10_8 (c : Dev nD) : (dat10 (F := Ideal) V c).arrAt 8 cfg10.N
    = Cert.Spec.colSum (V c (Pipeline.arrRef spec10 1) : Cert.Spec.Mat 100000 128) :=
  (dat10 (F := Ideal) V c).arrAt_eq_of_cover 8 _ (fun t hf => flushed10_8 V c t hf) cover10_8

end Cert.KernelIdeal.RegValue

end
-- ==== Proof.ChainH2.lean ====
import proofs.«174816_j57878979281252_2_alg».proof.Proof.ChainH1
import proofs.«174816_j57878979281252_2_alg».proof.Proof.ChainArgs
import proofs.«174816_j57878979281252_2_alg».proof.Proof.Family
import proofs.«174816_j57878979281252_2_alg».proof.Proof.Value10

/-!
# The head and the tail of the network: the node classifier and the two pooled perceptrons

The last kernel region reads the two encoders' outputs and the classifier's parameters and leaves the node
classifier of the two outputs' sum and each output's column sums; the host operations after it apply the shared
perceptron to each row of column sums. With the two encoder outputs given, the three results are the
specification's nodePred and pooled. No item of the program writes an argument, so each parameter is read
at its launch contents.
-/

set_option maxRecDepth 16384

noncomputable section

namespace Cert.KernelIdeal.Chain

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Reg Cert.KernelIdeal.Run Cert.KernelIdeal.RegValue

variable (m : (ℓ : Loc nD τ sig) → Buf (Elt Ideal) ℓ) (c : Dev nD)

namespace Head

/-! ## The heads' parameters before the last region: their launch contents -/

/-- No item before the last region writes the reference: twenty-four steps back to the launch contents. A region
    changes its output arrays only; a stretch of host operations leaves what it does not write; each step is
    closed by deciding that the reference is not among the buffers the item writes. -/
local macro "launch_contents" m:term:max c:term:max r:term:max : term =>
  `((T24_of $m $c $r (by decide)).trans <|
    (StableHlo.after_of_writes_sub hostOps9 (T22 $m $c) hostOps9_writes (by decide) : T23 $m $c $r = T22 $m $c $r).trans <|
    (T22_of $m $c $r (by decide)).trans <|
    (StableHlo.after_of_writes_sub hostOps8 (T20 $m $c) hostOps8_writes (by decide) : T21 $m $c $r = T20 $m $c $r).trans <|
    (T20_of $m $c $r (by decide)).trans <|
    (StableHlo.after_of_writes_sub hostOps7 (T18 $m $c) hostOps7_writes (by decide) : T19 $m $c $r = T18 $m $c $r).trans <|
    (T18_of $m $c $r (by decide)).trans <|
    (StableHlo.after_of_writes_sub hostOps6 (T16 $m $c) hostOps6_writes (by decide) : T17 $m $c $r = T16 $m $c $r).trans <|
    (T16_of $m $c $r (by decide)).trans <|
    (StableHlo.after_of_writes_sub hostOps5 (T14 $m $c) hostOps5_writes (by decide) : T15 $m $c $r = T14 $m $c $r).trans <|
    (T14_of $m $c $r (by decide)).trans <|
    (StableHlo.after_of_writes_sub hostOps4 (T12 $m $c) hostOps4_writes (by decide) : T13 $m $c $r = T12 $m $c $r).trans <|
    (T12_of $m $c $r (by decide)).trans <|
    (StableHlo.after_of_writes_sub hostOps3 (T10 $m $c) hostOps3_writes (by decide) : T11 $m $c $r = T10 $m $c $r).trans <|
    (T10_of $m $c $r (by decide)).trans <|
    (StableHlo.after_of_writes_sub hostOps2 (T8 $m $c) hostOps2_writes (by decide) : T9 $m $c $r = T8 $m $c $r).trans <|
    (T8_of $m $c $r (by decide)).trans <|
    (StableHlo.after_of_writes_sub hostOps1 (T6 $m $c) hostOps1_writes (by decide) : T7 $m $c $r = T6 $m $c $r).trans <|
    (T6_of $m $c $r (by decide)).trans <|
    (StableHlo.after_of_writes_sub hostOps0_4 (T4 $m $c) hostOps0_4_writes (by decide) : T5 $m $c $r = T4 $m $c $r).trans <|
    (StableHlo.after_of_writes_sub hostOps0_3 (T3 $m $c) hostOps0_3_writes (by decide) : T4 $m $c $r = T3 $m $c $r).trans <|
    (StableHlo.after_of_writes_sub hostOps0_2 (T2 $m $c) hostOps0_2_writes (by decide) : T3 $m $c $r = T2 $m $c $r).trans <|
    (StableHlo.after_of_writes_sub hostOps0_1 (T1 $m $c) hostOps0_1_writes (by decide) : T2 $m $c $r = T1 $m $c $r).trans <|
    (StableHlo.after_of_writes_sub hostOps0 (T0 $m $c) hostOps0_writes (by decide) : T1 $m $c $r = T0 $m $c $r))

theorem T24_arg19 : T24 m c main_arg19 = Gen.V0 m c main_arg19 := launch_contents m c main_arg19
theorem T24_arg20 : T24 m c main_arg20 = Gen.V0 m c main_arg20 := launch_contents m c main_arg20
theorem T24_arg21 : T24 m c main_arg21 = Gen.V0 m c main_arg21 := launch_contents m c main_arg21
theorem T24_arg22 : T24 m c main_arg22 = Gen.V0 m c main_arg22 := launch_contents m c main_arg22
theorem T24_arg23 : T24 m c main_arg23 = Gen.V0 m c main_arg23 := launch_contents m c main_arg23
theorem T24_arg24 : T24 m c main_arg24 = Gen.V0 m c main_arg24 := launch_contents m c main_arg24
theorem T24_arg25 : T24 m c main_arg25 = Gen.V0 m c main_arg25 := launch_contents m c main_arg25
theorem T24_arg26 : T24 m c main_arg26 = Gen.V0 m c main_arg26 := launch_contents m c main_arg26

/-- The two reshapes before the last region write no argument and neither encoder output. -/
theorem T25_keep (r : Ref sig .tc) (h : r ∉ hostOps10_W) : T25 m c r = T24 m c r :=
  Tail.k10 (T24 m c) r h

/-- The last region changes its three outputs only. -/
theorem T26_keep (r : Ref sig .tc) (h : r ∉ ([main_v166_0, main_v166_1, main_v166_2] : List (Ref sig .tc)))
    (h' : r ∉ hostOps10_W) : T26 m c r = T24 m c r :=
  (T26_of m c r h).trans (T25_keep m c r h')

/-- The classifier's first bias, reshaped, is the row the specification names. -/
theorem T25_v164 : (T25 m c main_v164 : Spec.Row 64) = (hd m c).cb1 := by
  show (StableHlo.after hostOps10 (T24 m c) main_v164 : Spec.Row 64) = _
  rw [Tail.s10_v164, T24_arg24]
  rfl

/-- The classifier's second bias, reshaped, is the row the specification names. -/
theorem T25_v165 : (T25 m c main_v165 : Spec.Row 40) = (hd m c).cb2 := by
  show (StableHlo.after hostOps10 (T24 m c) main_v165 : Spec.Row 40) = _
  rw [Tail.s10_v165, T24_arg26]
  rfl

/-- The run ends with the five last host stretches applied to what the last region leaves. -/
theorem T31_eq : T31 m c = Tail.tailOf (T26 m c) := rfl

end Head

open Head

/-! ## The two encoder outputs are not written again -/

/-- The local encoder's output reaches the last region as the region that wrote it left it … -/
theorem T25_v158 : T25 m c main_v158 = T22 m c main_v158 := by
  rw [T25_keep m c main_v158 (by decide), T24_of m c main_v158 (by decide)]
  exact StableHlo.after_of_writes_sub hostOps9 (T22 m c) hostOps9_writes (by decide)

/-- … and so does the global encoder's. -/
theorem T25_v163 : T25 m c main_v163 = T24 m c main_v163 :=
  T25_keep m c main_v163 (by decide)

/-- Both reach the end of the run unchanged. -/
theorem T31_v158 : T31 m c main_v158 = T22 m c main_v158 := by
  rw [T31_eq, Tail.tail_keep _ main_v158 (by decide) (by decide) (by decide) (by decide) (by decide),
    T26_of m c main_v158 (by decide)]
  exact T25_v158 m c
theorem T31_v163 : T31 m c main_v163 = T24 m c main_v163 := by
  rw [T31_eq, Tail.tail_keep _ main_v163 (by decide) (by decide) (by decide) (by decide) (by decide),
    T26_of m c main_v163 (by decide)]
  exact T25_v163 m c

/-! ## The three results -/

variable (zL zG : Spec.Mat 100000 128)

/-- The node classifier of the two encoder outputs. -/
theorem nodeOut (hL : (T25 m c main_v158 : Spec.Mat 100000 128) = zL) (hG : (T25 m c main_v163 : Spec.Mat 100000 128) = zG) :
    (T31 m c main_v166_0 : Spec.Mat 100000 40) = Spec.nodePred zL zG (hd m c) := by
  rw [T31_eq, Tail.tail_keep _ main_v166_0 (by decide) (by decide) (by decide) (by decide) (by decide), T26_out6]
  refine (final10_6 (fun c b => T25 m c b) c).trans ?_
  show Spec.mlp (Spec.add (T25 m c main_v158 : Spec.Mat 100000 128) (T25 m c main_v163 : Spec.Mat 100000 128))
      (T25 m c main_arg23 : Spec.Mat 128 64) (T25 m c main_v164 : Spec.Row 64)
      (T25 m c main_arg25 : Spec.Mat 64 40) (T25 m c main_v165 : Spec.Row 40) = _
  rw [hL, hG, T25_v164, T25_v165, T25_keep m c main_arg23 (by decide), T24_arg23, T25_keep m c main_arg25 (by decide), T24_arg25]
  rfl

/-- The shared perceptron of the local encoder output's column sums. -/
theorem gLocal (hL : (T25 m c main_v158 : Spec.Mat 100000 128) = zL) :
    (T31 m c main_v173 : Spec.Row 128) = Spec.pooled zL (hd m c) := by
  rw [T31_eq, Tail.tail_v173, T26_out7, final10_7 (fun c b => T25 m c b) c]
  show Spec.mlp (Spec.colSum (T25 m c main_v158 : Spec.Mat 100000 128)) (T26 m c main_arg19 : Spec.Mat 128 128)
      (Spec.rowOf (T26 m c main_arg20 : Spec.Arr 128)) (T26 m c main_arg21 : Spec.Mat 128 128)
      (Spec.rowOf (T26 m c main_arg22 : Spec.Arr 128)) = _
  rw [hL, T26_keep m c main_arg19 (by decide) (by decide), T24_arg19, T26_keep m c main_arg20 (by decide) (by decide), T24_arg20,
    T26_keep m c main_arg21 (by decide) (by decide), T24_arg21, T26_keep m c main_arg22 (by decide) (by decide), T24_arg22]
  rfl

/-- The shared perceptron of the global encoder output's column sums. -/
theorem gGlobal (hG : (T25 m c main_v163 : Spec.Mat 100000 128) = zG) :
    (T31 m c main_v180 : Spec.Row 128) = Spec.pooled zG (hd m c) := by
  rw [T31_eq, Tail.tail_v180, T26_out8, final10_8 (fun c b => T25 m c b) c]
  show Spec.mlp (Spec.colSum (T25 m c main_v163 : Spec.Mat 100000 128)) (T26 m c main_arg19 : Spec.Mat 128 128)
      (Spec.rowOf (T26 m c main_arg20 : Spec.Arr 128)) (T26 m c main_arg21 : Spec.Mat 128 128)
      (Spec.rowOf (T26 m c main_arg22 : Spec.Arr 128)) = _
  rw [hG, T26_keep m c main_arg19 (by decide) (by decide), T24_arg19, T26_keep m c main_arg20 (by decide) (by decide), T24_arg20,
    T26_keep m c main_arg21 (by decide) (by decide), T24_arg21, T26_keep m c main_arg22 (by decide) (by decide), T24_arg22]
  rfl

end Cert.KernelIdeal.Chain

end
-- ==== Proof.RefOps.lean ====
/-
  The whole-array operations of the reference program, each as the function of the specification it is: the
  host's matrix products are matrix products, a rank-1 array laid along every row and added is a row added to
  every row, a maximum with an array of zeros is the positive part, a sum over the rows is a column sum, and the
  normalisation the program spells out operation by operation (the mean, the deviations from it, the mean of
  their squares, the inverse square root, the scale and the shift) is batch normalisation with the batch mean
  and the mean of the squared deviations. Then the four stretches the program is made of — an encoder, the
  shared perceptron on a matrix, the same on the column sums, the node classifier — spelt as the program spells
  them, with the neighbourhood aggregation left as a parameter, and each equal to its specification.
-/
import proofs.«174816_j57878979281252_2_alg».proof.ReferenceIdeal
import proofs.«174816_j57878979281252_2_alg».proof.Proof.Gen.ReferenceIdeal
import proofs.«174816_j57878979281252_2_alg».proof.Proof.Net
import Idealize.ShloMosaic.Lib.Pipeline.Value
import Idealize.ShloMosaic.Lib.ValueIdx
import Idealize.ShloMosaic.PureOps.Ideal.Laws

set_option maxRecDepth 16384

noncomputable section

namespace Cert.RefOps

open Cert.ReferenceIdeal Cert.ReferenceIdeal.Gen Idealize.ShloMosaic Idealize.ShloMosaic.ValueIdx Cert.Spec

/-! ## Rows: a rank-1 array laid along the rows of a matrix -/

/-- A rank-1 array of 128 as every row of a 100000 × 128 matrix, the way the program does it: first as one row,
    then that row repeated. -/
def rows128 (v : Arr 128) : Mat 100000 128 :=
  broadcastInDim S100000x128 ![0, 1] bcast_S1x128_S100000x128_0_1 (broadcastInDim S1x128 ![1] bcast_S128_S1x128_1 v)

/-- Entry `(r, c)` of the repeated row is entry `c` of the array. -/
theorem rows128_apply (v : Arr 128) (i : S100000x128.Idx) :
    rows128 v i = rowOf v (ix2 (0 : Fin 1) (i 1 : Fin 128)) := by
  unfold rows128 rowOf
  rw [broadcastInDim_apply _ bcast_S1x128_S100000x128_0_1 _ i (ix2 (0 : Fin 1) (i 1 : Fin 128)) (fun a => match a with
        | ⟨0, _⟩ => by show 0 = if (1 : Nat) = 1 then 0 else (i 0).val; rw [if_pos rfl]
        | ⟨1, _⟩ => by show (i 1).val = if (128 : Nat) = 1 then 0 else (i 1).val; rw [if_neg (by decide)]),
      broadcastInDim_apply _ bcast_S128_S1x128_1 v (ix2 (0 : Fin 1) (i 1 : Fin 128)) (ix1 (i 1 : Fin 128)) (fun a => match a with
        | ⟨0, _⟩ => by show (i 1).val = if (128 : Nat) = 1 then 0 else (i 1).val; rw [if_neg (by decide)])]

/-- Adding the repeated row is adding the row to every row. -/
theorem add_rows128 (y : Mat 100000 128) (v : Arr 128) :
    addf (F := Ideal) (φ := .f32) y (rows128 v) = addRow y (rowOf v) := by
  funext i
  rw [addf_apply, rows128_apply]
  rfl

/-- The same for a rank-1 array of 64 under a 100000 × 64 matrix. -/
def rows64 (v : Arr 64) : Mat 100000 64 :=
  broadcastInDim S100000x64 ![0, 1] bcast_S1x64_S100000x64_0_1 (broadcastInDim S1x64 ![1] bcast_S64_S1x64_1 v)

theorem rows64_apply (v : Arr 64) (i : S100000x64.Idx) :
    rows64 v i = rowOf v (ix2 (0 : Fin 1) (i 1 : Fin 64)) := by
  unfold rows64 rowOf
  rw [broadcastInDim_apply _ bcast_S1x64_S100000x64_0_1 _ i (ix2 (0 : Fin 1) (i 1 : Fin 64)) (fun a => match a with
        | ⟨0, _⟩ => by show 0 = if (1 : Nat) = 1 then 0 else (i 0).val; rw [if_pos rfl]
        | ⟨1, _⟩ => by show (i 1).val = if (64 : Nat) = 1 then 0 else (i 1).val; rw [if_neg (by decide)]),
      broadcastInDim_apply _ bcast_S64_S1x64_1 v (ix2 (0 : Fin 1) (i 1 : Fin 64)) (ix1 (i 1 : Fin 64)) (fun a => match a with
        | ⟨0, _⟩ => by show (i 1).val = if (64 : Nat) = 1 then 0 else (i 1).val; rw [if_neg (by decide)])]

theorem add_rows64 (y : Mat 100000 64) (v : Arr 64) :
    addf (F := Ideal) (φ := .f32) y (rows64 v) = addRow y (rowOf v) := by
  funext i
  rw [addf_apply, rows64_apply]
  rfl

/-- The same for a rank-1 array of 40 under a 100000 × 40 matrix. -/
def rows40 (v : Arr 40) : Mat 100000 40 :=
  broadcastInDim S100000x40 ![0, 1] bcast_S1x40_S100000x40_0_1 (broadcastInDim S1x40 ![1] bcast_S40_S1x40_1 v)

theorem rows40_apply (v : Arr 40) (i : S100000x40.Idx) :
    rows40 v i = rowOf v (ix2 (0 : Fin 1) (i 1 : Fin 40)) := by
  unfold rows40 rowOf
  rw [broadcastInDim_apply _ bcast_S1x40_S100000x40_0_1 _ i (ix2 (0 : Fin 1) (i 1 : Fin 40)) (fun a => match a with
        | ⟨0, _⟩ => by show 0 = if (1 : Nat) = 1 then 0 else (i 0).val; rw [if_pos rfl]
        | ⟨1, _⟩ => by show (i 1).val = if (40 : Nat) = 1 then 0 else (i 1).val; rw [if_neg (by decide)]),
      broadcastInDim_apply _ bcast_S40_S1x40_1 v (ix2 (0 : Fin 1) (i 1 : Fin 40)) (ix1 (i 1 : Fin 40)) (fun a => match a with
        | ⟨0, _⟩ => by show (i 1).val = if (40 : Nat) = 1 then 0 else (i 1).val; rw [if_neg (by decide)])]

theorem add_rows40 (y : Mat 100000 40) (v : Arr 40) :
    addf (F := Ideal) (φ := .f32) y (rows40 v) = addRow y (rowOf v) := by
  funext i
  rw [addf_apply, rows40_apply]
  rfl

/-- A rank-1 array of 128 as a single row: the specification's `rowOf`. -/
def row128 (v : Arr 128) : Row 128 := broadcastInDim S1x128 ![1] bcast_S128_S1x128_1 v

theorem row128_eq (v : Arr 128) : row128 v = rowOf v := by
  funext i
  unfold row128 rowOf
  exact broadcastInDim_apply _ bcast_S128_S1x128_1 v i (ix1 (i 1 : Fin 128)) (fun a => match a with
    | ⟨0, _⟩ => by show (i 1).val = if (128 : Nat) = 1 then 0 else (i 1).val; rw [if_neg (by decide)])

/-- Adding a single row to a one-row matrix. -/
theorem add_row128 (y : Row 128) (v : Arr 128) :
    addf (F := Ideal) (φ := .f32) y (row128 v) = addRow y (rowOf v) := by
  funext i
  rw [addf_apply, row128_eq]
  rfl

/-- An array of one word, everywhere. -/
theorem fill_apply {t : Shape} (hb : S_.BroadcastsInDim t (![] : Fin 0 → Fin t.rank)) (b : BitVec 32) (i : t.Idx) :
    broadcastInDim t ![] hb (constant (F := Ideal) S_ .f32 b) i = Ideal.ofBits .f32 b := by
  unfold broadcastInDim
  exact constant_apply _ _

/-- The maximum with an array of zeros is the positive part. -/
theorem max_zeros {a b : Nat} (hb : S_.BroadcastsInDim (⟨2, ![a, b]⟩ : Shape) (![] : Fin 0 → Fin 2)) (y : Mat a b) :
    maximumf (F := Ideal) (φ := .f32) y (broadcastInDim (⟨2, ![a, b]⟩ : Shape) ![] hb (constant (F := Ideal) S_ .f32 0x00000000#32))
      = relu y := by
  funext i
  rw [maximumf_apply, fill_apply, Ideal.ofBits_zero_f32]
  rfl

/-- The entrywise sum of two matrices. -/
theorem addf_eq_add {a b : Nat} (x y : Mat a b) : addf (F := Ideal) (φ := .f32) x y = add x y := by
  funext i
  rw [addf_apply]
  rfl

/-! ## Column sums, the batch mean and the mean of the squared deviations -/

/-- Reading a row built from a rank-1 array at column `q` reads the array at `q`. -/
theorem rowOf_ix2 {b : Nat} (v : Arr b) (p : Fin 1) (q : Fin b) : rowOf v (ix2 p q) = v (ix1 q) := rfl

/-- The host's inverse square root of an array, at an index. -/
theorem hrsqrt_apply {s : Shape} (z : s.Idx → EReal) (j : s.Idx) :
    Host.rsqrt (F := Ideal) (φ := .f32) z j = Ideal.rsqrt (z j) := Ideal.hostUnary_rsqrt_def _

/-- The host's quotient of two arrays, at an index. -/
theorem hdivf_apply {s : Shape} (x z : s.Idx → EReal) (j : s.Idx) :
    Host.divf (F := Ideal) (φ := .f32) x z j = Ideal.div (x j) (z j) := Ideal.hostDivf_def _ _

/-- The sum over the 100000 rows, column by column, from zero: a rank-1 array of 128. -/
def sumRows (y : Mat 100000 128) : Arr 128 :=
  Host.reduceAdd (F := Ideal) (φ := .f32) y (constant (F := Ideal) S_ .f32 0x00000000#32) reducesTo_S100000x128_S128_d0 h_S_

theorem sumRows_apply (y : Mat 100000 128) (j : S128.Idx) :
    sumRows y j = ∑ r : Fin 100000, y (ix2 r (j 0 : Fin 128)) := by
  have h : sumRows y j = (constant (F := Ideal) S_ .f32 0x00000000#32) (Shape.Idx.first h_S_)
      + ∑ r : Fin 100000, y (ix2 r (j 0 : Fin 128)) := by
    unfold sumRows
    simp only [Host.reduceAdd, Ideal.hostReduceAdd_def]
    rw [Ideal.hostReduceAdd_single reducesTo_S100000x128_S128_d0 (by decide)]
    refine congrArg (_ + ·) (Finset.sum_congr rfl fun k _ => ?_)
    exact congrArg y (funext fun a => Fin.ext (by match a with | ⟨0, _⟩ => rfl | ⟨1, _⟩ => rfl))
  rw [h, constant_apply, Ideal.ofBits_zero_f32, zero_add]

/-- The row sums laid out as one row are the specification's column sums. -/
theorem colSum_eq (z : Mat 100000 128) : row128 (sumRows z) = colSum z := by
  funext i
  rw [row128_eq]
  unfold rowOf colSum
  rw [sumRows_apply]

/-- A rank-1 array of 128 holding one word. -/
def fill128 (b : BitVec 32) : Arr 128 := broadcastInDim S128 ![] bcast_S_S128 (constant (F := Ideal) S_ .f32 b)

theorem fill128_apply (b : BitVec 32) (j : S128.Idx) : fill128 b j = Ideal.ofBits .f32 b := fill_apply _ b j

/-- The batch mean as the program computes it: the column sums over the word of 100000. -/
def muT (y : Mat 100000 128) : Arr 128 :=
  Host.divf (F := Ideal) (φ := .f32) (sumRows y) (fill128 0x47C35000#32)

/-- The batch variance as the program computes it: the column sums of the squared deviations from the batch
    mean, over the word of 100000. -/
def varT (y : Mat 100000 128) : Arr 128 :=
  Host.divf (F := Ideal) (φ := .f32)
    (sumRows (mulf (F := Ideal) (φ := .f32) (subf (F := Ideal) (φ := .f32) y (rows128 (muT y)))
      (subf (F := Ideal) (φ := .f32) y (rows128 (muT y)))))
    (fill128 0x47C35000#32)

/-- Batch normalisation as the program spells it out: the scale times the deviation, times the inverse square
    root of the variance plus epsilon, plus the shift. -/
def bnT (y : Mat 100000 128) (g bt : Arr 128) : Mat 100000 128 :=
  addf (F := Ideal) (φ := .f32)
    (mulf (F := Ideal) (φ := .f32)
      (mulf (F := Ideal) (φ := .f32) (rows128 g) (subf (F := Ideal) (φ := .f32) y (rows128 (muT y))))
      (rows128 (Host.rsqrt (F := Ideal) (φ := .f32) (addf (F := Ideal) (φ := .f32) (varT y) (fill128 0x3727C5AC#32)))))
    (rows128 bt)

/-- The program's mean is the specification's batch mean. -/
theorem muT_row (y : Mat 100000 128) : rowOf (muT y) = mean y := by
  funext i
  unfold rowOf muT
  rw [hdivf_apply, sumRows_apply, fill128_apply]
  rfl

/-- The deviations from the program's mean are the specification's. -/
theorem sub_mu (y : Mat 100000 128) :
    subf (F := Ideal) (φ := .f32) y (rows128 (muT y)) = subRow y (mean y) := by
  funext i
  rw [subf_apply, rows128_apply, muT_row]
  rfl

/-- The program's variance is the mean of the squared deviations. -/
theorem varT_row (y : Mat 100000 128) : rowOf (varT y) = varDev y := by
  funext i
  unfold rowOf varT
  rw [hdivf_apply, sumRows_apply, fill128_apply, sub_mu]
  rfl

set_option backward.isDefEq.respectTransparency.types false in
/-- The normalisation the program spells out is batch normalisation with the batch mean and the mean of the
    squared deviations. -/
theorem bnT_eq (y : Mat 100000 128) (g bt : Arr 128) :
    bnT y g bt = bn y (mean y) (varDev y) (rowOf g) (rowOf bt) := by
  funext i
  have hv : varT y (ix1 (i 1 : Fin 128)) = varDev y (ix2 (0 : Fin 1) (i 1 : Fin 128)) :=
    (rowOf_ix2 (varT y) 0 (i 1 : Fin 128)).symm.trans (congrFun (varT_row y) (ix2 (0 : Fin 1) (i 1 : Fin 128)))
  have hr : rowOf (Host.rsqrt (F := Ideal) (φ := .f32) (addf (F := Ideal) (φ := .f32) (varT y) (fill128 0x3727C5AC#32)))
        (ix2 (0 : Fin 1) (i 1 : Fin 128))
      = Ideal.rsqrt (varDev y (ix2 (0 : Fin 1) (i 1 : Fin 128)) + eps) := by
    refine (rowOf_ix2 _ 0 (i 1 : Fin 128)).trans ?_
    rw [hrsqrt_apply, addf_apply, fill128_apply]
    exact congrArg (fun t => Ideal.rsqrt (t + eps)) hv
  unfold bnT
  rw [addf_apply, mulf_apply, mulf_apply, sub_mu, rows128_apply g, rows128_apply bt, rows128_apply, hr]
  rfl

/-! ## The matrix products, for every pair of shapes the program multiplies -/

/-- A host product that contracts the left operand's columns with the right operand's rows, nothing batched, is
    the matrix product: given where the descriptor sends the two kept axes, the sum over its one contracted
    axis is the sum over the inner extent. -/
theorem dot_eq_mm {a k b : Nat} (d : DotDims (⟨2, ![a, k]⟩ : Shape) (⟨2, ![k, b]⟩ : Shape) (⟨2, ![a, b]⟩ : Shape))
    (hr : d.contr.rank = 1) (hs : d.contr.size ⟨0, by omega⟩ = k)
    (hlc : d.lhsContracting = [1]) (hrc : d.rhsContracting = [0])
    (l0 : ∀ (i : (⟨2, ![a, b]⟩ : Shape).Idx) (q : d.contr.Idx), (d.lhsIdx i q 0).val = (i 0).val)
    (r1 : ∀ (i : (⟨2, ![a, b]⟩ : Shape).Idx) (q : d.contr.Idx), (d.rhsIdx i q 1).val = (i 1).val)
    (x : Mat a k) (w : Mat k b) :
    Host.dotGeneral (F := Ideal) (φ₁ := .f32) (φ₂ := .f32) d none x w = mm x w := by
  funext i
  simp only [Host.dotGeneral]
  rw [Ideal.dotGeneral_apply, ← Equiv.sum_comp (contrEquiv1 d k hr hs).symm]
  unfold mm
  refine Finset.sum_congr rfl fun j _ => ?_
  have hk := contrEquiv1_symm_val d k hr hs j
  have el : d.lhsIdx i ((contrEquiv1 d k hr hs).symm j) = ix2 (i 0 : Fin a) j := funext fun c => Fin.ext (by
    match c with
    | ⟨0, _⟩ => exact l0 _ _
    | ⟨1, _⟩ => exact (d.lhsIdx_val_of_single hlc _ _).trans hk)
  have er : d.rhsIdx i ((contrEquiv1 d k hr hs).symm j) = ix2 j (i 1 : Fin b) := funext fun c => Fin.ext (by
    match c with
    | ⟨0, _⟩ => exact (d.rhsIdx_val_of_single hrc _ _).trans hk
    | ⟨1, _⟩ => exact r1 _ _)
  rw [el, er]
  rfl

/-- The features times a first projection: 100000 × 256 by 256 × 128. -/
theorem dot256_eq (x : Mat 100000 256) (w : Mat 256 128) :
    Host.dotGeneral (F := Ideal) (φ₁ := .f32) (φ₂ := .f32) dot_S100000x256_S256x128_S100000x128_1_0_0_1_n_n none x w = mm x w :=
  dot_eq_mm dot_S100000x256_S256x128_S100000x128_1_0_0_1_n_n rfl rfl rfl rfl
    (fun i q => by
      unfold DotDims.lhsIdx
      rw [dif_neg (show ¬(0 : Fin S100000x256.rank) ∈ dot_S100000x256_S256x128_S100000x128_1_0_0_1_n_n.lhsBatch by decide), dif_pos (show (0 : Fin S100000x256.rank) ∈ dot_S100000x256_S256x128_S100000x128_1_0_0_1_n_n.lhsNonContracting by decide)]
      rfl)
    (fun i q => by
      unfold DotDims.rhsIdx
      rw [dif_neg (show ¬(1 : Fin S256x128.rank) ∈ dot_S100000x256_S256x128_S100000x128_1_0_0_1_n_n.rhsBatch by decide), dif_pos (show (1 : Fin S256x128.rank) ∈ dot_S100000x256_S256x128_S100000x128_1_0_0_1_n_n.rhsNonContracting by decide)]
      rfl)
    x w

/-- A 100000 × 128 matrix times a 128 × 128 one: a second projection, and both layers of the shared perceptron. -/
theorem dot128_eq (x : Mat 100000 128) (w : Mat 128 128) :
    Host.dotGeneral (F := Ideal) (φ₁ := .f32) (φ₂ := .f32) dot_S100000x128_S128x128_S100000x128_1_0_0_1_n_n none x w = mm x w :=
  dot_eq_mm dot_S100000x128_S128x128_S100000x128_1_0_0_1_n_n rfl rfl rfl rfl
    (fun i q => by
      unfold DotDims.lhsIdx
      rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
      rfl)
    (fun i q => by
      unfold DotDims.rhsIdx
      rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
      rfl)
    x w

/-- A single row of 128 times a 128 × 128 matrix: the shared perceptron on the column sums. -/
theorem dot1x128_eq (x : Row 128) (w : Mat 128 128) :
    Host.dotGeneral (F := Ideal) (φ₁ := .f32) (φ₂ := .f32) dot_S1x128_S128x128_S1x128_1_0_0_1_n_n none x w = mm x w :=
  dot_eq_mm dot_S1x128_S128x128_S1x128_1_0_0_1_n_n rfl rfl rfl rfl
    (fun i q => by
      unfold DotDims.lhsIdx
      rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
      rfl)
    (fun i q => by
      unfold DotDims.rhsIdx
      rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
      rfl)
    x w

/-- A 100000 × 128 matrix times a 128 × 64 one: the node classifier's first layer. -/
theorem dot128x64_eq (x : Mat 100000 128) (w : Mat 128 64) :
    Host.dotGeneral (F := Ideal) (φ₁ := .f32) (φ₂ := .f32) dot_S100000x128_S128x64_S100000x64_1_0_0_1_n_n none x w = mm x w :=
  dot_eq_mm dot_S100000x128_S128x64_S100000x64_1_0_0_1_n_n rfl rfl rfl rfl
    (fun i q => by
      unfold DotDims.lhsIdx
      rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
      rfl)
    (fun i q => by
      unfold DotDims.rhsIdx
      rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
      rfl)
    x w

/-- A 100000 × 64 matrix times a 64 × 40 one: the node classifier's second layer. -/
theorem dot64x40_eq (x : Mat 100000 64) (w : Mat 64 40) :
    Host.dotGeneral (F := Ideal) (φ₁ := .f32) (φ₂ := .f32) dot_S100000x64_S64x40_S100000x40_1_0_0_1_n_n none x w = mm x w :=
  dot_eq_mm dot_S100000x64_S64x40_S100000x40_1_0_0_1_n_n rfl rfl rfl rfl
    (fun i q => by
      unfold DotDims.lhsIdx
      rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
      rfl)
    (fun i q => by
      unfold DotDims.rhsIdx
      rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
      rfl)
    x w

/-! ## The four stretches of the program, as it spells them -/

/-- One encoder: project, aggregate, add the bias, take the positive part, normalise; project, aggregate, add
    the bias, normalise. `aggf` is the neighbourhood aggregation. -/
def encT (aggf : Mat 100000 128 → Mat 100000 128) (x : Mat 100000 256) (W1 : Mat 256 128) (b1 : Arr 128)
    (W2 : Mat 128 128) (b2 g1 bt1 g2 bt2 : Arr 128) : Mat 100000 128 :=
  bnT
    (addf (F := Ideal) (φ := .f32)
      (aggf (Host.dotGeneral (F := Ideal) (φ₁ := .f32) (φ₂ := .f32) dot_S100000x128_S128x128_S100000x128_1_0_0_1_n_n none
        (bnT
          (maximumf (F := Ideal) (φ := .f32)
            (addf (F := Ideal) (φ := .f32)
              (aggf (Host.dotGeneral (F := Ideal) (φ₁ := .f32) (φ₂ := .f32) dot_S100000x256_S256x128_S100000x128_1_0_0_1_n_n none x W1))
              (rows128 b1))
            (broadcastInDim S100000x128 ![] bcast_S_S100000x128 (constant (F := Ideal) S_ .f32 0x00000000#32)))
          g1 bt1)
        W2))
      (rows128 b2))
    g2 bt2

/-- The encoder the program spells is the specification's second layer, normalised. -/
theorem encT_eq (aggf : Mat 100000 128 → Mat 100000 128) (x : Mat 100000 256) (W1 : Mat 256 128) (b1 : Arr 128)
    (W2 : Mat 128 128) (b2 g1 bt1 g2 bt2 : Arr 128) :
    encT aggf x W1 b1 W2 b2 g1 bt1 g2 bt2
      = bn (act2 varDev aggf x ⟨W1, rowOf b1, W2, rowOf b2, rowOf g1, rowOf bt1, rowOf g2, rowOf bt2⟩)
          (mean (act2 varDev aggf x ⟨W1, rowOf b1, W2, rowOf b2, rowOf g1, rowOf bt1, rowOf g2, rowOf bt2⟩))
          (varDev (act2 varDev aggf x ⟨W1, rowOf b1, W2, rowOf b2, rowOf g1, rowOf bt1, rowOf g2, rowOf bt2⟩))
          (rowOf g2) (rowOf bt2) := by
  unfold encT
  rw [dot256_eq, add_rows128, max_zeros (a := 100000) (b := 128) bcast_S_S100000x128, bnT_eq, dot128_eq, add_rows128, bnT_eq]
  rfl

/-- The shared perceptron on a 100000 × 128 matrix. -/
def mlpT (h : Mat 100000 128) (W1 : Mat 128 128) (b1 : Arr 128) (W2 : Mat 128 128) (b2 : Arr 128) : Mat 100000 128 :=
  addf (F := Ideal) (φ := .f32)
    (Host.dotGeneral (F := Ideal) (φ₁ := .f32) (φ₂ := .f32) dot_S100000x128_S128x128_S100000x128_1_0_0_1_n_n none
      (maximumf (F := Ideal) (φ := .f32)
        (addf (F := Ideal) (φ := .f32)
          (Host.dotGeneral (F := Ideal) (φ₁ := .f32) (φ₂ := .f32) dot_S100000x128_S128x128_S100000x128_1_0_0_1_n_n none h W1)
          (rows128 b1))
        (broadcastInDim S100000x128 ![] bcast_S_S100000x128 (constant (F := Ideal) S_ .f32 0x00000000#32)))
      W2)
    (rows128 b2)

theorem mlpT_eq (h : Mat 100000 128) (W1 : Mat 128 128) (b1 : Arr 128) (W2 : Mat 128 128) (b2 : Arr 128) :
    mlpT h W1 b1 W2 b2 = mlp h W1 (rowOf b1) W2 (rowOf b2) := by
  unfold mlpT
  rw [dot128_eq, add_rows128, dot128_eq, add_rows128, max_zeros (a := 100000) (b := 128) bcast_S_S100000x128]
  rfl

/-- The shared perceptron on the column sums of a 100000 × 128 matrix: a single row. -/
def poolT (z : Mat 100000 128) (W1 : Mat 128 128) (b1 : Arr 128) (W2 : Mat 128 128) (b2 : Arr 128) : Row 128 :=
  addf (F := Ideal) (φ := .f32)
    (Host.dotGeneral (F := Ideal) (φ₁ := .f32) (φ₂ := .f32) dot_S1x128_S128x128_S1x128_1_0_0_1_n_n none
      (maximumf (F := Ideal) (φ := .f32)
        (addf (F := Ideal) (φ := .f32)
          (Host.dotGeneral (F := Ideal) (φ₁ := .f32) (φ₂ := .f32) dot_S1x128_S128x128_S1x128_1_0_0_1_n_n none (row128 (sumRows z)) W1)
          (row128 b1))
        (broadcastInDim S1x128 ![] bcast_S_S1x128 (constant (F := Ideal) S_ .f32 0x00000000#32)))
      W2)
    (row128 b2)

theorem poolT_eq (z : Mat 100000 128) (W1 : Mat 128 128) (b1 : Arr 128) (W2 : Mat 128 128) (b2 : Arr 128) :
    poolT z W1 b1 W2 b2 = mlp (colSum z) W1 (rowOf b1) W2 (rowOf b2) := by
  unfold poolT
  rw [colSum_eq, dot1x128_eq, add_row128, dot1x128_eq, add_row128, max_zeros (a := 1) (b := 128) bcast_S_S1x128]
  rfl

/-- The node classifier on the sum of two 100000 × 128 matrices. -/
def nodeT (zl zg : Mat 100000 128) (W1 : Mat 128 64) (b1 : Arr 64) (W2 : Mat 64 40) (b2 : Arr 40) : Mat 100000 40 :=
  addf (F := Ideal) (φ := .f32)
    (Host.dotGeneral (F := Ideal) (φ₁ := .f32) (φ₂ := .f32) dot_S100000x64_S64x40_S100000x40_1_0_0_1_n_n none
      (maximumf (F := Ideal) (φ := .f32)
        (addf (F := Ideal) (φ := .f32)
          (Host.dotGeneral (F := Ideal) (φ₁ := .f32) (φ₂ := .f32) dot_S100000x128_S128x64_S100000x64_1_0_0_1_n_n none
            (addf (F := Ideal) (φ := .f32) zl zg) W1)
          (rows64 b1))
        (broadcastInDim S100000x64 ![] bcast_S_S100000x64 (constant (F := Ideal) S_ .f32 0x00000000#32)))
      W2)
    (rows40 b2)

theorem nodeT_eq (zl zg : Mat 100000 128) (W1 : Mat 128 64) (b1 : Arr 64) (W2 : Mat 64 40) (b2 : Arr 40) :
    nodeT zl zg W1 b1 W2 b2 = mlp (add zl zg) W1 (rowOf b1) W2 (rowOf b2) := by
  unfold nodeT
  rw [addf_eq_add zl zg, dot128x64_eq, add_rows64, dot64x40_eq, add_rows40, max_zeros (a := 100000) (b := 64) bcast_S_S100000x64]
  rfl

end Cert.RefOps

end
-- ==== Proof.RefValue.lean ====
/-
  The reference program's five results as the network of the specification. Each result's chain of stages is,
  term for term, one of the four stretches the program is made of (an encoder over an edge list's aggregation,
  the shared perceptron on a matrix, the same on column sums, the node classifier), and each stretch is its
  specification; the gather and scatter stages are carried whole inside the aggregation and never read at an
  index. The variance is the mean of the squared deviations, and the mean divides by the word of 100000.
-/
import proofs.«174816_j57878979281252_2_alg».proof.Proof.Agg
import proofs.«174816_j57878979281252_2_alg».proof.Proof.RefOps
import proofs.«174816_j57878979281252_2_alg».proof.Proof.RefRead

set_option maxRecDepth 16384

noncomputable section

namespace Cert.RefValue

open Cert.ReferenceIdeal Cert.ReferenceIdeal.Gen Cert.ReferenceIdeal.Read Idealize.ShloMosaic Cert.Spec Cert.RefOps

variable (x0 : Mat 100000 256) (x1 x2 : Vec Ideal S2x1000000 .i32)
  (x3 : Mat 256 128) (x4 : Arr 128) (x5 : Mat 128 128) (x6 x7 x8 x9 x10 : Arr 128)
  (x11 : Mat 256 128) (x12 : Arr 128) (x13 : Mat 128 128) (x14 x15 x16 x17 x18 : Arr 128)
  (x19 : Mat 128 128) (x20 : Arr 128) (x21 : Mat 128 128) (x22 : Arr 128)
  (x23 : Mat 128 64) (x24 : Arr 64) (x25 : Mat 64 40) (x26 : Arr 40)

/-! ## Each chain of stages is a stretch of the program as spelt -/

/-- The local encoder: statements %0 to %134, over the aggregation of the local edge list. -/
theorem encL_stages :
    val_main_v134 (F := Ideal) x0 x1 x3 x4 x5 x6 x7 x8 x9 x10
      = encT (Cert.Agg.agg x1) x0 x3 x4 x5 x6 x7 x8 x9 x10 := rfl

/-- The global encoder: statements %135 to %269, over the aggregation of the global edge list. -/
theorem encG_stages :
    val_main_v269 (F := Ideal) x0 x2 x11 x12 x13 x14 x15 x16 x17 x18
      = encT (Cert.Agg.agg x2) x0 x11 x12 x13 x14 x15 x16 x17 x18 := rfl

/-- The shared perceptron on the local encoder's output: %270 to %278. -/
theorem zL_stages :
    val_main_v278 (F := Ideal) x0 x1 x3 x4 x5 x6 x7 x8 x9 x10 x19 x20 x21 x22
      = mlpT (val_main_v134 (F := Ideal) x0 x1 x3 x4 x5 x6 x7 x8 x9 x10) x19 x20 x21 x22 := rfl

/-- The shared perceptron on the global encoder's output: %279 to %287. -/
theorem zG_stages :
    val_main_v287 (F := Ideal) x0 x2 x11 x12 x13 x14 x15 x16 x17 x18 x19 x20 x21 x22
      = mlpT (val_main_v269 (F := Ideal) x0 x2 x11 x12 x13 x14 x15 x16 x17 x18) x19 x20 x21 x22 := rfl

/-- The shared perceptron on the column sums of the local output: %288 to %296. -/
theorem gL_stages :
    val_main_v296 (F := Ideal) x0 x1 x3 x4 x5 x6 x7 x8 x9 x10 x19 x20 x21 x22
      = poolT (val_main_v278 (F := Ideal) x0 x1 x3 x4 x5 x6 x7 x8 x9 x10 x19 x20 x21 x22) x19 x20 x21 x22 := rfl

/-- The shared perceptron on the column sums of the global output: %297 to %305. -/
theorem gG_stages :
    val_main_v305 (F := Ideal) x0 x2 x11 x12 x13 x14 x15 x16 x17 x18 x19 x20 x21 x22
      = poolT (val_main_v287 (F := Ideal) x0 x2 x11 x12 x13 x14 x15 x16 x17 x18 x19 x20 x21 x22) x19 x20 x21 x22 := rfl

/-- The node classifier on the sum of the two outputs: %306 to %315. -/
theorem node_stages :
    val_main_v315 (F := Ideal) x0 x1 x2 x3 x4 x5 x6 x7 x8 x9 x10 x11 x12 x13 x14 x15 x16 x17 x18 x19 x20 x21 x22 x23 x24 x25 x26
      = nodeT (val_main_v278 (F := Ideal) x0 x1 x3 x4 x5 x6 x7 x8 x9 x10 x19 x20 x21 x22)
          (val_main_v287 (F := Ideal) x0 x2 x11 x12 x13 x14 x15 x16 x17 x18 x19 x20 x21 x22) x23 x24 x25 x26 := rfl

/-! ## The five results -/

/-- The local encoder's parameters, the rank-1 ones as rows. -/
abbrev pLof : Enc := ⟨x3, rowOf x4, x5, rowOf x6, rowOf x7, rowOf x8, rowOf x9, rowOf x10⟩

/-- The global encoder's parameters. -/
abbrev pGof : Enc := ⟨x11, rowOf x12, x13, rowOf x14, rowOf x15, rowOf x16, rowOf x17, rowOf x18⟩

/-- The shared perceptron's and the node classifier's parameters. -/
abbrev hdof : Heads := ⟨x19, rowOf x20, x21, rowOf x22, x23, rowOf x24, x25, rowOf x26⟩

/-- The local output is the local encoder through the shared perceptron. -/
theorem zLocal_eq :
    val_main_v278 (F := Ideal) x0 x1 x3 x4 x5 x6 x7 x8 x9 x10 x19 x20 x21 x22
      = zEnc varDev (Cert.Agg.agg x1) x0 (pLof x3 x4 x5 x6 x7 x8 x9 x10) (hdof x19 x20 x21 x22 x23 x24 x25 x26) := by
  rw [zL_stages, encL_stages, encT_eq, mlpT_eq]
  rfl

/-- The global output is the global encoder through the shared perceptron. -/
theorem zGlobal_eq :
    val_main_v287 (F := Ideal) x0 x2 x11 x12 x13 x14 x15 x16 x17 x18 x19 x20 x21 x22
      = zEnc varDev (Cert.Agg.agg x2) x0 (pGof x11 x12 x13 x14 x15 x16 x17 x18) (hdof x19 x20 x21 x22 x23 x24 x25 x26) := by
  rw [zG_stages, encG_stages, encT_eq, mlpT_eq]
  rfl

/-- The five results of the reference program are the five functions of the network, the variance being the mean
    of the squared deviations: the two encoders' outputs through the shared perceptron, the perceptron of each
    output's column sums, and the node classifier of the two outputs' sum. -/
theorem stages_spec :
    val_main_v278 (F := Ideal) x0 x1 x3 x4 x5 x6 x7 x8 x9 x10 x19 x20 x21 x22
        = zEnc varDev (Cert.Agg.agg x1) x0 (pLof x3 x4 x5 x6 x7 x8 x9 x10) (hdof x19 x20 x21 x22 x23 x24 x25 x26)
    ∧ val_main_v287 (F := Ideal) x0 x2 x11 x12 x13 x14 x15 x16 x17 x18 x19 x20 x21 x22
        = zEnc varDev (Cert.Agg.agg x2) x0 (pGof x11 x12 x13 x14 x15 x16 x17 x18) (hdof x19 x20 x21 x22 x23 x24 x25 x26)
    ∧ val_main_v296 (F := Ideal) x0 x1 x3 x4 x5 x6 x7 x8 x9 x10 x19 x20 x21 x22
        = pooled (zEnc varDev (Cert.Agg.agg x1) x0 (pLof x3 x4 x5 x6 x7 x8 x9 x10) (hdof x19 x20 x21 x22 x23 x24 x25 x26))
            (hdof x19 x20 x21 x22 x23 x24 x25 x26)
    ∧ val_main_v305 (F := Ideal) x0 x2 x11 x12 x13 x14 x15 x16 x17 x18 x19 x20 x21 x22
        = pooled (zEnc varDev (Cert.Agg.agg x2) x0 (pGof x11 x12 x13 x14 x15 x16 x17 x18) (hdof x19 x20 x21 x22 x23 x24 x25 x26))
            (hdof x19 x20 x21 x22 x23 x24 x25 x26)
    ∧ val_main_v315 (F := Ideal) x0 x1 x2 x3 x4 x5 x6 x7 x8 x9 x10 x11 x12 x13 x14 x15 x16 x17 x18 x19 x20 x21 x22 x23 x24 x25 x26
        = nodePred (zEnc varDev (Cert.Agg.agg x1) x0 (pLof x3 x4 x5 x6 x7 x8 x9 x10) (hdof x19 x20 x21 x22 x23 x24 x25 x26))
            (zEnc varDev (Cert.Agg.agg x2) x0 (pGof x11 x12 x13 x14 x15 x16 x17 x18) (hdof x19 x20 x21 x22 x23 x24 x25 x26))
            (hdof x19 x20 x21 x22 x23 x24 x25 x26) := by
  refine ⟨zLocal_eq x0 x1 x3 x4 x5 x6 x7 x8 x9 x10 x19 x20 x21 x22 x23 x24 x25 x26,
    zGlobal_eq x0 x2 x11 x12 x13 x14 x15 x16 x17 x18 x19 x20 x21 x22 x23 x24 x25 x26, ?_, ?_, ?_⟩
  · rw [gL_stages, zLocal_eq x0 x1 x3 x4 x5 x6 x7 x8 x9 x10 x19 x20 x21 x22 x23 x24 x25 x26, poolT_eq]
    rfl
  · rw [gG_stages, zGlobal_eq x0 x2 x11 x12 x13 x14 x15 x16 x17 x18 x19 x20 x21 x22 x23 x24 x25 x26, poolT_eq]
    rfl
  · rw [node_stages, zLocal_eq x0 x1 x3 x4 x5 x6 x7 x8 x9 x10 x19 x20 x21 x22 x23 x24 x25 x26,
      zGlobal_eq x0 x2 x11 x12 x13 x14 x15 x16 x17 x18 x19 x20 x21 x22 x23 x24 x25 x26, nodeT_eq]
    rfl

end Cert.RefValue

end
-- ==== Proof.RefSpec.lean ====
/-
  The reference program's run, named by the network: from any memory, every weakly fair execution terminates
  with the five result arrays holding the two encoders' outputs through the shared perceptron, the perceptron
  of each output's column sums and the node classifier of the two outputs' sum, each as the specification's
  function of the arguments the memory held (the features, the two edge lists, the encoders' and the heads'
  parameters), and with the arguments unchanged. It is the run stated stage by stage, with each result's stage
  rewritten by the equality of the stages and the network.
-/
import proofs.«174816_j57878979281252_2_alg».proof.Proof.RefArgs
import proofs.«174816_j57878979281252_2_alg».proof.Proof.RefValue
import proofs.«174816_j57878979281252_2_alg».proof.Proof.RefRunStages

set_option maxRecDepth 16384

noncomputable section

namespace Cert.RefValue

open Idealize.ShloMosaic Idealize.ShloMosaic.TcCoe Idealize.SL.Sem Cert.ReferenceIdeal Cert.Spec

/-- Every weakly fair execution of the reference program terminates with its five results the five functions of
    the network at the arguments the memory held — the two encoders' outputs through the shared perceptron, the
    perceptron of each output's column sums, the node classifier of the two outputs' sum, the variance being the
    mean of the squared deviations — and the arguments unchanged. -/
theorem run_spec (m' : Mem) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc main_v278)
            = zEnc varDev (Cert.Agg.agg (eiL m' c)) (xOf m' c) (pL m' c) (hd m' c)
        ∧ r.2.mem ((c.tc : Thread Cert.ReferenceIdeal.nD Cert.ReferenceIdeal.τ).loc main_v287)
            = zEnc varDev (Cert.Agg.agg (eiG m' c)) (xOf m' c) (pG m' c) (hd m' c)
        ∧ r.2.mem ((c.tc : Thread Cert.ReferenceIdeal.nD Cert.ReferenceIdeal.τ).loc main_v296)
            = pooled (zEnc varDev (Cert.Agg.agg (eiL m' c)) (xOf m' c) (pL m' c) (hd m' c)) (hd m' c)
        ∧ r.2.mem ((c.tc : Thread Cert.ReferenceIdeal.nD Cert.ReferenceIdeal.τ).loc main_v305)
            = pooled (zEnc varDev (Cert.Agg.agg (eiG m' c)) (xOf m' c) (pG m' c) (hd m' c)) (hd m' c)
        ∧ r.2.mem ((c.tc : Thread Cert.ReferenceIdeal.nD Cert.ReferenceIdeal.τ).loc main_v315)
            = nodePred (zEnc varDev (Cert.Agg.agg (eiL m' c)) (xOf m' c) (pL m' c) (hd m' c))
                (zEnc varDev (Cert.Agg.agg (eiG m' c)) (xOf m' c) (pG m' c) (hd m' c)) (hd m' c)
        ∧ r.2.mem ((c.tc : Thread Cert.ReferenceIdeal.nD Cert.ReferenceIdeal.τ).loc main_arg0) = m' ((c.tc : Thread Cert.ReferenceIdeal.nD Cert.ReferenceIdeal.τ).loc main_arg0)
        ∧ r.2.mem ((c.tc : Thread Cert.ReferenceIdeal.nD Cert.ReferenceIdeal.τ).loc main_arg1) = m' ((c.tc : Thread Cert.ReferenceIdeal.nD Cert.ReferenceIdeal.τ).loc main_arg1)
        ∧ r.2.mem ((c.tc : Thread Cert.ReferenceIdeal.nD Cert.ReferenceIdeal.τ).loc main_arg2) = m' ((c.tc : Thread Cert.ReferenceIdeal.nD Cert.ReferenceIdeal.τ).loc main_arg2)
        ∧ r.2.mem ((c.tc : Thread Cert.ReferenceIdeal.nD Cert.ReferenceIdeal.τ).loc main_arg3) = m' ((c.tc : Thread Cert.ReferenceIdeal.nD Cert.ReferenceIdeal.τ).loc main_arg3)
        ∧ r.2.mem ((c.tc : Thread Cert.ReferenceIdeal.nD Cert.ReferenceIdeal.τ).loc main_arg4) = m' ((c.tc : Thread Cert.ReferenceIdeal.nD Cert.ReferenceIdeal.τ).loc main_arg4)
        ∧ r.2.mem ((c.tc : Thread Cert.ReferenceIdeal.nD Cert.ReferenceIdeal.τ).loc main_arg5) = m' ((c.tc : Thread Cert.ReferenceIdeal.nD Cert.ReferenceIdeal.τ).loc main_arg5)
        ∧ r.2.mem ((c.tc : Thread Cert.ReferenceIdeal.nD Cert.ReferenceIdeal.τ).loc main_arg6) = m' ((c.tc : Thread Cert.ReferenceIdeal.nD Cert.ReferenceIdeal.τ).loc main_arg6)
        ∧ r.2.mem ((c.tc : Thread Cert.ReferenceIdeal.nD Cert.ReferenceIdeal.τ).loc main_arg7) = m' ((c.tc : Thread Cert.ReferenceIdeal.nD Cert.ReferenceIdeal.τ).loc main_arg7)
        ∧ r.2.mem ((c.tc : Thread Cert.ReferenceIdeal.nD Cert.ReferenceIdeal.τ).loc main_arg8) = m' ((c.tc : Thread Cert.ReferenceIdeal.nD Cert.ReferenceIdeal.τ).loc main_arg8)
        ∧ r.2.mem ((c.tc : Thread Cert.ReferenceIdeal.nD Cert.ReferenceIdeal.τ).loc main_arg9) = m' ((c.tc : Thread Cert.ReferenceIdeal.nD Cert.ReferenceIdeal.τ).loc main_arg9)
        ∧ r.2.mem ((c.tc : Thread Cert.ReferenceIdeal.nD Cert.ReferenceIdeal.τ).loc main_arg10) = m' ((c.tc : Thread Cert.ReferenceIdeal.nD Cert.ReferenceIdeal.τ).loc main_arg10)
        ∧ r.2.mem ((c.tc : Thread Cert.ReferenceIdeal.nD Cert.ReferenceIdeal.τ).loc main_arg11) = m' ((c.tc : Thread Cert.ReferenceIdeal.nD Cert.ReferenceIdeal.τ).loc main_arg11)
        ∧ r.2.mem ((c.tc : Thread Cert.ReferenceIdeal.nD Cert.ReferenceIdeal.τ).loc main_arg12) = m' ((c.tc : Thread Cert.ReferenceIdeal.nD Cert.ReferenceIdeal.τ).loc main_arg12)
        ∧ r.2.mem ((c.tc : Thread Cert.ReferenceIdeal.nD Cert.ReferenceIdeal.τ).loc main_arg13) = m' ((c.tc : Thread Cert.ReferenceIdeal.nD Cert.ReferenceIdeal.τ).loc main_arg13)
        ∧ r.2.mem ((c.tc : Thread Cert.ReferenceIdeal.nD Cert.ReferenceIdeal.τ).loc main_arg14) = m' ((c.tc : Thread Cert.ReferenceIdeal.nD Cert.ReferenceIdeal.τ).loc main_arg14)
        ∧ r.2.mem ((c.tc : Thread Cert.ReferenceIdeal.nD Cert.ReferenceIdeal.τ).loc main_arg15) = m' ((c.tc : Thread Cert.ReferenceIdeal.nD Cert.ReferenceIdeal.τ).loc main_arg15)
        ∧ r.2.mem ((c.tc : Thread Cert.ReferenceIdeal.nD Cert.ReferenceIdeal.τ).loc main_arg16) = m' ((c.tc : Thread Cert.ReferenceIdeal.nD Cert.ReferenceIdeal.τ).loc main_arg16)
        ∧ r.2.mem ((c.tc : Thread Cert.ReferenceIdeal.nD Cert.ReferenceIdeal.τ).loc main_arg17) = m' ((c.tc : Thread Cert.ReferenceIdeal.nD Cert.ReferenceIdeal.τ).loc main_arg17)
        ∧ r.2.mem ((c.tc : Thread Cert.ReferenceIdeal.nD Cert.ReferenceIdeal.τ).loc main_arg18) = m' ((c.tc : Thread Cert.ReferenceIdeal.nD Cert.ReferenceIdeal.τ).loc main_arg18)
        ∧ r.2.mem ((c.tc : Thread Cert.ReferenceIdeal.nD Cert.ReferenceIdeal.τ).loc main_arg19) = m' ((c.tc : Thread Cert.ReferenceIdeal.nD Cert.ReferenceIdeal.τ).loc main_arg19)
        ∧ r.2.mem ((c.tc : Thread Cert.ReferenceIdeal.nD Cert.ReferenceIdeal.τ).loc main_arg20) = m' ((c.tc : Thread Cert.ReferenceIdeal.nD Cert.ReferenceIdeal.τ).loc main_arg20)
        ∧ r.2.mem ((c.tc : Thread Cert.ReferenceIdeal.nD Cert.ReferenceIdeal.τ).loc main_arg21) = m' ((c.tc : Thread Cert.ReferenceIdeal.nD Cert.ReferenceIdeal.τ).loc main_arg21)
        ∧ r.2.mem ((c.tc : Thread Cert.ReferenceIdeal.nD Cert.ReferenceIdeal.τ).loc main_arg22) = m' ((c.tc : Thread Cert.ReferenceIdeal.nD Cert.ReferenceIdeal.τ).loc main_arg22)
        ∧ r.2.mem ((c.tc : Thread Cert.ReferenceIdeal.nD Cert.ReferenceIdeal.τ).loc main_arg23) = m' ((c.tc : Thread Cert.ReferenceIdeal.nD Cert.ReferenceIdeal.τ).loc main_arg23)
        ∧ r.2.mem ((c.tc : Thread Cert.ReferenceIdeal.nD Cert.ReferenceIdeal.τ).loc main_arg24) = m' ((c.tc : Thread Cert.ReferenceIdeal.nD Cert.ReferenceIdeal.τ).loc main_arg24)
        ∧ r.2.mem ((c.tc : Thread Cert.ReferenceIdeal.nD Cert.ReferenceIdeal.τ).loc main_arg25) = m' ((c.tc : Thread Cert.ReferenceIdeal.nD Cert.ReferenceIdeal.τ).loc main_arg25)
        ∧ r.2.mem ((c.tc : Thread Cert.ReferenceIdeal.nD Cert.ReferenceIdeal.τ).loc main_arg26) = m' ((c.tc : Thread Cert.ReferenceIdeal.nD Cert.ReferenceIdeal.τ).loc main_arg26)) := by
  refine (θ_run (Cert.ReferenceIdeal.defs (F := Ideal)) _ _).mono (fun r h c => ?_) (Cert.RefRun.run_stages (F := Ideal) m' ρ')
  obtain ⟨h0, h1, h2, h3, h4, hargs⟩ := h c
  obtain ⟨e0, e1, e2, e3, e4⟩ := stages_spec
    (m' ((c.tc : Thread Cert.ReferenceIdeal.nD Cert.ReferenceIdeal.τ).loc main_arg0))
    (m' ((c.tc : Thread Cert.ReferenceIdeal.nD Cert.ReferenceIdeal.τ).loc main_arg1))
    (m' ((c.tc : Thread Cert.ReferenceIdeal.nD Cert.ReferenceIdeal.τ).loc main_arg2))
    (m' ((c.tc : Thread Cert.ReferenceIdeal.nD Cert.ReferenceIdeal.τ).loc main_arg3))
    (m' ((c.tc : Thread Cert.ReferenceIdeal.nD Cert.ReferenceIdeal.τ).loc main_arg4))
    (m' ((c.tc : Thread Cert.ReferenceIdeal.nD Cert.ReferenceIdeal.τ).loc main_arg5))
    (m' ((c.tc : Thread Cert.ReferenceIdeal.nD Cert.ReferenceIdeal.τ).loc main_arg6))
    (m' ((c.tc : Thread Cert.ReferenceIdeal.nD Cert.ReferenceIdeal.τ).loc main_arg7))
    (m' ((c.tc : Thread Cert.ReferenceIdeal.nD Cert.ReferenceIdeal.τ).loc main_arg8))
    (m' ((c.tc : Thread Cert.ReferenceIdeal.nD Cert.ReferenceIdeal.τ).loc main_arg9))
    (m' ((c.tc : Thread Cert.ReferenceIdeal.nD Cert.ReferenceIdeal.τ).loc main_arg10))
    (m' ((c.tc : Thread Cert.ReferenceIdeal.nD Cert.ReferenceIdeal.τ).loc main_arg11))
    (m' ((c.tc : Thread Cert.ReferenceIdeal.nD Cert.ReferenceIdeal.τ).loc main_arg12))
    (m' ((c.tc : Thread Cert.ReferenceIdeal.nD Cert.ReferenceIdeal.τ).loc main_arg13))
    (m' ((c.tc : Thread Cert.ReferenceIdeal.nD Cert.ReferenceIdeal.τ).loc main_arg14))
    (m' ((c.tc : Thread Cert.ReferenceIdeal.nD Cert.ReferenceIdeal.τ).loc main_arg15))
    (m' ((c.tc : Thread Cert.ReferenceIdeal.nD Cert.ReferenceIdeal.τ).loc main_arg16))
    (m' ((c.tc : Thread Cert.ReferenceIdeal.nD Cert.ReferenceIdeal.τ).loc main_arg17))
    (m' ((c.tc : Thread Cert.ReferenceIdeal.nD Cert.ReferenceIdeal.τ).loc main_arg18))
    (m' ((c.tc : Thread Cert.ReferenceIdeal.nD Cert.ReferenceIdeal.τ).loc main_arg19))
    (m' ((c.tc : Thread Cert.ReferenceIdeal.nD Cert.ReferenceIdeal.τ).loc main_arg20))
    (m' ((c.tc : Thread Cert.ReferenceIdeal.nD Cert.ReferenceIdeal.τ).loc main_arg21))
    (m' ((c.tc : Thread Cert.ReferenceIdeal.nD Cert.ReferenceIdeal.τ).loc main_arg22))
    (m' ((c.tc : Thread Cert.ReferenceIdeal.nD Cert.ReferenceIdeal.τ).loc main_arg23))
    (m' ((c.tc : Thread Cert.ReferenceIdeal.nD Cert.ReferenceIdeal.τ).loc main_arg24))
    (m' ((c.tc : Thread Cert.ReferenceIdeal.nD Cert.ReferenceIdeal.τ).loc main_arg25))
    (m' ((c.tc : Thread Cert.ReferenceIdeal.nD Cert.ReferenceIdeal.τ).loc main_arg26))
  exact ⟨h0.trans e0, h1.trans e1, h2.trans e2, h3.trans e3, h4.trans e4, hargs⟩

end Cert.RefValue

end
-- ==== Proof.Bridge.lean ====
import proofs.«174816_j57878979281252_2_alg».proof.Proof.Gen.ReferenceIdeal
import proofs.«174816_j57878979281252_2_alg».proof.Proof.Algebra
import proofs.«174816_j57878979281252_2_alg».proof.Proof.PreReal
import proofs.«174816_j57878979281252_2_alg».proof.Proof.Agg
import proofs.«174816_j57878979281252_2_alg».proof.Proof.ChainArgs
import proofs.«174816_j57878979281252_2_alg».proof.Proof.RefArgs
import proofs.«174816_j57878979281252_2_alg».proof.Proof.ValueRun
import proofs.«174816_j57878979281252_2_alg».proof.Proof.ChainL4
import proofs.«174816_j57878979281252_2_alg».proof.Proof.ChainG2
import proofs.«174816_j57878979281252_2_alg».proof.Proof.ChainH2
import proofs.«174816_j57878979281252_2_alg».proof.Proof.RefSpec

set_option maxRecDepth 16384

noncomputable section

/-!
# The two programs compute the same network

Both programs are the same composition of whole-array functions of the twenty-seven arguments: two graph
encoders through a shared perceptron, the perceptron of each output's column sums, and a node classifier of the
two outputs' sum. They differ in one place only: the batch variance of a normalisation is the mean of the squared
deviations in one and the mean of the squares less the squared mean, clamped at zero, in the other. Where every
argument entry is a real number every intermediate entry is real as well (the neighbourhood aggregation is a
finite sum of products of reals), and there the two forms of the variance are the same number. So from memories
that agree on the arguments the five results are equal, entry by entry.
-/

namespace Cert.Bridge

open Idealize.ShloMosaic Idealize.ShloMosaic.TcCoe Idealize.SL.Sem
open Cert.Spec

/-- A memory of the kernel's program and one of the reference's, at the extended reals. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- The two memories hold the same twenty-seven argument arrays on every device. -/
def Agree (m : KMem) (m' : RMem) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
    ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
    ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
    ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
    ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
    ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
    ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
    ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
    ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
    ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
    ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)

/-- Two encoders' parameter records are equal when their eight parameters are. -/
theorem enc_congr {W1 W1' : Mat 256 128} {b1 b1' : Row 128} {W2 W2' : Mat 128 128} {b2 b2' g1 g1' bt1 bt1' g2 g2' bt2 bt2' : Row 128}
    (e1 : W1 = W1') (e2 : b1 = b1') (e3 : W2 = W2') (e4 : b2 = b2') (e5 : g1 = g1') (e6 : bt1 = bt1') (e7 : g2 = g2')
    (e8 : bt2 = bt2') : Enc.mk W1 b1 W2 b2 g1 bt1 g2 bt2 = Enc.mk W1' b1' W2' b2' g1' bt1' g2' bt2' := by
  subst e1 e2 e3 e4 e5 e6 e7 e8; rfl

/-- The same for the heads' parameter records. -/
theorem heads_congr {mW1 mW1' : Mat 128 128} {mb1 mb1' : Row 128} {mW2 mW2' : Mat 128 128} {mb2 mb2' : Row 128}
    {cW1 cW1' : Mat 128 64} {cb1 cb1' : Row 64} {cW2 cW2' : Mat 64 40} {cb2 cb2' : Row 40}
    (e1 : mW1 = mW1') (e2 : mb1 = mb1') (e3 : mW2 = mW2') (e4 : mb2 = mb2') (e5 : cW1 = cW1') (e6 : cb1 = cb1')
    (e7 : cW2 = cW2') (e8 : cb2 = cb2') :
    Heads.mk mW1 mb1 mW2 mb2 cW1 cb1 cW2 cb2 = Heads.mk mW1' mb1' mW2' mb2' cW1' cb1' cW2' cb2' := by
  subst e1 e2 e3 e4 e5 e6 e7 e8; rfl

section Accessors

/-! ## From agreeing memories the network's inputs and parameters are the same objects -/

theorem xOf_eq (m : KMem) (m' : RMem) (hag : Agree m m') (c : Dev Cert.KernelIdeal.nD) : Cert.RefValue.xOf m' c = Cert.KernelIdeal.Chain.xOf m c := (hag c).1
theorem eiL_eq (m : KMem) (m' : RMem) (hag : Agree m m') (c : Dev Cert.KernelIdeal.nD) : Cert.RefValue.eiL m' c = Cert.KernelIdeal.Chain.eiL m c := (hag c).2.1
theorem eiG_eq (m : KMem) (m' : RMem) (hag : Agree m m') (c : Dev Cert.KernelIdeal.nD) : Cert.RefValue.eiG m' c = Cert.KernelIdeal.Chain.eiG m c := (hag c).2.2.1

theorem pL_eq (m : KMem) (m' : RMem) (hag : Agree m m') (c : Dev Cert.KernelIdeal.nD) : Cert.RefValue.pL m' c = Cert.KernelIdeal.Chain.pL m c := by
  obtain ⟨a0, a1, a2, a3, a4, a5, a6, a7, a8, a9, a10, a11, a12, a13, a14, a15, a16, a17, a18, a19, a20, a21, a22, a23, a24, a25, a26⟩ := hag c
  exact enc_congr a3 (congrArg rowOf a4) a5 (congrArg rowOf a6) (congrArg rowOf a7) (congrArg rowOf a8)
    (congrArg rowOf a9) (congrArg rowOf a10)

theorem pG_eq (m : KMem) (m' : RMem) (hag : Agree m m') (c : Dev Cert.KernelIdeal.nD) : Cert.RefValue.pG m' c = Cert.KernelIdeal.Chain.pG m c := by
  obtain ⟨a0, a1, a2, a3, a4, a5, a6, a7, a8, a9, a10, a11, a12, a13, a14, a15, a16, a17, a18, a19, a20, a21, a22, a23, a24, a25, a26⟩ := hag c
  exact enc_congr a11 (congrArg rowOf a12) a13 (congrArg rowOf a14) (congrArg rowOf a15) (congrArg rowOf a16)
    (congrArg rowOf a17) (congrArg rowOf a18)

theorem hd_eq (m : KMem) (m' : RMem) (hag : Agree m m') (c : Dev Cert.KernelIdeal.nD) : Cert.RefValue.hd m' c = Cert.KernelIdeal.Chain.hd m c := by
  obtain ⟨a0, a1, a2, a3, a4, a5, a6, a7, a8, a9, a10, a11, a12, a13, a14, a15, a16, a17, a18, a19, a20, a21, a22, a23, a24, a25, a26⟩ := hag c
  exact heads_congr a19 (congrArg rowOf a20) a21 (congrArg rowOf a22) a23 (congrArg rowOf a24) a25
    (congrArg rowOf a26)

/-! ## Under the precondition they are real -/

theorem xOf_real (m : KMem) (c : Dev Cert.KernelIdeal.nD) (hpre : Cert.Pre_KernelIdeal m) : AllReal (Cert.KernelIdeal.Chain.xOf m c) := (Cert.PreReal.kernel_args_real m hpre c).1

theorem pL_real (m : KMem) (c : Dev Cert.KernelIdeal.nD) (hpre : Cert.Pre_KernelIdeal m) : (Cert.KernelIdeal.Chain.pL m c).Real := by
  obtain ⟨r0, r3, r4, r5, r6, r7, r8, r9, r10, r11, r12, r13, r14, r15, r16, r17, r18, r19, r20, r21, r22, r23, r24, r25, r26⟩ := Cert.PreReal.kernel_args_real m hpre c
  exact ⟨r3, AllReal.rowOf r4, r5, AllReal.rowOf r6, AllReal.rowOf r7, AllReal.rowOf r8, AllReal.rowOf r9, AllReal.rowOf r10⟩

theorem pG_real (m : KMem) (c : Dev Cert.KernelIdeal.nD) (hpre : Cert.Pre_KernelIdeal m) : (Cert.KernelIdeal.Chain.pG m c).Real := by
  obtain ⟨r0, r3, r4, r5, r6, r7, r8, r9, r10, r11, r12, r13, r14, r15, r16, r17, r18, r19, r20, r21, r22, r23, r24, r25, r26⟩ := Cert.PreReal.kernel_args_real m hpre c
  exact ⟨r11, AllReal.rowOf r12, r13, AllReal.rowOf r14, AllReal.rowOf r15, AllReal.rowOf r16, AllReal.rowOf r17, AllReal.rowOf r18⟩

/-! ## An encoder's output: the reference's form of the variance against the kernel's -/

theorem zL_eq (m : KMem) (m' : RMem) (hag : Agree m m') (c : Dev Cert.KernelIdeal.nD) (hpre : Cert.Pre_KernelIdeal m) : zEnc varDev (Cert.Agg.agg (Cert.RefValue.eiL m' c)) (Cert.RefValue.xOf m' c) (Cert.RefValue.pL m' c) (Cert.RefValue.hd m' c)
    = zEnc varMom (Cert.Agg.agg (Cert.KernelIdeal.Chain.eiL m c)) (Cert.KernelIdeal.Chain.xOf m c) (Cert.KernelIdeal.Chain.pL m c) (Cert.KernelIdeal.Chain.hd m c) := by
  rw [eiL_eq m m' hag c, xOf_eq m m' hag c, pL_eq m m' hag c, hd_eq m m' hag c]
  exact zEnc_var_eq _ _ _ _ (xOf_real m c hpre) (pL_real m c hpre) (fun v hv => Cert.Agg.agg_real _ v hv)

theorem zG_eq (m : KMem) (m' : RMem) (hag : Agree m m') (c : Dev Cert.KernelIdeal.nD) (hpre : Cert.Pre_KernelIdeal m) : zEnc varDev (Cert.Agg.agg (Cert.RefValue.eiG m' c)) (Cert.RefValue.xOf m' c) (Cert.RefValue.pG m' c) (Cert.RefValue.hd m' c)
    = zEnc varMom (Cert.Agg.agg (Cert.KernelIdeal.Chain.eiG m c)) (Cert.KernelIdeal.Chain.xOf m c) (Cert.KernelIdeal.Chain.pG m c) (Cert.KernelIdeal.Chain.hd m c) := by
  rw [eiG_eq m m' hag c, xOf_eq m m' hag c, pG_eq m m' hag c, hd_eq m m' hag c]
  exact zEnc_var_eq _ _ _ _ (xOf_real m c hpre) (pG_real m c hpre) (fun v hv => Cert.Agg.agg_real _ v hv)

end Accessors

/-! ## The claim -/

open Cert.KernelIdeal Cert.KernelIdeal.Chain Cert.KernelIdeal.Run in
/-- From memories that agree on the arguments both programs run, their five results are the same arrays (the
    two encoders' outputs with the clamped form of the variance, the pooled rows and the node predictions built on
    them) and the arguments end unchanged. -/
theorem algebraic : Cert.algebraic_KernelIdeal_ReferenceIdeal := by
  intro m g m' g' hpre hagree
  have hag : Agree m m' := hagree
  refine ⟨fun c => zEnc varMom (Cert.Agg.agg (eiL m c)) (xOf m c) (pL m c) (hd m c),
    fun c => zEnc varMom (Cert.Agg.agg (eiG m c)) (xOf m c) (pG m c) (hd m c),
    fun c => pooled (zEnc varMom (Cert.Agg.agg (eiL m c)) (xOf m c) (pL m c) (hd m c)) (hd m c),
    fun c => pooled (zEnc varMom (Cert.Agg.agg (eiG m c)) (xOf m c) (pG m c) (hd m c)) (hd m c),
    fun c => nodePred (zEnc varMom (Cert.Agg.agg (eiL m c)) (xOf m c) (pL m c) (hd m c))
      (zEnc varMom (Cert.Agg.agg (eiG m c)) (xOf m c) (pG m c) (hd m c)) (hd m c), ?_, ?_⟩
  · refine (θ_run Cert.KernelIdeal.defs _ _).mono (fun r h c => ?_) (value_run (F := Ideal) m g)
    obtain ⟨h0, h1, h2, h3, h4, hargs⟩ := h c
    -- the two encoder outputs where the last kernel reads them: no later item writes either
    have hL := zLocal25 m c
    have hG : (T25 m c main_v163 : Mat 100000 128)
        = zEnc varMom (Cert.Agg.agg (eiG m c)) (xOf m c) (pG m c) (hd m c) :=
      ((T25_v163 m c).trans (T31_v163 m c).symm).trans (zGlobal m c)
    exact ⟨h0.trans (zLocal m c), h1.trans (zGlobal m c), h2.trans (gLocal m c _ hL), h3.trans (gGlobal m c _ hG),
      h4.trans (nodeOut m c _ _ hL hG), hargs⟩
  · refine (θ_run Cert.ReferenceIdeal.defs _ _).mono (fun r h c => ?_) (Cert.RefValue.run_spec m' g')
    obtain ⟨h0, h1, h2, h3, h4, hargs⟩ := h c
    have eL := zL_eq m m' hag c hpre
    have eG := zG_eq m m' hag c hpre
    have eh := hd_eq m m' hag c
    exact ⟨h0.trans eL, h1.trans eG,
      h2.trans (congrArg₂ (fun z k => pooled z k) eL eh),
      h3.trans (congrArg₂ (fun z k => pooled z k) eG eh),
      h4.trans (by rw [eL, eG, eh]),
      hargs⟩

end Cert.Bridge

end
-- ==== Proof.lean ====
/-
  The whole certificate. The program is the forward pass of a two-view graph encoder: each view's encoder is two
  graph-convolution layers (project the node features, scale each edge's message by the inverse square roots of the
  in-degrees of its ends, add the messages up at their targets, add a bias), the first followed by the positive part,
  each followed by batch normalisation over the 100000 nodes with the batch mean and the biased batch variance; the
  two encodings go through one shared two-layer perceptron, their column sums through it again, and their sum
  through a second perceptron. The kernel program does the dense part in eleven row-blocked kernels (a projection;
  bias, positive part and the running column sums and sums of squares; normalise and project; normalise and the
  perceptron; the last head with its column sums) around the gather and scatter-add of the edges, and takes the
  variance as the mean of the squares less the squared mean, clamped at zero; the reference takes it as the mean
  of the squared deviations.

  Three frames: every weakly fair run of each program ends, nothing faulting, with its twenty-seven argument
  arrays as launched. The word-level kernel program and its reading at the extended reals differ in nothing the
  preservation claim states. And at the extended reals, from arguments that agree and are all real numbers, the
  two programs return the same five arrays: block by block each kernel's output array is one whole-array function
  of its input arrays, a sum over the 100000 rows is the sum over the twenty blocks of the sums over each block's
  5000 rows, a product into a zero accumulator is the plain sum over the shared axis, and the two forms of the
  variance agree where every entry is real.
-/
import proofs.«174816_j57878979281252_2_alg».proof.Defs
import proofs.«174816_j57878979281252_2_alg».proof.Proof.Gen.Kernel
import proofs.«174816_j57878979281252_2_alg».proof.Proof.Gen.KernelIdeal
import proofs.«174816_j57878979281252_2_alg».proof.Proof.Gen.ReferenceIdeal
import proofs.«174816_j57878979281252_2_alg».proof.Proof.Gen.Pre_finite_inputs
import proofs.«174816_j57878979281252_2_alg».proof.Proof.Bits.FrameRun
import proofs.«174816_j57878979281252_2_alg».proof.Proof.FrameRun
import proofs.«174816_j57878979281252_2_alg».proof.Proof.RefRunStages
import proofs.«174816_j57878979281252_2_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Run.frame m ρ

/-- So does its reading at the extended reals. -/
theorem frame_kernelIdeal : Cert.frame_KernelIdeal := fun m ρ _ => Cert.KernelIdeal.Run.frame m ρ

/-- The reference is host operations only: its run names every result and every argument at the end; the frame keeps
    the arguments and drops the five results. -/
theorem frame_referenceIdeal : Cert.frame_ReferenceIdeal := fun m ρ _ =>
  (θ_run Cert.ReferenceIdeal.defs _ _).mono (fun _ h c => (h c).2.2.2.2.2) (Cert.RefRun.run_stages (F := Ideal) m ρ)

/-- Nothing is stated of the passage from words to extended reals. -/
theorem preserves : Cert.preserves_Kernel_KernelIdeal := trivial

/-- The five claims, under the witnesses of the side conditions the programs state. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Bridge.algebraic⟩

end Cert.Proof

end
